-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1024x128 .f32) (main_arg1 : FVec F S1024x1024 .f32) (main_arg2 : FVec F S128x128 .f32) (main_arg3 : FVec F S128 .f32) (main_arg4 : FVec F S128x64 .f32) (main_arg5 : FVec F S64 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S1024x64 : Shape := ⟨2, ![1024, 64]⟩
abbrev S128x1024 : Shape := ⟨2, ![128, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S1024x64, .f32⟩
  | .local _ .vmem, ⟨0, _⟩ => ⟨S1024x128, .f32⟩
  | .local _ .vmem, ⟨1, _⟩ => ⟨S128x1024, .f32⟩
  | .local _ .vmem, ⟨2, _⟩ => ⟨S128x1024, .f32⟩
  | .local _ .vmem, ⟨3, _⟩ => ⟨S1024x128, .f32⟩
  | .local _ .vmem, ⟨4, _⟩ => ⟨S1024x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S1024x64, .f32⟩
  | .local _ .vmem, ⟨10, _⟩ => ⟨S1024x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c128_i32_5 : BitVec 32 := 128#32
  let v17 : BitVec 32 := Scalar.muli arg0 c128_i32_5
  let v18 : Index := Scalar.indexCast v17
  let c0_6 : Index := 0#32
  ![v18.toNat, 0]
def k0_cond1 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32 : BitVec 32 := 0#32
  let v24 : BitVec 1 := Scalar.cmpi .ne v23 c0_i32
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S128_S1x128 : S128.ShapeCasts S1x128
  shapeCasts_S64_S1x64 : S64.ShapeCasts S1x64
  iota_S128x1024_d0_w32 : S128x1024.Iotas .tc 32 [0]
  iota_S128x1024_d1_w32 : S128x1024.Iotas .tc 32 [1]
  inb_S128x1024_S128x1024_0_0 : ∀ a, (![0, 0] : Fin 2 → Nat) a + S128x1024.size a ≤ S128x1024.size a
  h_S128x1024 : 0 < S128x1024.numel
  inb_S1024x128_S1024x128_0_0 : ∀ a, (![0, 0] : Fin 2 → Nat) a + S1024x128.size a ≤ S1024x128.size a
  h_S1024x128 : 0 < S1024x128.numel
  transposes_S1024x128_p1_0_S128x1024 : S1024x128.Transposes [1, 0] S128x1024
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  reduces_S1024x1024_S1024_2 : S1024x1024.Reduces [1] S1024
  shapeCasts_S1024_S1024x1 : S1024.ShapeCasts S1024x1
  broadcasts_S1x1024_S1024x1024 : S1x1024.Broadcasts S1024x1024
  broadcasts_S1024x1_S1024x1024 : S1024x1.Broadcasts S1024x1024
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  hrank0 : 0 < grid0.rank
  k0_off1_inb : ∀ i : grid0.Coords, ∀ a, (k0_off1 i) a + S128x1024.size a ≤ S1024x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .f32 = 32 ∨ (Rect.block (s := S1024x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x1024.size a
  hwx0_2 : ∀ i : grid0.Coords, EltTy.bits .f32 = 32 ∨ (Rect.block (s := S1024x1024) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1048576 : Shape := ⟨1, ![1048576]⟩
abbrev S1048576x1 : Shape := ⟨2, ![1048576, 1]⟩
abbrev S1x1048576 : Shape := ⟨2, ![1, 1048576]⟩
abbrev S2x1048576 : Shape := ⟨2, ![2, 1048576]⟩
abbrev S1048576x2 : Shape := ⟨2, ![1048576, 2]⟩
abbrev S1024 : Shape := ⟨1, ![1024]⟩
abbrev S1 : Shape := ⟨1, ![1]⟩
abbrev S1x1 : Shape := ⟨2, ![1, 1]⟩
abbrev S1048576x128 : Shape := ⟨2, ![1048576, 128]⟩
abbrev S1x128 : Shape := ⟨2, ![1, 128]⟩
abbrev S1024x64 : Shape := ⟨2, ![1024, 64]⟩
abbrev S1048576x64 : Shape := ⟨2, ![1048576, 64]⟩
abbrev S1x64 : Shape := ⟨2, ![1, 64]⟩

abbrev nBuf : Space → Nat
  | .hbm => 349
  | .vmem => 0
  | .smem => 0
  | _ => 0

abbrev hbmTy0_0 (i : Nat) : BufTy := match i % 128 with
  | 0 => ⟨S1024x128, .f32⟩
  | 1 => ⟨S1024x1024, .f32⟩
  | 2 => ⟨S128x128, .f32⟩
  | 3 => ⟨S128, .f32⟩
  | 4 => ⟨S128x64, .f32⟩
  | 5 => ⟨S64, .f32⟩
  | 6 => ⟨S1024x1024, .i32⟩
  | 7 => ⟨S1024x1024, .i32⟩
  | 8 => ⟨S_, .i32⟩
  | 9 => ⟨S1024x1024, .i32⟩
  | 10 => ⟨S1024x1024, .i32⟩
  | 11 => ⟨S1024x1024, .i1⟩
  | 12 => ⟨S1024x1024, .f32⟩
  | 13 => ⟨S1024x1024, .f32⟩
  | 14 => ⟨S1024x1024, .f32⟩
  | 15 => ⟨S1024x1024, .f32⟩
  | 16 => ⟨S_, .f32⟩
  | 17 => ⟨S1024x1024, .f32⟩
  | 18 => ⟨S1024x1024, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .i1⟩
  | 30 => ⟨S1048576, .i1⟩
  | 31 => ⟨S1048576, .i32⟩
  | 32 => ⟨S_, .i32⟩
  | 33 => ⟨S_, .i32⟩
  | 34 => ⟨S1048576, .i32⟩
  | 35 => ⟨S_, .i32⟩
  | 36 => ⟨S1048576, .i32⟩
  | 37 => ⟨S_, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S1048576x1, .i32⟩
  | 49 => ⟨S_, .i32⟩
  | 50 => ⟨S1048576, .i32⟩
  | 51 => ⟨S1048576, .i32⟩
  | 52 => ⟨S_, .i32⟩
  | 53 => ⟨S_, .i32⟩
  | 54 => ⟨S1048576, .i32⟩
  | 55 => ⟨S_, .i32⟩
  | 56 => ⟨S1048576, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S1048576, .i32⟩
  | 63 => ⟨S1048576, .i32⟩
  | 64 => ⟨S_, .i32⟩
  | 65 => ⟨S1048576, .i32⟩
  | 66 => ⟨S1048576, .i1⟩
  | 67 => ⟨S1048576, .i1⟩
  | 68 => ⟨S_, .i32⟩
  | 69 => ⟨S1048576, .i32⟩
  | 70 => ⟨S1048576, .i32⟩
  | 71 => ⟨S1048576, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1048576, .i32⟩
  | 79 => ⟨S1048576, .i32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i1⟩
  | 86 => ⟨S_, .i32⟩
  | 87 => ⟨S_, .i1⟩
  | 88 => ⟨S1048576, .i1⟩
  | 89 => ⟨S1048576, .i1⟩
  | 90 => ⟨S1048576, .i1⟩
  | 91 => ⟨S1048576, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S1048576, .i32⟩
  | 102 => ⟨S1048576, .i32⟩
  | 103 => ⟨S_, .i32⟩
  | 104 => ⟨S1048576, .i32⟩
  | 105 => ⟨S1048576, .i1⟩
  | 106 => ⟨S1048576, .i1⟩
  | 107 => ⟨S_, .i32⟩
  | 108 => ⟨S1048576, .i32⟩
  | 109 => ⟨S1048576, .i32⟩
  | 110 => ⟨S1048576, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i1⟩
  | 125 => ⟨S_, .i32⟩
  | 126 => ⟨S_, .i1⟩
  | 127 => ⟨S1048576, .i1⟩
  | _ => ⟨S1024x128, .f32⟩

abbrev hbmTy0_1 (i : Nat) : BufTy := match i % 128 with
  | 0 => ⟨S1048576, .i1⟩
  | 1 => ⟨S1048576, .i1⟩
  | 2 => ⟨S1048576, .i32⟩
  | 3 => ⟨S1048576, .i32⟩
  | 4 => ⟨S1048576, .i32⟩
  | 5 => ⟨S1048576, .i32⟩
  | 6 => ⟨S1024x1024, .i32⟩
  | 7 => ⟨S_, .i32⟩
  | 8 => ⟨S_, .i32⟩
  | 9 => ⟨S1048576, .i32⟩
  | 10 => ⟨S1048576, .i1⟩
  | 11 => ⟨S_, .i32⟩
  | 12 => ⟨S_, .i32⟩
  | 13 => ⟨S1048576, .i32⟩
  | 14 => ⟨S1048576, .i32⟩
  | 15 => ⟨S_, .i32⟩
  | 16 => ⟨S_, .i32⟩
  | 17 => ⟨S1048576, .i32⟩
  | 18 => ⟨S1048576, .i32⟩
  | 19 => ⟨S1x1048576, .i32⟩
  | 20 => ⟨S1x1048576, .i32⟩
  | 21 => ⟨S2x1048576, .i32⟩
  | 22 => ⟨S1x1048576, .i32⟩
  | 23 => ⟨S1048576, .i32⟩
  | 24 => ⟨S1x1048576, .i32⟩
  | 25 => ⟨S1048576, .i32⟩
  | 26 => ⟨S_, .i32⟩
  | 27 => ⟨S1048576, .i32⟩
  | 28 => ⟨S1048576, .i1⟩
  | 29 => ⟨S_, .i32⟩
  | 30 => ⟨S1048576, .i32⟩
  | 31 => ⟨S1048576, .i32⟩
  | 32 => ⟨S1048576, .i32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S1048576x1, .i32⟩
  | 41 => ⟨S1048576x1, .i32⟩
  | 42 => ⟨S1048576x2, .i32⟩
  | 43 => ⟨S1048576, .f32⟩
  | 44 => ⟨S1x1048576, .i32⟩
  | 45 => ⟨S1048576, .i32⟩
  | 46 => ⟨S1x1048576, .i32⟩
  | 47 => ⟨S1048576, .i32⟩
  | 48 => ⟨S_, .f32⟩
  | 49 => ⟨S1024, .f32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S1048576x1, .i32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .i1⟩
  | 66 => ⟨S_, .f32⟩
  | 67 => ⟨S_, .f32⟩
  | 68 => ⟨S1024, .f32⟩
  | 69 => ⟨S1024, .f32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S1048576x1, .i32⟩
  | 78 => ⟨S1048576, .f32⟩
  | 79 => ⟨S1048576, .f32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S1048576, .f32⟩
  | 89 => ⟨S1048576, .f32⟩
  | 90 => ⟨S1024x128, .f32⟩
  | 91 => ⟨S1048576x1, .f32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S1048576x1, .i32⟩
  | 100 => ⟨S1, .i32⟩
  | 101 => ⟨S_, .i32⟩
  | 102 => ⟨S1048576x1, .i32⟩
  | 103 => ⟨S1048576x1, .i1⟩
  | 104 => ⟨S1x1, .i32⟩
  | 105 => ⟨S1048576x1, .i32⟩
  | 106 => ⟨S1048576x1, .i1⟩
  | 107 => ⟨S1048576x1, .i1⟩
  | 108 => ⟨S_, .i1⟩
  | 109 => ⟨S1048576, .i1⟩
  | 110 => ⟨S1048576x128, .f32⟩
  | 111 => ⟨S1048576x128, .i1⟩
  | 112 => ⟨S_, .f32⟩
  | 113 => ⟨S1048576x128, .f32⟩
  | 114 => ⟨S1048576x128, .f32⟩
  | 115 => ⟨S1048576x128, .f32⟩
  | 116 => ⟨S1048576x128, .f32⟩
  | 117 => ⟨S_, .f32⟩
  | 118 => ⟨S1024x128, .f32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1024x128, .f32⟩
  | _ => ⟨S1024x128, .f32⟩

abbrev hbmTy0_2 (i : Nat) : BufTy := match i % 128 with
  | 0 => ⟨S1x128, .f32⟩
  | 1 => ⟨S1024x128, .f32⟩
  | 2 => ⟨S1024x128, .f32⟩
  | 3 => ⟨S_, .f32⟩
  | 4 => ⟨S1024x128, .f32⟩
  | 5 => ⟨S1024x128, .f32⟩
  | 6 => ⟨S1x1048576, .i32⟩
  | 7 => ⟨S1048576, .i32⟩
  | 8 => ⟨S1x1048576, .i32⟩
  | 9 => ⟨S1048576, .i32⟩
  | 10 => ⟨S_, .f32⟩
  | 11 => ⟨S1024, .f32⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i32⟩
  | 18 => ⟨S1048576, .i32⟩
  | 19 => ⟨S1048576x1, .i32⟩
  | 20 => ⟨S1024, .f32⟩
  | 21 => ⟨S_, .f32⟩
  | 22 => ⟨S1024, .f32⟩
  | 23 => ⟨S1024, .f32⟩
  | 24 => ⟨S1024, .f32⟩
  | 25 => ⟨S_, .f32⟩
  | 26 => ⟨S1024, .f32⟩
  | 27 => ⟨S1024, .i1⟩
  | 28 => ⟨S_, .f32⟩
  | 29 => ⟨S_, .f32⟩
  | 30 => ⟨S1024, .f32⟩
  | 31 => ⟨S1024, .f32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576, .f32⟩
  | 41 => ⟨S1048576, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1048576, .f32⟩
  | 51 => ⟨S1048576, .f32⟩
  | 52 => ⟨S1024x64, .f32⟩
  | 53 => ⟨S1048576x1, .f32⟩
  | 54 => ⟨S_, .i32⟩
  | 55 => ⟨S1048576, .i32⟩
  | 56 => ⟨S1048576, .i1⟩
  | 57 => ⟨S_, .i32⟩
  | 58 => ⟨S1048576, .i32⟩
  | 59 => ⟨S1048576, .i32⟩
  | 60 => ⟨S1048576, .i32⟩
  | 61 => ⟨S1048576x1, .i32⟩
  | 62 => ⟨S1, .i32⟩
  | 63 => ⟨S_, .i32⟩
  | 64 => ⟨S1048576x1, .i32⟩
  | 65 => ⟨S1048576x1, .i1⟩
  | 66 => ⟨S1x1, .i32⟩
  | 67 => ⟨S1048576x1, .i32⟩
  | 68 => ⟨S1048576x1, .i1⟩
  | 69 => ⟨S1048576x1, .i1⟩
  | 70 => ⟨S_, .i1⟩
  | 71 => ⟨S1048576, .i1⟩
  | 72 => ⟨S1048576x64, .f32⟩
  | 73 => ⟨S1048576x64, .i1⟩
  | 74 => ⟨S_, .f32⟩
  | 75 => ⟨S1048576x64, .f32⟩
  | 76 => ⟨S1048576x64, .f32⟩
  | 77 => ⟨S1048576x64, .f32⟩
  | 78 => ⟨S1048576x64, .f32⟩
  | 79 => ⟨S_, .f32⟩
  | 80 => ⟨S1024x64, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S1048576x1, .i32⟩
  | 89 => ⟨S1024x64, .f32⟩
  | 90 => ⟨S1x64, .f32⟩
  | 91 => ⟨S1024x64, .f32⟩
  | 92 => ⟨S1024x64, .f32⟩
  | _ => ⟨S1024x128, .f32⟩

abbrev hbmTy (i : Nat) : BufTy := match i / 128 with
  | 0 => hbmTy0_0 i
  | 1 => hbmTy0_1 i
  | 2 => hbmTy0_2 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_call0_c : Ref sig .tc := ⟨.hbm, 32, rfl⟩
abbrev main_call0_call0_v0 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_call2_call0_c : Ref sig .tc := ⟨.hbm, 52, rfl⟩
abbrev main_call2_call0_v0 : Ref sig .tc := ⟨.hbm, 53, rfl⟩
abbrev main_v30 : Ref sig .tc := ⟨.hbm, 54, rfl⟩
abbrev main_c_8 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_c : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_c_0 : Ref sig .tc := ⟨.hbm, 68, rfl⟩
abbrev main_call3_v11 : Ref sig .tc := ⟨.hbm, 69, rfl⟩
abbrev main_call3_v12 : Ref sig .tc := ⟨.hbm, 70, rfl⟩
abbrev main_v31 : Ref sig .tc := ⟨.hbm, 71, rfl⟩
abbrev main_c_9 : Ref sig .tc := ⟨.hbm, 72, rfl⟩
abbrev main_call4_v0 : Ref sig .tc := ⟨.hbm, 73, rfl⟩
abbrev main_call4_c : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_c_1 : Ref sig .tc := ⟨.hbm, 80, rfl⟩
abbrev main_call4_v5 : Ref sig .tc := ⟨.hbm, 81, rfl⟩
abbrev main_call4_v6 : Ref sig .tc := ⟨.hbm, 82, rfl⟩
abbrev main_call4_c_2 : Ref sig .tc := ⟨.hbm, 83, rfl⟩
abbrev main_call4_v7 : Ref sig .tc := ⟨.hbm, 84, rfl⟩
abbrev main_call4_v8 : Ref sig .tc := ⟨.hbm, 85, rfl⟩
abbrev main_call4_c_3 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_v32 : Ref sig .tc := ⟨.hbm, 93, rfl⟩
abbrev main_c_10 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_v5 : Ref sig .tc := ⟨.hbm, 100, rfl⟩
abbrev main_call5_v6 : Ref sig .tc := ⟨.hbm, 101, rfl⟩
abbrev main_call5_v7 : Ref sig .tc := ⟨.hbm, 102, rfl⟩
abbrev main_call5_c : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_c_0 : Ref sig .tc := ⟨.hbm, 107, rfl⟩
abbrev main_call5_v11 : Ref sig .tc := ⟨.hbm, 108, rfl⟩
abbrev main_call5_v12 : Ref sig .tc := ⟨.hbm, 109, rfl⟩
abbrev main_v33 : Ref sig .tc := ⟨.hbm, 110, rfl⟩
abbrev main_c_11 : Ref sig .tc := ⟨.hbm, 111, rfl⟩
abbrev main_call6_v0 : Ref sig .tc := ⟨.hbm, 112, rfl⟩
abbrev main_call6_c : Ref sig .tc := ⟨.hbm, 113, rfl⟩
abbrev main_call6_v1 : Ref sig .tc := ⟨.hbm, 114, rfl⟩
abbrev main_call6_c_0 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_c_1 : Ref sig .tc := ⟨.hbm, 119, rfl⟩
abbrev main_call6_v5 : Ref sig .tc := ⟨.hbm, 120, rfl⟩
abbrev main_call6_v6 : Ref sig .tc := ⟨.hbm, 121, rfl⟩
abbrev main_call6_c_2 : Ref sig .tc := ⟨.hbm, 122, rfl⟩
abbrev main_call6_v7 : Ref sig .tc := ⟨.hbm, 123, rfl⟩
abbrev main_call6_v8 : Ref sig .tc := ⟨.hbm, 124, rfl⟩
abbrev main_call6_c_3 : Ref sig .tc := ⟨.hbm, 125, rfl⟩
abbrev main_call6_v9 : Ref sig .tc := ⟨.hbm, 126, rfl⟩
abbrev main_call6_v10 : Ref sig .tc := ⟨.hbm, 127, rfl⟩
abbrev main_call6_v11 : Ref sig .tc := ⟨.hbm, 128, rfl⟩
abbrev main_call6_v12 : Ref sig .tc := ⟨.hbm, 129, rfl⟩
abbrev main_call6_v13 : Ref sig .tc := ⟨.hbm, 130, rfl⟩
abbrev main_call6_v14 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_c_12 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_c_13 : Ref sig .tc := ⟨.hbm, 139, rfl⟩
abbrev main_call7_v0 : Ref sig .tc := ⟨.hbm, 140, rfl⟩
abbrev main_call7_v1 : Ref sig .tc := ⟨.hbm, 141, rfl⟩
abbrev main_v40 : Ref sig .tc := ⟨.hbm, 142, rfl⟩
abbrev main_c_14 : Ref sig .tc := ⟨.hbm, 143, rfl⟩
abbrev main_call8_v0 : Ref sig .tc := ⟨.hbm, 144, rfl⟩
abbrev main_call8_v1 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_c_15 : Ref sig .tc := ⟨.hbm, 154, rfl⟩
abbrev main_v49 : Ref sig .tc := ⟨.hbm, 155, rfl⟩
abbrev main_v50 : Ref sig .tc := ⟨.hbm, 156, rfl⟩
abbrev main_c_16 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_c_17 : Ref sig .tc := ⟨.hbm, 161, rfl⟩
abbrev main_v54 : Ref sig .tc := ⟨.hbm, 162, rfl⟩
abbrev main_v55 : Ref sig .tc := ⟨.hbm, 163, rfl⟩
abbrev main_c_18 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_cst_19 : Ref sig .tc := ⟨.hbm, 176, rfl⟩
abbrev main_v67 : Ref sig .tc := ⟨.hbm, 177, rfl⟩
abbrev main_c_20 : Ref sig .tc := ⟨.hbm, 178, rfl⟩
abbrev main_v68 : Ref sig .tc := ⟨.hbm, 179, rfl⟩
abbrev main_v69 : Ref sig .tc := ⟨.hbm, 180, rfl⟩
abbrev main_c_21 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_cst_22 : Ref sig .tc := ⟨.hbm, 187, rfl⟩
abbrev main_v75 : Ref sig .tc := ⟨.hbm, 188, rfl⟩
abbrev main_v76 : Ref sig .tc := ⟨.hbm, 189, rfl⟩
abbrev main_call9_v0 : Ref sig .tc := ⟨.hbm, 190, rfl⟩
abbrev main_call9_cst : Ref sig .tc := ⟨.hbm, 191, rfl⟩
abbrev main_call9_v1 : Ref sig .tc := ⟨.hbm, 192, rfl⟩
abbrev main_v77 : Ref sig .tc := ⟨.hbm, 193, rfl⟩
abbrev main_cst_23 : Ref sig .tc := ⟨.hbm, 194, rfl⟩
abbrev main_call10_v0 : Ref sig .tc := ⟨.hbm, 195, rfl⟩
abbrev main_call10_v1 : Ref sig .tc := ⟨.hbm, 196, rfl⟩
abbrev main_v78 : Ref sig .tc := ⟨.hbm, 197, rfl⟩
abbrev main_c_24 : Ref sig .tc := ⟨.hbm, 198, rfl⟩
abbrev main_v79 : Ref sig .tc := ⟨.hbm, 199, rfl⟩
abbrev main_v80 : Ref sig .tc := ⟨.hbm, 200, rfl⟩
abbrev main_c_25 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_c_26 : Ref sig .tc := ⟨.hbm, 208, rfl⟩
abbrev main_v87 : Ref sig .tc := ⟨.hbm, 209, rfl⟩
abbrev main_v88 : Ref sig .tc := ⟨.hbm, 210, rfl⟩
abbrev main_c_27 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_call11_c : Ref sig .tc := ⟨.hbm, 220, rfl⟩
abbrev main_call11_v0 : Ref sig .tc := ⟨.hbm, 221, rfl⟩
abbrev main_call11_v1 : Ref sig .tc := ⟨.hbm, 222, rfl⟩
abbrev main_call11_c_0 : Ref sig .tc := ⟨.hbm, 223, rfl⟩
abbrev main_call11_v2 : Ref sig .tc := ⟨.hbm, 224, rfl⟩
abbrev main_call11_v3 : Ref sig .tc := ⟨.hbm, 225, rfl⟩
abbrev main_call11_v4 : Ref sig .tc := ⟨.hbm, 226, rfl⟩
abbrev main_call11_v5 : Ref sig .tc := ⟨.hbm, 227, rfl⟩
abbrev main_call11_c_1 : Ref sig .tc := ⟨.hbm, 228, rfl⟩
abbrev main_call11_c_2 : Ref sig .tc := ⟨.hbm, 229, rfl⟩
abbrev main_call11_v6 : Ref sig .tc := ⟨.hbm, 230, rfl⟩
abbrev main_call11_v7 : Ref sig .tc := ⟨.hbm, 231, rfl⟩
abbrev main_call11_v8 : Ref sig .tc := ⟨.hbm, 232, rfl⟩
abbrev main_call11_v9 : Ref sig .tc := ⟨.hbm, 233, rfl⟩
abbrev main_call11_v10 : Ref sig .tc := ⟨.hbm, 234, rfl⟩
abbrev main_call11_v11 : Ref sig .tc := ⟨.hbm, 235, rfl⟩
abbrev main_call11_c_3 : Ref sig .tc := ⟨.hbm, 236, rfl⟩
abbrev main_call11_v12 : Ref sig .tc := ⟨.hbm, 237, rfl⟩
abbrev main_call11_v13 : Ref sig .tc := ⟨.hbm, 238, rfl⟩
abbrev main_call11_v14 : Ref sig .tc := ⟨.hbm, 239, rfl⟩
abbrev main_call11_cst : Ref sig .tc := ⟨.hbm, 240, rfl⟩
abbrev main_call11_v15 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_cst_28 : Ref sig .tc := ⟨.hbm, 245, rfl⟩
abbrev main_v100 : Ref sig .tc := ⟨.hbm, 246, rfl⟩
abbrev main_c_29 : Ref sig .tc := ⟨.hbm, 247, rfl⟩
abbrev main_v101 : Ref sig .tc := ⟨.hbm, 248, rfl⟩
abbrev main_v102 : Ref sig .tc := ⟨.hbm, 249, rfl⟩
abbrev main_c_30 : Ref sig .tc := ⟨.hbm, 250, rfl⟩
abbrev main_v103 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_v107 : Ref sig .tc := ⟨.hbm, 255, rfl⟩
abbrev main_v108 : Ref sig .tc := ⟨.hbm, 256, rfl⟩
abbrev main_v109 : Ref sig .tc := ⟨.hbm, 257, rfl⟩
abbrev main_v110 : Ref sig .tc := ⟨.hbm, 258, rfl⟩
abbrev main_call12_cst : Ref sig .tc := ⟨.hbm, 259, rfl⟩
abbrev main_call12_v0 : Ref sig .tc := ⟨.hbm, 260, rfl⟩
abbrev main_v111 : Ref sig .tc := ⟨.hbm, 261, rfl⟩
abbrev main_v112 : Ref sig .tc := ⟨.hbm, 262, rfl⟩
abbrev main_v113 : Ref sig .tc := ⟨.hbm, 263, rfl⟩
abbrev main_v114 : Ref sig .tc := ⟨.hbm, 264, rfl⟩
abbrev main_v115 : Ref sig .tc := ⟨.hbm, 265, rfl⟩
abbrev main_cst_31 : Ref sig .tc := ⟨.hbm, 266, rfl⟩
abbrev main_v116 : Ref sig .tc := ⟨.hbm, 267, rfl⟩
abbrev main_c_32 : Ref sig .tc := ⟨.hbm, 268, rfl⟩
abbrev main_v117 : Ref sig .tc := ⟨.hbm, 269, rfl⟩
abbrev main_v118 : Ref sig .tc := ⟨.hbm, 270, rfl⟩
abbrev main_c_33 : Ref sig .tc := ⟨.hbm, 271, rfl⟩
abbrev main_v119 : Ref sig .tc := ⟨.hbm, 272, rfl⟩
abbrev main_v120 : Ref sig .tc := ⟨.hbm, 273, rfl⟩
abbrev main_v121 : Ref sig .tc := ⟨.hbm, 274, rfl⟩
abbrev main_v122 : Ref sig .tc := ⟨.hbm, 275, rfl⟩
abbrev main_v123 : Ref sig .tc := ⟨.hbm, 276, rfl⟩
abbrev main_cst_34 : Ref sig .tc := ⟨.hbm, 277, rfl⟩
abbrev main_v124 : Ref sig .tc := ⟨.hbm, 278, rfl⟩
abbrev main_v125 : Ref sig .tc := ⟨.hbm, 279, rfl⟩
abbrev main_call13_v0 : Ref sig .tc := ⟨.hbm, 280, rfl⟩
abbrev main_call13_cst : Ref sig .tc := ⟨.hbm, 281, rfl⟩
abbrev main_call13_v1 : Ref sig .tc := ⟨.hbm, 282, rfl⟩
abbrev main_v126 : Ref sig .tc := ⟨.hbm, 283, rfl⟩
abbrev main_cst_35 : Ref sig .tc := ⟨.hbm, 284, rfl⟩
abbrev main_call14_v0 : Ref sig .tc := ⟨.hbm, 285, rfl⟩
abbrev main_call14_v1 : Ref sig .tc := ⟨.hbm, 286, rfl⟩
abbrev main_v127 : Ref sig .tc := ⟨.hbm, 287, rfl⟩
abbrev main_c_36 : Ref sig .tc := ⟨.hbm, 288, rfl⟩
abbrev main_v128 : Ref sig .tc := ⟨.hbm, 289, rfl⟩
abbrev main_v129 : Ref sig .tc := ⟨.hbm, 290, rfl⟩
abbrev main_c_37 : Ref sig .tc := ⟨.hbm, 291, rfl⟩
abbrev main_v130 : Ref sig .tc := ⟨.hbm, 292, rfl⟩
abbrev main_v131 : Ref sig .tc := ⟨.hbm, 293, rfl⟩
abbrev main_v132 : Ref sig .tc := ⟨.hbm, 294, rfl⟩
abbrev main_v133 : Ref sig .tc := ⟨.hbm, 295, rfl⟩
abbrev main_v134 : Ref sig .tc := ⟨.hbm, 296, rfl⟩
abbrev main_v135 : Ref sig .tc := ⟨.hbm, 297, rfl⟩
abbrev main_c_38 : Ref sig .tc := ⟨.hbm, 298, rfl⟩
abbrev main_v136 : Ref sig .tc := ⟨.hbm, 299, rfl⟩
abbrev main_v137 : Ref sig .tc := ⟨.hbm, 300, rfl⟩
abbrev main_c_39 : Ref sig .tc := ⟨.hbm, 301, rfl⟩
abbrev main_v138 : Ref sig .tc := ⟨.hbm, 302, rfl⟩
abbrev main_v139 : Ref sig .tc := ⟨.hbm, 303, rfl⟩
abbrev main_v140 : Ref sig .tc := ⟨.hbm, 304, rfl⟩
abbrev main_v141 : Ref sig .tc := ⟨.hbm, 305, rfl⟩
abbrev main_v142 : Ref sig .tc := ⟨.hbm, 306, rfl⟩
abbrev main_v143 : Ref sig .tc := ⟨.hbm, 307, rfl⟩
abbrev main_v144 : Ref sig .tc := ⟨.hbm, 308, rfl⟩
abbrev main_v145 : Ref sig .tc := ⟨.hbm, 309, rfl⟩
abbrev main_call15_c : Ref sig .tc := ⟨.hbm, 310, rfl⟩
abbrev main_call15_v0 : Ref sig .tc := ⟨.hbm, 311, rfl⟩
abbrev main_call15_v1 : Ref sig .tc := ⟨.hbm, 312, rfl⟩
abbrev main_call15_c_0 : Ref sig .tc := ⟨.hbm, 313, rfl⟩
abbrev main_call15_v2 : Ref sig .tc := ⟨.hbm, 314, rfl⟩
abbrev main_call15_v3 : Ref sig .tc := ⟨.hbm, 315, rfl⟩
abbrev main_call15_v4 : Ref sig .tc := ⟨.hbm, 316, rfl⟩
abbrev main_call15_v5 : Ref sig .tc := ⟨.hbm, 317, rfl⟩
abbrev main_call15_c_1 : Ref sig .tc := ⟨.hbm, 318, rfl⟩
abbrev main_call15_c_2 : Ref sig .tc := ⟨.hbm, 319, rfl⟩
abbrev main_call15_v6 : Ref sig .tc := ⟨.hbm, 320, rfl⟩
abbrev main_call15_v7 : Ref sig .tc := ⟨.hbm, 321, rfl⟩
abbrev main_call15_v8 : Ref sig .tc := ⟨.hbm, 322, rfl⟩
abbrev main_call15_v9 : Ref sig .tc := ⟨.hbm, 323, rfl⟩
abbrev main_call15_v10 : Ref sig .tc := ⟨.hbm, 324, rfl⟩
abbrev main_call15_v11 : Ref sig .tc := ⟨.hbm, 325, rfl⟩
abbrev main_call15_c_3 : Ref sig .tc := ⟨.hbm, 326, rfl⟩
abbrev main_call15_v12 : Ref sig .tc := ⟨.hbm, 327, rfl⟩
abbrev main_call15_v13 : Ref sig .tc := ⟨.hbm, 328, rfl⟩
abbrev main_call15_v14 : Ref sig .tc := ⟨.hbm, 329, rfl⟩
abbrev main_call15_cst : Ref sig .tc := ⟨.hbm, 330, rfl⟩
abbrev main_call15_v15 : Ref sig .tc := ⟨.hbm, 331, rfl⟩
abbrev main_v146 : Ref sig .tc := ⟨.hbm, 332, rfl⟩
abbrev main_v147 : Ref sig .tc := ⟨.hbm, 333, rfl⟩
abbrev main_v148 : Ref sig .tc := ⟨.hbm, 334, rfl⟩
abbrev main_cst_40 : Ref sig .tc := ⟨.hbm, 335, rfl⟩
abbrev main_v149 : Ref sig .tc := ⟨.hbm, 336, rfl⟩
abbrev main_c_41 : Ref sig .tc := ⟨.hbm, 337, rfl⟩
abbrev main_v150 : Ref sig .tc := ⟨.hbm, 338, rfl⟩
abbrev main_v151 : Ref sig .tc := ⟨.hbm, 339, rfl⟩
abbrev main_c_42 : Ref sig .tc := ⟨.hbm, 340, rfl⟩
abbrev main_v152 : Ref sig .tc := ⟨.hbm, 341, rfl⟩
abbrev main_v153 : Ref sig .tc := ⟨.hbm, 342, rfl⟩
abbrev main_v154 : Ref sig .tc := ⟨.hbm, 343, rfl⟩
abbrev main_v155 : Ref sig .tc := ⟨.hbm, 344, rfl⟩
abbrev main_v156 : Ref sig .tc := ⟨.hbm, 345, rfl⟩
abbrev main_v157 : Ref sig .tc := ⟨.hbm, 346, rfl⟩
abbrev main_v158 : Ref sig .tc := ⟨.hbm, 347, rfl⟩
abbrev main_v159 : Ref sig .tc := ⟨.hbm, 348, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  transposes_S1024x1024_S1024x1024_1_0 : S1024x1024.Transposes [1, 0] S1024x1024
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576x1_S1048576x1_S1048576x2_d1 : Shape.Concatenates [S1048576x1, S1048576x1] S1048576x2 1
  bcast_S_S1024 : S_.BroadcastsInDim S1024 (![] : Fin 0 → Fin S1024.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  bcast_S1048576_S1048576x128_0 : S1048576.BroadcastsInDim S1048576x128 (![0] : Fin 1 → Fin S1048576x128.rank)
  bcast_S_S1048576x128 : S_.BroadcastsInDim S1048576x128 (![] : Fin 0 → Fin S1048576x128.rank)
  bcast_S1048576x1_S1048576x128_0_1 : S1048576x1.BroadcastsInDim S1048576x128 (![0, 1] : Fin 2 → Fin S1048576x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S1048576_S1048576x64_0 : S1048576.BroadcastsInDim S1048576x64 (![0] : Fin 1 → Fin S1048576x64.rank)
  bcast_S_S1048576x64 : S_.BroadcastsInDim S1048576x64 (![] : Fin 0 → Fin S1048576x64.rank)
  bcast_S1048576x1_S1048576x64_0_1 : S1048576x1.BroadcastsInDim S1048576x64 (![0, 1] : Fin 2 → Fin S1048576x64.rank)
  bcast_S_S1024x64 : S_.BroadcastsInDim S1024x64 (![] : Fin 0 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  scatter_S1048576_S1048576x1_S1048576_n_0_0_1_wf : ScatterDims.WF S1048576 S1048576x1 S1048576 [] [0] [0] 1
  gather_S1024x1024_S1048576x2_S1048576_n_01_n_n_01_1_11_wf : GatherDims.WF S1024x1024 S1048576x2 S1048576 [] [0, 1] [] [0, 1] [] 1 ![1, 1]
  scatter_S1024_S1048576x1_S1048576_n_0_0_1_wf : ScatterDims.WF S1024 S1048576x1 S1048576 [] [0] [0] 1
  gather_S1024_S1048576x1_S1048576_n_0_n_n_0_1_1_wf : GatherDims.WF S1024 S1048576x1 S1048576 [] [0] [] [0] [] 1 ![1]
  dot_S1024x128_S128x128_S1024x128_1_0_0_1_n_n_wf : DotDims.WF S1024x128 S128x128 S1024x128 [1] [0] [0] [1] [] []
  gather_S1024x128_S1048576x1_S1048576x128_1_0_n_n_0_1_1128_wf : GatherDims.WF S1024x128 S1048576x1 S1048576x128 [1] [0] [] [0] [] 1 ![1, 128]
  scatter_S1024x128_S1048576x1_S1048576x128_1_0_0_1_wf : ScatterDims.WF S1024x128 S1048576x1 S1048576x128 [1] [0] [0] 1
  dot_S1024x128_S128x64_S1024x64_1_0_0_1_n_n_wf : DotDims.WF S1024x128 S128x64 S1024x64 [1] [0] [0] [1] [] []
  gather_S1024x64_S1048576x1_S1048576x64_1_0_n_n_0_1_164_wf : GatherDims.WF S1024x64 S1048576x1 S1048576x64 [1] [0] [] [0] [] 1 ![1, 64]
  scatter_S1024x64_S1048576x1_S1048576x64_1_0_0_1_wf : ScatterDims.WF S1024x64 S1048576x1 S1048576x64 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def gather_S1024x1024_S1048576x2_S1048576_n_01_n_n_01_1_11 : GatherDims S1024x1024 S1048576x2 S1048576 where
  offsetDims := []
  collapsedSliceDims := [0, 1]
  operandBatchingDims := []
  startIndicesBatchingDims := []
  startIndexMap := [0, 1]
  indexVectorDim := 1
  sliceSizes := ![1, 1]
  wf := gather_S1024x1024_S1048576x2_S1048576_n_01_n_n_01_1_11_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def gather_S1024_S1048576x1_S1048576_n_0_n_n_0_1_1 : GatherDims S1024 S1048576x1 S1048576 where
  offsetDims := []
  collapsedSliceDims := [0]
  operandBatchingDims := []
  startIndicesBatchingDims := []
  startIndexMap := [0]
  indexVectorDim := 1
  sliceSizes := ![1]
  wf := gather_S1024_S1048576x1_S1048576_n_0_n_n_0_1_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S1024x64_S1048576x1_S1048576x64_1_0_n_n_0_1_164 : GatherDims S1024x64 S1048576x1 S1048576x64 where
  offsetDims := [1]
  collapsedSliceDims := [0]
  operandBatchingDims := []
  startIndicesBatchingDims := []
  startIndexMap := [0]
  indexVectorDim := 1
  sliceSizes := ![1, 64]
  wf := gather_S1024x64_S1048576x1_S1048576x64_1_0_n_n_0_1_164_wf
def scatter_S1024x64_S1048576x1_S1048576x64_1_0_0_1 : ScatterDims S1024x64 S1048576x1 S1048576x64 where
  updateWindowDims := [1]
  insertedWindowDims := [0]
  scatterDimsToOperandDims := [0]
  indexVectorDim := 1
  wf := scatter_S1024x64_S1048576x1_S1048576x64_1_0_0_1_wf

class Facts : Prop extends Facts₀ where

variable [Facts]
-- ==== Proof.KB.Kit.lean ====
/-
  What the frame of the one-region kernel program is stated over: the buffers' contents when the region is
  entered, each window's block at a grid point, the adjacency block by block as the scratch holds it once every point
  has stored its rows, the result the last point leaves, and the pipeline's proof data.

  The grid has 8 points. Point t loads rows [128 t, 128 t + 128) of P and columns [128 t, 128 t + 128) of P, stores
  rows [128 t, 128 t + 128) of A = σ(I + (P + Pᵀ)/2) into the 1024 × 1024 scratch, and at the last point reads the whole
  scratch and stores the two-layer result into the one output block.
-/
import proofs.«135578_g23476291240112_cont_8to1_1555_6_alg».proof.Proof.Gen.Kernel.Launch
import proofs.«135578_g23476291240112_cont_8to1_1555_6_alg».proof.Proof.Gen.Kernel.Skeleton
import proofs.«135578_g23476291240112_cont_8to1_1555_6_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: after the two reshapes of the biases. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid point that stores row r of the scratch. -/
def ptOf (r : Fin 1024) : Fin cfg0.N := ⟨r.val / 128, by have := r.isLt; show r.val / 128 < 8; omega⟩

/-- The adjacency as the scratch holds it after the last store: row r is row (r mod 128) of the block point (r / 128) computes
    from its row block and column block of P. -/
def Afull (c : Dev nD) : Vec F S1024x1024 .f32 := fun idx =>
  k0_pay1 (grid0.coords (ptOf (idx 0))) (iblk m c 1 (ptOf (idx 0))) (iblk m c 2 (ptOf (idx 0)))
    (ValueIdx.ix2 (⟨(idx 0).val % 128, Nat.mod_lt _ (by decide)⟩ : Fin 128) (idx 1))

/-- The first grid point (the windows fetched once are fetched there). -/
abbrev tFirst : Fin cfg0.N := ⟨0, by show 0 < 8; omega⟩

/-- What the last point stores into the output block: the two layers over the whole adjacency. -/
def outVal (c : Dev nD) : Vec F S1024x64 .f32 :=
  k0_pay2 (Afull m c) (iblk m c 0 tFirst) (iblk m c 3 tFirst) (iblk m c 4 tFirst) (iblk m c 5 tFirst) (iblk m c 6 tFirst)

/-- The scratch operand as a memref. -/
abbrev scM : Memref sig .tc .vmem S1024x1024 .f32 := Memref.whole cc0_scratch0

/-- The region's invariant before point n: the scratch holds some contents whose rows below 128 n are the adjacency's, and the
    generator register is at some state. -/
def PhiS (c : Dev nD) (n : ℕ) : sProp 𝕄 :=
  iprop((∃ X : Vec F S1024x1024 .f32, ⌜∀ idx : S1024x1024.Idx, (idx 0).val < 128 * n → X idx = Afull m c idx⌝ ∗ owns (c : Thread nD τ) scM fullShare X)
    ∗ (∃ r, prngReg c r))

/-- The pipeline's proof data on core c: the arrays as the region finds them; each input's buffer at its block after the
    body; the output's at the last point's result; the invariant PhiS; the two windows on P each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outVal m c
  Φ t := PhiS m c t.val
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

end Cert.Kernel.Hand

end
-- ==== Proof.KB.RunA.lean ====
/-
  The kernel body at a grid point where its conditional is not taken (points 0 to 6): what the row store leaves in the
  scratch, and the body's triple there.
-/
import proofs.«135578_g23476291240112_cont_8to1_1555_6_alg».proof.Proof.KB.Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition -/

/-- The body's one conditional is taken at the last grid point only. -/
theorem hcond : ∀ t : Fin cfg0.N, k0_cond1 (grid0.coords t) = 1#1 ↔ t.val = 7 :=
  (by decide +kernel : ∀ t : Fin grid0.N, k0_cond1 (grid0.coords t) = 1#1 ↔ t.val = 7)

/-! ## Loads and stores through a whole rank-2 buffer -/

/-- The offsets of a whole rank-2 access, as a function. -/
theorem hz2 : (![0, 0] : Fin 2 → ℕ) = fun _ => 0 := funext fun a => by fin_cases a <;> rfl

/-- A load through the rectangle at zero offsets of the buffer's own sizes reads the contents. -/
theorem readAt_zero {sg : RefSig} {κ : Kind} {sp : Space} {S : Shape} {e : EltTy} {Val : EltTy → Type} (v : View sg κ sp S e)
    {off : Fin S.rank → ℕ} (hz : off = fun _ => 0) (inb : ∀ a, off a + S.size a ≤ S.size a) (f : v.ty.Contents Val) :
    v.readAt Val (Rect.unit off S.size inb).toLoadRect f = v.read Val f := by
  rw [View.readAt_eq_ld, View.ld_unit_zero hz]

/-- One store through that rectangle, read back, is its payload. -/
theorem read_writes_zero {sg : RefSig} {κ : Kind} {sp : Space} {S : Shape} {e : EltTy} {Val : EltTy → Type} (v : View sg κ sp S e)
    {off : Fin S.rank → ℕ} (hz : off = fun _ => 0) (inb : ∀ a, off a + S.size a ≤ S.size a) (f : v.ty.Contents Val)
    (w : S.Idx → Val e) :
    v.read Val (v.writes Val f [(⟨Rect.unit off S.size inb, w⟩ : View.Piece Val S e)]) = w := by
  subst hz; exact View.read_writes_whole v f w

/-! ## The rows a point stores into the scratch -/

/-- The rectangle of the scratch point `i` stores: 128 whole rows from the row the kernel computes. -/
abbrev rowsRect (i : grid0.Coords) : Rect S1024x1024 :=
  Rect.unit (s := S1024x1024) (k0_off1 i) S128x1024.size (k0_off1_inb i)

/-- Contents `X'` are contents `X` with the rows of point `i` replaced by the block `w`: the same outside the
    rectangle, `w` at the local index inside. -/
def Stored (i : grid0.Coords) (w : Vec F S128x1024 .f32) (X X' : Vec F S1024x1024 .f32) : Prop :=
  (∀ y : S1024x1024.Idx, y ∉ (rowsRect i).set → X' y = X y) ∧ ∀ x : S128x1024.Idx, X' ((rowsRect i).emb x) = w x

/-- What a whole buffer holding `X` reads after one store of `w` through the rows' rectangle. -/
theorem stored_of_writes (M : Memref sig .tc .vmem S1024x1024 .f32) (hM : M.IsWhole) (i : grid0.Coords)
    (w : Vec F S128x1024 .f32) (X : Vec F S1024x1024 .f32) :
    Stored i w X (M.view.read (Elt F) (M.view.writes (Elt F) (hM.unread X) [(⟨rowsRect i, w⟩ : View.Piece (Elt F) S1024x1024 .f32)])) := by
  refine ⟨fun y hy => ?_, fun x => ?_⟩
  · rw [View.read_writes_apply_of_forall_not_mem _ _ y _ (fun p hp => by
      rw [List.mem_singleton] at hp; subst hp; exact hy)]
    exact congrFun (hM.read_unread X) y
  · exact View.read_writes_cons_emb _ _ (rowsRect i) w [] x

/-! ## The body where the condition is false -/

set_option maxHeartbeats 1000000 in
/-- At a point whose condition is false the body loads the row block `x1` and the column block `x2`, loads and stores the
    point's rows of the scratch, and returns: the two input buffers are handed back as they were and the scratch, held at
    `xs`, at `xs` with the point's rows replaced by the block the body computes from `x1` and `x2`. The other operands are
    not touched. -/
theorem runA (c : Dev nD) (i : grid0.Coords) (arg1 : Memref sig .tc .vmem S1024x128 .f32) (harg1 : arg1.IsWhole) (arg2 : Memref sig .tc .vmem S128x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x1024 .f32) (harg9 : arg9.IsWhole) (hc : ¬ k0_cond1 i = 1#1)
    (x1 : Vec F S128x1024 .f32) (x2 : Vec F S1024x128 .f32) (xs : Vec F S1024x1024 .f32) (E : Set ℕ) (K : PUnit → sProp 𝕄) :
    iprop(owns (c : Thread nD τ) arg2 fullShare x1 ∗ owns (c : Thread nD τ) arg3 fullShare x2 ∗ owns (c : Thread nD τ) arg9 fullShare xs
        ∗ (iprop(owns (c : Thread nD τ) arg2 fullShare x1 ∗ owns (c : Thread nD τ) arg3 fullShare x2
            ∗ (∃ X' : Vec F S1024x1024 .f32, ⌜Stored i (k0_pay1 i x1 x2) xs X'⌝ ∗ owns (c : Thread nD τ) arg9 fullShare X')) -∗ K ⟨⟩))
      ⊢ wp frame (wpE (defs₀ (F := F)) Variants.none c none) E (cc0__gcn_fused_kernel i arg1 harg1 arg2 harg2 arg3 harg3 arg4 harg4 arg5 harg5 arg6 harg6 arg7 harg7 arg8 harg8 arg9 harg9) K := by
  simp only [cc0__gcn_fused_kernel_eq_skeleton]; unfold cc0__gcn_fused_kernel_skel
  unfold owns
  iintro ⟨⟨%f2, %hf2, H2⟩, ⟨%f3, %hf3, H3⟩, ⟨%fs, %hfs, HS⟩, Hk⟩
  obtain rfl := harg2.eq_unread hf2; obtain rfl := harg3.eq_unread hf3; obtain rfl := harg9.eq_unread hfs
  sl_exec (disch := first | exact hc)
  sl_step
  simp only [readAt_zero (S := S128x1024) _ hz2, readAt_zero (S := S1024x128) _ hz2, Memref.IsWhole.read_unread]
  iapply Hk
  isplitl [H2]
  · iexists _; isplitr; · ipureintro; exact harg2.read_unread _
    iexact H2
  isplitl [H3]
  · iexists _; isplitr; · ipureintro; exact harg3.read_unread _
    iexact H3
  iexists _; isplitr; · ipureintro; exact stored_of_writes arg9 harg9 i (k0_pay1 i x1 x2) xs
  iexists _; isplitr; · ipureintro; rfl
  iexact HS

end Cert.Kernel.Hand

end
-- ==== Proof.KB.RunB.lean ====
/-
  The kernel body at the grid point where its conditional is taken (the last one): after the row store it reads the whole
  scratch and the other inputs and stores the result over the output's buffer.
-/
import proofs.«135578_g23476291240112_cont_8to1_1555_6_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point whose condition is true the body, after the row store, loads the whole scratch and the five other inputs,
    and stores the two-layer result over the output's whole buffer: every input buffer is handed back as it was, the
    scratch, held at `xs`, at `xs` with the point's rows replaced (`X'`), and the output's buffer, whatever it held, at the
    result computed from `X'` and the inputs. -/
theorem runB (c : Dev nD) (i : grid0.Coords) (arg1 : Memref sig .tc .vmem S1024x128 .f32) (harg1 : arg1.IsWhole) (arg2 : Memref sig .tc .vmem S128x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x1024 .f32) (harg9 : arg9.IsWhole) (hc : k0_cond1 i = 1#1)
    (x0 : Vec F S1024x128 .f32) (x1 : Vec F S128x1024 .f32) (x2 : Vec F S1024x128 .f32) (x3 : Vec F S128x128 .f32)
    (x4 : Vec F S1x128 .f32) (x5 : Vec F S128x64 .f32) (x6 : Vec F S1x64 .f32) (xs : Vec F S1024x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ X' : Vec F S1024x1024 .f32, ⌜Stored i (k0_pay1 i x1 x2) xs X'⌝
                ∗ owns (c : Thread nD τ) arg8 fullShare (k0_pay2 X' x0 x3 x4 x5 x6) ∗ owns (c : Thread nD τ) arg9 fullShare X')) -∗ K ⟨⟩))
      ⊢ wp frame (wpE (defs₀ (F := F)) Variants.none c none) E (cc0__gcn_fused_kernel i arg1 harg1 arg2 harg2 arg3 harg3 arg4 harg4 arg5 harg5 arg6 harg6 arg7 harg7 arg8 harg8 arg9 harg9) K := by
  simp only [cc0__gcn_fused_kernel_eq_skeleton]; unfold cc0__gcn_fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hfs
  sl_exec (disch := first | exact hc)
  sl_step
  sl_unfold_run_names
  simp only [readAt_zero (S := S128x1024) _ hz2, readAt_zero (S := S1024x128) _ hz2, readAt_zero (S := S128x128) _ hz2,
    readAt_zero (S := S1x128) _ hz2, readAt_zero (S := S128x64) _ hz2, readAt_zero (S := S1x64) _ hz2,
    readAt_zero (S := S1024x1024) _ hz2, Memref.IsWhole.read_unread]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; · ipureintro; exact stored_of_writes arg9 harg9 i (k0_pay1 i x1 x2) xs
  isplitl [H8]
  · iexists _; isplitr; swap; · iexact H8
    ipureintro; exact read_writes_zero _ hz2 _ _ _
  iexists _; isplitr; · ipureintro; rfl
  iexact HS

end Cert.Kernel.Hand

end
-- ==== Proof.KB.Body.lean ====
/-
  The body obligation of the one-region kernel program over the proof data of the frame: the inputs' staging buffers hold
  their blocks at every point, the scratch's rows below 128 t are the adjacency's before point t, and the output's buffer
  is left alone until the last point stores the result.
-/
import proofs.«135578_g23476291240112_cont_8to1_1555_6_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data, projected -/

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outVal m c := by dsimp only [dats]

/-- The invariant before a point and after it, at the point's number. -/
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-! ## The inputs' staging buffers hold their blocks -/

/-- A fetch of an input window at a point puts the window's block there into the buffer: no input window is cut. -/
theorem fetched_0 (c : Dev nD) (t : Fin cfg0.N) (d) : (dats m 0 c).fetched 0 t d = iblk m c 0 t := by
  unfold Dat.fetched Dat.blockOf iblk; rw [A_eq]; try rfl
theorem fetched_1 (c : Dev nD) (t : Fin cfg0.N) (d) : (dats m 0 c).fetched 1 t d = iblk m c 1 t := by
  unfold Dat.fetched Dat.blockOf iblk; rw [A_eq]; try rfl
theorem fetched_2 (c : Dev nD) (t : Fin cfg0.N) (d) : (dats m 0 c).fetched 2 t d = iblk m c 2 t := by
  unfold Dat.fetched Dat.blockOf iblk; rw [A_eq]; try rfl
theorem fetched_3 (c : Dev nD) (t : Fin cfg0.N) (d) : (dats m 0 c).fetched 3 t d = iblk m c 3 t := by
  unfold Dat.fetched Dat.blockOf iblk; rw [A_eq]; try rfl
theorem fetched_4 (c : Dev nD) (t : Fin cfg0.N) (d) : (dats m 0 c).fetched 4 t d = iblk m c 4 t := by
  unfold Dat.fetched Dat.blockOf iblk; rw [A_eq]; try rfl
theorem fetched_5 (c : Dev nD) (t : Fin cfg0.N) (d) : (dats m 0 c).fetched 5 t d = iblk m c 5 t := by
  unfold Dat.fetched Dat.blockOf iblk; rw [A_eq]; try rfl
theorem fetched_6 (c : Dev nD) (t : Fin cfg0.N) (d) : (dats m 0 c).fetched 6 t d = iblk m c 6 t := by
  unfold Dat.fetched Dat.blockOf iblk; rw [A_eq]; try rfl

/-- Each input's current staging buffer holds its block at every point, fetched there or not: the body leaves the block in
    place, and an unfetched point has the block index of the point before. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (fetched_0 m c t d)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (fetched_1 m c t d)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (fetched_2 m c t d)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (fetched_3 m c t d)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (fetched_4 m c t d)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans (fetched_5 m c t d)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans (fetched_6 m c t d)

/-! ## The windows fetched once: one block for every point -/

theorem index_0 : ∀ t : Fin cfg0.N, (cfg0.win 0).index t = (cfg0.win 0).index tFirst :=
  (by decide +kernel : ∀ t : Fin grid0.N, win0_0.index t = win0_0.index tFirst)
theorem index_3 : ∀ t : Fin cfg0.N, (cfg0.win 3).index t = (cfg0.win 3).index tFirst :=
  (by decide +kernel : ∀ t : Fin grid0.N, win0_3.index t = win0_3.index tFirst)
theorem index_4 : ∀ t : Fin cfg0.N, (cfg0.win 4).index t = (cfg0.win 4).index tFirst :=
  (by decide +kernel : ∀ t : Fin grid0.N, win0_4.index t = win0_4.index tFirst)
theorem index_5 : ∀ t : Fin cfg0.N, (cfg0.win 5).index t = (cfg0.win 5).index tFirst :=
  (by decide +kernel : ∀ t : Fin grid0.N, win0_5.index t = win0_5.index tFirst)
theorem index_6 : ∀ t : Fin cfg0.N, (cfg0.win 6).index t = (cfg0.win 6).index tFirst :=
  (by decide +kernel : ∀ t : Fin grid0.N, win0_6.index t = win0_6.index tFirst)

/-- A window whose index map is constant has the first point's block at every point. -/
theorem iblk_first_0 (c : Dev nD) (t : Fin cfg0.N) : iblk m c 0 t = iblk m c 0 tFirst :=
  (fetched_0 m c t ((dats m 0 c).after 0 t)).symm.trans
    (((dats m 0 c).fetched_congr 0 (index_0 t) rfl _).trans (fetched_0 m c tFirst _))
theorem iblk_first_3 (c : Dev nD) (t : Fin cfg0.N) : iblk m c 3 t = iblk m c 3 tFirst :=
  (fetched_3 m c t ((dats m 0 c).after 3 t)).symm.trans
    (((dats m 0 c).fetched_congr 3 (index_3 t) rfl _).trans (fetched_3 m c tFirst _))
theorem iblk_first_4 (c : Dev nD) (t : Fin cfg0.N) : iblk m c 4 t = iblk m c 4 tFirst :=
  (fetched_4 m c t ((dats m 0 c).after 4 t)).symm.trans
    (((dats m 0 c).fetched_congr 4 (index_4 t) rfl _).trans (fetched_4 m c tFirst _))
theorem iblk_first_5 (c : Dev nD) (t : Fin cfg0.N) : iblk m c 5 t = iblk m c 5 tFirst :=
  (fetched_5 m c t ((dats m 0 c).after 5 t)).symm.trans
    (((dats m 0 c).fetched_congr 5 (index_5 t) rfl _).trans (fetched_5 m c tFirst _))
theorem iblk_first_6 (c : Dev nD) (t : Fin cfg0.N) : iblk m c 6 t = iblk m c 6 tFirst :=
  (fetched_6 m c t ((dats m 0 c).after 6 t)).symm.trans
    (((dats m 0 c).fetched_congr 6 (index_6 t) rfl _).trans (fetched_6 m c tFirst _))

/-- So the result the last point stores is the one the proof data name, whichever point's blocks it is written over. -/
theorem outVal_eq (c : Dev nD) (t : Fin cfg0.N) :
    outVal m c = k0_pay2 (Afull m c) (iblk m c 0 t) (iblk m c 3 t) (iblk m c 4 t) (iblk m c 5 t) (iblk m c 6 t) := by
  unfold outVal; rw [iblk_first_0 m c t, iblk_first_3 m c t, iblk_first_4 m c t, iblk_first_5 m c t, iblk_first_6 m c t]

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- Where the condition is false the output window is idle and is not written back; -/
theorem idle_7 : ∀ t : Fin cfg0.N, ¬ k0_cond1 (grid0.coords t) = 1#1 → cfg0.idle 7 (grid0.coords t) = true := by decide +kernel
theorem noFlush_7 : ∀ t : Fin cfg0.N, ¬ k0_cond1 (grid0.coords t) = 1#1 → (cfg0.win 7).flush t = false := by decide +kernel
/-- where it is true the window is live. -/
theorem live_7 : ∀ t : Fin cfg0.N, k0_cond1 (grid0.coords t) = 1#1 → cfg0.idle 7 (grid0.coords t) = false := by decide +kernel

/-! ## The invariant across a point's row store -/

/-- The first row a point stores: 128 times the point's number; it stores whole rows. -/
theorem off_eq : ∀ t : Fin cfg0.N, k0_off1 (grid0.coords t) = ![128 * t.val, 0] :=
  (by decide +kernel : ∀ t : Fin grid0.N, k0_off1 (grid0.coords t) = ![128 * t.val, 0])

/-- If the rows below 128 t are the adjacency's and point t's rows are replaced by the block it computes from its row block
    and column block, the rows below 128 (t + 1) are the adjacency's: below 128 t nothing changed; a row r of the stored
    block belongs to point r / 128 = t, and sits at local row r mod 128 = r - 128 t. -/
theorem stored_step (c : Dev nD) (t : Fin cfg0.N) (X X' : Vec F S1024x1024 .f32)
    (hX : ∀ idx : S1024x1024.Idx, (idx 0).val < 128 * t.val → X idx = Afull m c idx)
    (hS : Stored (grid0.coords t) (k0_pay1 (grid0.coords t) (iblk m c 1 t) (iblk m c 2 t)) X X') :
    ∀ idx : S1024x1024.Idx, (idx 0).val < 128 * (t.val + 1) → X' idx = Afull m c idx := by
  intro idx h
  have ho0 : k0_off1 (grid0.coords t) 0 = 128 * t.val := by rw [off_eq t]; rfl
  have ho1 : k0_off1 (grid0.coords t) 1 = 0 := by rw [off_eq t]; rfl
  by_cases hlt : (idx 0).val < 128 * t.val
  · rw [hS.1 idx (fun hm => by
      have h0 := (Rect.mem_set_unit.mp hm 0).1
      rw [ho0] at h0; omega)]
    exact hX idx hlt
  · have h0 : 128 * t.val ≤ (idx 0).val := Nat.le_of_not_lt hlt
    have hpt : ptOf (idx 0) = t := Fin.ext (by
      show (idx 0).val / 128 = t.val
      omega)
    have hemb : (rowsRect (grid0.coords t)).emb
        (ValueIdx.ix2 (⟨(idx 0).val % 128, Nat.mod_lt _ (by decide)⟩ : Fin 128) (idx 1)) = idx := by
      funext a; apply Fin.ext; rw [Rect.emb_apply]
      match a with
      | ⟨0, _⟩ => show k0_off1 (grid0.coords t) 0 + 1 * ((idx 0).val % 128) = (idx 0).val; rw [ho0]; omega
      | ⟨1, _⟩ => show k0_off1 (grid0.coords t) 1 + 1 * (idx 1).val = (idx 1).val; rw [ho1]; omega
    calc X' idx = X' ((rowsRect (grid0.coords t)).emb
            (ValueIdx.ix2 (⟨(idx 0).val % 128, Nat.mod_lt _ (by decide)⟩ : Fin 128) (idx 1))) := by rw [hemb]
      _ = k0_pay1 (grid0.coords t) (iblk m c 1 t) (iblk m c 2 t)
            (ValueIdx.ix2 (⟨(idx 0).val % 128, Nat.mod_lt _ (by decide)⟩ : Fin 128) (idx 1)) := hS.2 _
      _ = Afull m c idx := by subst hpt; rfl

/-- After the last point's store every row is the adjacency's. -/
theorem stored_last (c : Dev nD) (t : Fin cfg0.N) (ht : t.val = 7) (X X' : Vec F S1024x1024 .f32)
    (hX : ∀ idx : S1024x1024.Idx, (idx 0).val < 128 * t.val → X idx = Afull m c idx)
    (hS : Stored (grid0.coords t) (k0_pay1 (grid0.coords t) (iblk m c 1 t) (iblk m c 2 t)) X X') : X' = Afull m c :=
  funext fun idx => stored_step m c t X X' hX hS idx (by have := ValueIdx.idx2_lt0 idx; omega)

/-! ## The body obligation, at a generic point -/

/-- Each window's current staging memref at point `t`, spelled as the pipeline passes it to the body. -/
abbrev ms_0 (t : Fin cfg0.N) : Memref sig .tc .vmem S1024x128 .f32 := win0_0.stage (cfg0.slots t 0)
abbrev ms_1 (t : Fin cfg0.N) : Memref sig .tc .vmem S128x1024 .f32 := win0_1.stage (cfg0.slots t 1)
abbrev ms_2 (t : Fin cfg0.N) : Memref sig .tc .vmem S1024x128 .f32 := win0_2.stage (cfg0.slots t 2)
abbrev ms_3 (t : Fin cfg0.N) : Memref sig .tc .vmem S128x128 .f32 := win0_3.stage (cfg0.slots t 3)
abbrev ms_4 (t : Fin cfg0.N) : Memref sig .tc .vmem S1x128 .f32 := win0_4.stage (cfg0.slots t 4)
abbrev ms_5 (t : Fin cfg0.N) : Memref sig .tc .vmem S128x64 .f32 := win0_5.stage (cfg0.slots t 5)
abbrev ms_6 (t : Fin cfg0.N) : Memref sig .tc .vmem S1x64 .f32 := win0_6.stage (cfg0.slots t 6)
abbrev ms_7 (t : Fin cfg0.N) : Memref sig .tc .vmem S1024x64 .f32 := win0_7.stage (cfg0.slots t 7)

/-- What the body is called with at point `t`: the invariant, what the core owes, and each window's current buffer at what it
    then holds, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- An input window is live at every point: the body hands its buffer back at the block. -/
theorem leaves_0 (c : Dev nD) (t : Fin cfg0.N) :
    (dats m 0 c).leavesExact 0 t = owns (c : Thread nD τ) (ms_0 t) fullShare (iblk m c 0 t) := by
  unfold Dat.leavesExact; rw [live_0 t, after_0]
theorem leaves_1 (c : Dev nD) (t : Fin cfg0.N) :
    (dats m 0 c).leavesExact 1 t = owns (c : Thread nD τ) (ms_1 t) fullShare (iblk m c 1 t) := by
  unfold Dat.leavesExact; rw [live_1 t, after_1]
theorem leaves_2 (c : Dev nD) (t : Fin cfg0.N) :
    (dats m 0 c).leavesExact 2 t = owns (c : Thread nD τ) (ms_2 t) fullShare (iblk m c 2 t) := by
  unfold Dat.leavesExact; rw [live_2 t, after_2]
theorem leaves_3 (c : Dev nD) (t : Fin cfg0.N) :
    (dats m 0 c).leavesExact 3 t = owns (c : Thread nD τ) (ms_3 t) fullShare (iblk m c 3 t) := by
  unfold Dat.leavesExact; rw [live_3 t, after_3]
theorem leaves_4 (c : Dev nD) (t : Fin cfg0.N) :
    (dats m 0 c).leavesExact 4 t = owns (c : Thread nD τ) (ms_4 t) fullShare (iblk m c 4 t) := by
  unfold Dat.leavesExact; rw [live_4 t, after_4]
theorem leaves_5 (c : Dev nD) (t : Fin cfg0.N) :
    (dats m 0 c).leavesExact 5 t = owns (c : Thread nD τ) (ms_5 t) fullShare (iblk m c 5 t) := by
  unfold Dat.leavesExact; rw [live_5 t, after_5]
theorem leaves_6 (c : Dev nD) (t : Fin cfg0.N) :
    (dats m 0 c).leavesExact 6 t = owns (c : Thread nD τ) (ms_6 t) fullShare (iblk m c 6 t) := by
  unfold Dat.leavesExact; rw [live_6 t, after_6]
/-- At the last point the output window is live: the body hands its buffer back at the result. -/
theorem leaves_7 (c : Dev nD) (t : Fin cfg0.N) (hc : k0_cond1 (grid0.coords t) = 1#1) :
    (dats m 0 c).leavesExact 7 t = owns (c : Thread nD τ) (ms_7 t) fullShare (outVal m c) := by
  unfold Dat.leavesExact; rw [live_7 t hc, after_7]

set_option maxHeartbeats 4000000 in
/-- The body at any point. The inputs' buffers hold their blocks; the invariant hands the body the scratch at contents whose
    rows below 128 t are the adjacency's. Before the last point the body stores point t's rows and touches nothing else: the
    output's buffer, idle there and not written back, goes back as it came. At the last point every row is then the
    adjacency's, and the result the body stores, computed from the scratch it reads back and the blocks fetched once, is the
    one the proof data name. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [Phi_castSucc, Phi_succ]
  rw [leaves_0, leaves_1, leaves_2, leaves_3, leaves_4, leaves_5, leaves_6]
  by_cases h7 : t.val = 7
  · have hc : k0_cond1 (grid0.coords t) = 1#1 := (hcond t).mpr h7
    rw [leaves_7 m c t hc, outVal_eq m c t]
    unfold PhiS
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ hc (iblk m c 0 t) (iblk m c 1 t) (iblk m c 2 t) (iblk m c 3 t)
      (iblk m c 4 t) (iblk m c 5 t) (iblk m c 6 t) X Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%X', %hS, H7, HS⟩⟩
    obtain rfl : X' = Afull m c := stored_last m c t h7 X X' hX hS
    isplitl [HS Hg]
    · isplitl [HS]
      · iexists _; isplitr; · ipureintro; exact fun _ _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc : ¬ k0_cond1 (grid0.coords t) = 1#1 := fun h => h7 ((hcond t).mp h)
    rw [Dat.leavesExact_idle (dats m 0 c) 7 t (idle_7 t hc) (noFlush_7 t hc)]
    unfold PhiS
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ hc (iblk m c 1 t) (iblk m c 2 t) X Set.univ _)
    isplitl [H1]; · iexact H1
    isplitl [H2]; · iexact H2
    isplitl [HS]; · iexact HS
    iintro ⟨H1, H2, ⟨%X', %hS, HS⟩⟩
    isplitl [HS Hg]
    · isplitl [HS]
      · iexists X'; isplitr; · ipureintro; exact stored_step m c t X X' hX hS
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

/-- The library's body obligation, at every point. -/
theorem body_obligation_exact (c : Dev nD) : BodyObligation (dats (F := F) m 0 c) (defs₀ (F := F)) Variants.none () Set.univ := fun t => by
  rw [bigSep_W0, bigSep_W0]
  exact sound_body m c t

/-- The same as the pipeline's loop uses it: no window's block is cut, so the two obligations say the same. -/
theorem body_obligation (c : Dev nD) : Pipeline.BodyObligationLoose (dats (F := F) m 0 c) (defs₀ (F := F)) Variants.none () Set.univ :=
  (body_obligation_exact m c).loose

end Cert.Kernel.Hand

end
-- ==== Proof.KB.Launch.lean ====
/-
  The launch of the one-region kernel program: from any memory with zero counters the program runs, every window's
  array ends at what the pipeline's proof data compute, and every other unscoped buffer ends as the region found it.

  Two input windows (1 and 2) stage the same array P, so the arrays' buffers are handed to the pipeline with P's full
  share split in two halves, one per window; the other windows take theirs whole.
-/
import proofs.«135578_g23476291240112_cont_8to1_1555_6_alg».proof.Proof.KB.Kit
import Idealize.ShloMosaic.Lib.Pipeline.Frame
import Idealize.ShloMosaic.Lib.Pipeline.Launch
import Idealize.ShloMosaic.Lib.Pipeline.Kit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes allocate nothing. -/
theorem hostOps0_fresh : (hostOps0 : List (HloOp τ sig (Elt F))).Forall fun op => op.fresh = ∅ := by
  simp only [List.Forall]; repeat' constructor

/-- The program is the two reshapes, then the region. -/
theorem hmain : Pipeline.HMain (Ix := Unit) (Name := ℕ) (U := UR sig nD τ) (Lvl := ℕ) cfgs 0 defs₀ Variants.none m (main (F := F)) (V m) :=
  Pipeline.hmain_prefixes cfgs 0 defs₀ Variants.none m main [hostOps0] hostOps0_sub hostOps0_fresh
    (fun c => Gen.main_chain c)

/-- The buffers behind the windows' arrays, one by one: seven buffers for eight windows. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_call0_v0) ↦{fullShare} W main_call0_v0)
          ∗ (((c.tc : Thread nD τ).loc main_arg4) ↦{fullShare} W main_arg4) ∗ (((c.tc : Thread nD τ).loc main_call0_v1) ↦{fullShare} W main_call0_v1)
          ∗ (((c.tc : Thread nD τ).loc main_v0) ↦{fullShare} W main_v0)) := by
  unfold Pipeline.arrBufs
  exact bigSep_eq_bigSepL_of_eq [main_arg0, main_arg1, main_arg2, main_call0_v0, main_arg4, main_call0_v1, main_v0] (by decide) (by decide) _

/-- The pipeline's arrays window by window, each a whole buffer at the window's share. -/
theorem arrays_eq' (c : Dev nD) (G : (w : Fin cfg0.W) → Buf (Elt F) ((cfg0.win w).arr.view.loc (c.tc : Thread nD τ))) :
    ((dats m 0 c).arrays G : sProp 𝕄)
      = bigSep Finset.univ fun w : Fin 8 => (((c.tc : Thread nD τ).loc (Pipeline.arrRef spec0 w)) ↦{(dats m 0 c).share w} G w : sProp 𝕄) := by
  unfold Dat.arrays
  exact bigSep_congr fun w _ => by rw [(Gen.arr_whole0 w).set_eq_univ]

/-- The share each window holds its array at: the two windows on P a half each, every other window the whole. -/
theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The proof data's arrays are the region-entry contents. -/
theorem launch_A_eq (c : Dev nD) (w : Fin cfg0.W) : (dats m 0 c).A w = V m c (Pipeline.arrRef spec0 w) := by
  dsimp only [dats]

/-- Before any write-back an array holds its entry contents. -/
theorem arrAt_zero (c : Dev nD) (w : Fin cfg0.W) : (dats m 0 c).arrAt w 0 = V m c (Pipeline.arrRef spec0 w) := by
  rw [show (dats m 0 c).arrAt w 0 = (dats m 0 c).A w from rfl, launch_A_eq]

/-- The buffers behind the arrays, each whole at the full share, make the pipeline's arrays at entry: P's full share is
    split into its two halves, one for the window on P's rows and one for the window on P's columns. -/
theorem hsplit (c : Dev nD) :
    (Pipeline.arrBufs spec0 c (V m c) : sProp 𝕄) ⊢ (dats m 0 c).arrays ((dats m 0 c).arrAt · 0) := by
  rw [arrBufs_eq, arrays_eq', Gen.bigSep_W0]
  simp only [share_0, share_1, share_2, share_3, share_4, share_5, share_6, share_7, arrAt_zero]
  iintro ⟨H0, H1, H2, H3, H4, H5, H6⟩
  ihave H1 := (pointsTo_share (PosShare.mem_left_op_right fullShare)).1 $$ H1
  icases H1 with ⟨H1a, H1b⟩
  isplitl [H0]
  · iexact H0
  isplitl [H1a]
  · iexact H1a
  isplitl [H1b]
  · iexact H1b
  isplitl [H2]
  · iexact H2
  isplitl [H3]
  · iexact H3
  isplitl [H4]
  · iexact H4
  isplitl [H5]
  · iexact H5
  iexact H6

/-- Before the first point the invariant asks nothing of the scratch's contents (no row lies below row 0): the scratch
    at any contents and the generator register at any state give it. -/
theorem hin (c : Dev nD) : iprop((∃ r, prngReg c r) ∗ Pipeline.scopedRest spec0 c) ⊢ ((dats m 0 c).Φ 0 : sProp 𝕄) := by
  rw [show (dats m 0 c).Φ 0 = PhiS m c 0 from rfl]
  unfold PhiS
  rw [Gen.scopedRest0_eq]
  simp only [owns_whole]
  iintro ⟨Hp, ⟨%f, Hf⟩⟩
  isplitl [Hf]
  · iexists f
    isplitr
    · ipureintro; intro idx h; exact absurd h (by omega)
    · iexact Hf
  · iexact Hp

/-- After the last point the invariant gives the scratch and the generator register back, what the scratch holds forgotten. -/
theorem hout (c : Dev nD) : ((dats m 0 c).Φ (Fin.last cfg0.N) : sProp 𝕄) ⊢ iprop((∃ r, prngReg c r) ∗ Pipeline.scopedRest spec0 c) := by
  rw [show (dats m 0 c).Φ (Fin.last cfg0.N) = PhiS m c (Fin.last cfg0.N).val from rfl]
  unfold PhiS
  rw [Gen.scopedRest0_eq]
  simp only [owns_whole]
  iintro ⟨⟨%X, -, HX⟩, Hp⟩
  isplitl [Hp]
  · iexact Hp
  · iexists X
    iexact HX

set_option backward.isDefEq.respectTransparency.types false in
/-- From any memory with zero counters every weakly fair execution of the program on the TensorCores terminates, and in
    every final state each window's array holds what the proof data compute and the two biases hold what they held. -/
theorem run_main (hbody : ∀ c : Dev nD, Pipeline.BodyObligationLoose (dats (F := F) m 0 c) (defs₀ (F := F)) Variants.none () Set.univ) :
    θ_run defs (onTc (τ := τ) (main (F := F))) (s₀ m ρ) (Pipeline.FramePost cfgs (dats m) 0 (V m)) := by
  classical
  exact Pipeline.θ_run_region_pf (fun p => (cfgs p).toPCfg) (fun p => (cfgs p).toPCfg_adm) (dats m) () Gen.cellOf_inj (0 : Fin 1)
    Gen.winFacts₀0 (Pipeline.OwnSemFacts.none cfg0.spec) (Pipeline.PreFacts.none _) emb₁ defs₀ Variants.none m ρ main
    hbody Gen.block_pos0 Gen.arr_whole0 Gen.stage_whole0 (fun _ _ => rfl)
    (G := fun _ => iprop(emp)) (u₀ := initOf (Pipeline.cells cfgs Gen.cellOf_inj) (Pipeline.launchToks cfgs Gen.cellOf_inj))
    (hu₀ := by
      iintro Hu; imodintro
      isplitl [Hu]
      · iapply (show (ownU _ : sProp 𝕄) ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]
      · iexists _; iexact Hp
      iexact HU)
    (hin := fun c => (show _ ⊢ iprop((∃ r, prngReg c r) ∗ Pipeline.scopedRest spec0 c) from by
      iintro ⟨HX, -, HR⟩; isplitl [HX] <;> iassumption).trans (hin m c))
    (hout := fun c => (hout m c).trans (by
      rw [Pipeline.ownSems0_none]
      iintro ⟨Hp, Hr⟩
      isplitl [Hp]
      · iexact Hp
      isplitr
      · iempintro
      iexact Hr))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2.2⟩)

/-! ## The arguments and the result, read off the run -/

/-- The two reshapes write only their own results: every argument is as the launch found it. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl

/-! ## The result array -/

/-- The output window's block index is zero on both axes at every point: its one block is the whole result array. -/
theorem out_off (t : Fin cfg0.N) : (fun a => win0_7.index t a * main_v0.ty.shape.size a) = fun _ => 0 :=
  funext fun a => by fin_cases a <;> exact Nat.zero_mul _

/-- What the body leaves in the output's staging buffer is the same at every point. -/
theorem launch_after_7 (c : Dev nD) (t : Fin cfg0.N) : (dats m 0 c).after 7 t = outVal m c := by dsimp only [dats]

/-- A write-back of the output window writes the whole result array. -/
theorem flushed_eq (c : Dev nD) (t : Fin cfg0.N) (hf : (cfg0.win 7).flush t = true) :
    (dats m 0 c).flushed 7 t = ((cfg0.win 7).blk t).view.read (Elt F) (outVal m c) := by
  show (cfg0.win 7).cut (grid0.coords t) ((dats m 0 c).after 7 t) = _
  rw [launch_after_7]
  exact (Memref.read_access_unit_zero (Elt F) main_v0 (out_off t) (fun a => by rw [congrFun (out_off t) a]; simp) (outVal m c)).symm

/-- The last point writes the output back, and its block covers the array: the result array ends at the last point's value. -/
theorem final_out (c : Dev nD) : (dats m 0 c).arrAt 7 cfg0.N = outVal m c :=
  (dats m 0 c).arrAt_eq_of_cover 7 (outVal m c) (flushed_eq m c) fun i =>
    ⟨t0_7, (flush0_7 t0_7).mpr rfl, by
      show i ∈ ((View.whole main_v0).slice (win0_7.rect t0_7)).set
      rw [View.set_slice_whole]
      exact View.mem_set_unit_zero (out_off t0_7) _ i⟩

/-! ## The frame and the value run -/

/-- The two biases are unscoped and no window's array (the windows stage their reshaped copies). -/
theorem arg3_rest : main_arg3 ∈ Pipeline.restRefs sig spec0 := Pipeline.mem_restRefs_of main_arg3 rfl (by decide)
theorem arg5_rest : main_arg5 ∈ Pipeline.restRefs sig spec0 := Pipeline.mem_restRefs_of main_arg5 rfl (by decide)

/-- The program runs and its argument arrays end unchanged. -/
theorem frame (hbody : ∀ c : Dev nD, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((launch_A_eq m c 0).trans (V_arg0 m c))),
     ((h c).1 1).trans (((dats m 0 c).arrAt_in 1 rfl _).trans ((launch_A_eq m c 1).trans (V_arg1 m c))),
     ((h c).1 3).trans (((dats m 0 c).arrAt_in 3 rfl _).trans ((launch_A_eq m c 3).trans (V_arg2 m c))),
     ((h c).2 main_arg3 arg3_rest).trans (V_arg3 m c),
     ((h c).1 5).trans (((dats m 0 c).arrAt_in 5 rfl _).trans ((launch_A_eq m c 5).trans (V_arg4 m c))),
     ((h c).2 main_arg5 arg5_rest).trans (V_arg5 m c)⟩) (run_main m ρ hbody)

/-- The program runs, the result array ends at the last point's value and the argument arrays end unchanged. -/
theorem run_out (hbody : ∀ c : Dev nD, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v0) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 7).trans (final_out m c),
     ((h c).1 0).trans (((dats m 0 c).arrAt_in 0 rfl _).trans ((launch_A_eq m c 0).trans (V_arg0 m c))),
     ((h c).1 1).trans (((dats m 0 c).arrAt_in 1 rfl _).trans ((launch_A_eq m c 1).trans (V_arg1 m c))),
     ((h c).1 3).trans (((dats m 0 c).arrAt_in 3 rfl _).trans ((launch_A_eq m c 3).trans (V_arg2 m c))),
     ((h c).2 main_arg3 arg3_rest).trans (V_arg3 m c),
     ((h c).1 5).trans (((dats m 0 c).arrAt_in 5 rfl _).trans ((launch_A_eq m c 5).trans (V_arg4 m c))),
     ((h c).2 main_arg5 arg5_rest).trans (V_arg5 m c)⟩) (run_main m ρ hbody)

end Cert.Kernel.Hand

end
-- ==== Proof.KI.Kit.lean ====
/-
  What the frame of the one-region kernel program is stated over: the buffers' contents when the region is
  entered, each window's block at a grid point, the adjacency block by block as the scratch holds it once every point
  has stored its rows, the result the last point leaves, and the pipeline's proof data.

  The grid has 8 points. Point t loads rows [128 t, 128 t + 128) of P and columns [128 t, 128 t + 128) of P, stores
  rows [128 t, 128 t + 128) of A = σ(I + (P + Pᵀ)/2) into the 1024 × 1024 scratch, and at the last point reads the whole
  scratch and stores the two-layer result into the one output block.
-/
import proofs.«135578_g23476291240112_cont_8to1_1555_6_alg».proof.Proof.Gen.KernelIdeal.Launch
import proofs.«135578_g23476291240112_cont_8to1_1555_6_alg».proof.Proof.Gen.KernelIdeal.Skeleton
import proofs.«135578_g23476291240112_cont_8to1_1555_6_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: after the two reshapes of the biases. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid point that stores row r of the scratch. -/
def ptOf (r : Fin 1024) : Fin cfg0.N := ⟨r.val / 128, by have := r.isLt; show r.val / 128 < 8; omega⟩

/-- The adjacency as the scratch holds it after the last store: row r is row (r mod 128) of the block point (r / 128) computes
    from its row block and column block of P. -/
def Afull (c : Dev nD) : Vec F S1024x1024 .f32 := fun idx =>
  k0_pay1 (grid0.coords (ptOf (idx 0))) (iblk m c 1 (ptOf (idx 0))) (iblk m c 2 (ptOf (idx 0)))
    (ValueIdx.ix2 (⟨(idx 0).val % 128, Nat.mod_lt _ (by decide)⟩ : Fin 128) (idx 1))

/-- The first grid point (the windows fetched once are fetched there). -/
abbrev tFirst : Fin cfg0.N := ⟨0, by show 0 < 8; omega⟩

/-- What the last point stores into the output block: the two layers over the whole adjacency. -/
def outVal (c : Dev nD) : Vec F S1024x64 .f32 :=
  k0_pay2 (Afull m c) (iblk m c 0 tFirst) (iblk m c 3 tFirst) (iblk m c 4 tFirst) (iblk m c 5 tFirst) (iblk m c 6 tFirst)

/-- The scratch operand as a memref. -/
abbrev scM : Memref sig .tc .vmem S1024x1024 .f32 := Memref.whole cc0_scratch0

/-- The region's invariant before point n: the scratch holds some contents whose rows below 128 n are the adjacency's, and the
    generator register is at some state. -/
def PhiS (c : Dev nD) (n : ℕ) : sProp 𝕄 :=
  iprop((∃ X : Vec F S1024x1024 .f32, ⌜∀ idx : S1024x1024.Idx, (idx 0).val < 128 * n → X idx = Afull m c idx⌝ ∗ owns (c : Thread nD τ) scM fullShare X)
    ∗ (∃ r, prngReg c r))

/-- The pipeline's proof data on core c: the arrays as the region finds them; each input's buffer at its block after the
    body; the output's at the last point's result; the invariant PhiS; the two windows on P each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outVal m c
  Φ t := PhiS m c t.val
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

end Cert.KernelIdeal.Hand

end
-- ==== Proof.KI.RunA.lean ====
/-
  The kernel body at a grid point where its conditional is not taken (points 0 to 6): what the row store leaves in the
  scratch, and the body's triple there.
-/
import proofs.«135578_g23476291240112_cont_8to1_1555_6_alg».proof.Proof.KI.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition -/

/-- The body's one conditional is taken at the last grid point only. -/
theorem hcond : ∀ t : Fin cfg0.N, k0_cond1 (grid0.coords t) = 1#1 ↔ t.val = 7 :=
  (by decide +kernel : ∀ t : Fin grid0.N, k0_cond1 (grid0.coords t) = 1#1 ↔ t.val = 7)

/-! ## Loads and stores through a whole rank-2 buffer -/

/-- The offsets of a whole rank-2 access, as a function. -/
theorem hz2 : (![0, 0] : Fin 2 → ℕ) = fun _ => 0 := funext fun a => by fin_cases a <;> rfl

/-- A load through the rectangle at zero offsets of the buffer's own sizes reads the contents. -/
theorem readAt_zero {sg : RefSig} {κ : Kind} {sp : Space} {S : Shape} {e : EltTy} {Val : EltTy → Type} (v : View sg κ sp S e)
    {off : Fin S.rank → ℕ} (hz : off = fun _ => 0) (inb : ∀ a, off a + S.size a ≤ S.size a) (f : v.ty.Contents Val) :
    v.readAt Val (Rect.unit off S.size inb).toLoadRect f = v.read Val f := by
  rw [View.readAt_eq_ld, View.ld_unit_zero hz]

/-- One store through that rectangle, read back, is its payload. -/
theorem read_writes_zero {sg : RefSig} {κ : Kind} {sp : Space} {S : Shape} {e : EltTy} {Val : EltTy → Type} (v : View sg κ sp S e)
    {off : Fin S.rank → ℕ} (hz : off = fun _ => 0) (inb : ∀ a, off a + S.size a ≤ S.size a) (f : v.ty.Contents Val)
    (w : S.Idx → Val e) :
    v.read Val (v.writes Val f [(⟨Rect.unit off S.size inb, w⟩ : View.Piece Val S e)]) = w := by
  subst hz; exact View.read_writes_whole v f w

/-! ## The rows a point stores into the scratch -/

/-- The rectangle of the scratch point `i` stores: 128 whole rows from the row the kernel computes. -/
abbrev rowsRect (i : grid0.Coords) : Rect S1024x1024 :=
  Rect.unit (s := S1024x1024) (k0_off1 i) S128x1024.size (k0_off1_inb i)

/-- Contents `X'` are contents `X` with the rows of point `i` replaced by the block `w`: the same outside the
    rectangle, `w` at the local index inside. -/
def Stored (i : grid0.Coords) (w : Vec F S128x1024 .f32) (X X' : Vec F S1024x1024 .f32) : Prop :=
  (∀ y : S1024x1024.Idx, y ∉ (rowsRect i).set → X' y = X y) ∧ ∀ x : S128x1024.Idx, X' ((rowsRect i).emb x) = w x

/-- What a whole buffer holding `X` reads after one store of `w` through the rows' rectangle. -/
theorem stored_of_writes (M : Memref sig .tc .vmem S1024x1024 .f32) (hM : M.IsWhole) (i : grid0.Coords)
    (w : Vec F S128x1024 .f32) (X : Vec F S1024x1024 .f32) :
    Stored i w X (M.view.read (Elt F) (M.view.writes (Elt F) (hM.unread X) [(⟨rowsRect i, w⟩ : View.Piece (Elt F) S1024x1024 .f32)])) := by
  refine ⟨fun y hy => ?_, fun x => ?_⟩
  · rw [View.read_writes_apply_of_forall_not_mem _ _ y _ (fun p hp => by
      rw [List.mem_singleton] at hp; subst hp; exact hy)]
    exact congrFun (hM.read_unread X) y
  · exact View.read_writes_cons_emb _ _ (rowsRect i) w [] x

/-! ## The body where the condition is false -/

set_option maxHeartbeats 1000000 in
/-- At a point whose condition is false the body loads the row block `x1` and the column block `x2`, loads and stores the
    point's rows of the scratch, and returns: the two input buffers are handed back as they were and the scratch, held at
    `xs`, at `xs` with the point's rows replaced by the block the body computes from `x1` and `x2`. The other operands are
    not touched. -/
theorem runA (c : Dev nD) (i : grid0.Coords) (arg1 : Memref sig .tc .vmem S1024x128 .f32) (harg1 : arg1.IsWhole) (arg2 : Memref sig .tc .vmem S128x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x1024 .f32) (harg9 : arg9.IsWhole) (hc : ¬ k0_cond1 i = 1#1)
    (x1 : Vec F S128x1024 .f32) (x2 : Vec F S1024x128 .f32) (xs : Vec F S1024x1024 .f32) (E : Set ℕ) (K : PUnit → sProp 𝕄) :
    iprop(owns (c : Thread nD τ) arg2 fullShare x1 ∗ owns (c : Thread nD τ) arg3 fullShare x2 ∗ owns (c : Thread nD τ) arg9 fullShare xs
        ∗ (iprop(owns (c : Thread nD τ) arg2 fullShare x1 ∗ owns (c : Thread nD τ) arg3 fullShare x2
            ∗ (∃ X' : Vec F S1024x1024 .f32, ⌜Stored i (k0_pay1 i x1 x2) xs X'⌝ ∗ owns (c : Thread nD τ) arg9 fullShare X')) -∗ K ⟨⟩))
      ⊢ wp frame (wpE (defs₀ (F := F)) Variants.none c none) E (cc0__gcn_fused_kernel i arg1 harg1 arg2 harg2 arg3 harg3 arg4 harg4 arg5 harg5 arg6 harg6 arg7 harg7 arg8 harg8 arg9 harg9) K := by
  simp only [cc0__gcn_fused_kernel_eq_skeleton]; unfold cc0__gcn_fused_kernel_skel
  unfold owns
  iintro ⟨⟨%f2, %hf2, H2⟩, ⟨%f3, %hf3, H3⟩, ⟨%fs, %hfs, HS⟩, Hk⟩
  obtain rfl := harg2.eq_unread hf2; obtain rfl := harg3.eq_unread hf3; obtain rfl := harg9.eq_unread hfs
  sl_exec (disch := first | exact hc)
  sl_step
  simp only [readAt_zero (S := S128x1024) _ hz2, readAt_zero (S := S1024x128) _ hz2, Memref.IsWhole.read_unread]
  iapply Hk
  isplitl [H2]
  · iexists _; isplitr; · ipureintro; exact harg2.read_unread _
    iexact H2
  isplitl [H3]
  · iexists _; isplitr; · ipureintro; exact harg3.read_unread _
    iexact H3
  iexists _; isplitr; · ipureintro; exact stored_of_writes arg9 harg9 i (k0_pay1 i x1 x2) xs
  iexists _; isplitr; · ipureintro; rfl
  iexact HS

end Cert.KernelIdeal.Hand

end
-- ==== Proof.KI.RunB.lean ====
/-
  The kernel body at the grid point where its conditional is taken (the last one): after the row store it reads the whole
  scratch and the other inputs and stores the result over the output's buffer.
-/
import proofs.«135578_g23476291240112_cont_8to1_1555_6_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point whose condition is true the body, after the row store, loads the whole scratch and the five other inputs,
    and stores the two-layer result over the output's whole buffer: every input buffer is handed back as it was, the
    scratch, held at `xs`, at `xs` with the point's rows replaced (`X'`), and the output's buffer, whatever it held, at the
    result computed from `X'` and the inputs. -/
theorem runB (c : Dev nD) (i : grid0.Coords) (arg1 : Memref sig .tc .vmem S1024x128 .f32) (harg1 : arg1.IsWhole) (arg2 : Memref sig .tc .vmem S128x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x1024 .f32) (harg9 : arg9.IsWhole) (hc : k0_cond1 i = 1#1)
    (x0 : Vec F S1024x128 .f32) (x1 : Vec F S128x1024 .f32) (x2 : Vec F S1024x128 .f32) (x3 : Vec F S128x128 .f32)
    (x4 : Vec F S1x128 .f32) (x5 : Vec F S128x64 .f32) (x6 : Vec F S1x64 .f32) (xs : Vec F S1024x1024 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ X' : Vec F S1024x1024 .f32, ⌜Stored i (k0_pay1 i x1 x2) xs X'⌝
                ∗ owns (c : Thread nD τ) arg8 fullShare (k0_pay2 X' x0 x3 x4 x5 x6) ∗ owns (c : Thread nD τ) arg9 fullShare X')) -∗ K ⟨⟩))
      ⊢ wp frame (wpE (defs₀ (F := F)) Variants.none c none) E (cc0__gcn_fused_kernel i arg1 harg1 arg2 harg2 arg3 harg3 arg4 harg4 arg5 harg5 arg6 harg6 arg7 harg7 arg8 harg8 arg9 harg9) K := by
  simp only [cc0__gcn_fused_kernel_eq_skeleton]; unfold cc0__gcn_fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hfs
  sl_exec (disch := first | exact hc)
  sl_step
  sl_unfold_run_names
  simp only [readAt_zero (S := S128x1024) _ hz2, readAt_zero (S := S1024x128) _ hz2, readAt_zero (S := S128x128) _ hz2,
    readAt_zero (S := S1x128) _ hz2, readAt_zero (S := S128x64) _ hz2, readAt_zero (S := S1x64) _ hz2,
    readAt_zero (S := S1024x1024) _ hz2, Memref.IsWhole.read_unread]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; · ipureintro; exact stored_of_writes arg9 harg9 i (k0_pay1 i x1 x2) xs
  isplitl [H8]
  · iexists _; isplitr; swap; · iexact H8
    ipureintro; exact read_writes_zero _ hz2 _ _ _
  iexists _; isplitr; · ipureintro; rfl
  iexact HS

end Cert.KernelIdeal.Hand

end
-- ==== Proof.KI.Body.lean ====
/-
  The body obligation of the one-region kernel program over the proof data of the frame: the inputs' staging buffers hold
  their blocks at every point, the scratch's rows below 128 t are the adjacency's before point t, and the output's buffer
  is left alone until the last point stores the result.
-/
import proofs.«135578_g23476291240112_cont_8to1_1555_6_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data, projected -/

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outVal m c := by dsimp only [dats]

/-- The invariant before a point and after it, at the point's number. -/
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-! ## The inputs' staging buffers hold their blocks -/

/-- A fetch of an input window at a point puts the window's block there into the buffer: no input window is cut. -/
theorem fetched_0 (c : Dev nD) (t : Fin cfg0.N) (d) : (dats m 0 c).fetched 0 t d = iblk m c 0 t := by
  unfold Dat.fetched Dat.blockOf iblk; rw [A_eq]; try rfl
theorem fetched_1 (c : Dev nD) (t : Fin cfg0.N) (d) : (dats m 0 c).fetched 1 t d = iblk m c 1 t := by
  unfold Dat.fetched Dat.blockOf iblk; rw [A_eq]; try rfl
theorem fetched_2 (c : Dev nD) (t : Fin cfg0.N) (d) : (dats m 0 c).fetched 2 t d = iblk m c 2 t := by
  unfold Dat.fetched Dat.blockOf iblk; rw [A_eq]; try rfl
theorem fetched_3 (c : Dev nD) (t : Fin cfg0.N) (d) : (dats m 0 c).fetched 3 t d = iblk m c 3 t := by
  unfold Dat.fetched Dat.blockOf iblk; rw [A_eq]; try rfl
theorem fetched_4 (c : Dev nD) (t : Fin cfg0.N) (d) : (dats m 0 c).fetched 4 t d = iblk m c 4 t := by
  unfold Dat.fetched Dat.blockOf iblk; rw [A_eq]; try rfl
theorem fetched_5 (c : Dev nD) (t : Fin cfg0.N) (d) : (dats m 0 c).fetched 5 t d = iblk m c 5 t := by
  unfold Dat.fetched Dat.blockOf iblk; rw [A_eq]; try rfl
theorem fetched_6 (c : Dev nD) (t : Fin cfg0.N) (d) : (dats m 0 c).fetched 6 t d = iblk m c 6 t := by
  unfold Dat.fetched Dat.blockOf iblk; rw [A_eq]; try rfl

/-- Each input's current staging buffer holds its block at every point, fetched there or not: the body leaves the block in
    place, and an unfetched point has the block index of the point before. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (fetched_0 m c t d)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (fetched_1 m c t d)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (fetched_2 m c t d)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (fetched_3 m c t d)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (fetched_4 m c t d)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans (fetched_5 m c t d)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans (fetched_6 m c t d)

/-! ## The windows fetched once: one block for every point -/

theorem index_0 : ∀ t : Fin cfg0.N, (cfg0.win 0).index t = (cfg0.win 0).index tFirst :=
  (by decide +kernel : ∀ t : Fin grid0.N, win0_0.index t = win0_0.index tFirst)
theorem index_3 : ∀ t : Fin cfg0.N, (cfg0.win 3).index t = (cfg0.win 3).index tFirst :=
  (by decide +kernel : ∀ t : Fin grid0.N, win0_3.index t = win0_3.index tFirst)
theorem index_4 : ∀ t : Fin cfg0.N, (cfg0.win 4).index t = (cfg0.win 4).index tFirst :=
  (by decide +kernel : ∀ t : Fin grid0.N, win0_4.index t = win0_4.index tFirst)
theorem index_5 : ∀ t : Fin cfg0.N, (cfg0.win 5).index t = (cfg0.win 5).index tFirst :=
  (by decide +kernel : ∀ t : Fin grid0.N, win0_5.index t = win0_5.index tFirst)
theorem index_6 : ∀ t : Fin cfg0.N, (cfg0.win 6).index t = (cfg0.win 6).index tFirst :=
  (by decide +kernel : ∀ t : Fin grid0.N, win0_6.index t = win0_6.index tFirst)

/-- A window whose index map is constant has the first point's block at every point. -/
theorem iblk_first_0 (c : Dev nD) (t : Fin cfg0.N) : iblk m c 0 t = iblk m c 0 tFirst :=
  (fetched_0 m c t ((dats m 0 c).after 0 t)).symm.trans
    (((dats m 0 c).fetched_congr 0 (index_0 t) rfl _).trans (fetched_0 m c tFirst _))
theorem iblk_first_3 (c : Dev nD) (t : Fin cfg0.N) : iblk m c 3 t = iblk m c 3 tFirst :=
  (fetched_3 m c t ((dats m 0 c).after 3 t)).symm.trans
    (((dats m 0 c).fetched_congr 3 (index_3 t) rfl _).trans (fetched_3 m c tFirst _))
theorem iblk_first_4 (c : Dev nD) (t : Fin cfg0.N) : iblk m c 4 t = iblk m c 4 tFirst :=
  (fetched_4 m c t ((dats m 0 c).after 4 t)).symm.trans
    (((dats m 0 c).fetched_congr 4 (index_4 t) rfl _).trans (fetched_4 m c tFirst _))
theorem iblk_first_5 (c : Dev nD) (t : Fin cfg0.N) : iblk m c 5 t = iblk m c 5 tFirst :=
  (fetched_5 m c t ((dats m 0 c).after 5 t)).symm.trans
    (((dats m 0 c).fetched_congr 5 (index_5 t) rfl _).trans (fetched_5 m c tFirst _))
theorem iblk_first_6 (c : Dev nD) (t : Fin cfg0.N) : iblk m c 6 t = iblk m c 6 tFirst :=
  (fetched_6 m c t ((dats m 0 c).after 6 t)).symm.trans
    (((dats m 0 c).fetched_congr 6 (index_6 t) rfl _).trans (fetched_6 m c tFirst _))

/-- So the result the last point stores is the one the proof data name, whichever point's blocks it is written over. -/
theorem outVal_eq (c : Dev nD) (t : Fin cfg0.N) :
    outVal m c = k0_pay2 (Afull m c) (iblk m c 0 t) (iblk m c 3 t) (iblk m c 4 t) (iblk m c 5 t) (iblk m c 6 t) := by
  unfold outVal; rw [iblk_first_0 m c t, iblk_first_3 m c t, iblk_first_4 m c t, iblk_first_5 m c t, iblk_first_6 m c t]

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- Where the condition is false the output window is idle and is not written back; -/
theorem idle_7 : ∀ t : Fin cfg0.N, ¬ k0_cond1 (grid0.coords t) = 1#1 → cfg0.idle 7 (grid0.coords t) = true := by decide +kernel
theorem noFlush_7 : ∀ t : Fin cfg0.N, ¬ k0_cond1 (grid0.coords t) = 1#1 → (cfg0.win 7).flush t = false := by decide +kernel
/-- where it is true the window is live. -/
theorem live_7 : ∀ t : Fin cfg0.N, k0_cond1 (grid0.coords t) = 1#1 → cfg0.idle 7 (grid0.coords t) = false := by decide +kernel

/-! ## The invariant across a point's row store -/

/-- The first row a point stores: 128 times the point's number; it stores whole rows. -/
theorem off_eq : ∀ t : Fin cfg0.N, k0_off1 (grid0.coords t) = ![128 * t.val, 0] :=
  (by decide +kernel : ∀ t : Fin grid0.N, k0_off1 (grid0.coords t) = ![128 * t.val, 0])

/-- If the rows below 128 t are the adjacency's and point t's rows are replaced by the block it computes from its row block
    and column block, the rows below 128 (t + 1) are the adjacency's: below 128 t nothing changed; a row r of the stored
    block belongs to point r / 128 = t, and sits at local row r mod 128 = r - 128 t. -/
theorem stored_step (c : Dev nD) (t : Fin cfg0.N) (X X' : Vec F S1024x1024 .f32)
    (hX : ∀ idx : S1024x1024.Idx, (idx 0).val < 128 * t.val → X idx = Afull m c idx)
    (hS : Stored (grid0.coords t) (k0_pay1 (grid0.coords t) (iblk m c 1 t) (iblk m c 2 t)) X X') :
    ∀ idx : S1024x1024.Idx, (idx 0).val < 128 * (t.val + 1) → X' idx = Afull m c idx := by
  intro idx h
  have ho0 : k0_off1 (grid0.coords t) 0 = 128 * t.val := by rw [off_eq t]; rfl
  have ho1 : k0_off1 (grid0.coords t) 1 = 0 := by rw [off_eq t]; rfl
  by_cases hlt : (idx 0).val < 128 * t.val
  · rw [hS.1 idx (fun hm => by
      have h0 := (Rect.mem_set_unit.mp hm 0).1
      rw [ho0] at h0; omega)]
    exact hX idx hlt
  · have h0 : 128 * t.val ≤ (idx 0).val := Nat.le_of_not_lt hlt
    have hpt : ptOf (idx 0) = t := Fin.ext (by
      show (idx 0).val / 128 = t.val
      omega)
    have hemb : (rowsRect (grid0.coords t)).emb
        (ValueIdx.ix2 (⟨(idx 0).val % 128, Nat.mod_lt _ (by decide)⟩ : Fin 128) (idx 1)) = idx := by
      funext a; apply Fin.ext; rw [Rect.emb_apply]
      match a with
      | ⟨0, _⟩ => show k0_off1 (grid0.coords t) 0 + 1 * ((idx 0).val % 128) = (idx 0).val; rw [ho0]; omega
      | ⟨1, _⟩ => show k0_off1 (grid0.coords t) 1 + 1 * (idx 1).val = (idx 1).val; rw [ho1]; omega
    calc X' idx = X' ((rowsRect (grid0.coords t)).emb
            (ValueIdx.ix2 (⟨(idx 0).val % 128, Nat.mod_lt _ (by decide)⟩ : Fin 128) (idx 1))) := by rw [hemb]
      _ = k0_pay1 (grid0.coords t) (iblk m c 1 t) (iblk m c 2 t)
            (ValueIdx.ix2 (⟨(idx 0).val % 128, Nat.mod_lt _ (by decide)⟩ : Fin 128) (idx 1)) := hS.2 _
      _ = Afull m c idx := by subst hpt; rfl

/-- After the last point's store every row is the adjacency's. -/
theorem stored_last (c : Dev nD) (t : Fin cfg0.N) (ht : t.val = 7) (X X' : Vec F S1024x1024 .f32)
    (hX : ∀ idx : S1024x1024.Idx, (idx 0).val < 128 * t.val → X idx = Afull m c idx)
    (hS : Stored (grid0.coords t) (k0_pay1 (grid0.coords t) (iblk m c 1 t) (iblk m c 2 t)) X X') : X' = Afull m c :=
  funext fun idx => stored_step m c t X X' hX hS idx (by have := ValueIdx.idx2_lt0 idx; omega)

/-! ## The body obligation, at a generic point -/

/-- Each window's current staging memref at point `t`, spelled as the pipeline passes it to the body. -/
abbrev ms_0 (t : Fin cfg0.N) : Memref sig .tc .vmem S1024x128 .f32 := win0_0.stage (cfg0.slots t 0)
abbrev ms_1 (t : Fin cfg0.N) : Memref sig .tc .vmem S128x1024 .f32 := win0_1.stage (cfg0.slots t 1)
abbrev ms_2 (t : Fin cfg0.N) : Memref sig .tc .vmem S1024x128 .f32 := win0_2.stage (cfg0.slots t 2)
abbrev ms_3 (t : Fin cfg0.N) : Memref sig .tc .vmem S128x128 .f32 := win0_3.stage (cfg0.slots t 3)
abbrev ms_4 (t : Fin cfg0.N) : Memref sig .tc .vmem S1x128 .f32 := win0_4.stage (cfg0.slots t 4)
abbrev ms_5 (t : Fin cfg0.N) : Memref sig .tc .vmem S128x64 .f32 := win0_5.stage (cfg0.slots t 5)
abbrev ms_6 (t : Fin cfg0.N) : Memref sig .tc .vmem S1x64 .f32 := win0_6.stage (cfg0.slots t 6)
abbrev ms_7 (t : Fin cfg0.N) : Memref sig .tc .vmem S1024x64 .f32 := win0_7.stage (cfg0.slots t 7)

/-- What the body is called with at point `t`: the invariant, what the core owes, and each window's current buffer at what it
    then holds, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- An input window is live at every point: the body hands its buffer back at the block. -/
theorem leaves_0 (c : Dev nD) (t : Fin cfg0.N) :
    (dats m 0 c).leavesExact 0 t = owns (c : Thread nD τ) (ms_0 t) fullShare (iblk m c 0 t) := by
  unfold Dat.leavesExact; rw [live_0 t, after_0]
theorem leaves_1 (c : Dev nD) (t : Fin cfg0.N) :
    (dats m 0 c).leavesExact 1 t = owns (c : Thread nD τ) (ms_1 t) fullShare (iblk m c 1 t) := by
  unfold Dat.leavesExact; rw [live_1 t, after_1]
theorem leaves_2 (c : Dev nD) (t : Fin cfg0.N) :
    (dats m 0 c).leavesExact 2 t = owns (c : Thread nD τ) (ms_2 t) fullShare (iblk m c 2 t) := by
  unfold Dat.leavesExact; rw [live_2 t, after_2]
theorem leaves_3 (c : Dev nD) (t : Fin cfg0.N) :
    (dats m 0 c).leavesExact 3 t = owns (c : Thread nD τ) (ms_3 t) fullShare (iblk m c 3 t) := by
  unfold Dat.leavesExact; rw [live_3 t, after_3]
theorem leaves_4 (c : Dev nD) (t : Fin cfg0.N) :
    (dats m 0 c).leavesExact 4 t = owns (c : Thread nD τ) (ms_4 t) fullShare (iblk m c 4 t) := by
  unfold Dat.leavesExact; rw [live_4 t, after_4]
theorem leaves_5 (c : Dev nD) (t : Fin cfg0.N) :
    (dats m 0 c).leavesExact 5 t = owns (c : Thread nD τ) (ms_5 t) fullShare (iblk m c 5 t) := by
  unfold Dat.leavesExact; rw [live_5 t, after_5]
theorem leaves_6 (c : Dev nD) (t : Fin cfg0.N) :
    (dats m 0 c).leavesExact 6 t = owns (c : Thread nD τ) (ms_6 t) fullShare (iblk m c 6 t) := by
  unfold Dat.leavesExact; rw [live_6 t, after_6]
/-- At the last point the output window is live: the body hands its buffer back at the result. -/
theorem leaves_7 (c : Dev nD) (t : Fin cfg0.N) (hc : k0_cond1 (grid0.coords t) = 1#1) :
    (dats m 0 c).leavesExact 7 t = owns (c : Thread nD τ) (ms_7 t) fullShare (outVal m c) := by
  unfold Dat.leavesExact; rw [live_7 t hc, after_7]

set_option maxHeartbeats 4000000 in
/-- The body at any point. The inputs' buffers hold their blocks; the invariant hands the body the scratch at contents whose
    rows below 128 t are the adjacency's. Before the last point the body stores point t's rows and touches nothing else: the
    output's buffer, idle there and not written back, goes back as it came. At the last point every row is then the
    adjacency's, and the result the body stores, computed from the scratch it reads back and the blocks fetched once, is the
    one the proof data name. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [Phi_castSucc, Phi_succ]
  rw [leaves_0, leaves_1, leaves_2, leaves_3, leaves_4, leaves_5, leaves_6]
  by_cases h7 : t.val = 7
  · have hc : k0_cond1 (grid0.coords t) = 1#1 := (hcond t).mpr h7
    rw [leaves_7 m c t hc, outVal_eq m c t]
    unfold PhiS
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ hc (iblk m c 0 t) (iblk m c 1 t) (iblk m c 2 t) (iblk m c 3 t)
      (iblk m c 4 t) (iblk m c 5 t) (iblk m c 6 t) X Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%X', %hS, H7, HS⟩⟩
    obtain rfl : X' = Afull m c := stored_last m c t h7 X X' hX hS
    isplitl [HS Hg]
    · isplitl [HS]
      · iexists _; isplitr; · ipureintro; exact fun _ _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc : ¬ k0_cond1 (grid0.coords t) = 1#1 := fun h => h7 ((hcond t).mp h)
    rw [Dat.leavesExact_idle (dats m 0 c) 7 t (idle_7 t hc) (noFlush_7 t hc)]
    unfold PhiS
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ hc (iblk m c 1 t) (iblk m c 2 t) X Set.univ _)
    isplitl [H1]; · iexact H1
    isplitl [H2]; · iexact H2
    isplitl [HS]; · iexact HS
    iintro ⟨H1, H2, ⟨%X', %hS, HS⟩⟩
    isplitl [HS Hg]
    · isplitl [HS]
      · iexists X'; isplitr; · ipureintro; exact stored_step m c t X X' hX hS
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

/-- The library's body obligation, at every point. -/
theorem body_obligation_exact (c : Dev nD) : BodyObligation (dats (F := F) m 0 c) (defs₀ (F := F)) Variants.none () Set.univ := fun t => by
  rw [bigSep_W0, bigSep_W0]
  exact sound_body m c t

/-- The same as the pipeline's loop uses it: no window's block is cut, so the two obligations say the same. -/
theorem body_obligation (c : Dev nD) : Pipeline.BodyObligationLoose (dats (F := F) m 0 c) (defs₀ (F := F)) Variants.none () Set.univ :=
  (body_obligation_exact m c).loose

end Cert.KernelIdeal.Hand

end
-- ==== Proof.KI.Launch.lean ====
/-
  The launch of the one-region kernel program: from any memory with zero counters the program runs, every window's
  array ends at what the pipeline's proof data compute, and every other unscoped buffer ends as the region found it.

  Two input windows (1 and 2) stage the same array P, so the arrays' buffers are handed to the pipeline with P's full
  share split in two halves, one per window; the other windows take theirs whole.
-/
import proofs.«135578_g23476291240112_cont_8to1_1555_6_alg».proof.Proof.KI.Kit
import Idealize.ShloMosaic.Lib.Pipeline.Frame
import Idealize.ShloMosaic.Lib.Pipeline.Launch
import Idealize.ShloMosaic.Lib.Pipeline.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two reshapes allocate nothing. -/
theorem hostOps0_fresh : (hostOps0 : List (HloOp τ sig (Elt F))).Forall fun op => op.fresh = ∅ := by
  simp only [List.Forall]; repeat' constructor

/-- The program is the two reshapes, then the region. -/
theorem hmain : Pipeline.HMain (Ix := Unit) (Name := ℕ) (U := UR sig nD τ) (Lvl := ℕ) cfgs 0 defs₀ Variants.none m (main (F := F)) (V m) :=
  Pipeline.hmain_prefixes cfgs 0 defs₀ Variants.none m main [hostOps0] hostOps0_sub hostOps0_fresh
    (fun c => Gen.main_chain c)

/-- The buffers behind the windows' arrays, one by one: seven buffers for eight windows. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_call0_v0) ↦{fullShare} W main_call0_v0)
          ∗ (((c.tc : Thread nD τ).loc main_arg4) ↦{fullShare} W main_arg4) ∗ (((c.tc : Thread nD τ).loc main_call0_v1) ↦{fullShare} W main_call0_v1)
          ∗ (((c.tc : Thread nD τ).loc main_v0) ↦{fullShare} W main_v0)) := by
  unfold Pipeline.arrBufs
  exact bigSep_eq_bigSepL_of_eq [main_arg0, main_arg1, main_arg2, main_call0_v0, main_arg4, main_call0_v1, main_v0] (by decide) (by decide) _

/-- The pipeline's arrays window by window, each a whole buffer at the window's share. -/
theorem arrays_eq' (c : Dev nD) (G : (w : Fin cfg0.W) → Buf (Elt F) ((cfg0.win w).arr.view.loc (c.tc : Thread nD τ))) :
    ((dats m 0 c).arrays G : sProp 𝕄)
      = bigSep Finset.univ fun w : Fin 8 => (((c.tc : Thread nD τ).loc (Pipeline.arrRef spec0 w)) ↦{(dats m 0 c).share w} G w : sProp 𝕄) := by
  unfold Dat.arrays
  exact bigSep_congr fun w _ => by rw [(Gen.arr_whole0 w).set_eq_univ]

/-- The share each window holds its array at: the two windows on P a half each, every other window the whole. -/
theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The proof data's arrays are the region-entry contents. -/
theorem launch_A_eq (c : Dev nD) (w : Fin cfg0.W) : (dats m 0 c).A w = V m c (Pipeline.arrRef spec0 w) := by
  dsimp only [dats]

/-- Before any write-back an array holds its entry contents. -/
theorem arrAt_zero (c : Dev nD) (w : Fin cfg0.W) : (dats m 0 c).arrAt w 0 = V m c (Pipeline.arrRef spec0 w) := by
  rw [show (dats m 0 c).arrAt w 0 = (dats m 0 c).A w from rfl, launch_A_eq]

/-- The buffers behind the arrays, each whole at the full share, make the pipeline's arrays at entry: P's full share is
    split into its two halves, one for the window on P's rows and one for the window on P's columns. -/
theorem hsplit (c : Dev nD) :
    (Pipeline.arrBufs spec0 c (V m c) : sProp 𝕄) ⊢ (dats m 0 c).arrays ((dats m 0 c).arrAt · 0) := by
  rw [arrBufs_eq, arrays_eq', Gen.bigSep_W0]
  simp only [share_0, share_1, share_2, share_3, share_4, share_5, share_6, share_7, arrAt_zero]
  iintro ⟨H0, H1, H2, H3, H4, H5, H6⟩
  ihave H1 := (pointsTo_share (PosShare.mem_left_op_right fullShare)).1 $$ H1
  icases H1 with ⟨H1a, H1b⟩
  isplitl [H0]
  · iexact H0
  isplitl [H1a]
  · iexact H1a
  isplitl [H1b]
  · iexact H1b
  isplitl [H2]
  · iexact H2
  isplitl [H3]
  · iexact H3
  isplitl [H4]
  · iexact H4
  isplitl [H5]
  · iexact H5
  iexact H6

/-- Before the first point the invariant asks nothing of the scratch's contents (no row lies below row 0): the scratch
    at any contents and the generator register at any state give it. -/
theorem hin (c : Dev nD) : iprop((∃ r, prngReg c r) ∗ Pipeline.scopedRest spec0 c) ⊢ ((dats m 0 c).Φ 0 : sProp 𝕄) := by
  rw [show (dats m 0 c).Φ 0 = PhiS m c 0 from rfl]
  unfold PhiS
  rw [Gen.scopedRest0_eq]
  simp only [owns_whole]
  iintro ⟨Hp, ⟨%f, Hf⟩⟩
  isplitl [Hf]
  · iexists f
    isplitr
    · ipureintro; intro idx h; exact absurd h (by omega)
    · iexact Hf
  · iexact Hp

/-- After the last point the invariant gives the scratch and the generator register back, what the scratch holds forgotten. -/
theorem hout (c : Dev nD) : ((dats m 0 c).Φ (Fin.last cfg0.N) : sProp 𝕄) ⊢ iprop((∃ r, prngReg c r) ∗ Pipeline.scopedRest spec0 c) := by
  rw [show (dats m 0 c).Φ (Fin.last cfg0.N) = PhiS m c (Fin.last cfg0.N).val from rfl]
  unfold PhiS
  rw [Gen.scopedRest0_eq]
  simp only [owns_whole]
  iintro ⟨⟨%X, -, HX⟩, Hp⟩
  isplitl [Hp]
  · iexact Hp
  · iexists X
    iexact HX

set_option backward.isDefEq.respectTransparency.types false in
/-- From any memory with zero counters every weakly fair execution of the program on the TensorCores terminates, and in
    every final state each window's array holds what the proof data compute and the two biases hold what they held. -/
theorem run_main (hbody : ∀ c : Dev nD, Pipeline.BodyObligationLoose (dats (F := F) m 0 c) (defs₀ (F := F)) Variants.none () Set.univ) :
    θ_run defs (onTc (τ := τ) (main (F := F))) (s₀ m ρ) (Pipeline.FramePost cfgs (dats m) 0 (V m)) := by
  classical
  exact Pipeline.θ_run_region_pf (fun p => (cfgs p).toPCfg) (fun p => (cfgs p).toPCfg_adm) (dats m) () Gen.cellOf_inj (0 : Fin 1)
    Gen.winFacts₀0 (Pipeline.OwnSemFacts.none cfg0.spec) (Pipeline.PreFacts.none _) emb₁ defs₀ Variants.none m ρ main
    hbody Gen.block_pos0 Gen.arr_whole0 Gen.stage_whole0 (fun _ _ => rfl)
    (G := fun _ => iprop(emp)) (u₀ := initOf (Pipeline.cells cfgs Gen.cellOf_inj) (Pipeline.launchToks cfgs Gen.cellOf_inj))
    (hu₀ := by
      iintro Hu; imodintro
      isplitl [Hu]
      · iapply (show (ownU _ : sProp 𝕄) ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]
      · iexists _; iexact Hp
      iexact HU)
    (hin := fun c => (show _ ⊢ iprop((∃ r, prngReg c r) ∗ Pipeline.scopedRest spec0 c) from by
      iintro ⟨HX, -, HR⟩; isplitl [HX] <;> iassumption).trans (hin m c))
    (hout := fun c => (hout m c).trans (by
      rw [Pipeline.ownSems0_none]
      iintro ⟨Hp, Hr⟩
      isplitl [Hp]
      · iexact Hp
      isplitr
      · iempintro
      iexact Hr))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2.2⟩)

/-! ## The arguments and the result, read off the run -/

/-- The two reshapes write only their own results: every argument is as the launch found it. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl

/-! ## The result array -/

/-- The output window's block index is zero on both axes at every point: its one block is the whole result array. -/
theorem out_off (t : Fin cfg0.N) : (fun a => win0_7.index t a * main_v0.ty.shape.size a) = fun _ => 0 :=
  funext fun a => by fin_cases a <;> exact Nat.zero_mul _

/-- What the body leaves in the output's staging buffer is the same at every point. -/
theorem launch_after_7 (c : Dev nD) (t : Fin cfg0.N) : (dats m 0 c).after 7 t = outVal m c := by dsimp only [dats]

/-- A write-back of the output window writes the whole result array. -/
theorem flushed_eq (c : Dev nD) (t : Fin cfg0.N) (hf : (cfg0.win 7).flush t = true) :
    (dats m 0 c).flushed 7 t = ((cfg0.win 7).blk t).view.read (Elt F) (outVal m c) := by
  show (cfg0.win 7).cut (grid0.coords t) ((dats m 0 c).after 7 t) = _
  rw [launch_after_7]
  exact (Memref.read_access_unit_zero (Elt F) main_v0 (out_off t) (fun a => by rw [congrFun (out_off t) a]; simp) (outVal m c)).symm

/-- The last point writes the output back, and its block covers the array: the result array ends at the last point's value. -/
theorem final_out (c : Dev nD) : (dats m 0 c).arrAt 7 cfg0.N = outVal m c :=
  (dats m 0 c).arrAt_eq_of_cover 7 (outVal m c) (flushed_eq m c) fun i =>
    ⟨t0_7, (flush0_7 t0_7).mpr rfl, by
      show i ∈ ((View.whole main_v0).slice (win0_7.rect t0_7)).set
      rw [View.set_slice_whole]
      exact View.mem_set_unit_zero (out_off t0_7) _ i⟩

/-! ## The frame and the value run -/

/-- The two biases are unscoped and no window's array (the windows stage their reshaped copies). -/
theorem arg3_rest : main_arg3 ∈ Pipeline.restRefs sig spec0 := Pipeline.mem_restRefs_of main_arg3 rfl (by decide)
theorem arg5_rest : main_arg5 ∈ Pipeline.restRefs sig spec0 := Pipeline.mem_restRefs_of main_arg5 rfl (by decide)

/-- The program runs and its argument arrays end unchanged. -/
theorem frame (hbody : ∀ c : Dev nD, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((launch_A_eq m c 0).trans (V_arg0 m c))),
     ((h c).1 1).trans (((dats m 0 c).arrAt_in 1 rfl _).trans ((launch_A_eq m c 1).trans (V_arg1 m c))),
     ((h c).1 3).trans (((dats m 0 c).arrAt_in 3 rfl _).trans ((launch_A_eq m c 3).trans (V_arg2 m c))),
     ((h c).2 main_arg3 arg3_rest).trans (V_arg3 m c),
     ((h c).1 5).trans (((dats m 0 c).arrAt_in 5 rfl _).trans ((launch_A_eq m c 5).trans (V_arg4 m c))),
     ((h c).2 main_arg5 arg5_rest).trans (V_arg5 m c)⟩) (run_main m ρ hbody)

/-- The program runs, the result array ends at the last point's value and the argument arrays end unchanged. -/
theorem run_out (hbody : ∀ c : Dev nD, Pipeline.BodyObligationLoose (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v0) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 7).trans (final_out m c),
     ((h c).1 0).trans (((dats m 0 c).arrAt_in 0 rfl _).trans ((launch_A_eq m c 0).trans (V_arg0 m c))),
     ((h c).1 1).trans (((dats m 0 c).arrAt_in 1 rfl _).trans ((launch_A_eq m c 1).trans (V_arg1 m c))),
     ((h c).1 3).trans (((dats m 0 c).arrAt_in 3 rfl _).trans ((launch_A_eq m c 3).trans (V_arg2 m c))),
     ((h c).2 main_arg3 arg3_rest).trans (V_arg3 m c),
     ((h c).1 5).trans (((dats m 0 c).arrAt_in 5 rfl _).trans ((launch_A_eq m c 5).trans (V_arg4 m c))),
     ((h c).2 main_arg5 arg5_rest).trans (V_arg5 m c)⟩) (run_main m ρ hbody)

end Cert.KernelIdeal.Hand

end
-- ==== Proof.KI.ValueA.lean ====
/-
  The windows' blocks as reads of the argument arrays, at the extended reals.

  The two reshapes before the region write only the two bias rows, so the region finds x, P, W₁, W₂ as launched and the
  rows as the biases b₁ : [128] and b₂ : [64] laid out as [1, 128] and [1, 64]. A block's element sits in its array, on
  each axis, at block index × block size + its own coordinate: the windows of x, W₁, W₂ and the two rows hold their whole
  array in the one block (0, 0); the row window of P at point t holds rows [128 t, 128 t + 128) and the column window
  of P holds columns [128 t, 128 t + 128).
-/
import proofs.«135578_g23476291240112_cont_8to1_1555_6_alg».proof.Proof.KI.Kit
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The arrays as the region finds them: the two reshapes before it write the two row buffers only -/

theorem V_arg0 (c : Dev nD) : Hand.V m c main_arg0 = m ((c.tc : Thread nD τ).loc main_arg0) := by
  dsimp only [Hand.V, Hand.V0, Gen.hostOps0]
  simp only [List.flatten_cons, List.flatten_nil, List.append_nil, List.cons_append, List.nil_append]
  after_results

theorem V_arg1 (c : Dev nD) : Hand.V m c main_arg1 = m ((c.tc : Thread nD τ).loc main_arg1) := by
  dsimp only [Hand.V, Hand.V0, Gen.hostOps0]
  simp only [List.flatten_cons, List.flatten_nil, List.append_nil, List.cons_append, List.nil_append]
  after_results

theorem V_arg2 (c : Dev nD) : Hand.V m c main_arg2 = m ((c.tc : Thread nD τ).loc main_arg2) := by
  dsimp only [Hand.V, Hand.V0, Gen.hostOps0]
  simp only [List.flatten_cons, List.flatten_nil, List.append_nil, List.cons_append, List.nil_append]
  after_results

theorem V_arg4 (c : Dev nD) : Hand.V m c main_arg4 = m ((c.tc : Thread nD τ).loc main_arg4) := by
  dsimp only [Hand.V, Hand.V0, Gen.hostOps0]
  simp only [List.flatten_cons, List.flatten_nil, List.append_nil, List.cons_append, List.nil_append]
  after_results

theorem V_row1 (c : Dev nD) : Hand.V m c main_call0_v0
    = shapeCast S1x128 (m ((c.tc : Thread nD τ).loc main_arg3)) shapeCasts_S128_S1x128 := by
  dsimp only [Hand.V, Hand.V0, Gen.hostOps0]
  simp only [List.flatten_cons, List.flatten_nil, List.append_nil, List.cons_append, List.nil_append]
  after_results
  rfl

theorem V_row2 (c : Dev nD) : Hand.V m c main_call0_v1
    = shapeCast S1x64 (m ((c.tc : Thread nD τ).loc main_arg5)) shapeCasts_S64_S1x64 := by
  dsimp only [Hand.V, Hand.V0, Gen.hostOps0]
  simp only [List.flatten_cons, List.flatten_nil, List.append_nil, List.cons_append, List.nil_append]
  after_results
  rfl

/-! ## The windows' blocks as reads of the arrays -/

/-- The printed index maps over the grid: the whole-array windows sit at block (0, 0) at every point, the row window of
    P at block (t, 0) and the column window of P at block (0, t). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A grid point's one coordinate is its number. -/
theorem coords_val : ∀ t : Fin cfg0.N, (grid0.coords t 0).val = t.val :=
  (by decide +kernel : ∀ t : Fin grid0.N, _)

/-- Window 0's one block is its whole array. -/
theorem iblk0_apply (c : Dev nD) (i : Fin 1024) (k : Fin 128) :
    Hand.iblk m c 0 Hand.tFirst (ix2 i k) = m ((c.tc : Thread nD τ).loc main_arg0) (ix2 i k) := by
  obtain ⟨_, _, _, _, _, _, _, _, _, _, _, _, _, _⟩ := idx_facts Hand.tFirst
  show Hand.V m c main_arg0 (((cfg0.win 0).blk Hand.tFirst).view.emb (ix2 i k)) = _
  rw [V_arg0]
  refine congrArg _ ?_
  funext a; apply Fin.ext
  match a with
  | ⟨0, _⟩ => show win0_0.index Hand.tFirst (0 : Fin 2) * 1024 + 1 * i.val = i.val; omega
  | ⟨1, _⟩ => show win0_0.index Hand.tFirst (1 : Fin 2) * 128 + 1 * k.val = k.val; omega

/-- Window 3's one block is its whole array. -/
theorem iblk3_apply (c : Dev nD) (i : Fin 128) (k : Fin 128) :
    Hand.iblk m c 3 Hand.tFirst (ix2 i k) = m ((c.tc : Thread nD τ).loc main_arg2) (ix2 i k) := by
  obtain ⟨_, _, _, _, _, _, _, _, _, _, _, _, _, _⟩ := idx_facts Hand.tFirst
  show Hand.V m c main_arg2 (((cfg0.win 3).blk Hand.tFirst).view.emb (ix2 i k)) = _
  rw [V_arg2]
  refine congrArg _ ?_
  funext a; apply Fin.ext
  match a with
  | ⟨0, _⟩ => show win0_3.index Hand.tFirst (0 : Fin 2) * 128 + 1 * i.val = i.val; omega
  | ⟨1, _⟩ => show win0_3.index Hand.tFirst (1 : Fin 2) * 128 + 1 * k.val = k.val; omega

/-- Window 5's one block is its whole array. -/
theorem iblk5_apply (c : Dev nD) (i : Fin 128) (k : Fin 64) :
    Hand.iblk m c 5 Hand.tFirst (ix2 i k) = m ((c.tc : Thread nD τ).loc main_arg4) (ix2 i k) := by
  obtain ⟨_, _, _, _, _, _, _, _, _, _, _, _, _, _⟩ := idx_facts Hand.tFirst
  show Hand.V m c main_arg4 (((cfg0.win 5).blk Hand.tFirst).view.emb (ix2 i k)) = _
  rw [V_arg4]
  refine congrArg _ ?_
  funext a; apply Fin.ext
  match a with
  | ⟨0, _⟩ => show win0_5.index Hand.tFirst (0 : Fin 2) * 128 + 1 * i.val = i.val; omega
  | ⟨1, _⟩ => show win0_5.index Hand.tFirst (1 : Fin 2) * 64 + 1 * k.val = k.val; omega

/-- Window 4's one block is the bias vector laid out as one row. -/
theorem iblk4_apply (c : Dev nD) (u : Fin 1) (f : Fin 128) :
    Hand.iblk m c 4 Hand.tFirst (ix2 u f) = m ((c.tc : Thread nD τ).loc main_arg3) (ix1 f) := by
  obtain ⟨_, _, _, _, _, _, _, _, _, _, _, _, _, _⟩ := idx_facts Hand.tFirst
  show Hand.V m c main_call0_v0 (((cfg0.win 4).blk Hand.tFirst).view.emb (ix2 u f)) = _
  rw [V_row1]
  refine (congrArg _ (?_ : ((cfg0.win 4).blk Hand.tFirst).view.emb (ix2 u f) = ix2 u f)).trans
    (shapeCast_a_1a_apply _ shapeCasts_S128_S1x128 u f)
  funext a; apply Fin.ext
  match a with
  | ⟨0, _⟩ => show win0_4.index Hand.tFirst (0 : Fin 2) * 1 + 1 * u.val = u.val; omega
  | ⟨1, _⟩ => show win0_4.index Hand.tFirst (1 : Fin 2) * 128 + 1 * f.val = f.val; omega

/-- Window 6's one block is the bias vector laid out as one row. -/
theorem iblk6_apply (c : Dev nD) (u : Fin 1) (f : Fin 64) :
    Hand.iblk m c 6 Hand.tFirst (ix2 u f) = m ((c.tc : Thread nD τ).loc main_arg5) (ix1 f) := by
  obtain ⟨_, _, _, _, _, _, _, _, _, _, _, _, _, _⟩ := idx_facts Hand.tFirst
  show Hand.V m c main_call0_v1 (((cfg0.win 6).blk Hand.tFirst).view.emb (ix2 u f)) = _
  rw [V_row2]
  refine (congrArg _ (?_ : ((cfg0.win 6).blk Hand.tFirst).view.emb (ix2 u f) = ix2 u f)).trans
    (shapeCast_a_1a_apply _ shapeCasts_S64_S1x64 u f)
  funext a; apply Fin.ext
  match a with
  | ⟨0, _⟩ => show win0_6.index Hand.tFirst (0 : Fin 2) * 1 + 1 * u.val = u.val; omega
  | ⟨1, _⟩ => show win0_6.index Hand.tFirst (1 : Fin 2) * 64 + 1 * f.val = f.val; omega

/-- The row window's block at point t is rows [128 t, 128 t + 128) of P: row a of the block is row r = 128 t + a. -/
theorem iblk1_apply (c : Dev nD) (t : Fin cfg0.N) (a : Fin 128) (j : Fin 1024) (r : Fin 1024)
    (hr : r.val = 128 * t.val + a.val) :
    Hand.iblk m c 1 t (ix2 a j) = m ((c.tc : Thread nD τ).loc main_arg1) (ix2 r j) := by
  obtain ⟨_, _, _, _, _, _, _, _, _, _, _, _, _, _⟩ := idx_facts t
  show Hand.V m c main_arg1 (((cfg0.win 1).blk t).view.emb (ix2 a j)) = _
  rw [V_arg1]
  refine congrArg _ ?_
  funext b; apply Fin.ext
  match b with
  | ⟨0, _⟩ => show win0_1.index t (0 : Fin 2) * 128 + 1 * a.val = r.val; omega
  | ⟨1, _⟩ => show win0_1.index t (1 : Fin 2) * 1024 + 1 * j.val = j.val; omega

/-- The column window's block at point t is columns [128 t, 128 t + 128) of P: column b of the block is column
    r = 128 t + b. -/
theorem iblk2_apply (c : Dev nD) (t : Fin cfg0.N) (i : Fin 1024) (b : Fin 128) (r : Fin 1024)
    (hr : r.val = 128 * t.val + b.val) :
    Hand.iblk m c 2 t (ix2 i b) = m ((c.tc : Thread nD τ).loc main_arg1) (ix2 i r) := by
  obtain ⟨_, _, _, _, _, _, _, _, _, _, _, _, _, _⟩ := idx_facts t
  show Hand.V m c main_arg1 (((cfg0.win 2).blk t).view.emb (ix2 i b)) = _
  rw [V_arg1]
  refine congrArg _ ?_
  funext d; apply Fin.ext
  match d with
  | ⟨0, _⟩ => show win0_2.index t (0 : Fin 2) * 1024 + 1 * i.val = i.val; omega
  | ⟨1, _⟩ => show win0_2.index t (1 : Fin 2) * 128 + 1 * b.val = r.val; omega

end Cert.KernelIdeal.HandValue

end
-- ==== Proof.KI.ValueB.lean ====
/-
  One block of the adjacency at an index, at the extended reals.

  At grid point t the body stores, at row a of the block and column j, σ(δ + (R a j + C j a) / 2): R the row block and C
  the column block of P, δ the Kronecker delta of (128 t + a, j), which the body computes on 32-bit words from two
  coordinate vectors; the numbers stay below 2048, so the words compare as the numbers do. The constants 1.0 and 0.5
  denote 1 and the real 1/2.
-/
import proofs.«135578_g23476291240112_cont_8to1_1555_6_alg».proof.Proof.KI.Kit
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

/-- The pattern of 1.0 denotes 1. -/
theorem ofBits_one : Ideal.ofBits .f32 0x3F800000#32 = 1 := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- Row 128 t + a of the whole matrix against column j, compared as 32-bit words: the numbers are below 2048, so the
    words are equal exactly when the numbers are. -/
theorem diag_word (a t j : Nat) (ha : a < 128) (ht : t < 8) (hj : j < 1024) :
    IntOp.cmpi .eq (IntOp.addi (BitVec.ofNat 32 a) (IntOp.muli (BitVec.ofNat 32 t) 128#32)) (BitVec.ofNat 32 j)
      = if 128 * t + a = j then 1#1 else 0#1 := by
  unfold IntOp.cmpi IntOp.addi IntOp.muli
  have h1 : BitVec.ofNat 32 a + BitVec.ofNat 32 t * 128#32 = BitVec.ofNat 32 (128 * t + a) := by
    apply BitVec.eq_of_toNat_eq
    simp only [BitVec.toNat_add, BitVec.toNat_mul, BitVec.toNat_ofNat]
    omega
  show BitVec.ofBool (BitVec.ofNat 32 a + BitVec.ofNat 32 t * 128#32 == BitVec.ofNat 32 j) = _
  rw [h1]
  by_cases h : 128 * t + a = j
  · rw [if_pos h, h]; simp
  · rw [if_neg h]
    have : ¬ (BitVec.ofNat 32 (128 * t + a) = BitVec.ofNat 32 j) := by
      intro hh
      have := congrArg BitVec.toNat hh
      simp only [BitVec.toNat_ofNat] at this
      omega
    rw [beq_eq_false_iff_ne.mpr this]; rfl

/-- One block of the adjacency at an index: at grid point t, row a of the block and column j, the logistic function
    of the Kronecker delta of (128 t + a, j) plus half the sum of the row block's entry (a, j) and the column
    block's entry (j, a). -/
theorem pay1_apply (i : grid0.Coords) (v9 : Vec Ideal S128x1024 .f32) (v10 : Vec Ideal S1024x128 .f32) (a : Fin 128) (j : Fin 1024) :
    k0_pay1 (F := Ideal) i v9 v10 (ix2 a j)
      = Ideal.logistic ((if 128 * (i 0).val + a.val = j.val then (1 : EReal) else 0)
          + ((1 / 2 : ℝ) : EReal) * (v9 (ix2 a j) + v10 (ix2 j a))) := by
  have hi : (i 0).val < 8 := (i 0).isLt
  unfold k0_pay1
  rw [shapeCast_self]
  show Ideal.logistic (Scalar.select (IntOp.cmpi .eq (IntOp.addi (iota .tc S128x1024 32 [0] _ (ix2 a j))
        (IntOp.muli (BitVec.ofNat 32 (i 0).val) 128#32)) (iota .tc S128x1024 32 [1] _ (ix2 a j)))
      (Ideal.ofBits .f32 0x3F800000#32) (Ideal.ofBits .f32 0x00000000#32)
      + Ideal.ofBits .f32 0x3F000000#32 * (v9 (ix2 a j) + transpose S128x1024 [1, 0] v10 _ (ix2 a j))) = _
  rw [iota_single_apply, iota_single_apply, transpose_ix2_apply]
  show Ideal.logistic (Scalar.select (IntOp.cmpi .eq (IntOp.addi (BitVec.ofNat 32 a.val)
        (IntOp.muli (BitVec.ofNat 32 (i 0).val) 128#32)) (BitVec.ofNat 32 j.val))
      (Ideal.ofBits .f32 0x3F800000#32) (Ideal.ofBits .f32 0x00000000#32)
      + Ideal.ofBits .f32 0x3F000000#32 * (v9 (ix2 a j) + v10 (ix2 j a))) = _
  rw [diag_word a.val (i 0).val j.val a.isLt hi j.isLt, ofBits_one, Ideal.ofBits_zero_f32, ofBits_half]
  by_cases h : 128 * (i 0).val + a.val = j.val
  · rw [if_pos h, if_pos h, select_one]
  · rw [if_neg h, if_neg h, select_zero]

end Cert.KernelIdeal.HandValue

end
-- ==== Proof.Spec.lean ====
/-
  The mathematics both programs compute, over the extended reals, index by index.

  A graph on 1024 nodes with adjacency  A = σ(I + (P + Pᵀ)/2)  (σ the logistic function; A is symmetric and, for
  finite P, has entries in (0, 1)), normalised symmetrically by the degrees:  Â i j = A i j · d_j^(-1/2) · d_i^(-1/2),
  d_j = Σ_i A i j the column sums, d_i = Σ_j A i j the row sums (equal, A being symmetric). Two graph-convolution
  layers:  h = max(Â (x W₁) + b₁, 0),  out = Â (h W₂) + b₂.
-/
import Idealize.ShloMosaic.PureOps.Ideal
import Idealize.ShloMosaic.Lib.ValueIdx

noncomputable section

namespace Cert.Spec

open Idealize.ShloMosaic Idealize.ShloMosaic.ValueIdx

/-- A matrix of extended reals over literal extents. -/
abbrev Mat (a b : Nat) : Type := (⟨2, ![a, b]⟩ : Shape).Idx → EReal
/-- A vector of extended reals over a literal extent. -/
abbrev Vect (a : Nat) : Type := (⟨1, ![a]⟩ : Shape).Idx → EReal

/-- The adjacency  A i j = σ(δ i j + (P i j + P j i) / 2). -/
def adj (P : Mat 1024 1024) (i j : Fin 1024) : EReal :=
  Ideal.logistic ((if i = j then (1 : EReal) else 0) + ((1 / 2 : ℝ) : EReal) * (P (ix2 i j) + P (ix2 j i)))

/-- Column sums  Σ_i A i j. -/
def colsum (P : Mat 1024 1024) (j : Fin 1024) : EReal := ∑ i : Fin 1024, adj P i j
/-- Row sums  Σ_j A i j. -/
def rowsum (P : Mat 1024 1024) (i : Fin 1024) : EReal := ∑ j : Fin 1024, adj P i j

/-- The normalised adjacency  Â i j = A i j · colsum_j^(-1/2) · rowsum_i^(-1/2). -/
def ahat (P : Mat 1024 1024) (i j : Fin 1024) : EReal :=
  adj P i j * Ideal.rsqrt (colsum P j) * Ideal.rsqrt (rowsum P i)

/-- A dense product  (x W) i f = Σ_k x i k · W k f. -/
def mm {a k b : Nat} (x : Mat a k) (W : Mat k b) (i : Fin a) (f : Fin b) : EReal :=
  ∑ t : Fin k, x (ix2 i t) * W (ix2 t f)

/-- One propagation  (Â z) i f + b f. -/
def prop {d : Nat} (P : Mat 1024 1024) (z : Fin 1024 → Fin d → EReal) (b : Vect d) (i : Fin 1024) (f : Fin d) : EReal :=
  (∑ j : Fin 1024, ahat P i j * z j f) + b (ix1 f)

/-- The hidden layer  h = max(Â (x W₁) + b₁, 0). -/
def hid (x : Mat 1024 128) (P : Mat 1024 1024) (W1 : Mat 128 128) (b1 : Vect 128) (i : Fin 1024) (f : Fin 128) : EReal :=
  max (prop P (mm x W1) b1 i f) 0

/-- The hidden layer as a matrix. -/
def hidM (x : Mat 1024 128) (P : Mat 1024 1024) (W1 : Mat 128 128) (b1 : Vect 128) : Mat 1024 128 :=
  fun idx => hid x P W1 b1 (idx 0) (idx 1)

/-- The result  out = Â (h W₂) + b₂, as a matrix over its index. -/
def out (x : Mat 1024 128) (P : Mat 1024 1024) (W1 : Mat 128 128) (b1 : Vect 128) (W2 : Mat 128 64) (b2 : Vect 64) : Mat 1024 64 :=
  fun idx => prop P (mm (hidM x P W1 b1) W2) b2 (idx 0) (idx 1)

end Cert.Spec

end
-- ==== Proof.KI.ValueC.lean ====
/-
  The last point's payload against the specification, at the extended reals.

  From the whole 1024 × 1024 scratch A the body takes the column sums and the row sums, scales entry (i, k) by the
  reciprocal roots of column k's and row i's sum, and runs the two layers as four dense products into zero accumulators:
  Â (x W₁) + b₁, its maximum with 0, then Â (h W₂) + b₂. Each operation is read at an index — a lane sum as the sum over
  the reduced coordinate, a keepdims cast and a broadcast as the operand at the kept coordinate, a dense product as the
  sum over the contracted coordinate — and the nested sums are the specification's term by term once A is the adjacency.
-/
import proofs.«135578_g23476291240112_cont_8to1_1555_6_alg».proof.Proof.KI.Kit
import proofs.«135578_g23476291240112_cont_8to1_1555_6_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

/-! ## Operations read at an index -/

/-- A plain product of an m × k by a k × n matrix into the zero accumulator (contracting the left operand's axis 1
    with the right operand's axis 0), read at an index, is the sum over the contracted coordinate of the products of
    the entries. -/
theorem matmul_plain_apply {m k n : Nat} {φ₁ φ₂ : FTy}
    (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![m, k]⟩ φ₁) (B : FVec Ideal ⟨2, ![k, n]⟩ φ₂)
    (a : Fin m) (b : Fin n) :
    matmul D prec A B (constant (F := Ideal) ⟨2, ![m, n]⟩ .f32 0x00000000#32) (ix2 a b)
      = ∑ c : Fin k, A (ix2 a c) * B (ix2 c b) := by
  show FloatOps.matmul D prec A B (constant (F := Ideal) ⟨2, ![m, n]⟩ .f32 0x00000000#32) (ix2 a b) = _
  obtain ⟨lc, rc, ln, rn, lb, rb, wf⟩ := D
  simp only at hlc hrc hln hrn hlb hrb
  subst hlc hrc hln hrn hlb hrb
  rw [Ideal.matmul_constant_zero_apply,
    ← Equiv.sum_comp (contrEquiv1 (⟨[1], [0], [0], [1], [], [], wf⟩ : DotDims _ _ _) k rfl rfl).symm]
  refine Finset.sum_congr rfl fun c _ => ?_
  have c2 := contrEquiv1_symm_val
    (⟨[1], [0], [0], [1], [], [], wf⟩ : DotDims ⟨2, ![m, k]⟩ ⟨2, ![k, n]⟩ ⟨2, ![m, n]⟩) k rfl rfl c
  have l2 : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A sum over the rows: the reduction of an a × b matrix along axis 0, read at column j. -/
theorem reduce_axis0_apply {a b : Nat} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src ?_
  funext c; apply Fin.ext
  match c with
  | ⟨0, _⟩ => rfl
  | ⟨1, _⟩ => rfl

/-- A sum over the columns: the reduction of an a × b matrix along axis 1, read at row i. -/
theorem reduce_axis1_apply {a b : Nat} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  refine Finset.sum_congr rfl fun r _ => congrArg src ?_
  funext c; apply Fin.ext
  match c with
  | ⟨0, _⟩ => rfl
  | ⟨1, _⟩ => rfl

/-- A vector of length a cast to an a × 1 column reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (i, k), the column at (i, 0). -/
theorem broadcastTo_a1_ab_apply {α : Type} {a b : Nat} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-! ## The last point's payload, piece by piece -/

section Pay2

variable (A : FVec Ideal S1024x1024 .f32) (x : FVec Ideal S1024x128 .f32) (W1 : FVec Ideal S128x128 .f32)
  (b1r : FVec Ideal S1x128 .f32) (W2 : FVec Ideal S128x64 .f32) (b2r : FVec Ideal S1x64 .f32)

/-- The column sums, as the payload reduces them. -/
def colS : FVec Ideal S1024 .f32 :=
  multiReduction (F := Ideal) .add [0] S1024 A 0x00000000#32 reduces_S1024x1024_S1024 (.inl rfl) rfl
/-- The row sums, as the payload reduces them. -/
def rowS : FVec Ideal S1024 .f32 :=
  multiReduction (F := Ideal) .add [1] S1024 A 0x00000000#32 reduces_S1024x1024_S1024_2 (.inl rfl) rfl

theorem colS_apply (k : Fin 1024) : colS A (ix1 k) = ∑ r : Fin 1024, A (ix2 r k) :=
  reduce_axis0_apply A _ _ _ _ k
theorem rowS_apply (i : Fin 1024) : rowS A (ix1 i) = ∑ c : Fin 1024, A (ix2 i c) :=
  reduce_axis1_apply A _ _ _ _ i

/-- The normalised matrix, as the payload builds it: each entry times the reciprocal root of its column's sum times
    the reciprocal root of its row's sum. -/
def ahatV : FVec Ideal S1024x1024 .f32 :=
  mulf (mulf A (broadcastTo S1024x1024 (rsqrt (shapeCast S1x1024 (colS A) shapeCasts_S1024_S1x1024)) broadcasts_S1x1024_S1024x1024))
    (broadcastTo S1024x1024 (rsqrt (shapeCast S1024x1 (rowS A) shapeCasts_S1024_S1024x1)) broadcasts_S1024x1_S1024x1024)

theorem ahatV_apply (i k : Fin 1024) :
    ahatV A (ix2 i k)
      = A (ix2 i k) * Ideal.rsqrt (∑ r : Fin 1024, A (ix2 r k)) * Ideal.rsqrt (∑ c : Fin 1024, A (ix2 i c)) := by
  unfold ahatV
  rw [mulf_apply, mulf_apply, broadcastTo_1b_ab_apply, broadcastTo_a1_ab_apply]
  show A (ix2 i k) * Ideal.rsqrt (shapeCast S1x1024 (colS A) shapeCasts_S1024_S1x1024 (ix2 (0 : Fin 1) k))
      * Ideal.rsqrt (shapeCast S1024x1 (rowS A) shapeCasts_S1024_S1024x1 (ix2 i (0 : Fin 1))) = _
  rw [shapeCast_a_1a_apply, shapeCast_a_a1_apply, colS_apply, rowS_apply]

/-- The first dense product x W₁. -/
def xwV : FVec Ideal S1024x128 .f32 :=
  matmul dot_S1024x128_S128x128_S1024x128_1_0_0_1_n_n none x W1 (constant (F := Ideal) S1024x128 .f32 0x00000000#32)

theorem xwV_apply (j : Fin 1024) (t : Fin 128) : xwV x W1 (ix2 j t) = ∑ s : Fin 128, x (ix2 j s) * W1 (ix2 s t) :=
  matmul_plain_apply dot_S1024x128_S128x128_S1024x128_1_0_0_1_n_n rfl rfl rfl rfl rfl rfl none x W1 j t

/-- The hidden layer, as the payload builds it. -/
def hidV : FVec Ideal S1024x128 .f32 :=
  maximumf
    (addf (matmul dot_S1024x1024_S1024x128_S1024x128_1_0_0_1_n_n none (ahatV A) (xwV x W1)
        (constant (F := Ideal) S1024x128 .f32 0x00000000#32))
      (broadcastTo S1024x128 (shapeCast S1x128 b1r shapeCasts_S1x128_S1x128) broadcasts_S1x128_S1024x128))
    (broadcast S1024x128 (Scalar.ofBits (F := Ideal) .f32 0x00000000#32))

theorem hidV_apply (k : Fin 1024) (t : Fin 128) :
    hidV A x W1 b1r (ix2 k t)
      = max ((∑ j : Fin 1024, ahatV A (ix2 k j) * xwV x W1 (ix2 j t)) + b1r (ix2 (0 : Fin 1) t)) 0 := by
  unfold hidV
  rw [maximumf_apply, addf_apply, broadcastTo_1b_ab_apply, shapeCast_self, broadcast_apply]
  show max (matmul dot_S1024x1024_S1024x128_S1024x128_1_0_0_1_n_n none (ahatV A) (xwV x W1)
        (constant (F := Ideal) S1024x128 .f32 0x00000000#32) (ix2 k t) + b1r (ix2 (0 : Fin 1) t))
      (Ideal.ofBits .f32 0x00000000#32) = _
  rw [matmul_plain_apply dot_S1024x1024_S1024x128_S1024x128_1_0_0_1_n_n rfl rfl rfl rfl rfl rfl none (ahatV A) (xwV x W1) k t,
    Ideal.ofBits_zero_f32]

/-- The second dense product h W₂. -/
def hwV : FVec Ideal S1024x64 .f32 :=
  matmul dot_S1024x128_S128x64_S1024x64_1_0_0_1_n_n none (hidV A x W1 b1r) W2 (constant (F := Ideal) S1024x64 .f32 0x00000000#32)

theorem hwV_apply (k : Fin 1024) (f : Fin 64) :
    hwV A x W1 b1r W2 (ix2 k f) = ∑ t : Fin 128, hidV A x W1 b1r (ix2 k t) * W2 (ix2 t f) :=
  matmul_plain_apply dot_S1024x128_S128x64_S1024x64_1_0_0_1_n_n rfl rfl rfl rfl rfl rfl none (hidV A x W1 b1r) W2 k f

/-- The result, as the payload builds it. -/
def outV : FVec Ideal S1024x64 .f32 :=
  addf (matmul dot_S1024x1024_S1024x64_S1024x64_1_0_0_1_n_n none (ahatV A) (hwV A x W1 b1r W2)
      (constant (F := Ideal) S1024x64 .f32 0x00000000#32))
    (broadcastTo S1024x64 (shapeCast S1x64 b2r shapeCasts_S1x64_S1x64) broadcasts_S1x64_S1024x64)

theorem outV_apply (i : Fin 1024) (f : Fin 64) :
    outV A x W1 b1r W2 b2r (ix2 i f)
      = (∑ k : Fin 1024, ahatV A (ix2 i k) * hwV A x W1 b1r W2 (ix2 k f)) + b2r (ix2 (0 : Fin 1) f) := by
  unfold outV
  rw [addf_apply, broadcastTo_1b_ab_apply, shapeCast_self,
    matmul_plain_apply dot_S1024x1024_S1024x64_S1024x64_1_0_0_1_n_n rfl rfl rfl rfl rfl rfl none (ahatV A) (hwV A x W1 b1r W2) i f]

/-- The printed payload is that chain. -/
theorem pay2_eq : k0_pay2 (F := Ideal) A x W1 b1r W2 b2r = outV A x W1 b1r W2 b2r := rfl

end Pay2

/-! ## The payload against the specification -/

/-- With the adjacency for the scratch's contents and the arguments for the loaded blocks, the last point's payload
    is the specification's result: the same nested sums, index by index. -/
theorem pay2_spec (x : Spec.Mat 1024 128) (P : Spec.Mat 1024 1024) (W1 : Spec.Mat 128 128) (b1 : Spec.Vect 128)
    (W2 : Spec.Mat 128 64) (b2 : Spec.Vect 64)
    (A : FVec Ideal S1024x1024 .f32) (xv : FVec Ideal S1024x128 .f32) (W1v : FVec Ideal S128x128 .f32)
    (b1r : FVec Ideal S1x128 .f32) (W2v : FVec Ideal S128x64 .f32) (b2r : FVec Ideal S1x64 .f32)
    (hA : ∀ r j : Fin 1024, A (ix2 r j) = Spec.adj P r j)
    (hx : ∀ (i : Fin 1024) (k : Fin 128), xv (ix2 i k) = x (ix2 i k))
    (hW1 : ∀ (s t : Fin 128), W1v (ix2 s t) = W1 (ix2 s t))
    (hb1 : ∀ (u : Fin 1) (t : Fin 128), b1r (ix2 u t) = b1 (ix1 t))
    (hW2 : ∀ (t : Fin 128) (f : Fin 64), W2v (ix2 t f) = W2 (ix2 t f))
    (hb2 : ∀ (u : Fin 1) (f : Fin 64), b2r (ix2 u f) = b2 (ix1 f)) :
    k0_pay2 (F := Ideal) A xv W1v b1r W2v b2r = Spec.out x P W1 b1 W2 b2 := by
  have hahat : ∀ i k : Fin 1024, ahatV A (ix2 i k) = Spec.ahat P i k := by
    intro i k
    rw [ahatV_apply, hA]
    unfold Spec.ahat Spec.colsum Spec.rowsum
    rw [Finset.sum_congr rfl (fun r _ => hA r k), Finset.sum_congr rfl (fun c _ => hA i c)]
  have hxw : ∀ (j : Fin 1024) (t : Fin 128), xwV xv W1v (ix2 j t) = Spec.mm x W1 j t := by
    intro j t
    rw [xwV_apply]
    unfold Spec.mm
    exact Finset.sum_congr rfl fun s _ => by rw [hx, hW1]
  have hhid : ∀ (k : Fin 1024) (t : Fin 128), hidV A xv W1v b1r (ix2 k t) = Spec.hid x P W1 b1 k t := by
    intro k t
    rw [hidV_apply, hb1]
    unfold Spec.hid Spec.prop
    rw [Finset.sum_congr rfl (fun j _ => by rw [hahat, hxw] : ∀ j ∈ Finset.univ,
      ahatV A (ix2 k j) * xwV xv W1v (ix2 j t) = Spec.ahat P k j * Spec.mm x W1 j t)]
  have hhw : ∀ (k : Fin 1024) (f : Fin 64),
      hwV A xv W1v b1r W2v (ix2 k f) = Spec.mm (Spec.hidM x P W1 b1) W2 k f := by
    intro k f
    rw [hwV_apply]
    unfold Spec.mm
    exact Finset.sum_congr rfl fun t _ => by rw [hhid, hW2]; rfl
  funext idx
  obtain ⟨i, f, rfl⟩ : ∃ (i : Fin 1024) (f : Fin 64), idx = ix2 i f := ⟨idx 0, idx 1, eq_ix2 idx⟩
  rw [pay2_eq, outV_apply, hb2]
  show _ = Spec.prop P (Spec.mm (Spec.hidM x P W1 b1) W2) b2 i f
  unfold Spec.prop
  rw [Finset.sum_congr rfl (fun k _ => by rw [hahat, hhw] : ∀ k ∈ Finset.univ,
    ahatV A (ix2 i k) * hwV A xv W1v b1r W2v (ix2 k f) = Spec.ahat P i k * Spec.mm (Spec.hidM x P W1 b1) W2 k f)]

end Cert.KernelIdeal.HandValue

end
-- ==== Proof.KI.Value.lean ====
/-
  The value the last grid point leaves in the output block is the specification's result of the six arguments.

  The scratch after the last store holds the adjacency σ(I + (P + Pᵀ)/2) entry by entry — row r is row r mod 128 of the
  block point r / 128 computes from rows and columns [128 (r / 128), 128 (r / 128) + 128) of P — and the blocks the last
  point loads are x, W₁, b₁ as a row, W₂, b₂ as a row; the payload over those is the specification's two layers.
-/
import proofs.«135578_g23476291240112_cont_8to1_1555_6_alg».proof.Proof.KI.ValueA
import proofs.«135578_g23476291240112_cont_8to1_1555_6_alg».proof.Proof.KI.ValueB
import proofs.«135578_g23476291240112_cont_8to1_1555_6_alg».proof.Proof.KI.ValueC

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The adjacency as the scratch holds it after the last store is the specification's, entry by entry: row r is row
    r mod 128 of the block point r / 128 computes, whose Kronecker delta is that of (r, j), whose row-block entry is
    P r j and whose column-block entry, transposed, is P j r. -/
theorem Afull_apply (c : Dev nD) (r j : Fin 1024) :
    Hand.Afull m c (ix2 r j) = Spec.adj (m ((c.tc : Thread nD τ).loc main_arg1)) r j := by
  have hp : (Hand.ptOf r).val = r.val / 128 := rfl
  have hrow : r.val = 128 * (Hand.ptOf r).val + r.val % 128 := by rw [hp]; omega
  show k0_pay1 (F := Ideal) (grid0.coords (Hand.ptOf r)) (Hand.iblk m c 1 (Hand.ptOf r)) (Hand.iblk m c 2 (Hand.ptOf r))
      (ix2 (⟨r.val % 128, Nat.mod_lt _ (by decide)⟩ : Fin 128) j) = _
  rw [pay1_apply, coords_val, iblk1_apply m c (Hand.ptOf r) _ j r hrow, iblk2_apply m c (Hand.ptOf r) j _ r hrow]
  unfold Spec.adj
  have hc : (128 * (Hand.ptOf r).val + r.val % 128 = j.val) ↔ r = j :=
    ⟨fun h => Fin.ext (by omega), fun h => by rw [← h]; omega⟩
  rw [if_congr hc (rfl : (1 : EReal) = 1) (rfl : (0 : EReal) = 0)]

/-- What the last point stores into the output block is the specification's result of the six arguments. -/
theorem outVal_eq (m : (ℓ : Loc nD τ sig) → Buf (Elt Ideal) ℓ) (c : Dev nD) :
    Cert.KernelIdeal.Hand.outVal (F := Ideal) m c
      = Cert.Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Hand.outVal
  exact pay2_spec _ _ _ _ _ _ (Hand.Afull m c) (Hand.iblk m c 0 Hand.tFirst) (Hand.iblk m c 3 Hand.tFirst)
    (Hand.iblk m c 4 Hand.tFirst) (Hand.iblk m c 5 Hand.tFirst) (Hand.iblk m c 6 Hand.tFirst)
    (Afull_apply m c) (iblk0_apply m c) (iblk3_apply m c) (iblk4_apply m c) (iblk5_apply m c) (iblk6_apply m c)

end Cert.KernelIdeal.HandValue

end
-- ==== Proof.Ref.Ops.lean ====
/- The reference program's host operations in program order, each call of a module-local function replaced by the callee's
   operations over that call's buffer record, cut into 14 consecutive segments; per segment the list of the buffers it
   writes and the table of its operations' buffer-set facts. -/
import proofs.«135578_g23476291240112_cont_8to1_1555_6_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Segment 0: 24 operations. -/
abbrev seg0 : List (HloOp τ sig (Elt F)) :=
  [ StableHlo.nullary main_v0 (iotaInDim S1024x1024 32 0),
    StableHlo.nullary main_v1 (iotaInDim S1024x1024 32 1),
    StableHlo.nullary main_c (constantI S_ 32 0#32),
    StableHlo.unary main_c main_v2 (broadcastInDim S1024x1024 ![] bcast_S_S1024x1024 : (⟨S_, .i32⟩ : BufTy).Contents (Elt F) → (⟨S1024x1024, .i32⟩ : BufTy).Contents (Elt F)),
    StableHlo.binary main_v0 main_v2 main_v3 (addi : (⟨S1024x1024, .i32⟩ : BufTy).Contents (Elt F) → (⟨S1024x1024, .i32⟩ : BufTy).Contents (Elt F) → (⟨S1024x1024, .i32⟩ : BufTy).Contents (Elt F)),
    StableHlo.binary main_v3 main_v1 main_v4 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v4 main_v5 (uitofp .f32 : (⟨S1024x1024, .i1⟩ : BufTy).Contents (Elt F) → (⟨S1024x1024, .f32⟩ : BufTy).Contents (Elt F)),
    StableHlo.binary main_v5 main_arg1 main_v6 (addf : (⟨S1024x1024, .f32⟩ : BufTy).Contents (Elt F) → (⟨S1024x1024, .f32⟩ : BufTy).Contents (Elt F) → (⟨S1024x1024, .f32⟩ : BufTy).Contents (Elt F)),
    StableHlo.unary main_v6 main_v7 ((transpose S1024x1024 [1, 0] · transposes_S1024x1024_S1024x1024_1_0) : (⟨S1024x1024, .f32⟩ : BufTy).Contents (Elt F) → (⟨S1024x1024, .f32⟩ : BufTy).Contents (Elt F)),
    StableHlo.binary main_v6 main_v7 main_v8 (addf : (⟨S1024x1024, .f32⟩ : BufTy).Contents (Elt F) → (⟨S1024x1024, .f32⟩ : BufTy).Contents (Elt F) → (⟨S1024x1024, .f32⟩ : BufTy).Contents (Elt F)),
    StableHlo.nullary main_cst (constant S_ .f32 0x40000000#32),
    StableHlo.unary main_cst main_v9 (broadcastInDim S1024x1024 ![] bcast_S_S1024x1024 : (⟨S_, .f32⟩ : BufTy).Contents (Elt F) → (⟨S1024x1024, .f32⟩ : BufTy).Contents (Elt F)),
    StableHlo.binary main_v8 main_v9 main_v10 (Host.divf : (⟨S1024x1024, .f32⟩ : BufTy).Contents (Elt F) → (⟨S1024x1024, .f32⟩ : BufTy).Contents (Elt F) → (⟨S1024x1024, .f32⟩ : BufTy).Contents (Elt F)),
    StableHlo.unary main_v10 main_v11 (Host.negf : (⟨S1024x1024, .f32⟩ : BufTy).Contents (Elt F) → (⟨S1024x1024, .f32⟩ : BufTy).Contents (Elt F)),
    StableHlo.unary main_v11 main_v12 (Host.exp : (⟨S1024x1024, .f32⟩ : BufTy).Contents (Elt F) → (⟨S1024x1024, .f32⟩ : BufTy).Contents (Elt F)),
    StableHlo.nullary main_cst_0 (constant S_ .f32 0x3F800000#32),
    StableHlo.unary main_cst_0 main_v13 (broadcastInDim S1024x1024 ![] bcast_S_S1024x1024 : (⟨S_, .f32⟩ : BufTy).Contents (Elt F) → (⟨S1024x1024, .f32⟩ : BufTy).Contents (Elt F)),
    StableHlo.binary main_v13 main_v12 main_v14 (addf : (⟨S1024x1024, .f32⟩ : BufTy).Contents (Elt F) → (⟨S1024x1024, .f32⟩ : BufTy).Contents (Elt F) → (⟨S1024x1024, .f32⟩ : BufTy).Contents (Elt F)),
    StableHlo.nullary main_cst_1 (constant S_ .f32 0x3F800000#32),
    StableHlo.unary main_cst_1 main_v15 (broadcastInDim S1024x1024 ![] bcast_S_S1024x1024 : (⟨S_, .f32⟩ : BufTy).Contents (Elt F) → (⟨S1024x1024, .f32⟩ : BufTy).Contents (Elt F)),
    StableHlo.binary main_v15 main_v14 main_v16 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_2 (constant S_ .f32 0x00000000#32),
    StableHlo.unary main_cst_2 main_v17 (broadcastInDim S1024x1024 ![] bcast_S_S1024x1024 : (⟨S_, .f32⟩ : BufTy).Contents (Elt F) → (⟨S1024x1024, .f32⟩ : BufTy).Contents (Elt F)),
    StableHlo.binary main_v16 main_v17 main_v18 (cmpf .une : (⟨S1024x1024, .f32⟩ : BufTy).Contents (Elt F) → (⟨S1024x1024, .f32⟩ : BufTy).Contents (Elt F) → (⟨S1024x1024, .i1⟩ : BufTy).Contents (Elt F)) ]

/-- The buffers segment 0 writes, in order. -/
abbrev seg0_w : List (Ref sig .tc) :=
  [main_v0, main_v1, main_c, main_v2, main_v3, main_v4, main_v5, main_v6, main_v7, main_v8, main_cst, main_v9, main_v10, main_v11, main_v12, main_cst_0, main_v13, main_v14, main_cst_1, main_v15, main_v16, main_cst_2, main_v17, main_v18]

set_option maxRecDepth 8192 in
theorem seg0_sub : (seg0 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
/-- Segment 1: 25 operations. -/
abbrev seg1 : List (HloOp τ sig (Elt F)) :=
  [ StableHlo.TRef.reshape (StableHlo.TRef.of (T := ⟨S1024x1024, .i1⟩) main_v18) main_call0.v0 rfl shapeCasts_S1024x1024_S1048576,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![1048576] ![1] ![1048575] ![0] x v reduceWindows_S1048576_S1048576_w1048576s1p1048575_0 h_S_),
    StableHlo.nullary main_c_3 (constantI S_ 32 0#32),
    StableHlo.unary main_c_3 main_v20 (broadcastInDim S1048576 ![] bcast_S_S1048576 : (⟨S_, .i32⟩ : BufTy).Contents (Elt F) → (⟨S1048576, .i32⟩ : BufTy).Contents (Elt F)),
    StableHlo.nullary main_c_4 (constantI S_ 32 0#32),
    StableHlo.TRef.unary (StableHlo.TRef.of (T := ⟨S_, .i32⟩) main_c_4) main_call1.v0 id,
    StableHlo.TRef.unary main_call1.v0 main_call1.v1 (broadcastInDim S1048576 ![] bcast_S_S1048576),
    StableHlo.TRef.binary main_call1.v1 (StableHlo.TRef.of (T := ⟨S1048576, .i32⟩) main_v19) main_call1.v2 maxsi,
    StableHlo.nullary main_c_5 (constantI S_ 32 0#32),
    StableHlo.unary main_c_5 main_v22 (broadcastInDim S1048576 ![] bcast_S_S1048576 : (⟨S_, .i32⟩ : BufTy).Contents (Elt F) → (⟨S1048576, .i32⟩ : BufTy).Contents (Elt F)),
    StableHlo.binary main_v21 main_v22 main_v23 (cmpi .slt : (⟨S1048576, .i32⟩ : BufTy).Contents (Elt F) → (⟨S1048576, .i32⟩ : BufTy).Contents (Elt F) → (⟨S1048576, .i1⟩ : BufTy).Contents (Elt F)),
    StableHlo.nullary main_c_6 (constantI S_ 32 1048576#32),
    StableHlo.unary main_c_6 main_v24 (broadcastInDim S1048576 ![] bcast_S_S1048576 : (⟨S_, .i32⟩ : BufTy).Contents (Elt F) → (⟨S1048576, .i32⟩ : BufTy).Contents (Elt F)),
    StableHlo.binary main_v21 main_v24 main_v25 (addi : (⟨S1048576, .i32⟩ : BufTy).Contents (Elt F) → (⟨S1048576, .i32⟩ : BufTy).Contents (Elt F) → (⟨S1048576, .i32⟩ : BufTy).Contents (Elt F)),
    StableHlo.ternary main_v23 main_v25 main_v21 main_v26 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v26 main_v27 (broadcastInDim S1048576x1 ![0] bcast_S1048576_S1048576x1_0 : (⟨S1048576, .i32⟩ : BufTy).Contents (Elt F) → (⟨S1048576x1, .i32⟩ : BufTy).Contents (Elt F)),
    StableHlo.nullary main_c_7 (constantI S_ 32 1#32),
    StableHlo.unary main_c_7 main_v28 (broadcastInDim S1048576 ![] bcast_S_S1048576 : (⟨S_, .i32⟩ : BufTy).Contents (Elt F) → (⟨S1048576, .i32⟩ : BufTy).Contents (Elt F)),
    StableHlo.ternary main_v20 main_v27 main_v28 main_v29 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (StableHlo.TRef.of (T := ⟨S1048576, .i32⟩) main_v29) main_call2.call0.v0 main_call2.call0.v1 (fun x v => Host.reduceWindow IntOp.addi ![1048576] ![1] ![1048575] ![0] x v reduceWindows_S1048576_S1048576_w1048576s1p1048575_0 h_S_) ]

/-- The buffers segment 1 writes, in order. -/
abbrev seg1_w : List (Ref sig .tc) :=
  [main_call0.v0.ref, main_call0.v1.ref, main_call0.call0.c.ref, main_call0.call0.v0.ref, main_call0.call0.v1.ref, main_c_3, main_v20, main_c_4, main_call1.v0.ref, main_call1.v1.ref, main_call1.v2.ref, main_c_5, main_v22, main_v23, main_c_6, main_v24, main_v25, main_v26, main_v27, main_c_7, main_v28, main_v29, main_call2.call0.c.ref, main_call2.call0.v0.ref, main_call2.call0.v1.ref]

set_option maxRecDepth 8192 in
theorem seg1_sub : (seg1 : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

set_option maxRecDepth 8192 in
/-- Segment 2: 39 operations. -/
abbrev seg2 : List (HloOp τ sig (Elt F)) :=
  [ StableHlo.nullary main_c_8 (constantI S_ 32 1024#32),
    StableHlo.TRef.unary (StableHlo.TRef.of (T := ⟨S_, .i32⟩) main_c_8) main_call3.v0 (broadcastInDim S1048576 ![] bcast_S_S1048576),
    StableHlo.TRef.binary (StableHlo.TRef.of (T := ⟨S1048576, .i32⟩) main_v30) main_call3.v0 main_call3.v1 Host.divsi,
    StableHlo.TRef.unary (StableHlo.TRef.of (T := ⟨S1048576, .i32⟩) main_v30) main_call3.v2 signi,
    StableHlo.TRef.unary (StableHlo.TRef.of (T := ⟨S_, .i32⟩) main_c_8) main_call3.v3 signi,
    StableHlo.TRef.unary main_call3.v3 main_call3.v4 (broadcastInDim S1048576 ![] bcast_S_S1048576),
    StableHlo.TRef.binary main_call3.v2 main_call3.v4 main_call3.v5 (cmpi .ne),
    StableHlo.TRef.unary (StableHlo.TRef.of (T := ⟨S_, .i32⟩) main_c_8) main_call3.v6 (broadcastInDim S1048576 ![] bcast_S_S1048576),
    StableHlo.TRef.binary (StableHlo.TRef.of (T := ⟨S1048576, .i32⟩) main_v30) main_call3.v6 main_call3.v7 Host.remsi,
    StableHlo.TRef.nullary main_call3.c (constantI S_ 32 0#32),
    StableHlo.TRef.unary main_call3.c main_call3.v8 (broadcastInDim S1048576 ![] bcast_S_S1048576),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S1048576 ![] bcast_S_S1048576),
    StableHlo.TRef.binary main_call3.v1 main_call3.v11 main_call3.v12 subi,
    StableHlo.TRef.ternary main_call3.v10 main_call3.v12 main_call3.v1 main_call3.call0.v0 select,
    StableHlo.nullary main_c_9 (constantI S_ 32 1024#32),
    StableHlo.TRef.unary (StableHlo.TRef.of (T := ⟨S_, .i32⟩) main_c_9) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S1048576 ![] bcast_S_S1048576),
    StableHlo.TRef.binary (StableHlo.TRef.of (T := ⟨S1048576, .i32⟩) main_v31) main_call4.v3 main_call4.v4 Host.remsi,
    StableHlo.TRef.nullary main_call4.c_1 (constantI S_ 32 0#32),
    StableHlo.TRef.unary main_call4.c_1 main_call4.v5 (broadcastInDim S1048576 ![] bcast_S_S1048576),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S1048576 ![] bcast_S_S1048576),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S1048576 ![] bcast_S_S1048576),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S1048576 ![] bcast_S_S1048576),
    StableHlo.TRef.binary main_call4.v4 main_call4.v13 main_call4.v14 addi,
    StableHlo.TRef.ternary main_call4.v12 main_call4.v14 main_call4.v4 main_call4.v15 select ]

/-- The buffers segment 2 writes, in order. -/
abbrev seg2_w : List (Ref sig .tc) :=
  [main_c_8, main_call3.v0.ref, main_call3.v1.ref, main_call3.v2.ref, main_call3.v3.ref, main_call3.v4.ref, main_call3.v5.ref, main_call3.v6.ref, main_call3.v7.ref, main_call3.c.ref, main_call3.v8.ref, main_call3.v9.ref, main_call3.v10.ref, main_call3.c_0.ref, main_call3.v11.ref, main_call3.v12.ref, main_call3.call0.v0.ref, main_c_9, main_call4.v0.ref, main_call4.c.ref, main_call4.v1.ref, main_call4.c_0.ref, main_call4.call0.v0.ref, main_call4.v3.ref, main_call4.v4.ref, main_call4.c_1.ref, main_call4.v5.ref, main_call4.v6.ref, main_call4.c_2.ref, main_call4.v7.ref, main_call4.v8.ref, main_call4.c_3.ref, main_call4.v9.ref, main_call4.v10.ref, main_call4.v11.ref, main_call4.v12.ref, main_call4.v13.ref, main_call4.v14.ref, main_call4.v15.ref]

set_option maxRecDepth 8192 in
theorem seg2_sub : (seg2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
/-- Segment 3: 39 operations. -/
abbrev seg3 : List (HloOp τ sig (Elt F)) :=
  [ StableHlo.nullary main_c_10 (constantI S_ 32 1#32),
    StableHlo.TRef.unary (StableHlo.TRef.of (T := ⟨S_, .i32⟩) main_c_10) main_call5.v0 (broadcastInDim S1048576 ![] bcast_S_S1048576),
    StableHlo.TRef.binary (StableHlo.TRef.of (T := ⟨S1048576, .i32⟩) main_v30) main_call5.v0 main_call5.v1 Host.divsi,
    StableHlo.TRef.unary (StableHlo.TRef.of (T := ⟨S1048576, .i32⟩) main_v30) main_call5.v2 signi,
    StableHlo.TRef.unary (StableHlo.TRef.of (T := ⟨S_, .i32⟩) main_c_10) main_call5.v3 signi,
    StableHlo.TRef.unary main_call5.v3 main_call5.v4 (broadcastInDim S1048576 ![] bcast_S_S1048576),
    StableHlo.TRef.binary main_call5.v2 main_call5.v4 main_call5.v5 (cmpi .ne),
    StableHlo.TRef.unary (StableHlo.TRef.of (T := ⟨S_, .i32⟩) main_c_10) main_call5.v6 (broadcastInDim S1048576 ![] bcast_S_S1048576),
    StableHlo.TRef.binary (StableHlo.TRef.of (T := ⟨S1048576, .i32⟩) main_v30) main_call5.v6 main_call5.v7 Host.remsi,
    StableHlo.TRef.nullary main_call5.c (constantI S_ 32 0#32),
    StableHlo.TRef.unary main_call5.c main_call5.v8 (broadcastInDim S1048576 ![] bcast_S_S1048576),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S1048576 ![] bcast_S_S1048576),
    StableHlo.TRef.binary main_call5.v1 main_call5.v11 main_call5.v12 subi,
    StableHlo.TRef.ternary main_call5.v10 main_call5.v12 main_call5.v1 main_call5.call0.v0 select,
    StableHlo.nullary main_c_11 (constantI S_ 32 1024#32),
    StableHlo.TRef.unary (StableHlo.TRef.of (T := ⟨S_, .i32⟩) main_c_11) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1048576 ![] bcast_S_S1048576),
    StableHlo.TRef.binary (StableHlo.TRef.of (T := ⟨S1048576, .i32⟩) main_v33) main_call6.v3 main_call6.v4 Host.remsi,
    StableHlo.TRef.nullary main_call6.c_1 (constantI S_ 32 0#32),
    StableHlo.TRef.unary main_call6.c_1 main_call6.v5 (broadcastInDim S1048576 ![] bcast_S_S1048576),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1048576 ![] bcast_S_S1048576),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S1048576 ![] bcast_S_S1048576),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1048576 ![] bcast_S_S1048576),
    StableHlo.TRef.binary main_call6.v4 main_call6.v13 main_call6.v14 addi,
    StableHlo.TRef.ternary main_call6.v12 main_call6.v14 main_call6.v4 main_call6.v15 select ]

/-- The buffers segment 3 writes, in order. -/
abbrev seg3_w : List (Ref sig .tc) :=
  [main_c_10, main_call5.v0.ref, main_call5.v1.ref, main_call5.v2.ref, main_call5.v3.ref, main_call5.v4.ref, main_call5.v5.ref, main_call5.v6.ref, main_call5.v7.ref, main_call5.c.ref, main_call5.v8.ref, main_call5.v9.ref, main_call5.v10.ref, main_call5.c_0.ref, main_call5.v11.ref, main_call5.v12.ref, main_call5.call0.v0.ref, main_c_11, main_call6.v0.ref, main_call6.c.ref, main_call6.v1.ref, main_call6.c_0.ref, main_call6.call0.v0.ref, main_call6.v3.ref, main_call6.v4.ref, main_call6.c_1.ref, main_call6.v5.ref, main_call6.v6.ref, main_call6.c_2.ref, main_call6.v7.ref, main_call6.v8.ref, main_call6.c_3.ref, main_call6.v9.ref, main_call6.v10.ref, main_call6.v11.ref, main_call6.v12.ref, main_call6.v13.ref, main_call6.v14.ref, main_call6.v15.ref]

set_option maxRecDepth 8192 in
theorem seg3_sub : (seg3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
/-- Segment 4: 15 operations. -/
abbrev seg4 : List (HloOp τ sig (Elt F)) :=
  [ StableHlo.nullary main_v35 (iotaInDim S1048576 32 0),
    StableHlo.unary main_v18 main_v36 ((extui 32 · natLt_1_32) : (⟨S1024x1024, .i1⟩ : BufTy).Contents (Elt F) → (⟨S1024x1024, .i32⟩ : BufTy).Contents (Elt F)),
    StableHlo.nullary main_c_12 (constantI S_ 32 0#32),
    StableHlo.binary main_v36 main_c_12 main_v37 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    StableHlo.unary main_v37 main_v38 (broadcastInDim S1048576 ![] bcast_S_S1048576 : (⟨S_, .i32⟩ : BufTy).Contents (Elt F) → (⟨S1048576, .i32⟩ : BufTy).Contents (Elt F)),
    StableHlo.binary main_v35 main_v38 main_v39 (cmpi .sge : (⟨S1048576, .i32⟩ : BufTy).Contents (Elt F) → (⟨S1048576, .i32⟩ : BufTy).Contents (Elt F) → (⟨S1048576, .i1⟩ : BufTy).Contents (Elt F)),
    StableHlo.nullary main_c_13 (constantI S_ 32 0#32),
    StableHlo.TRef.unary (StableHlo.TRef.of (T := ⟨S_, .i32⟩) main_c_13) main_call7.v0 id,
    StableHlo.TRef.unary main_call7.v0 main_call7.v1 (broadcastInDim S1048576 ![] bcast_S_S1048576),
    StableHlo.TRef.ternary (StableHlo.TRef.of (T := ⟨S1048576, .i1⟩) main_v39) main_call7.v1 (StableHlo.TRef.of (T := ⟨S1048576, .i32⟩) main_v32) main_call7.v2 select,
    StableHlo.nullary main_c_14 (constantI S_ 32 0#32),
    StableHlo.TRef.unary (StableHlo.TRef.of (T := ⟨S_, .i32⟩) main_c_14) main_call8.v0 id,
    StableHlo.TRef.unary main_call8.v0 main_call8.v1 (broadcastInDim S1048576 ![] bcast_S_S1048576),
    StableHlo.TRef.ternary (StableHlo.TRef.of (T := ⟨S1048576, .i1⟩) main_v39) main_call8.v1 (StableHlo.TRef.of (T := ⟨S1048576, .i32⟩) main_v34) main_call8.v2 select,
    StableHlo.unary main_v40 main_v42 (broadcastInDim S1x1048576 ![1] bcast_S1048576_S1x1048576_1 : (⟨S1048576, .i32⟩ : BufTy).Contents (Elt F) → (⟨S1x1048576, .i32⟩ : BufTy).Contents (Elt F)) ]

/-- The buffers segment 4 writes, in order. -/
abbrev seg4_w : List (Ref sig .tc) :=
  [main_v35, main_v36, main_c_12, main_v37, main_v38, main_v39, main_c_13, main_call7.v0.ref, main_call7.v1.ref, main_call7.v2.ref, main_c_14, main_call8.v0.ref, main_call8.v1.ref, main_call8.v2.ref, main_v42]

set_option maxRecDepth 8192 in
theorem seg4_sub : (seg4 : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub ..⟩

set_option maxRecDepth 8192 in
/-- Segment 5: 24 operations. -/
abbrev seg5 : List (HloOp τ sig (Elt F)) :=
  [ StableHlo.unary main_v41 main_v43 (broadcastInDim S1x1048576 ![1] bcast_S1048576_S1x1048576_1 : (⟨S1048576, .i32⟩ : BufTy).Contents (Elt F) → (⟨S1x1048576, .i32⟩ : BufTy).Contents (Elt F)),
    StableHlo.binary main_v42 main_v43 main_v44 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)),
    StableHlo.unary main_v44 main_v45 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v45 main_v46 rfl shapeCasts_S1x1048576_S1048576,
    StableHlo.unary main_v44 main_v47 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v47 main_v48 rfl shapeCasts_S1x1048576_S1048576,
    StableHlo.nullary main_c_15 (constantI S_ 32 0#32),
    StableHlo.unary main_c_15 main_v49 (broadcastInDim S1048576 ![] bcast_S_S1048576 : (⟨S_, .i32⟩ : BufTy).Contents (Elt F) → (⟨S1048576, .i32⟩ : BufTy).Contents (Elt F)),
    StableHlo.binary main_v46 main_v49 main_v50 (cmpi .slt : (⟨S1048576, .i32⟩ : BufTy).Contents (Elt F) → (⟨S1048576, .i32⟩ : BufTy).Contents (Elt F) → (⟨S1048576, .i1⟩ : BufTy).Contents (Elt F)),
    StableHlo.nullary main_c_16 (constantI S_ 32 1024#32),
    StableHlo.unary main_c_16 main_v51 (broadcastInDim S1048576 ![] bcast_S_S1048576 : (⟨S_, .i32⟩ : BufTy).Contents (Elt F) → (⟨S1048576, .i32⟩ : BufTy).Contents (Elt F)),
    StableHlo.binary main_v46 main_v51 main_v52 (addi : (⟨S1048576, .i32⟩ : BufTy).Contents (Elt F) → (⟨S1048576, .i32⟩ : BufTy).Contents (Elt F) → (⟨S1048576, .i32⟩ : BufTy).Contents (Elt F)),
    StableHlo.ternary main_v50 main_v52 main_v46 main_v53 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_17 (constantI S_ 32 0#32),
    StableHlo.unary main_c_17 main_v54 (broadcastInDim S1048576 ![] bcast_S_S1048576 : (⟨S_, .i32⟩ : BufTy).Contents (Elt F) → (⟨S1048576, .i32⟩ : BufTy).Contents (Elt F)),
    StableHlo.binary main_v48 main_v54 main_v55 (cmpi .slt : (⟨S1048576, .i32⟩ : BufTy).Contents (Elt F) → (⟨S1048576, .i32⟩ : BufTy).Contents (Elt F) → (⟨S1048576, .i1⟩ : BufTy).Contents (Elt F)),
    StableHlo.nullary main_c_18 (constantI S_ 32 1024#32),
    StableHlo.unary main_c_18 main_v56 (broadcastInDim S1048576 ![] bcast_S_S1048576 : (⟨S_, .i32⟩ : BufTy).Contents (Elt F) → (⟨S1048576, .i32⟩ : BufTy).Contents (Elt F)),
    StableHlo.binary main_v48 main_v56 main_v57 (addi : (⟨S1048576, .i32⟩ : BufTy).Contents (Elt F) → (⟨S1048576, .i32⟩ : BufTy).Contents (Elt F) → (⟨S1048576, .i32⟩ : BufTy).Contents (Elt F)),
    StableHlo.ternary main_v55 main_v57 main_v48 main_v58 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v53 main_v59 (broadcastInDim S1048576x1 ![0] bcast_S1048576_S1048576x1_0 : (⟨S1048576, .i32⟩ : BufTy).Contents (Elt F) → (⟨S1048576x1, .i32⟩ : BufTy).Contents (Elt F)),
    StableHlo.unary main_v58 main_v60 (broadcastInDim S1048576x1 ![0] bcast_S1048576_S1048576x1_0 : (⟨S1048576, .i32⟩ : BufTy).Contents (Elt F) → (⟨S1048576x1, .i32⟩ : BufTy).Contents (Elt F)),
    StableHlo.binary main_v59 main_v60 main_v61 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_v16 main_v61 main_v62 ((fun x i => Host.gather gather_S1024x1024_S1048576x2_S1048576_n_01_n_n_01_1_11 x i) : (⟨S1024x1024, .f32⟩ : BufTy).Contents (Elt F) → (⟨S1048576x2, .i32⟩ : BufTy).Contents (Elt F) → (⟨S1048576, .f32⟩ : BufTy).Contents (Elt F)) ]

/-- The buffers segment 5 writes, in order. -/
abbrev seg5_w : List (Ref sig .tc) :=
  [main_v43, main_v44, main_v45, main_v46, main_v47, main_v48, main_c_15, main_v49, main_v50, main_c_16, main_v51, main_v52, main_v53, main_c_17, main_v54, main_v55, main_c_18, main_v56, main_v57, main_v58, main_v59, main_v60, main_v61, main_v62]

set_option maxRecDepth 8192 in
theorem seg5_sub : (seg5 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

set_option maxRecDepth 8192 in
/-- Segment 6: 26 operations. -/
abbrev seg6 : List (HloOp τ sig (Elt F)) :=
  [ StableHlo.unary main_v44 main_v63 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v63 main_v64 rfl shapeCasts_S1x1048576_S1048576,
    StableHlo.unary main_v44 main_v65 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v65 main_v66 rfl shapeCasts_S1x1048576_S1048576,
    StableHlo.nullary main_cst_19 (constant S_ .f32 0x00000000#32),
    StableHlo.unary main_cst_19 main_v67 (broadcastInDim S1024 ![] bcast_S_S1024 : (⟨S_, .f32⟩ : BufTy).Contents (Elt F) → (⟨S1024, .f32⟩ : BufTy).Contents (Elt F)),
    StableHlo.nullary main_c_20 (constantI S_ 32 0#32),
    StableHlo.unary main_c_20 main_v68 (broadcastInDim S1048576 ![] bcast_S_S1048576 : (⟨S_, .i32⟩ : BufTy).Contents (Elt F) → (⟨S1048576, .i32⟩ : BufTy).Contents (Elt F)),
    StableHlo.binary main_v66 main_v68 main_v69 (cmpi .slt : (⟨S1048576, .i32⟩ : BufTy).Contents (Elt F) → (⟨S1048576, .i32⟩ : BufTy).Contents (Elt F) → (⟨S1048576, .i1⟩ : BufTy).Contents (Elt F)),
    StableHlo.nullary main_c_21 (constantI S_ 32 1024#32),
    StableHlo.unary main_c_21 main_v70 (broadcastInDim S1048576 ![] bcast_S_S1048576 : (⟨S_, .i32⟩ : BufTy).Contents (Elt F) → (⟨S1048576, .i32⟩ : BufTy).Contents (Elt F)),
    StableHlo.binary main_v66 main_v70 main_v71 (addi : (⟨S1048576, .i32⟩ : BufTy).Contents (Elt F) → (⟨S1048576, .i32⟩ : BufTy).Contents (Elt F) → (⟨S1048576, .i32⟩ : BufTy).Contents (Elt F)),
    StableHlo.ternary main_v69 main_v71 main_v66 main_v72 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v72 main_v73 (broadcastInDim S1048576x1 ![0] bcast_S1048576_S1048576x1_0 : (⟨S1048576, .i32⟩ : BufTy).Contents (Elt F) → (⟨S1048576x1, .i32⟩ : BufTy).Contents (Elt F)),
    StableHlo.ternary main_v67 main_v73 main_v62 main_v74 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.nullary main_cst_22 (constant S_ .f32 0xBF000000#32),
    StableHlo.unary main_cst_22 main_v75 (broadcastInDim S1024 ![] bcast_S_S1024 : (⟨S_, .f32⟩ : BufTy).Contents (Elt F) → (⟨S1024, .f32⟩ : BufTy).Contents (Elt F)),
    StableHlo.binary main_v74 main_v75 main_v76 (Host.powf : (⟨S1024, .f32⟩ : BufTy).Contents (Elt F) → (⟨S1024, .f32⟩ : BufTy).Contents (Elt F) → (⟨S1024, .f32⟩ : BufTy).Contents (Elt F)),
    StableHlo.TRef.unary (StableHlo.TRef.of (T := ⟨S1024, .f32⟩) main_v76) main_call9.v0 Host.absf,
    StableHlo.TRef.nullary main_call9.cst (constant S_ .f32 0x7F800000#32),
    StableHlo.TRef.unary main_call9.cst main_call9.v1 (broadcastInDim S1024 ![] bcast_S_S1024),
    StableHlo.TRef.binary main_call9.v0 main_call9.v1 main_call9.v2 (cmpf .oeq),
    StableHlo.nullary main_cst_23 (constant S_ .f32 0x00000000#32),
    StableHlo.TRef.unary (StableHlo.TRef.of (T := ⟨S_, .f32⟩) main_cst_23) main_call10.v0 id,
    StableHlo.TRef.unary main_call10.v0 main_call10.v1 (broadcastInDim S1024 ![] bcast_S_S1024),
    StableHlo.TRef.ternary (StableHlo.TRef.of (T := ⟨S1024, .i1⟩) main_v77) main_call10.v1 (StableHlo.TRef.of (T := ⟨S1024, .f32⟩) main_v76) main_call10.v2 select ]

/-- The buffers segment 6 writes, in order. -/
abbrev seg6_w : List (Ref sig .tc) :=
  [main_v63, main_v64, main_v65, main_v66, main_cst_19, main_v67, main_c_20, main_v68, main_v69, main_c_21, main_v70, main_v71, main_v72, main_v73, main_v74, main_cst_22, main_v75, main_v76, main_call9.v0.ref, main_call9.cst.ref, main_call9.v1.ref, main_call9.v2.ref, main_cst_23, main_call10.v0.ref, main_call10.v1.ref, main_call10.v2.ref]

set_option maxRecDepth 8192 in
theorem seg6_sub : (seg6 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub ..⟩

set_option maxRecDepth 8192 in
/-- Segment 7: 15 operations. -/
abbrev seg7 : List (HloOp τ sig (Elt F)) :=
  [ StableHlo.nullary main_c_24 (constantI S_ 32 0#32),
    StableHlo.unary main_c_24 main_v79 (broadcastInDim S1048576 ![] bcast_S_S1048576 : (⟨S_, .i32⟩ : BufTy).Contents (Elt F) → (⟨S1048576, .i32⟩ : BufTy).Contents (Elt F)),
    StableHlo.binary main_v64 main_v79 main_v80 (cmpi .slt : (⟨S1048576, .i32⟩ : BufTy).Contents (Elt F) → (⟨S1048576, .i32⟩ : BufTy).Contents (Elt F) → (⟨S1048576, .i1⟩ : BufTy).Contents (Elt F)),
    StableHlo.nullary main_c_25 (constantI S_ 32 1024#32),
    StableHlo.unary main_c_25 main_v81 (broadcastInDim S1048576 ![] bcast_S_S1048576 : (⟨S_, .i32⟩ : BufTy).Contents (Elt F) → (⟨S1048576, .i32⟩ : BufTy).Contents (Elt F)),
    StableHlo.binary main_v64 main_v81 main_v82 (addi : (⟨S1048576, .i32⟩ : BufTy).Contents (Elt F) → (⟨S1048576, .i32⟩ : BufTy).Contents (Elt F) → (⟨S1048576, .i32⟩ : BufTy).Contents (Elt F)),
    StableHlo.ternary main_v80 main_v82 main_v64 main_v83 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v83 main_v84 (broadcastInDim S1048576x1 ![0] bcast_S1048576_S1048576x1_0 : (⟨S1048576, .i32⟩ : BufTy).Contents (Elt F) → (⟨S1048576x1, .i32⟩ : BufTy).Contents (Elt F)),
    StableHlo.binary main_v78 main_v84 main_v85 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    StableHlo.binary main_v85 main_v62 main_v86 (mulf : (⟨S1048576, .f32⟩ : BufTy).Contents (Elt F) → (⟨S1048576, .f32⟩ : BufTy).Contents (Elt F) → (⟨S1048576, .f32⟩ : BufTy).Contents (Elt F)),
    StableHlo.nullary main_c_26 (constantI S_ 32 0#32),
    StableHlo.unary main_c_26 main_v87 (broadcastInDim S1048576 ![] bcast_S_S1048576 : (⟨S_, .i32⟩ : BufTy).Contents (Elt F) → (⟨S1048576, .i32⟩ : BufTy).Contents (Elt F)),
    StableHlo.binary main_v66 main_v87 main_v88 (cmpi .slt : (⟨S1048576, .i32⟩ : BufTy).Contents (Elt F) → (⟨S1048576, .i32⟩ : BufTy).Contents (Elt F) → (⟨S1048576, .i1⟩ : BufTy).Contents (Elt F)),
    StableHlo.nullary main_c_27 (constantI S_ 32 1024#32),
    StableHlo.unary main_c_27 main_v89 (broadcastInDim S1048576 ![] bcast_S_S1048576 : (⟨S_, .i32⟩ : BufTy).Contents (Elt F) → (⟨S1048576, .i32⟩ : BufTy).Contents (Elt F)) ]

/-- The buffers segment 7 writes, in order. -/
abbrev seg7_w : List (Ref sig .tc) :=
  [main_c_24, main_v79, main_v80, main_c_25, main_v81, main_v82, main_v83, main_v84, main_v85, main_v86, main_c_26, main_v87, main_v88, main_c_27, main_v89]

set_option maxRecDepth 8192 in
theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub ..⟩

set_option maxRecDepth 8192 in
/-- Segment 8: 5 operations. -/
abbrev seg8 : List (HloOp τ sig (Elt F)) :=
  [ StableHlo.binary main_v66 main_v89 main_v90 (addi : (⟨S1048576, .i32⟩ : BufTy).Contents (Elt F) → (⟨S1048576, .i32⟩ : BufTy).Contents (Elt F) → (⟨S1048576, .i32⟩ : BufTy).Contents (Elt F)),
    StableHlo.ternary main_v88 main_v90 main_v66 main_v91 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v91 main_v92 (broadcastInDim S1048576x1 ![0] bcast_S1048576_S1048576x1_0 : (⟨S1048576, .i32⟩ : BufTy).Contents (Elt F) → (⟨S1048576x1, .i32⟩ : BufTy).Contents (Elt F)),
    StableHlo.binary main_v78 main_v92 main_v93 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    StableHlo.binary main_v86 main_v93 main_v94 (mulf : (⟨S1048576, .f32⟩ : BufTy).Contents (Elt F) → (⟨S1048576, .f32⟩ : BufTy).Contents (Elt F) → (⟨S1048576, .f32⟩ : BufTy).Contents (Elt F)) ]

/-- The buffers segment 8 writes, in order. -/
abbrev seg8_w : List (Ref sig .tc) :=
  [main_v90, main_v91, main_v92, main_v93, main_v94]

set_option maxRecDepth 8192 in
theorem seg8_sub : (seg8 : List (HloOp τ sig (Elt F))).Forall fun op => op.bufs ⊆ tcRefs τ sig :=
  ⟨binary_bufs_sub .., ternary_bufs_sub .., unary_bufs_sub .., binary_bufs_sub .., binary_bufs_sub ..⟩

set_option maxRecDepth 8192 in
/-- Segment 9: 44 operations. -/
abbrev seg9 : List (HloOp τ sig (Elt F)) :=
  [ StableHlo.binary main_arg0 main_arg2 main_v95 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_v94 main_v96 (broadcastInDim S1048576x1 ![0] bcast_S1048576_S1048576x1_0 : (⟨S1048576, .f32⟩ : BufTy).Contents (Elt F) → (⟨S1048576x1, .f32⟩ : BufTy).Contents (Elt F)),
    StableHlo.TRef.nullary main_call11.c (constantI S_ 32 0#32),
    StableHlo.TRef.unary main_call11.c main_call11.v0 (broadcastInDim S1048576 ![] bcast_S_S1048576),
    StableHlo.TRef.binary (StableHlo.TRef.of (T := ⟨S1048576, .i32⟩) main_v64) main_call11.v0 main_call11.v1 (cmpi .slt),
    StableHlo.TRef.nullary main_call11.c_0 (constantI S_ 32 1024#32),
    StableHlo.TRef.unary main_call11.c_0 main_call11.v2 (broadcastInDim S1048576 ![] bcast_S_S1048576),
    StableHlo.TRef.binary (StableHlo.TRef.of (T := ⟨S1048576, .i32⟩) main_v64) main_call11.v2 main_call11.v3 addi,
    StableHlo.TRef.ternary main_call11.v1 main_call11.v3 (StableHlo.TRef.of (T := ⟨S1048576, .i32⟩) main_v64) main_call11.call0.v0 select,
    StableHlo.TRef.unary main_call11.call0.v0 main_call11.v5 (broadcastInDim S1048576x1 ![0] bcast_S1048576_S1048576x1_0),
    StableHlo.TRef.nullary main_call11.c_1 (constantI S1 32 1023#32),
    StableHlo.TRef.nullary main_call11.c_2 (constantI S_ 32 0#32),
    StableHlo.TRef.unary main_call11.c_2 main_call11.v6 (broadcastInDim S1048576x1 ![] bcast_S_S1048576x1),
    StableHlo.TRef.binary main_call11.v5 main_call11.v6 main_call11.v7 (cmpi .sge),
    StableHlo.TRef.unary main_call11.c_1 main_call11.v8 (broadcastInDim S1x1 ![1] bcast_S1_S1x1_1),
    StableHlo.TRef.unary main_call11.v8 main_call11.v9 (broadcastInDim S1048576x1 ![0, 1] bcast_S1x1_S1048576x1_0_1),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S1048576x1_S1048576_d1 h_S_),
    StableHlo.TRef.binary (StableHlo.TRef.of (T := ⟨S1024x128, .f32⟩) main_v95) main_call11.v5 main_call11.v13 (fun x i => Host.gather gather_S1024x128_S1048576x1_S1048576x128_1_0_n_n_0_1_1128 x i),
    StableHlo.TRef.unary main_call11.v12 main_call11.v14 (broadcastInDim S1048576x128 ![0] bcast_S1048576_S1048576x128_0),
    StableHlo.TRef.nullary main_call11.cst (constant S_ .f32 0x7FC00000#32),
    StableHlo.TRef.unary main_call11.cst main_call11.v15 (broadcastInDim S1048576x128 ![] bcast_S_S1048576x128),
    StableHlo.TRef.ternary main_call11.v14 main_call11.v13 main_call11.v15 main_call11.v16 select,
    StableHlo.unary main_v96 main_v98 (broadcastInDim S1048576x128 ![0, 1] bcast_S1048576x1_S1048576x128_0_1 : (⟨S1048576x1, .f32⟩ : BufTy).Contents (Elt F) → (⟨S1048576x128, .f32⟩ : BufTy).Contents (Elt F)),
    StableHlo.binary main_v98 main_v97 main_v99 (mulf : (⟨S1048576x128, .f32⟩ : BufTy).Contents (Elt F) → (⟨S1048576x128, .f32⟩ : BufTy).Contents (Elt F) → (⟨S1048576x128, .f32⟩ : BufTy).Contents (Elt F)),
    StableHlo.nullary main_cst_28 (constant S_ .f32 0x00000000#32),
    StableHlo.unary main_cst_28 main_v100 (broadcastInDim S1024x128 ![] bcast_S_S1024x128 : (⟨S_, .f32⟩ : BufTy).Contents (Elt F) → (⟨S1024x128, .f32⟩ : BufTy).Contents (Elt F)),
    StableHlo.nullary main_c_29 (constantI S_ 32 0#32),
    StableHlo.unary main_c_29 main_v101 (broadcastInDim S1048576 ![] bcast_S_S1048576 : (⟨S_, .i32⟩ : BufTy).Contents (Elt F) → (⟨S1048576, .i32⟩ : BufTy).Contents (Elt F)),
    StableHlo.binary main_v66 main_v101 main_v102 (cmpi .slt : (⟨S1048576, .i32⟩ : BufTy).Contents (Elt F) → (⟨S1048576, .i32⟩ : BufTy).Contents (Elt F) → (⟨S1048576, .i1⟩ : BufTy).Contents (Elt F)),
    StableHlo.nullary main_c_30 (constantI S_ 32 1024#32),
    StableHlo.unary main_c_30 main_v103 (broadcastInDim S1048576 ![] bcast_S_S1048576 : (⟨S_, .i32⟩ : BufTy).Contents (Elt F) → (⟨S1048576, .i32⟩ : BufTy).Contents (Elt F)),
    StableHlo.binary main_v66 main_v103 main_v104 (addi : (⟨S1048576, .i32⟩ : BufTy).Contents (Elt F) → (⟨S1048576, .i32⟩ : BufTy).Contents (Elt F) → (⟨S1048576, .i32⟩ : BufTy).Contents (Elt F)),
    StableHlo.ternary main_v102 main_v104 main_v66 main_v105 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v105 main_v106 (broadcastInDim S1048576x1 ![0] bcast_S1048576_S1048576x1_0 : (⟨S1048576, .i32⟩ : BufTy).Contents (Elt F) → (⟨S1048576x1, .i32⟩ : BufTy).Contents (Elt F)),
    StableHlo.ternary main_v100 main_v106 main_v99 main_v107 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    StableHlo.unary main_arg3 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S1024x128 ![0, 1] bcast_S1x128_S1024x128_0_1 : (⟨S1x128, .f32⟩ : BufTy).Contents (Elt F) → (⟨S1024x128, .f32⟩ : BufTy).Contents (Elt F)),
    StableHlo.binary main_v107 main_v109 main_v110 (addf : (⟨S1024x128, .f32⟩ : BufTy).Contents (Elt F) → (⟨S1024x128, .f32⟩ : BufTy).Contents (Elt F) → (⟨S1024x128, .f32⟩ : BufTy).Contents (Elt F)),
    StableHlo.TRef.nullary main_call12.cst (constant S_ .f32 0x00000000#32),
    StableHlo.TRef.unary main_call12.cst main_call12.v0 (broadcastInDim S1024x128 ![] bcast_S_S1024x128),
    StableHlo.TRef.binary (StableHlo.TRef.of (T := ⟨S1024x128, .f32⟩) main_v110) main_call12.v0 main_call12.v1 maximumf ]

/-- The buffers segment 9 writes, in order. -/
abbrev seg9_w : List (Ref sig .tc) :=
  [main_v95, main_v96, main_call11.c.ref, main_call11.v0.ref, main_call11.v1.ref, main_call11.c_0.ref, main_call11.v2.ref, main_call11.v3.ref, main_call11.call0.v0.ref, main_call11.v5.ref, main_call11.c_1.ref, main_call11.c_2.ref, main_call11.v6.ref, main_call11.v7.ref, main_call11.v8.ref, main_call11.v9.ref, main_call11.v10.ref, main_call11.v11.ref, main_call11.c_3.ref, main_call11.v12.ref, main_call11.v13.ref, main_call11.v14.ref, main_call11.cst.ref, main_call11.v15.ref, main_call11.v16.ref, main_v98, main_v99, main_cst_28, main_v100, main_c_29, main_v101, main_v102, main_c_30, main_v103, main_v104, main_v105, main_v106, main_v107, main_v108, main_v109, main_v110, main_call12.cst.ref, main_call12.v0.ref, main_call12.v1.ref]

set_option maxRecDepth 8192 in
theorem seg9_sub : (seg9 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub ..⟩

set_option maxRecDepth 8192 in
/-- Segment 10: 26 operations. -/
abbrev seg10 : List (HloOp τ sig (Elt F)) :=
  [ StableHlo.unary main_v44 main_v112 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v112 main_v113 rfl shapeCasts_S1x1048576_S1048576,
    StableHlo.unary main_v44 main_v114 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v114 main_v115 rfl shapeCasts_S1x1048576_S1048576,
    StableHlo.nullary main_cst_31 (constant S_ .f32 0x00000000#32),
    StableHlo.unary main_cst_31 main_v116 (broadcastInDim S1024 ![] bcast_S_S1024 : (⟨S_, .f32⟩ : BufTy).Contents (Elt F) → (⟨S1024, .f32⟩ : BufTy).Contents (Elt F)),
    StableHlo.nullary main_c_32 (constantI S_ 32 0#32),
    StableHlo.unary main_c_32 main_v117 (broadcastInDim S1048576 ![] bcast_S_S1048576 : (⟨S_, .i32⟩ : BufTy).Contents (Elt F) → (⟨S1048576, .i32⟩ : BufTy).Contents (Elt F)),
    StableHlo.binary main_v115 main_v117 main_v118 (cmpi .slt : (⟨S1048576, .i32⟩ : BufTy).Contents (Elt F) → (⟨S1048576, .i32⟩ : BufTy).Contents (Elt F) → (⟨S1048576, .i1⟩ : BufTy).Contents (Elt F)),
    StableHlo.nullary main_c_33 (constantI S_ 32 1024#32),
    StableHlo.unary main_c_33 main_v119 (broadcastInDim S1048576 ![] bcast_S_S1048576 : (⟨S_, .i32⟩ : BufTy).Contents (Elt F) → (⟨S1048576, .i32⟩ : BufTy).Contents (Elt F)),
    StableHlo.binary main_v115 main_v119 main_v120 (addi : (⟨S1048576, .i32⟩ : BufTy).Contents (Elt F) → (⟨S1048576, .i32⟩ : BufTy).Contents (Elt F) → (⟨S1048576, .i32⟩ : BufTy).Contents (Elt F)),
    StableHlo.ternary main_v118 main_v120 main_v115 main_v121 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v121 main_v122 (broadcastInDim S1048576x1 ![0] bcast_S1048576_S1048576x1_0 : (⟨S1048576, .i32⟩ : BufTy).Contents (Elt F) → (⟨S1048576x1, .i32⟩ : BufTy).Contents (Elt F)),
    StableHlo.ternary main_v116 main_v122 main_v62 main_v123 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.nullary main_cst_34 (constant S_ .f32 0xBF000000#32),
    StableHlo.unary main_cst_34 main_v124 (broadcastInDim S1024 ![] bcast_S_S1024 : (⟨S_, .f32⟩ : BufTy).Contents (Elt F) → (⟨S1024, .f32⟩ : BufTy).Contents (Elt F)),
    StableHlo.binary main_v123 main_v124 main_v125 (Host.powf : (⟨S1024, .f32⟩ : BufTy).Contents (Elt F) → (⟨S1024, .f32⟩ : BufTy).Contents (Elt F) → (⟨S1024, .f32⟩ : BufTy).Contents (Elt F)),
    StableHlo.TRef.unary (StableHlo.TRef.of (T := ⟨S1024, .f32⟩) main_v125) main_call13.v0 Host.absf,
    StableHlo.TRef.nullary main_call13.cst (constant S_ .f32 0x7F800000#32),
    StableHlo.TRef.unary main_call13.cst main_call13.v1 (broadcastInDim S1024 ![] bcast_S_S1024),
    StableHlo.TRef.binary main_call13.v0 main_call13.v1 main_call13.v2 (cmpf .oeq),
    StableHlo.nullary main_cst_35 (constant S_ .f32 0x00000000#32),
    StableHlo.TRef.unary (StableHlo.TRef.of (T := ⟨S_, .f32⟩) main_cst_35) main_call14.v0 id,
    StableHlo.TRef.unary main_call14.v0 main_call14.v1 (broadcastInDim S1024 ![] bcast_S_S1024),
    StableHlo.TRef.ternary (StableHlo.TRef.of (T := ⟨S1024, .i1⟩) main_v126) main_call14.v1 (StableHlo.TRef.of (T := ⟨S1024, .f32⟩) main_v125) main_call14.v2 select ]

/-- The buffers segment 10 writes, in order. -/
abbrev seg10_w : List (Ref sig .tc) :=
  [main_v112, main_v113, main_v114, main_v115, main_cst_31, main_v116, main_c_32, main_v117, main_v118, main_c_33, main_v119, main_v120, main_v121, main_v122, main_v123, main_cst_34, main_v124, main_v125, main_call13.v0.ref, main_call13.cst.ref, main_call13.v1.ref, main_call13.v2.ref, main_cst_35, main_call14.v0.ref, main_call14.v1.ref, main_call14.v2.ref]

set_option maxRecDepth 8192 in
theorem seg10_sub : (seg10 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub ..⟩

set_option maxRecDepth 8192 in
/-- Segment 11: 14 operations. -/
abbrev seg11 : List (HloOp τ sig (Elt F)) :=
  [ StableHlo.nullary main_c_36 (constantI S_ 32 0#32),
    StableHlo.unary main_c_36 main_v128 (broadcastInDim S1048576 ![] bcast_S_S1048576 : (⟨S_, .i32⟩ : BufTy).Contents (Elt F) → (⟨S1048576, .i32⟩ : BufTy).Contents (Elt F)),
    StableHlo.binary main_v113 main_v128 main_v129 (cmpi .slt : (⟨S1048576, .i32⟩ : BufTy).Contents (Elt F) → (⟨S1048576, .i32⟩ : BufTy).Contents (Elt F) → (⟨S1048576, .i1⟩ : BufTy).Contents (Elt F)),
    StableHlo.nullary main_c_37 (constantI S_ 32 1024#32),
    StableHlo.unary main_c_37 main_v130 (broadcastInDim S1048576 ![] bcast_S_S1048576 : (⟨S_, .i32⟩ : BufTy).Contents (Elt F) → (⟨S1048576, .i32⟩ : BufTy).Contents (Elt F)),
    StableHlo.binary main_v113 main_v130 main_v131 (addi : (⟨S1048576, .i32⟩ : BufTy).Contents (Elt F) → (⟨S1048576, .i32⟩ : BufTy).Contents (Elt F) → (⟨S1048576, .i32⟩ : BufTy).Contents (Elt F)),
    StableHlo.ternary main_v129 main_v131 main_v113 main_v132 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v132 main_v133 (broadcastInDim S1048576x1 ![0] bcast_S1048576_S1048576x1_0 : (⟨S1048576, .i32⟩ : BufTy).Contents (Elt F) → (⟨S1048576x1, .i32⟩ : BufTy).Contents (Elt F)),
    StableHlo.binary main_v127 main_v133 main_v134 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    StableHlo.binary main_v134 main_v62 main_v135 (mulf : (⟨S1048576, .f32⟩ : BufTy).Contents (Elt F) → (⟨S1048576, .f32⟩ : BufTy).Contents (Elt F) → (⟨S1048576, .f32⟩ : BufTy).Contents (Elt F)),
    StableHlo.nullary main_c_38 (constantI S_ 32 0#32),
    StableHlo.unary main_c_38 main_v136 (broadcastInDim S1048576 ![] bcast_S_S1048576 : (⟨S_, .i32⟩ : BufTy).Contents (Elt F) → (⟨S1048576, .i32⟩ : BufTy).Contents (Elt F)),
    StableHlo.binary main_v115 main_v136 main_v137 (cmpi .slt : (⟨S1048576, .i32⟩ : BufTy).Contents (Elt F) → (⟨S1048576, .i32⟩ : BufTy).Contents (Elt F) → (⟨S1048576, .i1⟩ : BufTy).Contents (Elt F)),
    StableHlo.nullary main_c_39 (constantI S_ 32 1024#32) ]

/-- The buffers segment 11 writes, in order. -/
abbrev seg11_w : List (Ref sig .tc) :=
  [main_c_36, main_v128, main_v129, main_c_37, main_v130, main_v131, main_v132, main_v133, main_v134, main_v135, main_c_38, main_v136, main_v137, main_c_39]

set_option maxRecDepth 8192 in
theorem seg11_sub : (seg11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩

set_option maxRecDepth 8192 in
/-- Segment 12: 6 operations. -/
abbrev seg12 : List (HloOp τ sig (Elt F)) :=
  [ StableHlo.unary main_c_39 main_v138 (broadcastInDim S1048576 ![] bcast_S_S1048576 : (⟨S_, .i32⟩ : BufTy).Contents (Elt F) → (⟨S1048576, .i32⟩ : BufTy).Contents (Elt F)),
    StableHlo.binary main_v115 main_v138 main_v139 (addi : (⟨S1048576, .i32⟩ : BufTy).Contents (Elt F) → (⟨S1048576, .i32⟩ : BufTy).Contents (Elt F) → (⟨S1048576, .i32⟩ : BufTy).Contents (Elt F)),
    StableHlo.ternary main_v137 main_v139 main_v115 main_v140 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v140 main_v141 (broadcastInDim S1048576x1 ![0] bcast_S1048576_S1048576x1_0 : (⟨S1048576, .i32⟩ : BufTy).Contents (Elt F) → (⟨S1048576x1, .i32⟩ : BufTy).Contents (Elt F)),
    StableHlo.binary main_v127 main_v141 main_v142 ((fun x i => Host.gather gather_S1024_S1048576x1_S1048576_n_0_n_n_0_1_1 x i) : (⟨S1024, .f32⟩ : BufTy).Contents (Elt F) → (⟨S1048576x1, .i32⟩ : BufTy).Contents (Elt F) → (⟨S1048576, .f32⟩ : BufTy).Contents (Elt F)),
    StableHlo.binary main_v135 main_v142 main_v143 (mulf : (⟨S1048576, .f32⟩ : BufTy).Contents (Elt F) → (⟨S1048576, .f32⟩ : BufTy).Contents (Elt F) → (⟨S1048576, .f32⟩ : BufTy).Contents (Elt F)) ]

/-- The buffers segment 12 writes, in order. -/
abbrev seg12_w : List (Ref sig .tc) :=
  [main_v138, main_v139, main_v140, main_v141, main_v142, main_v143]

set_option maxRecDepth 8192 in
theorem seg12_sub : (seg12 : List (HloOp τ sig (Elt F))).Forall fun op => op.bufs ⊆ tcRefs τ sig :=
  ⟨unary_bufs_sub .., binary_bufs_sub .., ternary_bufs_sub .., unary_bufs_sub .., binary_bufs_sub .., binary_bufs_sub ..⟩

set_option maxRecDepth 8192 in
/-- Segment 13: 41 operations. -/
abbrev seg13 : List (HloOp τ sig (Elt F)) :=
  [ StableHlo.binary main_v111 main_arg4 main_v144 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    StableHlo.unary main_v143 main_v145 (broadcastInDim S1048576x1 ![0] bcast_S1048576_S1048576x1_0 : (⟨S1048576, .f32⟩ : BufTy).Contents (Elt F) → (⟨S1048576x1, .f32⟩ : BufTy).Contents (Elt F)),
    StableHlo.TRef.nullary main_call15.c (constantI S_ 32 0#32),
    StableHlo.TRef.unary main_call15.c main_call15.v0 (broadcastInDim S1048576 ![] bcast_S_S1048576),
    StableHlo.TRef.binary (StableHlo.TRef.of (T := ⟨S1048576, .i32⟩) main_v113) main_call15.v0 main_call15.v1 (cmpi .slt),
    StableHlo.TRef.nullary main_call15.c_0 (constantI S_ 32 1024#32),
    StableHlo.TRef.unary main_call15.c_0 main_call15.v2 (broadcastInDim S1048576 ![] bcast_S_S1048576),
    StableHlo.TRef.binary (StableHlo.TRef.of (T := ⟨S1048576, .i32⟩) main_v113) main_call15.v2 main_call15.v3 addi,
    StableHlo.TRef.ternary main_call15.v1 main_call15.v3 (StableHlo.TRef.of (T := ⟨S1048576, .i32⟩) main_v113) main_call15.call0.v0 select,
    StableHlo.TRef.unary main_call15.call0.v0 main_call15.v5 (broadcastInDim S1048576x1 ![0] bcast_S1048576_S1048576x1_0),
    StableHlo.TRef.nullary main_call15.c_1 (constantI S1 32 1023#32),
    StableHlo.TRef.nullary main_call15.c_2 (constantI S_ 32 0#32),
    StableHlo.TRef.unary main_call15.c_2 main_call15.v6 (broadcastInDim S1048576x1 ![] bcast_S_S1048576x1),
    StableHlo.TRef.binary main_call15.v5 main_call15.v6 main_call15.v7 (cmpi .sge),
    StableHlo.TRef.unary main_call15.c_1 main_call15.v8 (broadcastInDim S1x1 ![1] bcast_S1_S1x1_1),
    StableHlo.TRef.unary main_call15.v8 main_call15.v9 (broadcastInDim S1048576x1 ![0, 1] bcast_S1x1_S1048576x1_0_1),
    StableHlo.TRef.binary main_call15.v5 main_call15.v9 main_call15.v10 (cmpi .sle),
    StableHlo.TRef.binary main_call15.v7 main_call15.v10 main_call15.v11 andi,
    StableHlo.TRef.nullary main_call15.c_3 (constantI S_ 1 1#1),
    StableHlo.TRef.binary main_call15.v11 main_call15.c_3 main_call15.v12 (fun x v => Host.reduce IntOp.andi x v reducesTo_S1048576x1_S1048576_d1 h_S_),
    StableHlo.TRef.binary (StableHlo.TRef.of (T := ⟨S1024x64, .f32⟩) main_v144) main_call15.v5 main_call15.v13 (fun x i => Host.gather gather_S1024x64_S1048576x1_S1048576x64_1_0_n_n_0_1_164 x i),
    StableHlo.TRef.unary main_call15.v12 main_call15.v14 (broadcastInDim S1048576x64 ![0] bcast_S1048576_S1048576x64_0),
    StableHlo.TRef.nullary main_call15.cst (constant S_ .f32 0x7FC00000#32),
    StableHlo.TRef.unary main_call15.cst main_call15.v15 (broadcastInDim S1048576x64 ![] bcast_S_S1048576x64),
    StableHlo.TRef.ternary main_call15.v14 main_call15.v13 main_call15.v15 main_call15.v16 select,
    StableHlo.unary main_v145 main_v147 (broadcastInDim S1048576x64 ![0, 1] bcast_S1048576x1_S1048576x64_0_1 : (⟨S1048576x1, .f32⟩ : BufTy).Contents (Elt F) → (⟨S1048576x64, .f32⟩ : BufTy).Contents (Elt F)),
    StableHlo.binary main_v147 main_v146 main_v148 (mulf : (⟨S1048576x64, .f32⟩ : BufTy).Contents (Elt F) → (⟨S1048576x64, .f32⟩ : BufTy).Contents (Elt F) → (⟨S1048576x64, .f32⟩ : BufTy).Contents (Elt F)),
    StableHlo.nullary main_cst_40 (constant S_ .f32 0x00000000#32),
    StableHlo.unary main_cst_40 main_v149 (broadcastInDim S1024x64 ![] bcast_S_S1024x64 : (⟨S_, .f32⟩ : BufTy).Contents (Elt F) → (⟨S1024x64, .f32⟩ : BufTy).Contents (Elt F)),
    StableHlo.nullary main_c_41 (constantI S_ 32 0#32),
    StableHlo.unary main_c_41 main_v150 (broadcastInDim S1048576 ![] bcast_S_S1048576 : (⟨S_, .i32⟩ : BufTy).Contents (Elt F) → (⟨S1048576, .i32⟩ : BufTy).Contents (Elt F)),
    StableHlo.binary main_v115 main_v150 main_v151 (cmpi .slt : (⟨S1048576, .i32⟩ : BufTy).Contents (Elt F) → (⟨S1048576, .i32⟩ : BufTy).Contents (Elt F) → (⟨S1048576, .i1⟩ : BufTy).Contents (Elt F)),
    StableHlo.nullary main_c_42 (constantI S_ 32 1024#32),
    StableHlo.unary main_c_42 main_v152 (broadcastInDim S1048576 ![] bcast_S_S1048576 : (⟨S_, .i32⟩ : BufTy).Contents (Elt F) → (⟨S1048576, .i32⟩ : BufTy).Contents (Elt F)),
    StableHlo.binary main_v115 main_v152 main_v153 (addi : (⟨S1048576, .i32⟩ : BufTy).Contents (Elt F) → (⟨S1048576, .i32⟩ : BufTy).Contents (Elt F) → (⟨S1048576, .i32⟩ : BufTy).Contents (Elt F)),
    StableHlo.ternary main_v151 main_v153 main_v115 main_v154 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v154 main_v155 (broadcastInDim S1048576x1 ![0] bcast_S1048576_S1048576x1_0 : (⟨S1048576, .i32⟩ : BufTy).Contents (Elt F) → (⟨S1048576x1, .i32⟩ : BufTy).Contents (Elt F)),
    StableHlo.ternary main_v149 main_v155 main_v148 main_v156 ((fun x i u => Host.scatterAdd scatter_S1024x64_S1048576x1_S1048576x64_1_0_0_1 x i u) : (⟨S1024x64, .f32⟩ : BufTy).Contents (Elt F) → (⟨S1048576x1, .i32⟩ : BufTy).Contents (Elt F) → (⟨S1048576x64, .f32⟩ : BufTy).Contents (Elt F) → (⟨S1024x64, .f32⟩ : BufTy).Contents (Elt F)),
    StableHlo.unary main_arg5 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S1024x64 ![0, 1] bcast_S1x64_S1024x64_0_1 : (⟨S1x64, .f32⟩ : BufTy).Contents (Elt F) → (⟨S1024x64, .f32⟩ : BufTy).Contents (Elt F)),
    StableHlo.binary main_v156 main_v158 main_v159 (addf : (⟨S1024x64, .f32⟩ : BufTy).Contents (Elt F) → (⟨S1024x64, .f32⟩ : BufTy).Contents (Elt F) → (⟨S1024x64, .f32⟩ : BufTy).Contents (Elt F)) ]

/-- The buffers segment 13 writes, in order. -/
abbrev seg13_w : List (Ref sig .tc) :=
  [main_v144, main_v145, main_call15.c.ref, main_call15.v0.ref, main_call15.v1.ref, main_call15.c_0.ref, main_call15.v2.ref, main_call15.v3.ref, main_call15.call0.v0.ref, main_call15.v5.ref, main_call15.c_1.ref, main_call15.c_2.ref, main_call15.v6.ref, main_call15.v7.ref, main_call15.v8.ref, main_call15.v9.ref, main_call15.v10.ref, main_call15.v11.ref, main_call15.c_3.ref, main_call15.v12.ref, main_call15.v13.ref, main_call15.v14.ref, main_call15.cst.ref, main_call15.v15.ref, main_call15.v16.ref, main_v147, main_v148, main_cst_40, main_v149, main_c_41, main_v150, main_v151, main_c_42, main_v152, main_v153, main_v154, main_v155, main_v156, main_v157, main_v158, main_v159]

set_option maxRecDepth 8192 in
theorem seg13_sub : (seg13 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩

/-- The operations of @main's window 0. -/
abbrev part0 : List (HloOp τ sig (Elt F)) := seg0 ++ seg1 ++ seg2 ++ seg3 ++ seg4

/-- The operations of @main's window 1. -/
abbrev part1 : List (HloOp τ sig (Elt F)) := seg5 ++ seg6 ++ seg7

/-- The operations of @main's window 2. -/
abbrev part2 : List (HloOp τ sig (Elt F)) := seg8 ++ seg9 ++ seg10 ++ seg11

/-- The operations of @main's window 3. -/
abbrev part3 : List (HloOp τ sig (Elt F)) := seg12 ++ seg13

end Cert.ReferenceIdeal.Hand

end
-- ==== Proof.Ref.Run.lean ====
/-
  The reference program's run: @main is the straight line of its host operations (each call of a module-local function
  standing for the callee's operations over that call's buffers), so every weakly fair execution terminates and leaves
  every buffer at the fold of the operations over the launch contents.
-/
import proofs.«135578_g23476291240112_cont_8to1_1555_6_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of @main, in program order. -/
abbrev ops : List (HloOp τ sig (Elt F)) := part0 ++ (part1 ++ (part2 ++ part3))

set_option maxRecDepth 65536 in
set_option maxHeartbeats 16000000 in
theorem part0_eq (c : Dev nD) : main_part0 (F := F) c = seq part0 := rfl

set_option maxRecDepth 65536 in
set_option maxHeartbeats 16000000 in
theorem part1_eq (c : Dev nD) : main_part1 (F := F) c = seq part1 := rfl

set_option maxRecDepth 65536 in
set_option maxHeartbeats 16000000 in
theorem part2_eq (c : Dev nD) : main_part2 (F := F) c = seq part2 := rfl

set_option maxRecDepth 65536 in
set_option maxHeartbeats 16000000 in
theorem part3_eq (c : Dev nD) : main_part3 (F := F) c = seq part3 := rfl

/-- @main runs its four windows in turn; each is the line of its operations, and lines run one after the other are their
    concatenation run as one. -/
theorem main_eq (c : Dev nD) : main (F := F) c = seq ops := by
  show (main_part0 (F := F) c >>= fun _ => main_part1 (F := F) c >>= fun _ => main_part2 (F := F) c >>= fun _ => main_part3 (F := F) c) = _
  rw [part0_eq, part1_eq, part2_eq, part3_eq]
  simp only [ops, part0, part1, part2, part3, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, part0, part1, part2, part3, List.forall_append]
  exact ⟨⟨⟨⟨⟨seg0_sub, seg1_sub⟩, seg2_sub⟩, seg3_sub⟩, seg4_sub⟩, ⟨⟨seg5_sub, seg6_sub⟩, seg7_sub⟩, ⟨⟨⟨seg8_sub, seg9_sub⟩, seg10_sub⟩, seg11_sub⟩, seg12_sub, seg13_sub⟩

/-- From any memory with zero counters every weakly fair execution of @main terminates, and every buffer of every device
    ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Defs.lean ====
/-
  What the lemmas about the reference program's segments are stated over: a valuation of its buffers at the exact
  instance, the row and the column of edge k in the row-major list of all 1024 × 1024 entries (k / 1024 and k mod 1024),
  and the fact that a segment leaves every buffer it does not write as it found it.
-/
import proofs.«135578_g23476291240112_cont_8to1_1555_6_alg».proof.Proof.Ref.Ops
import proofs.«135578_g23476291240112_cont_8to1_1555_6_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

/-- A valuation of the reference program's buffers, floats as extended reals. -/
abbrev Val : Type := Valuation τ sig (Elt Ideal)

/-- Every entry is a real number. -/
def Finite {s : Shape} (X : s.Idx → EReal) : Prop := ∀ i, ∃ r : ℝ, X i = (r : EReal)

/-- The row of edge k: k / 1024. -/
def rowOf (k : S1048576.Idx) : Fin 1024 :=
  ⟨(k 0).val / 1024, by have h : (k 0).val < 1048576 := (k 0).isLt; show (k 0).val / 1024 < 1024; omega⟩
/-- The column of edge k: k mod 1024. -/
def colOf (k : S1048576.Idx) : Fin 1024 := ⟨(k 0).val % 1024, Nat.mod_lt _ (by decide)⟩
/-- The row of edge k as a 32-bit word. -/
def rowW (k : S1048576.Idx) : BitVec 32 := BitVec.ofNat 32 ((k 0).val / 1024)
/-- The column of edge k as a 32-bit word. -/
def colW (k : S1048576.Idx) : BitVec 32 := BitVec.ofNat 32 ((k 0).val % 1024)
/-- The edge's own number as a 32-bit word. -/
def idW (k : S1048576.Idx) : BitVec 32 := BitVec.ofNat 32 (k 0).val

open Idealize.ShloMosaic.ValueIdx in
/-- The adjacency as a matrix over its index. -/
def adjV (P : S1024x1024.Idx → EReal) : S1024x1024.Idx → EReal := fun idx => Cert.Spec.adj P (idx 0) (idx 1)
/-- The weight of edge k: the adjacency at (row k, column k). -/
def ewV (P : S1024x1024.Idx → EReal) : S1048576.Idx → EReal := fun k => Cert.Spec.adj P (rowOf k) (colOf k)
/-- The inverse square root of each node's degree (the column sum of the adjacency). -/
def disV (P : S1024x1024.Idx → EReal) : S1024.Idx → EReal := fun j => Ideal.rsqrt (Cert.Spec.colsum P (j 0))
/-- The first two factors of edge k's normalised weight: d_row^(-1/2) · A(row, col). -/
def disEwV (P : S1024x1024.Idx → EReal) : S1048576.Idx → EReal :=
  fun k => Ideal.rsqrt (Cert.Spec.colsum P (rowOf k)) * Cert.Spec.adj P (rowOf k) (colOf k)
/-- Edge k's normalised weight  d_row^(-1/2) · A(row, col) · d_col^(-1/2). -/
def normV (P : S1024x1024.Idx → EReal) : S1048576.Idx → EReal :=
  fun k => Ideal.rsqrt (Cert.Spec.colsum P (rowOf k)) * Cert.Spec.adj P (rowOf k) (colOf k) * Ideal.rsqrt (Cert.Spec.colsum P (colOf k))
/-- The two index lists stacked: line 0 the rows, line 1 the columns. -/
def stackV : S2x1048576.Idx → BitVec 32 :=
  fun idx => if (idx 0).val = 0 then BitVec.ofNat 32 ((idx 1).val / 1024) else BitVec.ofNat 32 ((idx 1).val % 1024)
/-- The rows as a 1 × 1048576 array. -/
def rowRowV : S1x1048576.Idx → BitVec 32 := fun idx => BitVec.ofNat 32 ((idx 1).val / 1024)

variable {F : FTy → Type} [FloatOps F]

/-- A line of operations leaves a buffer outside the list of those it writes as it found it. -/
theorem keep_of {W : List (Ref sig .tc)} (l : List (HloOp τ sig (Elt F))) (V : Valuation τ sig (Elt F))
    (hW : l.Forall fun op => op.writes ⊆ (W.map (Proc.devRef (τ := τ) .tc)).toFinset) {r : Ref sig .tc} (hr : r ∉ W) :
    after l V (Proc.devRef .tc r) = V (Proc.devRef .tc r) :=
  after_of_writes_sub l V hW hr

set_option maxRecDepth 8192 in
/-- Segment 0 writes only the buffers listed. -/
theorem seg0_writes : (seg0 : List (HloOp τ sig (Elt F))).Forall fun op => op.writes ⊆ (seg0_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg0_w, List.mem_cons, List.mem_nil_iff, true_or, or_true], rfl⟩

example (V : Valuation τ sig (Elt F)) : after seg0 V (Proc.devRef .tc main_arg1) = V (Proc.devRef .tc main_arg1) :=
  keep_of seg0 V seg0_writes (by decide)

end Cert.ReferenceIdeal.Hand

end
-- ==== Proof.SpecLemmas.lean ====
/-
  Facts about the specification's mathematics, over the extended reals.

  For a matrix P of finite entries the adjacency A = σ(I + (P + Pᵀ)/2) is symmetric with entries in (0, 1), so its
  row sums and column sums agree and are positive reals, and d^(-1/2) is the positive real (√d)⁻¹. Sums over the
  1048576 edges k = 1024·r + c are re-indexed by column, respectively by row.
-/
import proofs.«135578_g23476291240112_cont_8to1_1555_6_alg».proof.Proof.Spec
import Mathlib.Data.EReal.Inv
import Mathlib.Analysis.SpecialFunctions.Pow.Real
import Mathlib.Algebra.BigOperators.Group.Finset.Basic

noncomputable section

namespace Cert.Spec

open Idealize.ShloMosaic Idealize.ShloMosaic.ValueIdx

/-- Every entry is a real number. -/
def Finite {s : Shape} (X : s.Idx → EReal) : Prop := ∀ i, ∃ r : ℝ, X i = (r : EReal)

/-- The adjacency is symmetric: addition commutes, and so does the diagonal test. -/
theorem adj_symm (P : Mat 1024 1024) (i j : Fin 1024) : adj P i j = adj P j i := by
  unfold adj
  rw [add_comm (P (ix2 i j)) (P (ix2 j i))]
  by_cases h : i = j
  · subst h; rfl
  · rw [if_neg h, if_neg (Ne.symm h)]

/-- For finite P the logistic function's argument is a real. -/
theorem adj_arg_real (P : Mat 1024 1024) (hP : Finite P) (i j : Fin 1024) :
    ∃ z : ℝ, (if i = j then (1 : EReal) else 0) + ((1 / 2 : ℝ) : EReal) * (P (ix2 i j) + P (ix2 j i)) = (z : EReal) := by
  obtain ⟨p, hp⟩ := hP (ix2 i j)
  obtain ⟨q, hq⟩ := hP (ix2 j i)
  rw [hp, hq]
  by_cases h : i = j
  · refine ⟨1 + (1 / 2) * (p + q), ?_⟩
    rw [if_pos h]
    norm_cast
  · refine ⟨0 + (1 / 2) * (p + q), ?_⟩
    rw [if_neg h]
    norm_cast

theorem adj_real (P : Mat 1024 1024) (hP : Finite P) (i j : Fin 1024) :
    ∃ a : ℝ, 0 < a ∧ a < 1 ∧ adj P i j = (a : EReal) := by
  obtain ⟨z, hz⟩ := adj_arg_real P hP i j
  have hpos : 0 < Real.exp (-z) := Real.exp_pos (-z)
  refine ⟨(1 + Real.exp (-z))⁻¹, ?_, ?_, ?_⟩
  · positivity
  · exact inv_lt_one_of_one_lt₀ (by linarith)
  · unfold adj
    rw [hz, Ideal.logistic_coe]

theorem adj_ne_zero (P : Mat 1024 1024) (hP : Finite P) (i j : Fin 1024) : adj P i j ≠ 0 := by
  obtain ⟨a, ha, _, h⟩ := adj_real P hP i j
  rw [h]
  exact EReal.coe_ne_zero.mpr ha.ne'

theorem rowsum_eq_colsum (P : Mat 1024 1024) (i : Fin 1024) : rowsum P i = colsum P i := by
  unfold rowsum colsum
  exact Finset.sum_congr rfl (fun j _ => adj_symm P i j)

/-- A finite sum of positive reals, taken in the extended reals, is a nonnegative real, positive when the index
    set is inhabited. -/
theorem sum_pos_real {ι : Type*} (s : Finset ι) (f : ι → EReal)
    (hf : ∀ i ∈ s, ∃ a : ℝ, 0 < a ∧ f i = (a : EReal)) :
    ∃ d : ℝ, 0 ≤ d ∧ (s.Nonempty → 0 < d) ∧ ∑ i ∈ s, f i = (d : EReal) := by
  classical
  induction s using Finset.induction_on with
  | empty => exact ⟨0, le_refl 0, fun h => absurd h Finset.not_nonempty_empty, by simp⟩
  | insert a s ha ih =>
    obtain ⟨x, hx, hfx⟩ := hf a (Finset.mem_insert_self a s)
    obtain ⟨d, hd, _, hsum⟩ := ih (fun i hi => hf i (Finset.mem_insert_of_mem hi))
    refine ⟨x + d, by linarith, fun _ => by linarith, ?_⟩
    rw [Finset.sum_insert ha, hfx, hsum, EReal.coe_add]

theorem colsum_real (P : Mat 1024 1024) (hP : Finite P) (j : Fin 1024) :
    ∃ d : ℝ, 0 < d ∧ colsum P j = (d : EReal) := by
  obtain ⟨d, _, hd, hsum⟩ := sum_pos_real (Finset.univ : Finset (Fin 1024)) (fun i => adj P i j)
    (fun i _ => by
      obtain ⟨a, ha, _, h⟩ := adj_real P hP i j
      exact ⟨a, ha, h⟩)
  exact ⟨d, hd ⟨⟨0, by norm_num⟩, Finset.mem_univ _⟩, hsum⟩

/-- On a positive real the power -1/2 is the reciprocal of the square root. -/
theorem pow_neg_half (d : ℝ) (hd : 0 < d) :
    Ideal.pow (d : EReal) (((-(1 / 2) : ℝ)) : EReal) = Ideal.rsqrt (d : EReal) := by
  rw [Ideal.pow_coe_coe, Ideal.rsqrt_coe, if_neg (not_lt.mpr hd.le), if_neg hd.ne', Real.rpow_eq_pow,
    Real.rpow_neg hd.le, Real.sqrt_eq_rpow]

theorem rsqrt_real (d : ℝ) (hd : 0 < d) : ∃ e : ℝ, 0 < e ∧ Ideal.rsqrt (d : EReal) = (e : EReal) := by
  refine ⟨(Real.sqrt d)⁻¹, inv_pos.mpr (Real.sqrt_pos.mpr hd), ?_⟩
  rw [Ideal.rsqrt_coe, if_neg (not_lt.mpr hd.le), if_neg hd.ne']

/-- The two spellings of the adjacency's argument agree on reals. -/
theorem half_sum (e p q : ℝ) :
    Ideal.div ((((e : EReal) + p) + ((e : EReal) + q))) ((2 : ℝ) : EReal)
      = (e : EReal) + ((1 / 2 : ℝ) : EReal) * ((p : EReal) + (q : EReal)) := by
  rw [Ideal.div_coe (by norm_num : (2 : ℝ) ≠ 0)]
  have h : ((e + p) + (e + q)) * (1 / 2 : ℝ) = e + (1 / 2 : ℝ) * (p + q) := by ring
  exact_mod_cast h

theorem logistic_expand (z : EReal) : Ideal.div 1 (1 + Ideal.exp (-z)) = Ideal.logistic z := rfl

/-- A sum over the edges of one column, re-indexed by the row. -/
theorem sum_filter_col {M : Type*} [AddCommMonoid M] (f : Fin 1048576 → M) (c : Fin 1024) :
    (∑ k ∈ Finset.univ.filter (fun k : Fin 1048576 => k.val % 1024 = c.val), f k)
      = ∑ r : Fin 1024, f ⟨1024 * r.val + c.val, by have := r.isLt; have := c.isLt; omega⟩ := by
  have hc := c.isLt
  refine Finset.sum_nbij' (fun k => (⟨k.val / 1024, by have := k.isLt; omega⟩ : Fin 1024))
    (fun r => (⟨1024 * r.val + c.val, by have := r.isLt; omega⟩ : Fin 1048576)) ?_ ?_ ?_ ?_ ?_
  · intro k _
    exact Finset.mem_univ _
  · intro r _
    have := r.isLt
    rw [Finset.mem_filter]
    exact ⟨Finset.mem_univ _, by show (1024 * r.val + c.val) % 1024 = c.val; omega⟩
  · intro k hk
    have hk' : k.val % 1024 = c.val := (Finset.mem_filter.mp hk).2
    apply Fin.ext
    show 1024 * (k.val / 1024) + c.val = k.val
    omega
  · intro r _
    have := r.isLt
    apply Fin.ext
    show (1024 * r.val + c.val) / 1024 = r.val
    omega
  · intro k hk
    have hk' : k.val % 1024 = c.val := (Finset.mem_filter.mp hk).2
    refine congrArg f (Fin.ext ?_)
    show k.val = 1024 * (k.val / 1024) + c.val
    omega

/-- A sum over the edges of one row, re-indexed by the column. -/
theorem sum_filter_row {M : Type*} [AddCommMonoid M] (f : Fin 1048576 → M) (r : Fin 1024) :
    (∑ k ∈ Finset.univ.filter (fun k : Fin 1048576 => k.val / 1024 = r.val), f k)
      = ∑ c : Fin 1024, f ⟨1024 * r.val + c.val, by have := r.isLt; have := c.isLt; omega⟩ := by
  have hr := r.isLt
  refine Finset.sum_nbij' (fun k => (⟨k.val % 1024, Nat.mod_lt _ (by norm_num)⟩ : Fin 1024))
    (fun c => (⟨1024 * r.val + c.val, by have := c.isLt; omega⟩ : Fin 1048576)) ?_ ?_ ?_ ?_ ?_
  · intro k _
    exact Finset.mem_univ _
  · intro c _
    have := c.isLt
    rw [Finset.mem_filter]
    exact ⟨Finset.mem_univ _, by show (1024 * r.val + c.val) / 1024 = r.val; omega⟩
  · intro k hk
    have hk' : k.val / 1024 = r.val := (Finset.mem_filter.mp hk).2
    apply Fin.ext
    show 1024 * r.val + k.val % 1024 = k.val
    omega
  · intro c _
    have := c.isLt
    apply Fin.ext
    show (1024 * r.val + c.val) % 1024 = c.val
    omega
  · intro k hk
    have hk' : k.val / 1024 = r.val := (Finset.mem_filter.mp hk).2
    refine congrArg f (Fin.ext ?_)
    show k.val = 1024 * r.val + k.val % 1024
    omega

/-- The normalised adjacency with its factors in the order  d_r^(-1/2) · A r c · d_c^(-1/2). -/
theorem ahat_eq (P : Mat 1024 1024) (c r : Fin 1024) :
    ahat P c r = Ideal.rsqrt (colsum P r) * adj P r c * Ideal.rsqrt (colsum P c) := by
  unfold ahat
  rw [rowsum_eq_colsum, adj_symm P c r, mul_comm (adj P r c)]

end Cert.Spec

end
-- ==== Proof.Ref.Seg0.lean ====
/-
  Segment 0 of the reference program: the adjacency  A = σ(I + (P + Pᵀ)/2)  and the test "A ≠ 0".

  The identity is built by comparing the row number with the column number (32-bit words of numbers below 1024, so
  equal words mean equal numbers) and reading the one-bit answer as a float: the Kronecker delta. The transposed
  matrix reads the swapped index, the division is by the constant 2, and  1 / (1 + exp(-z))  is the logistic
  function as the specification spells it. For finite P every entry of A lies in (0, 1), so the test is true everywhere.
-/
import proofs.«135578_g23476291240112_cont_8to1_1555_6_alg».proof.Proof.Ref.Defs
import proofs.«135578_g23476291240112_cont_8to1_1555_6_alg».proof.Proof.SpecLemmas
import Idealize.ShloMosaic.Lib.IdealHost
import Idealize.ShloMosaic.Lib.Pipeline.Value
import Idealize.ShloMosaic.Lib.StableHlo.Predicate

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The operations of the segment as functions of the matrix P -/

/-- The identity matrix as the program builds it: the row number (plus a zero word) compared with the column number,
    the one-bit answer read as a float. -/
def eye0 : FVec Ideal S1024x1024 .f32 :=
  uitofp .f32 (cmpi .eq (addi (iotaInDim S1024x1024 32 0) (broadcastInDim S1024x1024 ![] bcast_S_S1024x1024 (constantI S_ 32 0#32)))
    (iotaInDim S1024x1024 32 1))

/-- I + P. -/
def pre0 (P : FVec Ideal S1024x1024 .f32) : FVec Ideal S1024x1024 .f32 := addf eye0 P

/-- ((I + P) + (I + P)ᵀ) / 2. -/
def half0 (P : FVec Ideal S1024x1024 .f32) : FVec Ideal S1024x1024 .f32 :=
  Host.divf (addf (pre0 P) (transpose S1024x1024 [1, 0] (pre0 P) transposes_S1024x1024_S1024x1024_1_0))
    (broadcastInDim S1024x1024 ![] bcast_S_S1024x1024 (constant S_ .f32 0x40000000#32))

/-- 1 / (1 + exp (-z)) at z the halved sum. -/
def sig0 (P : FVec Ideal S1024x1024 .f32) : FVec Ideal S1024x1024 .f32 :=
  Host.divf (broadcastInDim S1024x1024 ![] bcast_S_S1024x1024 (constant S_ .f32 0x3F800000#32))
    (addf (broadcastInDim S1024x1024 ![] bcast_S_S1024x1024 (constant S_ .f32 0x3F800000#32)) (Host.exp (Host.negf (half0 P))))

/-- The test "the entry is not zero". -/
def nz0 (P : FVec Ideal S1024x1024 .f32) : IVec S1024x1024 1 :=
  cmpf .une (sig0 P) (broadcastInDim S1024x1024 ![] bcast_S_S1024x1024 (constant S_ .f32 0x00000000#32))

set_option maxRecDepth 8192 in
/-- The segment's fold at the adjacency's buffer is the composed operations. -/
theorem seg0_v16_lit (V : Val) : after seg0 V (Proc.devRef .tc main_v16) = sig0 (V (Proc.devRef .tc main_arg1)) := by
  after_results_simp
  rfl

set_option maxRecDepth 8192 in
/-- The segment's fold at the mask's buffer is the composed operations. -/
theorem seg0_v18_lit (V : Val) : after seg0 V (Proc.devRef .tc main_v18) = nz0 (V (Proc.devRef .tc main_arg1)) := by
  after_results_simp
  rfl

/-! ## The operations read at an index -/

/-- Two numbers below 2 ^ 32 with the same 32-bit word are equal. -/
theorem ofNat32_inj {a b : ℕ} (ha : a < 2 ^ 32) (hb : b < 2 ^ 32) (h : BitVec.ofNat 32 a = BitVec.ofNat 32 b) : a = b := by
  have h' := congrArg BitVec.toNat h
  rwa [BitVec.toNat_ofNat, BitVec.toNat_ofNat, Nat.mod_eq_of_lt ha, Nat.mod_eq_of_lt hb] at h'

/-- The identity matrix the program builds is the Kronecker delta. -/
theorem eye0_apply (i j : Fin 1024) : eye0 (ix2 i j) = if i = j then (1 : EReal) else 0 := by
  have h0 : eye0 (ix2 i j)
      = (((IntOp.cmpi .eq (BitVec.ofNat 32 i.val + 0#32) (BitVec.ofNat 32 j.val)).toNat : ℝ) : EReal) := rfl
  rw [h0, BitVec.add_zero]
  by_cases h : i = j
  · subst h
    rw [if_pos rfl, Predicate.cmpi_eq_iff.mpr rfl]
    norm_num
  · have hne : ¬ IntOp.cmpi .eq (BitVec.ofNat 32 i.val) (BitVec.ofNat 32 j.val) = 1#1 := fun hc =>
      h (Fin.ext (ofNat32_inj (by have := i.isLt; omega) (by have := j.isLt; omega) (Predicate.cmpi_eq_iff.mp hc)))
    rw [if_neg h, eq_zero_of_ne_one hne]
    norm_num

/-- The transposed matrix reads the swapped index. -/
theorem pre0_transpose (P : FVec Ideal S1024x1024 .f32) (i j : Fin 1024) :
    transpose S1024x1024 [1, 0] (pre0 P) transposes_S1024x1024_S1024x1024_1_0 (ix2 i j) = pre0 P (ix2 j i) :=
  transpose_apply _ _ _ _ (ix2 j i) (by intro b; fin_cases b <;> rfl)

/-- The pattern 0x40000000 denotes the real 2. -/
theorem seg0_ofBits_two : Ideal.ofBits .f32 0x40000000#32 = ((2 : ℝ) : EReal) := by
  simp [Ideal.ofBits, Ideal.ieee, -EReal.coe_mul]; norm_num

/-- The halved sum at an index. -/
theorem half0_apply (P : FVec Ideal S1024x1024 .f32) (i j : Fin 1024) :
    half0 P (ix2 i j)
      = Ideal.div ((eye0 (ix2 i j) + P (ix2 i j)) + (eye0 (ix2 j i) + P (ix2 j i))) ((2 : ℝ) : EReal) := by
  unfold half0
  rw [hostDivf_apply, addf_apply, pre0_transpose, broadcastInDim_scalar_apply, constant_apply, seg0_ofBits_two]
  rfl

/-- The logistic function's spelling at an index. -/
theorem sig0_apply (P : FVec Ideal S1024x1024 .f32) (i j : Fin 1024) :
    sig0 P (ix2 i j) = Ideal.div 1 (1 + Ideal.exp (-(half0 P (ix2 i j)))) := by
  unfold sig0
  rw [hostDivf_apply, addf_apply, broadcastInDim_scalar_apply, constant_apply, Ideal.ofBits_one_f32]
  rfl

/-! ## The closed forms -/

/-- For finite P the composed operations are the adjacency  σ(δ + (P + Pᵀ)/2). -/
theorem sig0_eq (P : FVec Ideal S1024x1024 .f32) (hP : Finite P) : sig0 P = adjV P := by
  funext idx
  obtain ⟨i, j, rfl⟩ : ∃ i j : Fin 1024, idx = ix2 i j := ⟨idx 0, idx 1, eq_ix2 idx⟩
  obtain ⟨p, hp⟩ := hP (ix2 i j)
  obtain ⟨q, hq⟩ := hP (ix2 j i)
  have he : ∃ e : ℝ, (if i = j then (1 : EReal) else 0) = (e : EReal) ∧ (if j = i then (1 : EReal) else 0) = (e : EReal) := by
    by_cases h : i = j
    · exact ⟨1, by rw [if_pos h, EReal.coe_one], by rw [if_pos h.symm, EReal.coe_one]⟩
    · exact ⟨0, by rw [if_neg h, EReal.coe_zero], by rw [if_neg (Ne.symm h), EReal.coe_zero]⟩
  obtain ⟨e, he1, he2⟩ := he
  rw [sig0_apply, half0_apply, eye0_apply, eye0_apply, hp, hq, he1, he2, Cert.Spec.half_sum]
  show _ = Cert.Spec.adj P i j
  unfold Cert.Spec.adj
  rw [hp, hq, he1]
  rfl

/-- The adjacency after segment 0. -/
theorem seg0_v16 (V : Val) (hP : Finite (V (Proc.devRef .tc main_arg1))) :
    after seg0 V (Proc.devRef .tc main_v16) = adjV (V (Proc.devRef .tc main_arg1)) := by
  rw [seg0_v16_lit]
  exact sig0_eq _ hP

/-- Every entry of the adjacency is nonzero, so the mask after segment 0 is all ones. -/
theorem seg0_v18 (V : Val) (hP : Finite (V (Proc.devRef .tc main_arg1))) :
    after seg0 V (Proc.devRef .tc main_v18) = fun _ => 1#1 := by
  rw [seg0_v18_lit]
  unfold nz0
  rw [sig0_eq _ hP]
  funext idx
  rw [cmpf_apply, broadcastInDim_scalar_apply, constant_apply, Ideal.ofBits_zero_f32]
  have hne : adjV (V (Proc.devRef .tc main_arg1)) idx ≠ 0 := Cert.Spec.adj_ne_zero _ hP _ _
  show Ideal.cmp .une _ 0 = 1#1
  unfold Ideal.cmp
  simp only [decide_eq_true hne, BitVec.ofBool_true]
  rfl

end Cert.ReferenceIdeal.Hand
end
-- ==== Proof.LibPrefixSum.lean ====
/-
  Prefix sums and scalar scatters over a vector of integer words.

  `jnp.cumsum` is printed as a windowed add-reduction (window the whole length `n`, stride 1, `n - 1` positions of
  low padding), which is a left fold over the window's positions; `x.at[idx].add(v)` is printed as a scatter, a left
  fold over the updates in which an update whose index is outside the operand is dropped. Both folds are read here at
  one position as a finite sum, by induction over an abstract list, so that nothing is ever computed over the
  positions themselves:
   * element `j` of the windowed reduction is `x 0 + … + x j` (modulo `2 ^ w`);
   * element `i` of the scatter is the operand's element plus the updates whose index word, read signed, is `i`;
   * for the indices `k + 1` (`k < n`) and updates all one, that is one at every position but the first.
-/
import Idealize.ShloMosaic.PureOps.Contract
import Idealize.ShloMosaic.PureOps.ShapeOps
import Mathlib.Data.BitVec
import Mathlib.Algebra.BigOperators.Intervals

namespace Cert.Lib

open Idealize.ShloMosaic

/-- A left fold that adds `g k` for each element `k` of a list is the starting value plus the sum of the `g k`. -/
theorem foldl_add_eq {ι M : Type*} [AddCommMonoid M] (g : ι → M) (l : List ι) (a : M) :
    l.foldl (fun r k => r + g k) a = a + (l.map g).sum := by
  induction l generalizing a with
  | nil => simp
  | cons k l ih => simp [ih, add_assoc]

/-- The sum of `g` along the list `0, 1, …, n - 1` is the sum of `g` over the numbers below `n`. -/
theorem sum_map_range {M : Type*} [AddCommMonoid M] (g : Nat → M) (n : Nat) :
    ((List.range n).map g).sum = ∑ k ∈ Finset.range n, g k := by
  induction n with
  | zero => simp
  | succ n ih => rw [List.range_succ, List.map_append, List.sum_append, ih, Finset.sum_range_succ]; simp

/-- A vector of length `n` has `n` elements. -/
theorem numel_one (n : Nat) : (⟨1, ![n]⟩ : Shape).numel = n := by simp [Shape.numel]

/-- In a vector, the element at row-major position `m` has coordinate `m`. -/
theorem rowMajor_symm_val_one (n : Nat) (m : Fin (⟨1, ![n]⟩ : Shape).numel) :
    (((⟨1, ![n]⟩ : Shape).rowMajor.symm m) 0).val = m.val := by
  have := Shape.rowMajor_val_one ((⟨1, ![n]⟩ : Shape).rowMajor.symm m)
  rw [Equiv.apply_symm_apply] at this
  exact this.symm

/-- The sum over `k < n` of `g (j + k - lo)` where `lo ≤ j + k` (and nothing elsewhere), with `n = lo + 1` and `j < n`,
    is the sum of `g i` over `i ≤ j`: the window of length `n` that ends at `j` meets the vector in `0 … j`. -/
theorem sum_window {M : Type*} [AddCommMonoid M] {n lo j : Nat} (hlo : lo + 1 = n) (hj : j < n) (g : Nat → M) :
    (∑ k ∈ Finset.range n, if lo ≤ j + k ∧ j + k - lo < n then g (j + k - lo) else 0) = ∑ i ∈ Finset.range (j + 1), g i := by
  rw [← Finset.sum_range_add_sum_Ico _ (show lo - j ≤ n by omega), Finset.sum_Ico_eq_sum_range]
  have h0 : (∑ k ∈ Finset.range (lo - j), if lo ≤ j + k ∧ j + k - lo < n then g (j + k - lo) else 0) = 0 := by
    apply Finset.sum_eq_zero
    intro k hk
    rw [Finset.mem_range] at hk
    rw [if_neg]; omega
  rw [h0, zero_add, show n - (lo - j) = j + 1 by omega]
  apply Finset.sum_congr rfl
  intro i hi
  rw [Finset.mem_range] at hi
  rw [if_pos (by omega), show j + (lo - j + i) - lo = i by omega]

/-- A left fold over the positions `0, …, N - 1` as bounded numbers that reads only their values is the fold over the
    list `0, …, N - 1`. -/
theorem foldl_finRange_val {β : Type*} (N : Nat) (f : β → Nat → β) (a : β) :
    (List.finRange N).foldl (fun r m => f r m.val) a = (List.range N).foldl f a := by
  rw [← List.map_coe_finRange_eq_range, List.foldl_map]

/-- `jnp.cumsum` as a windowed reduction: with window `n`, stride 1 and `n - 1` elements of low padding, element `j`
    of the integer add-reduction (from 0) of a vector `x` of length `n` is `x 0 + … + x j`, in words modulo `2 ^ w`.
    The vector is given by its entries `g` along the position. -/
theorem reduceWindow_addi_prefix {w n lo : Nat} (hlo : lo + 1 = n) {u : Shape}
    (x : (⟨1, ![n]⟩ : Shape).Idx → BitVec w) (g : Nat → BitVec w) (hx : ∀ i, x i = g (i 0).val)
    (init : u.Idx → BitVec w) (hu : 0 < u.numel) (hinit : init (Shape.Idx.first hu) = 0)
    (h : (⟨1, ![n]⟩ : Shape).ReduceWindows ![n] ![1] ![lo] ![0] ⟨1, ![n]⟩) (j : (⟨1, ![n]⟩ : Shape).Idx) :
    Host.reduceWindow IntOp.addi ![n] ![1] ![lo] ![0] x init h hu j = ∑ i ∈ Finset.range ((j 0).val + 1), g i := by
  unfold Host.reduceWindow
  simp only [hinit]
  refine (List.foldl_ext _ (fun r m => r + (if lo ≤ (j 0).val + m.val ∧ (j 0).val + m.val - lo < n then g ((j 0).val + m.val - lo) else 0)) 0 ?_).trans ?_
  · intro r m _
    show r + _ = r + _
    congr 1
    have hm := rowMajor_symm_val_one n m
    by_cases hc : lo ≤ (j 0).val + m.val ∧ (j 0).val + m.val - lo < n
    · rw [if_pos hc, dif_pos]
      · rw [hx]; simp [hm]
      · intro a
        obtain rfl : a = 0 := Subsingleton.elim _ _
        simpa [hm] using hc
    · rw [if_neg hc, dif_neg]
      intro hall
      apply hc
      simpa [hm] using hall 0
  · refine (foldl_finRange_val _ (fun r k => r + (if lo ≤ (j 0).val + k ∧ (j 0).val + k - lo < n then g ((j 0).val + k - lo) else 0)) 0).trans ?_
    rw [numel_one, foldl_add_eq, zero_add, sum_map_range]
    exact sum_window hlo (j 0).isLt g

/-- The sum of `j + 1` ones, in words of any width, is the word of `j + 1`. -/
theorem sum_ones {w : Nat} (j : Nat) : (∑ _i ∈ Finset.range (j + 1), (1 : BitVec w)) = BitVec.ofNat w (j + 1) := by
  rw [Finset.sum_const, Finset.card_range, nsmul_eq_mul, mul_one, BitVec.natCast_eq_ofNat]

/-- The sum over `i ≤ j` of one at every `i ≥ 1` and nothing at `0` is the word of `j`. -/
theorem sum_ones_from_one {w : Nat} (j : Nat) :
    (∑ i ∈ Finset.range (j + 1), if 1 ≤ i then (1 : BitVec w) else 0) = BitVec.ofNat w j := by
  rw [Finset.sum_range_succ', if_neg (by omega), add_zero,
    Finset.sum_congr rfl (fun i _ => if_pos (Nat.le_add_left 1 i)),
    Finset.sum_const, Finset.card_range, nsmul_eq_mul, mul_one, BitVec.natCast_eq_ofNat]

/-- A left fold over a list of updates, each either added at one position of a function or dropped, read at position
    `i`: the starting value there plus the sum of the updates that land on `i`. -/
theorem foldl_scatter_add_apply {ι β M : Type*} [DecidableEq ι] [AddCommMonoid M] (res : β → Option ι) (v : β → M)
    (step : (ι → M) → β → ι → M)
    (hsome : ∀ r n i₀, res n = some i₀ → step r n = fun i' => if i' = i₀ then r i₀ + v n else r i')
    (hnone : ∀ r n, res n = none → step r n = r) (l : List β) (x : ι → M) (i : ι) :
    (l.foldl step x) i = x i + ((l.filter fun n => res n = some i).map v).sum := by
  induction l generalizing x with
  | nil => simp
  | cons n l ih =>
    rw [List.foldl_cons, ih, List.filter_cons]
    cases hr : res n with
    | none => rw [hnone x n hr]; simp
    | some i₀ =>
      rw [hsome x n i₀ hr]
      by_cases hi : i = i₀
      · subst hi; simp [add_assoc]
      · have : ¬ (some i₀ = some i) := fun h => hi (Option.some.inj h).symm
        simp [hi, this]

/-- `stablehlo.scatter` with an integer add body, read at position `i`: the operand's element plus the updates whose
    result index is `i` (an update whose result index is outside the operand has none and is dropped), the updates
    taken in row-major order. -/
theorem scatter_addi_apply {s si u : Shape} {w w' : Nat} (d : ScatterDims s si u) (x : s.Idx → BitVec w) (idx : IVec si w')
    (upd : u.Idx → BitVec w) (i : s.Idx) :
    Host.scatter d IntOp.addi x idx upd i
      = x i + (((List.finRange u.numel).filter fun n => d.resultIdx? (u.rowMajor.symm n) idx = some i).map
          fun n => upd (u.rowMajor.symm n)).sum := by
  unfold Host.scatter
  refine foldl_scatter_add_apply (fun n => d.resultIdx? (u.rowMajor.symm n) idx) (fun n => upd (u.rowMajor.symm n)) _ ?_ ?_ _ x i
  · intro r n i₀ h
    simp only [h]; rfl
  · intro r n h
    simp only [h]

/-- Scattering scalars into a vector (`x.at[idx].add(v)`: no window axes, the operand's one axis inserted, one index
    per update along the second axis of the indices): update `k` lands on position `i` exactly when the index word
    of row `k`, read as a signed integer, is `i`. The indices are given by their words `φ` along the rows. -/
theorem resultIdx?_vec {n m w : Nat} (d : ScatterDims ⟨1, ![n]⟩ ⟨2, ![m, 1]⟩ ⟨1, ![m]⟩)
    (h1 : d.updateWindowDims = []) (h2 : d.insertedWindowDims = [0]) (h3 : d.scatterDimsToOperandDims = [0])
    (h4 : d.indexVectorDim = 1) (idx : IVec ⟨2, ![m, 1]⟩ w) (φ : Nat → BitVec w) (hidx : ∀ q, idx q = φ (q 0).val)
    (k : (⟨1, ![m]⟩ : Shape).Idx) (i : (⟨1, ![n]⟩ : Shape).Idx) :
    d.resultIdx? k idx = some i ↔ (φ (k 0).val).toInt = ((i 0).val : Int) := by
  obtain ⟨uw, iw, sd, iv, wf⟩ := d
  simp only at h1 h2 h3 h4
  subst h1 h2 h3 h4
  have hstart : ∀ a, ScatterDims.start ⟨[], [0], [0], 1, wf⟩ k idx a = (φ (k 0).val).toInt := by
    intro a
    obtain rfl : a = 0 := Subsingleton.elim _ _
    unfold ScatterDims.start
    rw [dif_pos (List.mem_singleton.2 rfl), hidx]
    rfl
  have hwin : ∀ a, ScatterDims.window ⟨[], [0], [0], 1, wf⟩ k a = 0 := by
    intro a
    obtain rfl : a = 0 := Subsingleton.elim _ _
    unfold ScatterDims.window
    rw [dif_neg]
    show (0 : Fin 1) ∉ (List.finRange 1).filter (· ∉ [0])
    decide
  unfold ScatterDims.resultIdx?
  simp only [hstart, hwin]
  have hi : (i 0).val < n := (i 0).isLt
  constructor
  · intro h
    by_cases hc : ∀ (a : Fin 1), 0 ≤ (φ (k 0).val).toInt + ((0 : Nat) : Int) ∧ (φ (k 0).val).toInt + ((0 : Nat) : Int) < ((![n] a : Nat) : Int)
    · rw [dif_pos hc] at h
      have h'' := congrArg Fin.val (congrFun (Option.some.inj h) 0)
      simp only at h''
      have := (hc 0).1
      omega
    · rw [dif_neg hc] at h; exact absurd h (by simp)
  · intro h
    have hc : ∀ (a : Fin 1), 0 ≤ (φ (k 0).val).toInt + ((0 : Nat) : Int) ∧ (φ (k 0).val).toInt + ((0 : Nat) : Int) < ((![n] a : Nat) : Int) := by
      intro a
      obtain rfl : a = 0 := Subsingleton.elim _ _
      show 0 ≤ (φ (k 0).val).toInt + ((0 : Nat) : Int) ∧ (φ (k 0).val).toInt + ((0 : Nat) : Int) < (n : Int)
      omega
    rw [dif_pos hc]
    congr 1
    funext a
    obtain rfl : a = 0 := Subsingleton.elim _ _
    apply Fin.ext
    show ((φ (k 0).val).toInt + ((0 : Nat) : Int)).toNat = (i 0).val
    omega

/-- Filtering and mapping the positions `0, …, N - 1` as bounded numbers by functions of their values is filtering and
    mapping the list `0, …, N - 1`. -/
theorem filter_map_finRange_val {γ : Type*} (N : Nat) (p : Nat → Bool) (U : Nat → γ) :
    ((List.finRange N).filter (fun nn => p nn.val)).map (fun nn => U nn.val) = ((List.range N).filter p).map U := by
  rw [← List.map_coe_finRange_eq_range, List.filter_map, List.map_map]
  rfl

/-- The sum of `g` along the members of `0, …, n - 1` that satisfy `p`, as a sum over all numbers below `n`. -/
theorem sum_map_filter_range {M : Type*} [AddCommMonoid M] (p : Nat → Bool) (g : Nat → M) (n : Nat) :
    (((List.range n).filter p).map g).sum = ∑ k ∈ Finset.range n, if p k then g k else 0 := by
  induction n with
  | zero => simp
  | succ n ih =>
    rw [List.range_succ, List.filter_append, List.map_append, List.sum_append, ih, Finset.sum_range_succ]
    congr 1
    cases hp : p n <;> simp [hp]

/-- Scattering scalars into a vector with an integer add body, read at position `i`: the operand's element plus the
    updates `U k` of the rows `k` whose index word `φ k`, read signed, is `i`. -/
theorem scatter_addi_vec {n m w w' : Nat} (d : ScatterDims ⟨1, ![n]⟩ ⟨2, ![m, 1]⟩ ⟨1, ![m]⟩)
    (h1 : d.updateWindowDims = []) (h2 : d.insertedWindowDims = [0]) (h3 : d.scatterDimsToOperandDims = [0])
    (h4 : d.indexVectorDim = 1) (x : (⟨1, ![n]⟩ : Shape).Idx → BitVec w) (idx : IVec ⟨2, ![m, 1]⟩ w') (φ : Nat → BitVec w')
    (hidx : ∀ q, idx q = φ (q 0).val) (upd : (⟨1, ![m]⟩ : Shape).Idx → BitVec w) (U : Nat → BitVec w)
    (hupd : ∀ kk, upd kk = U (kk 0).val) (i : (⟨1, ![n]⟩ : Shape).Idx) :
    Host.scatter d IntOp.addi x idx upd i
      = x i + ∑ k ∈ Finset.range m, if (φ k).toInt = ((i 0).val : Int) then U k else 0 := by
  rw [scatter_addi_apply]
  congr 1
  have hf : (List.finRange (⟨1, ![m]⟩ : Shape).numel).filter
        (fun nn => d.resultIdx? ((⟨1, ![m]⟩ : Shape).rowMajor.symm nn) idx = some i)
      = (List.finRange (⟨1, ![m]⟩ : Shape).numel).filter (fun nn => decide ((φ nn.val).toInt = ((i 0).val : Int))) := by
    apply List.filter_congr
    intro nn _
    rw [decide_eq_decide, resultIdx?_vec d h1 h2 h3 h4 idx φ hidx, rowMajor_symm_val_one]
  have hm : (fun nn => upd ((⟨1, ![m]⟩ : Shape).rowMajor.symm nn)) = fun nn => U nn.val := by
    funext nn; rw [hupd, rowMajor_symm_val_one]
  rw [hf, hm, filter_map_finRange_val _ (fun k => decide ((φ k).toInt = ((i 0).val : Int))) U, numel_one, sum_map_filter_range]
  simp only [decide_eq_true_eq]

/-- A small natural number as a 32-bit word reads back, signed, as itself. -/
theorem toInt_ofNat_small (k : Nat) (hk : k ≤ 2147483647) : (BitVec.ofNat 32 k).toInt = (k : Int) := by
  rw [BitVec.toInt_eq_toNat_of_lt, BitVec.toNat_ofNat, Nat.mod_eq_of_lt (by omega)]
  rw [BitVec.toNat_ofNat, Nat.mod_eq_of_lt (by omega)]; omega

/-- Scattering a one at position `k + 1` for every `k < n` into a vector of length `n` (the last one, `n`, falls
    outside and is dropped): every position but the first receives exactly one. -/
theorem scatter_succ_ones {n w : Nat} (hn : n ≤ 2147483647) (d : ScatterDims ⟨1, ![n]⟩ ⟨2, ![n, 1]⟩ ⟨1, ![n]⟩)
    (h1 : d.updateWindowDims = []) (h2 : d.insertedWindowDims = [0]) (h3 : d.scatterDimsToOperandDims = [0])
    (h4 : d.indexVectorDim = 1) (x : (⟨1, ![n]⟩ : Shape).Idx → BitVec w) (idx : IVec ⟨2, ![n, 1]⟩ 32)
    (hidx : ∀ q, idx q = BitVec.ofNat 32 ((q 0).val + 1)) (upd : (⟨1, ![n]⟩ : Shape).Idx → BitVec w)
    (hupd : ∀ kk, upd kk = 1) (i : (⟨1, ![n]⟩ : Shape).Idx) :
    Host.scatter d IntOp.addi x idx upd i = x i + if 1 ≤ (i 0).val then 1 else 0 := by
  rw [scatter_addi_vec d h1 h2 h3 h4 x idx (fun k => BitVec.ofNat 32 (k + 1)) hidx upd (fun _ => 1) hupd i]
  congr 1
  have hi : (i 0).val < n := (i 0).isLt
  have hcond : ∀ k ∈ Finset.range n, (if (BitVec.ofNat 32 (k + 1)).toInt = ((i 0).val : Int) then (1 : BitVec w) else 0)
      = if k = (i 0).val - 1 ∧ 1 ≤ (i 0).val then 1 else 0 := by
    intro k hk
    rw [Finset.mem_range] at hk
    rw [toInt_ofNat_small (k + 1) (by omega)]
    congr 1
    apply propext
    constructor <;> intro h <;> omega
  rw [Finset.sum_congr rfl hcond]
  by_cases h1i : 1 ≤ (i 0).val
  · rw [if_pos h1i, Finset.sum_eq_single_of_mem ((i 0).val - 1) (Finset.mem_range.2 (by omega))]
    · rw [if_pos ⟨rfl, h1i⟩]
    · intro b _ hb; rw [if_neg (fun h => hb h.1)]
  · rw [if_neg h1i]
    apply Finset.sum_eq_zero
    intro k _; rw [if_neg (fun h => h1i h.2)]

end Cert.Lib
-- ==== Proof.Ref.Seg1.lean ====
/-
  Segment 1 of the reference program: the index computation of `jnp.nonzero` on the mask of the adjacency's nonzero
  entries. With the mask all ones: the prefix sums of the flattened mask are k + 1 at position k; the clip at 0 and
  the wrap of negative indices leave them; a one scattered at each position k + 1 (the last falls outside the vector
  and is dropped) gives one at every position but the first; and the prefix sums of that are k at position k: edge k
  is entry k of the row-major list of all entries.

  The segment is read in five consecutive pieces (the first prefix sum; the clip; the wrap; the scatter; the second
  prefix sum), each as the composition of its operations over an arbitrary valuation, and the pieces are chained.
-/
import proofs.«135578_g23476291240112_cont_8to1_1555_6_alg».proof.Proof.Ref.Defs
import proofs.«135578_g23476291240112_cont_8to1_1555_6_alg».proof.Proof.LibPrefixSum
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

namespace Seg1

/-! ## The stages as functions -/

/-- `jnp.cumsum` of a vector of 1048576 words, as printed: the add-reduction over a window of the whole length, padded
    1048575 low, from the initial value 0. -/
def cumsumW (x : S1048576.Idx → BitVec 32) : S1048576.Idx → BitVec 32 :=
  Host.reduceWindow IntOp.addi ![1048576] ![1] ![1048575] ![0] x (broadcastInDim S_ ![] bcast_S_S_ (constantI S_ 32 0#32))
    reduceWindows_S1048576_S1048576_w1048576s1p1048575_0 h_S_

/-- The vector of zeros. -/
def zeroW : S1048576.Idx → BitVec 32 := broadcastInDim S1048576 ![] bcast_S_S1048576 (constantI S_ 32 0#32)

/-- The clip at 0 from below: the signed maximum with 0. -/
def clipW (v : S1048576.Idx → BitVec 32) : S1048576.Idx → BitVec 32 :=
  maxsi (broadcastInDim S1048576 ![] bcast_S_S1048576 (id (constantI S_ 32 0#32))) v

/-- The wrap of negative indices: `v < 0 ? v + 1048576 : v`. -/
def wrapW (v : S1048576.Idx → BitVec 32) : S1048576.Idx → BitVec 32 :=
  select (cmpi .slt v (broadcastInDim S1048576 ![] bcast_S_S1048576 (constantI S_ 32 0#32)))
    (addi v (broadcastInDim S1048576 ![] bcast_S_S1048576 (constantI S_ 32 1048576#32))) v

/-- The scatter-add of ones at the positions `v` into the vector `z`. -/
def countAtW (z v : S1048576.Idx → BitVec 32) : S1048576.Idx → BitVec 32 :=
  Host.scatter scatter_S1048576_S1048576x1_S1048576_n_0_0_1 IntOp.addi z
    (broadcastInDim S1048576x1 ![0] bcast_S1048576_S1048576x1_0 v)
    (broadcastInDim S1048576 ![] bcast_S_S1048576 (constantI S_ 32 1#32))

/-! ## The segment in five pieces -/

section Pieces

variable {F : FTy → Type} [FloatOps F]

/-- The first prefix sum: statements of `%19 = call @cumsum(%18)`. -/
abbrev seg1A : List (HloOp τ sig (Elt F)) :=
  [ StableHlo.TRef.reshape (StableHlo.TRef.of (T := ⟨S1024x1024, .i1⟩) main_v18) main_call0.v0 rfl shapeCasts_S1024x1024_S1048576,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![1048576] ![1] ![1048575] ![0] x v reduceWindows_S1048576_S1048576_w1048576s1p1048575_0 h_S_) ]

/-- The zeros the scatter starts from, and the clip `%21 = call @clip(%19, 0)`. -/
abbrev seg1B : List (HloOp τ sig (Elt F)) :=
  [ StableHlo.nullary main_c_3 (constantI S_ 32 0#32),
    StableHlo.unary main_c_3 main_v20 (broadcastInDim S1048576 ![] bcast_S_S1048576 : (⟨S_, .i32⟩ : BufTy).Contents (Elt F) → (⟨S1048576, .i32⟩ : BufTy).Contents (Elt F)),
    StableHlo.nullary main_c_4 (constantI S_ 32 0#32),
    StableHlo.TRef.unary (StableHlo.TRef.of (T := ⟨S_, .i32⟩) main_c_4) main_call1.v0 id,
    StableHlo.TRef.unary main_call1.v0 main_call1.v1 (broadcastInDim S1048576 ![] bcast_S_S1048576),
    StableHlo.TRef.binary main_call1.v1 (StableHlo.TRef.of (T := ⟨S1048576, .i32⟩) main_v19) main_call1.v2 maxsi ]

/-- The wrap of negative indices, `%22 … %26`. -/
abbrev seg1C : List (HloOp τ sig (Elt F)) :=
  [ StableHlo.nullary main_c_5 (constantI S_ 32 0#32),
    StableHlo.unary main_c_5 main_v22 (broadcastInDim S1048576 ![] bcast_S_S1048576 : (⟨S_, .i32⟩ : BufTy).Contents (Elt F) → (⟨S1048576, .i32⟩ : BufTy).Contents (Elt F)),
    StableHlo.binary main_v21 main_v22 main_v23 (cmpi .slt : (⟨S1048576, .i32⟩ : BufTy).Contents (Elt F) → (⟨S1048576, .i32⟩ : BufTy).Contents (Elt F) → (⟨S1048576, .i1⟩ : BufTy).Contents (Elt F)),
    StableHlo.nullary main_c_6 (constantI S_ 32 1048576#32),
    StableHlo.unary main_c_6 main_v24 (broadcastInDim S1048576 ![] bcast_S_S1048576 : (⟨S_, .i32⟩ : BufTy).Contents (Elt F) → (⟨S1048576, .i32⟩ : BufTy).Contents (Elt F)),
    StableHlo.binary main_v21 main_v24 main_v25 (addi : (⟨S1048576, .i32⟩ : BufTy).Contents (Elt F) → (⟨S1048576, .i32⟩ : BufTy).Contents (Elt F) → (⟨S1048576, .i32⟩ : BufTy).Contents (Elt F)),
    StableHlo.ternary main_v23 main_v25 main_v21 main_v26 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ]

/-- The scatter of ones, `%27 … %29`. -/
abbrev seg1D : List (HloOp τ sig (Elt F)) :=
  [ StableHlo.unary main_v26 main_v27 (broadcastInDim S1048576x1 ![0] bcast_S1048576_S1048576x1_0 : (⟨S1048576, .i32⟩ : BufTy).Contents (Elt F) → (⟨S1048576x1, .i32⟩ : BufTy).Contents (Elt F)),
    StableHlo.nullary main_c_7 (constantI S_ 32 1#32),
    StableHlo.unary main_c_7 main_v28 (broadcastInDim S1048576 ![] bcast_S_S1048576 : (⟨S_, .i32⟩ : BufTy).Contents (Elt F) → (⟨S1048576, .i32⟩ : BufTy).Contents (Elt F)),
    StableHlo.ternary main_v20 main_v27 main_v28 main_v29 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]

/-- The second prefix sum, `%30 = call @cumsum_1(%29)`. -/
abbrev seg1E : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (StableHlo.TRef.of (T := ⟨S1048576, .i32⟩) main_v29) main_call2.call0.v0 main_call2.call0.v1 (fun x v => Host.reduceWindow IntOp.addi ![1048576] ![1] ![1048575] ![0] x v reduceWindows_S1048576_S1048576_w1048576s1p1048575_0 h_S_) ]

set_option maxRecDepth 8192 in
/-- Segment 1 is its five pieces in a row. -/
theorem seg1_cut : (seg1 : List (HloOp τ sig (Elt F))) = seg1A ++ (seg1B ++ (seg1C ++ (seg1D ++ seg1E))) := rfl

end Pieces

/-! ## Each piece as the composition of its operations -/

/-- Contents carried to a typed buffer's own type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

set_option maxRecDepth 16384 in
set_option maxHeartbeats 2000000 in
theorem seg1A_v19 (W : Val) : after seg1A W (Proc.devRef .tc main_v19)
    = cumsumW (extui 32 (shapeCast S1048576 (W (Proc.devRef .tc main_v18)) shapeCasts_S1024x1024_S1048576) natLt_1_32) := by
  have e0 : ∀ (p1 : main_call0_v0.ty = ⟨S1048576, .i1⟩) (p2 : main_call0_v0.space ≠ .host) (p3 : main_call0_v0.isScoped = false)
      (v : main_call0_v0.ty.Contents (Elt Ideal)), (TRef.of (T := ⟨S1048576, .i1⟩) main_call0_v0 p1 p2 p3).ofBuf v = v := fun _ _ _ _ => rfl
  have e19 : ∀ (p1 : main_v19.ty = ⟨S1048576, .i32⟩) (p2 : main_v19.space ≠ .host) (p3 : main_v19.isScoped = false)
      (v : (⟨S1048576, .i32⟩ : BufTy).Contents (Elt Ideal)), (TRef.of (T := ⟨S1048576, .i32⟩) main_v19 p1 p2 p3).toBuf v = v := fun _ _ _ _ => rfl
  unfold seg1A
  after_results_simp
  simp only [ofBuf_toBuf, e0, e19]
  unfold cumsumW
  rfl

set_option maxRecDepth 16384 in
set_option maxHeartbeats 2000000 in
theorem seg1B_v21 (W : Val) : after seg1B W (Proc.devRef .tc main_v21) = clipW (W (Proc.devRef .tc main_v19)) := by
  have e4 : ∀ (p1 : main_c_4.ty = ⟨S_, .i32⟩) (p2 : main_c_4.space ≠ .host) (p3 : main_c_4.isScoped = false)
      (v : main_c_4.ty.Contents (Elt Ideal)), (TRef.of (T := ⟨S_, .i32⟩) main_c_4 p1 p2 p3).ofBuf v = v := fun _ _ _ _ => rfl
  have e19 : ∀ (p1 : main_v19.ty = ⟨S1048576, .i32⟩) (p2 : main_v19.space ≠ .host) (p3 : main_v19.isScoped = false)
      (v : main_v19.ty.Contents (Elt Ideal)), (TRef.of (T := ⟨S1048576, .i32⟩) main_v19 p1 p2 p3).ofBuf v = v := fun _ _ _ _ => rfl
  have e21 : ∀ (p1 : main_v21.ty = ⟨S1048576, .i32⟩) (p2 : main_v21.space ≠ .host) (p3 : main_v21.isScoped = false)
      (v : (⟨S1048576, .i32⟩ : BufTy).Contents (Elt Ideal)), (TRef.of (T := ⟨S1048576, .i32⟩) main_v21 p1 p2 p3).toBuf v = v := fun _ _ _ _ => rfl
  unfold seg1B
  after_results_simp
  simp only [ofBuf_toBuf, e4, e19, e21]
  unfold clipW
  rfl

set_option maxRecDepth 16384 in
set_option maxHeartbeats 2000000 in
theorem seg1B_v20 (W : Val) : after seg1B W (Proc.devRef .tc main_v20) = zeroW := by
  unfold seg1B
  after_results_simp
  unfold zeroW
  rfl

set_option maxRecDepth 16384 in
set_option maxHeartbeats 2000000 in
theorem seg1C_v26 (W : Val) : after seg1C W (Proc.devRef .tc main_v26) = wrapW (W (Proc.devRef .tc main_v21)) := by
  unfold seg1C
  after_results_simp
  unfold wrapW
  rfl

set_option maxRecDepth 16384 in
set_option maxHeartbeats 2000000 in
theorem seg1C_v20 (W : Val) : after seg1C W (Proc.devRef .tc main_v20) = W (Proc.devRef .tc main_v20) := by
  unfold seg1C
  after_results_simp

set_option maxRecDepth 16384 in
set_option maxHeartbeats 2000000 in
theorem seg1D_v29 (W : Val) : after seg1D W (Proc.devRef .tc main_v29)
    = countAtW (W (Proc.devRef .tc main_v20)) (W (Proc.devRef .tc main_v26)) := by
  unfold seg1D
  after_results_simp
  unfold countAtW
  rfl

set_option maxRecDepth 16384 in
set_option maxHeartbeats 2000000 in
theorem seg1E_v30 (W : Val) : after seg1E W (Proc.devRef .tc main_v30) = cumsumW (W (Proc.devRef .tc main_v29)) := by
  have e29 : ∀ (p1 : main_v29.ty = ⟨S1048576, .i32⟩) (p2 : main_v29.space ≠ .host) (p3 : main_v29.isScoped = false)
      (v : main_v29.ty.Contents (Elt Ideal)), (TRef.of (T := ⟨S1048576, .i32⟩) main_v29 p1 p2 p3).ofBuf v = v := fun _ _ _ _ => rfl
  have e30 : ∀ (p1 : main_v30.ty = ⟨S1048576, .i32⟩) (p2 : main_v30.space ≠ .host) (p3 : main_v30.isScoped = false)
      (v : (⟨S1048576, .i32⟩ : BufTy).Contents (Elt Ideal)), (TRef.of (T := ⟨S1048576, .i32⟩) main_v30 p1 p2 p3).toBuf v = v := fun _ _ _ _ => rfl
  unfold seg1E
  after_results_simp
  simp only [ofBuf_toBuf, e29, e30]
  unfold cumsumW
  rfl

/-! ## The mathematics -/

/-- Element `j` of the prefix sums of a vector with entries `g` along the position is `g 0 + … + g j`. -/
theorem cumsumW_apply (x : S1048576.Idx → BitVec 32) (g : Nat → BitVec 32) (hx : ∀ i, x i = g (i 0).val) (j : S1048576.Idx) :
    cumsumW x j = ∑ i ∈ Finset.range ((j 0).val + 1), g i :=
  Cert.Lib.reduceWindow_addi_prefix (by omega) x g hx _ h_S_ rfl reduceWindows_S1048576_S1048576_w1048576s1p1048575_0 j

/-- The mask of ones, flattened and widened to words, is the vector of ones. -/
theorem ones_eq : extui 32 (shapeCast S1048576 (fun _ : S1024x1024.Idx => 1#1) shapeCasts_S1024x1024_S1048576) natLt_1_32
    = fun _ => 1#32 := by
  funext i
  show (1#1 : BitVec 1).setWidth 32 = 1#32
  decide

/-- The prefix sums of the ones: `j + 1` at position `j`. -/
theorem cumsumW_ones : cumsumW (fun _ => 1#32) = fun j => BitVec.ofNat 32 ((j 0).val + 1) := by
  funext j
  rw [cumsumW_apply _ (fun _ => 1#32) (fun _ => rfl) j]
  exact Cert.Lib.sum_ones _

/-- A small natural number as a word is not negative. -/
theorem slt_zero_small (k : Nat) (hk : k ≤ 2147483647) : (BitVec.ofNat 32 k).slt 0#32 = false := by
  simp [BitVec.slt, Cert.Lib.toInt_ofNat_small k hk]

/-- The clip leaves the positions `j + 1` as they are: none is negative. -/
theorem clipW_succ : clipW (fun j => BitVec.ofNat 32 ((j 0).val + 1)) = fun j => BitVec.ofNat 32 ((j 0).val + 1) := by
  funext j
  have hj : (j 0).val < 1048576 := (j 0).isLt
  have hs : (BitVec.ofNat 32 ((j 0).val + 1)).slt 0#32 = false := slt_zero_small _ (by omega)
  show IntOp.maxsi 0#32 (BitVec.ofNat 32 ((j 0).val + 1)) = _
  unfold IntOp.maxsi
  rw [hs]
  rfl

/-- The wrap leaves them too. -/
theorem wrapW_succ : wrapW (fun j => BitVec.ofNat 32 ((j 0).val + 1)) = fun j => BitVec.ofNat 32 ((j 0).val + 1) := by
  funext j
  have hj : (j 0).val < 1048576 := (j 0).isLt
  have hs : (BitVec.ofNat 32 ((j 0).val + 1)).slt 0#32 = false := slt_zero_small _ (by omega)
  have hc : IntOp.cmpi .slt (BitVec.ofNat 32 ((j 0).val + 1)) 0#32 = 0#1 := by
    unfold IntOp.cmpi; simp only [hs]; rfl
  show Scalar.select (IntOp.cmpi .slt (BitVec.ofNat 32 ((j 0).val + 1)) 0#32)
      (IntOp.addi (BitVec.ofNat 32 ((j 0).val + 1)) 1048576#32) (BitVec.ofNat 32 ((j 0).val + 1)) = _
  rw [hc]
  rfl

/-- A one scattered at each position `k + 1` into the zeros: every position but the first holds one, the first zero. -/
theorem countAtW_succ : countAtW zeroW (fun j => BitVec.ofNat 32 ((j 0).val + 1)) = fun i => if 1 ≤ (i 0).val then 1#32 else 0#32 := by
  funext i
  unfold countAtW
  refine (Cert.Lib.scatter_succ_ones (by omega) scatter_S1048576_S1048576x1_S1048576_n_0_0_1 rfl rfl rfl rfl zeroW
    (broadcastInDim S1048576x1 ![0] bcast_S1048576_S1048576x1_0 fun j : S1048576.Idx => BitVec.ofNat 32 ((j 0).val + 1))
    (fun q => rfl) (broadcastInDim S1048576 ![] bcast_S_S1048576 (constantI S_ 32 1#32)) (fun _ => rfl) i).trans ?_
  show (0#32 + if 1 ≤ (i 0).val then (1 : BitVec 32) else 0) = _
  rw [BitVec.zero_add]
  rfl

/-- The prefix sums of that: `j` at position `j`. -/
theorem cumsumW_ind : cumsumW (fun i => if 1 ≤ (i 0).val then 1#32 else 0#32) = idW := by
  funext j
  rw [cumsumW_apply _ (fun i => if 1 ≤ i then 1#32 else 0#32) (fun _ => rfl) j]
  exact Cert.Lib.sum_ones_from_one _

end Seg1

open Seg1

/-! ## The segment -/

/-- With the mask all ones, segment 1 leaves at `%30` each position's own number. -/
theorem seg1_v30 (V : Val) (h18 : V (Proc.devRef .tc main_v18) = fun _ => 1#1) :
    after seg1 V (Proc.devRef .tc main_v30) = idW := by
  rw [seg1_cut, StableHlo.after_append, StableHlo.after_append, StableHlo.after_append, StableHlo.after_append,
    seg1E_v30, seg1D_v29, seg1C_v20, seg1C_v26, seg1B_v20, seg1B_v21, seg1A_v19, h18]
  show cumsumW (countAtW zeroW (wrapW (clipW (cumsumW
    (extui 32 (shapeCast S1048576 (fun _ : S1024x1024.Idx => 1#1) shapeCasts_S1024x1024_S1048576) natLt_1_32))))) = idW
  rw [ones_eq, cumsumW_ones, clipW_succ, wrapW_succ, countAtW_succ, cumsumW_ind]

variable {F : FTy → Type} [FloatOps F]

set_option maxRecDepth 8192 in
/-- Segment 1 writes only the buffers listed. -/
theorem seg1_writes : (seg1 : List (HloOp τ sig (Elt F))).Forall fun op => op.writes ⊆ (seg1_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg1_w, List.mem_cons, List.mem_nil_iff, true_or, or_true], rfl⟩

end Cert.ReferenceIdeal.Hand

end
-- ==== Proof.LibWordDiv.lean ====
/-
  Signed 32-bit division and remainder on words whose sign bits are clear, and the two jnp functions the
  reference program spells with them: floor division (the truncated quotient, less one when the operands' signs
  differ and the remainder is not zero) and the remainder of the divisor's sign (the truncated remainder, plus the
  divisor when their signs differ and it is not zero). On such words, the divisor not zero, both are the natural
  numbers' quotient and remainder: the corrections are never taken. Also a left fold that adds one per element of
  a list: it counts the list.
-/
import Mathlib.Data.BitVec
import Idealize.ShloMosaic.PureOps.Float
import Idealize.ShloMosaic.Lib.WordArith

namespace Cert.Lib

open Idealize.ShloMosaic

/-! ## Words of small natural numbers -/

/-- A natural number below 2³¹, as a 32-bit word, has its sign bit clear. -/
theorem msb_ofNat_of_lt (n : ℕ) (h : n < 2 ^ 31) : (BitVec.ofNat 32 n).msb = false := by
  rw [BitVec.msb_eq_false_iff_two_mul_lt, BitVec.toNat_ofNat, Nat.mod_eq_of_lt (by omega)]
  omega

/-- A positive natural number below 2³², as a 32-bit word, is not the zero word. -/
theorem ofNat_ne_zero_of_pos (n : ℕ) (h0 : 0 < n) (h : n < 2 ^ 32) : BitVec.ofNat 32 n ≠ 0#32 := by
  intro e
  have e' := congrArg BitVec.toNat e
  rw [BitVec.toNat_ofNat, Nat.mod_eq_of_lt h] at e'
  exact absurd e' (by simpa using Nat.pos_iff_ne_zero.mp h0)

/-- The unsigned quotient of the words of two natural numbers below 2³² is the word of their quotient. -/
theorem udiv_ofNat (n d : ℕ) (hn : n < 2 ^ 32) (hd : d < 2 ^ 32) :
    BitVec.ofNat 32 n / BitVec.ofNat 32 d = BitVec.ofNat 32 (n / d) := by
  apply BitVec.eq_of_toNat_eq
  rw [BitVec.toNat_udiv, BitVec.toNat_ofNat, BitVec.toNat_ofNat, BitVec.toNat_ofNat, Nat.mod_eq_of_lt hn,
    Nat.mod_eq_of_lt hd, Nat.mod_eq_of_lt (lt_of_le_of_lt (Nat.div_le_self n d) hn)]

/-- The unsigned remainder of the words of two natural numbers below 2³² is the word of their remainder. -/
theorem umod_ofNat (n d : ℕ) (hn : n < 2 ^ 32) (hd : d < 2 ^ 32) :
    BitVec.ofNat 32 n % BitVec.ofNat 32 d = BitVec.ofNat 32 (n % d) := by
  apply BitVec.eq_of_toNat_eq
  rw [BitVec.toNat_umod, BitVec.toNat_ofNat, BitVec.toNat_ofNat, BitVec.toNat_ofNat, Nat.mod_eq_of_lt hn,
    Nat.mod_eq_of_lt hd, Nat.mod_eq_of_lt (lt_of_le_of_lt (Nat.mod_le n d) hn)]

/-! ## Signed division and remainder of words with clear sign bits -/

/-- Two words with clear sign bits, the second not zero, are not at signed division's corner. -/
theorem not_sdivCorner_of_msb (x y : BitVec 32) (hy : y.msb = false) (hy0 : y ≠ 0#32) : ¬ IntOp.SDivCorner x y := by
  rintro (h | ⟨-, h⟩)
  · exact hy0 h
  · subst h; exact absurd hy (by decide)

/-- Signed division of words with clear sign bits, the divisor not zero, is the unsigned division. -/
theorem divsi_of_msb (u : ArithUnit) (x y : BitVec 32) (hx : x.msb = false) (hy : y.msb = false) (hy0 : y ≠ 0#32) :
    IntOp.divsi u x y = x / y := by
  unfold IntOp.divsi
  rw [if_neg (not_sdivCorner_of_msb x y hy hy0), BitVec.sdiv_eq, hx, hy]
  rfl

/-- The signed remainder of words with clear sign bits, the divisor not zero, is the unsigned remainder. -/
theorem remsi_of_msb (u : ArithUnit) (x y : BitVec 32) (hx : x.msb = false) (hy : y.msb = false) (hy0 : y ≠ 0#32) :
    IntOp.remsi u x y = x % y := by
  unfold IntOp.remsi
  rw [if_neg (not_sdivCorner_of_msb x y hy hy0), BitVec.srem_eq, hx, hy]

/-! ## The sign, floor division and the remainder of the divisor's sign, as the program spells them -/

/-- The sign of a word: 0, -1 or 1. -/
def sgnW (x : BitVec 32) : BitVec 32 := if x = 0 then 0 else if x.msb then -1 else 1

/-- The sign of a non-zero word with a clear sign bit is one. -/
theorem sgnW_of_msb (x : BitVec 32) (hx : x.msb = false) (hx0 : x ≠ 0#32) : sgnW x = 1 := by
  unfold sgnW
  have hx0' : ¬ x = 0 := hx0
  rw [if_neg hx0', hx]
  rfl

/-- Floor division of signed words: the truncated quotient, less one when the signs differ and the remainder is
    not zero. -/
def floorDivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The remainder of the divisor's sign: the divisor zero is replaced by one; the truncated remainder, plus the
    divisor when their signs differ and the remainder is not zero. -/
def pyRemW (x d : BitVec 32) : BitVec 32 :=
  Scalar.select
    (IntOp.andi
      (IntOp.cmpi .ne (IntOp.cmpi .slt (IntOp.remsi .host x (Scalar.select (IntOp.cmpi .eq d 0#32) 1#32 d)) 0#32)
        (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d)) (Scalar.select (IntOp.cmpi .eq d 0#32) 1#32 d))
    (IntOp.remsi .host x (Scalar.select (IntOp.cmpi .eq d 0#32) 1#32 d))

/-- On words with clear sign bits, the divisor not zero, floor division is the unsigned division. -/
theorem floorDivW_of_msb (x d : BitVec 32) (hx : x.msb = false) (hd : d.msb = false) (hd0 : d ≠ 0#32) :
    floorDivW x d = x / d := by
  unfold floorDivW
  rw [divsi_of_msb .host x d hx hd hd0, remsi_of_msb .host x d hx hd hd0]
  have hc : IntOp.andi (IntOp.cmpi .ne (sgnW x) (sgnW d)) (IntOp.cmpi .ne (x % d) 0#32) = 0#1 := by
    show IntOp.andi (BitVec.ofBool (sgnW x != sgnW d)) (BitVec.ofBool (x % d != 0#32)) = 0#1
    rw [WordArith.andi_ofBool]
    by_cases h0 : x = 0#32
    · subst h0
      rw [BitVec.zero_umod]
      simp
    · rw [sgnW_of_msb x hx h0, sgnW_of_msb d hd hd0]
      simp
  rw [hc]
  exact if_neg (by decide)

/-- On words with clear sign bits, the divisor not zero, the remainder of the divisor's sign is the unsigned
    remainder. -/
theorem pyRemW_of_msb (x d : BitVec 32) (hx : x.msb = false) (hd : d.msb = false) (hd0 : d ≠ 0#32) :
    pyRemW x d = x % d := by
  have hsel : Scalar.select (IntOp.cmpi .eq d 0#32) 1#32 d = d := by
    show (if BitVec.ofBool (d == 0#32) = 1 then 1#32 else d) = d
    rw [if_neg]
    rw [WordArith.ofBool_eq_numeral_one_iff]
    simpa using hd0
  unfold pyRemW
  rw [hsel, remsi_of_msb .host x d hx hd hd0]
  have hr : (x % d).msb = false := BitVec.msb_umod_eq_false_of_left hx d
  have hc : IntOp.andi (IntOp.cmpi .ne (IntOp.cmpi .slt (x % d) 0#32) (IntOp.cmpi .slt d 0#32)) (IntOp.cmpi .ne (x % d) 0#32) = 0#1 := by
    show IntOp.andi (BitVec.ofBool (BitVec.ofBool ((x % d).slt 0#32) != BitVec.ofBool (d.slt 0#32))) (BitVec.ofBool (x % d != 0#32)) = 0#1
    rw [WordArith.andi_ofBool, BitVec.slt_zero_eq_msb, BitVec.slt_zero_eq_msb, hr, hd]
    simp
  rw [hc]
  exact if_neg (by decide)

/-- Floor division of the words of natural numbers below 2³¹, the divisor positive, is the word of the quotient. -/
theorem floorDivW_ofNat (n d : ℕ) (hn : n < 2 ^ 31) (hd0 : 0 < d) (hd : d < 2 ^ 31) :
    floorDivW (BitVec.ofNat 32 n) (BitVec.ofNat 32 d) = BitVec.ofNat 32 (n / d) := by
  rw [floorDivW_of_msb _ _ (msb_ofNat_of_lt n hn) (msb_ofNat_of_lt d hd) (ofNat_ne_zero_of_pos d hd0 (by omega)),
    udiv_ofNat n d (by omega) (by omega)]

/-- The remainder of the words of natural numbers below 2³¹, the divisor positive, is the word of the remainder. -/
theorem pyRemW_ofNat (n d : ℕ) (hn : n < 2 ^ 31) (hd0 : 0 < d) (hd : d < 2 ^ 31) :
    pyRemW (BitVec.ofNat 32 n) (BitVec.ofNat 32 d) = BitVec.ofNat 32 (n % d) := by
  rw [pyRemW_of_msb _ _ (msb_ofNat_of_lt n hn) (msb_ofNat_of_lt d hd) (ofNat_ne_zero_of_pos d hd0 (by omega)),
    umod_ofNat n d (by omega) (by omega)]

/-! ## Counting by a fold -/

/-- A left fold that adds to a word one per element of a list adds the list's length. -/
theorem foldl_addi_one {β : Type} (g : β → BitVec 32) :
    ∀ (l : List β) (a : BitVec 32), (∀ b ∈ l, g b = 1#32) →
      l.foldl (fun r n => IntOp.addi r (g n)) a = a + BitVec.ofNat 32 l.length
  | [], a, _ => by simp
  | b :: l, a, h => by
    rw [List.foldl_cons, foldl_addi_one g l _ (fun c hc => h c (List.mem_cons_of_mem _ hc)), h b List.mem_cons_self,
      List.length_cons, Nat.add_comm l.length 1, BitVec.ofNat_add]
    show a + 1#32 + BitVec.ofNat 32 l.length = a + (BitVec.ofNat 32 1 + BitVec.ofNat 32 l.length)
    rw [BitVec.add_assoc]

end Cert.Lib
-- ==== Proof.Ref.SegDiv.lean ====
/-
  Floor division and the remainder of the divisor's sign of a list of 1048576 signed 32-bit words by one word, as
  the reference program spells them (the callees of its floor_divide and remainder calls, operation by operation),
  and what they compute on the list of edge numbers 0, 1, …, 1048575: divided by 1024 and reduced modulo 1024 the
  rows, divided by 1 and reduced modulo 1024 the columns. Read at one edge each list operation is the word
  operation on that edge's word, so the two closed forms are the word lemmas at the edge's number, below 2²⁰.
-/
import proofs.«135578_g23476291240112_cont_8to1_1555_6_alg».proof.Proof.Ref.Defs
import proofs.«135578_g23476291240112_cont_8to1_1555_6_alg».proof.Proof.LibWordDiv

noncomputable section

namespace Cert.ReferenceIdeal.Hand

open Cert.ReferenceIdeal Cert.ReferenceIdeal.Gen Idealize.ShloMosaic Idealize.ShloMosaic.TcCoe Idealize.SL.Sem Idealize.ShloMosaic.StableHlo

/-- Floor division of a list of words by a scalar word: the truncated quotient, less one where the signs differ
    and the remainder is not zero. -/
def floorDivV (x : IVec S1048576 32) (d : IVec S_ 32) : IVec S1048576 32 :=
  select
    (andi (cmpi .ne (signi x) (broadcastInDim S1048576 ![] bcast_S_S1048576 (signi d)))
      (cmpi .ne (Host.remsi x (broadcastInDim S1048576 ![] bcast_S_S1048576 d))
        (broadcastInDim S1048576 ![] bcast_S_S1048576 (constantI S_ 32 0#32))))
    (subi (Host.divsi x (broadcastInDim S1048576 ![] bcast_S_S1048576 d))
      (broadcastInDim S1048576 ![] bcast_S_S1048576 (constantI S_ 32 1#32)))
    (Host.divsi x (broadcastInDim S1048576 ![] bcast_S_S1048576 d))

/-- The divisor of the remainder: one in place of zero. -/
def safeDiv (d : IVec S_ 32) : IVec S_ 32 :=
  select (cmpi .eq (id d) (constantI S_ 32 0#32)) (constantI S_ 32 1#32) (id d)

/-- The remainder of a list of words by a scalar word, of the divisor's sign: the truncated remainder, plus the
    divisor where their signs differ and the remainder is not zero. -/
def pyRemV (x : IVec S1048576 32) (d : IVec S_ 32) : IVec S1048576 32 :=
  select
    (andi
      (cmpi .ne
        (cmpi .slt (Host.remsi x (broadcastInDim S1048576 ![] bcast_S_S1048576 (safeDiv d)))
          (broadcastInDim S1048576 ![] bcast_S_S1048576 (constantI S_ 32 0#32)))
        (broadcastInDim S1048576 ![] bcast_S_S1048576 (cmpi .slt (safeDiv d) (constantI S_ 32 0#32))))
      (cmpi .ne (Host.remsi x (broadcastInDim S1048576 ![] bcast_S_S1048576 (safeDiv d)))
        (broadcastInDim S1048576 ![] bcast_S_S1048576 (constantI S_ 32 0#32))))
    (addi (Host.remsi x (broadcastInDim S1048576 ![] bcast_S_S1048576 (safeDiv d)))
      (broadcastInDim S1048576 ![] bcast_S_S1048576 (safeDiv d)))
    (Host.remsi x (broadcastInDim S1048576 ![] bcast_S_S1048576 (safeDiv d)))

/-- At one edge, floor division by a constant word is the word operation on that edge's word. -/
theorem floorDivV_apply (x : IVec S1048576 32) (c : BitVec 32) (k : S1048576.Idx) :
    floorDivV x (constantI S_ 32 c) k = Cert.Lib.floorDivW (x k) c := rfl

/-- At one edge, the remainder by a constant word is the word operation on that edge's word. -/
theorem pyRemV_apply (x : IVec S1048576 32) (c : BitVec 32) (k : S1048576.Idx) :
    pyRemV x (constantI S_ 32 c) k = Cert.Lib.pyRemW (x k) c := rfl

/-- An edge's number is below 2²⁰. -/
theorem edge_lt (k : S1048576.Idx) : (k 0).val < 1048576 := (k 0).isLt

/-- The edge numbers floor-divided by 1024 and then reduced modulo 1024 are the rows: k / 1024 is already below
    1024. -/
theorem rows_eq :
    pyRemV (floorDivV idW (constantI S_ 32 1024#32)) (constantI S_ 32 1024#32) = rowW := by
  funext k
  have hk := edge_lt k
  rw [pyRemV_apply, floorDivV_apply]
  show Cert.Lib.pyRemW (Cert.Lib.floorDivW (BitVec.ofNat 32 (k 0).val) (BitVec.ofNat 32 1024)) (BitVec.ofNat 32 1024)
    = BitVec.ofNat 32 ((k 0).val / 1024)
  rw [Cert.Lib.floorDivW_ofNat _ _ (by omega) (by omega) (by omega),
    Cert.Lib.pyRemW_ofNat _ _ (by omega) (by omega) (by omega), Nat.mod_eq_of_lt (by omega)]

/-- The edge numbers floor-divided by 1 and then reduced modulo 1024 are the columns. -/
theorem cols_eq :
    pyRemV (floorDivV idW (constantI S_ 32 1#32)) (constantI S_ 32 1024#32) = colW := by
  funext k
  have hk := edge_lt k
  rw [pyRemV_apply, floorDivV_apply]
  show Cert.Lib.pyRemW (Cert.Lib.floorDivW (BitVec.ofNat 32 (k 0).val) (BitVec.ofNat 32 1)) (BitVec.ofNat 32 1024)
    = BitVec.ofNat 32 ((k 0).val % 1024)
  rw [Cert.Lib.floorDivW_ofNat _ _ (by omega) (by omega) (by omega), Nat.div_one,
    Cert.Lib.pyRemW_ofNat _ _ (by omega) (by omega) (by omega)]

end Cert.ReferenceIdeal.Hand

end
-- ==== Proof.Ref.Seg2.lean ====
/-
  Segment 2 of the reference program: the row of every edge. Its 39 operations are one floor division and one
  remainder of the divisor's sign, spelt on signed 32-bit words, over the list of edge numbers 0, 1, …, 1048575:
  the edge number floor-divided by 1024, then reduced modulo 1024, which is the row k / 1024 (already below 1024).
-/
import proofs.«135578_g23476291240112_cont_8to1_1555_6_alg».proof.Proof.Ref.SegDiv

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 16384 in
set_option maxHeartbeats 2000000 in
/-- The segment's result as a function of the list it reads: the remainder modulo 1024 of the floor division by
    1024; each operation's result read at its own buffer, the typed references' transports being the identity. -/
theorem seg2_lit (V : Val) :
    after seg2 V (Proc.devRef .tc main_v32)
      = pyRemV (floorDivV (V (Proc.devRef .tc main_v30)) (constantI S_ 32 1024#32)) (constantI S_ 32 1024#32) := by
  unfold seg2
  after_results_simp
  simp only [TRef.toBuf, TRef.ofBuf, cast_eq]
  unfold pyRemV safeDiv floorDivV
  rfl

/-- Segment 2, on the list of edge numbers: the rows. -/
theorem seg2_v32 (V : Val) (h30 : V (Proc.devRef .tc main_v30) = idW) :
    after seg2 V (Proc.devRef .tc main_v32) = rowW := by
  rw [seg2_lit, h30, rows_eq]

variable {F : FTy → Type} [FloatOps F]

set_option maxRecDepth 8192 in
/-- Segment 2 writes only the buffers listed. -/
theorem seg2_writes : (seg2 : List (HloOp τ sig (Elt F))).Forall fun op => op.writes ⊆ (seg2_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg2_w, List.mem_cons, List.mem_nil_iff, true_or, or_true], rfl⟩

end Cert.ReferenceIdeal.Hand

end
-- ==== Proof.Ref.Seg3.lean ====
/-
  Segment 3 of the reference program: the column of every edge. Its 39 operations are one floor division and one
  remainder of the divisor's sign, spelt on signed 32-bit words, over the list of edge numbers 0, 1, …, 1048575:
  the edge number floor-divided by 1 (itself), then reduced modulo 1024, which is the column k mod 1024.
-/
import proofs.«135578_g23476291240112_cont_8to1_1555_6_alg».proof.Proof.Ref.SegDiv

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 16384 in
set_option maxHeartbeats 2000000 in
/-- The segment's result as a function of the list it reads: the remainder modulo 1024 of the floor division by
    1; each operation's result read at its own buffer, the typed references' transports being the identity. -/
theorem seg3_lit (V : Val) :
    after seg3 V (Proc.devRef .tc main_v34)
      = pyRemV (floorDivV (V (Proc.devRef .tc main_v30)) (constantI S_ 32 1#32)) (constantI S_ 32 1024#32) := by
  unfold seg3
  after_results_simp
  simp only [TRef.toBuf, TRef.ofBuf, cast_eq]
  unfold pyRemV safeDiv floorDivV
  rfl

/-- Segment 3, on the list of edge numbers: the columns. -/
theorem seg3_v34 (V : Val) (h30 : V (Proc.devRef .tc main_v30) = idW) :
    after seg3 V (Proc.devRef .tc main_v34) = colW := by
  rw [seg3_lit, h30, cols_eq]

variable {F : FTy → Type} [FloatOps F]

set_option maxRecDepth 8192 in
/-- Segment 3 writes only the buffers listed. -/
theorem seg3_writes : (seg3 : List (HloOp τ sig (Elt F))).Forall fun op => op.writes ⊆ (seg3_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg3_w, List.mem_cons, List.mem_nil_iff, true_or, or_true], rfl⟩

end Cert.ReferenceIdeal.Hand

end
-- ==== Proof.Ref.Seg4.lean ====
/-
  Segment 4 of the reference program: the fill mask of the edge enumeration and the two index lists with the fill
  slots zeroed. The mask (every entry of the adjacency is not zero) is converted to words and summed to the count
  of edges; slot k is a fill slot when k is at least that count; the rows and the columns are replaced by zero at
  the fill slots, and the rows are also laid out as a 1 × 1048576 array. With the mask set everywhere the count
  is 1048576 (a left fold adding one per entry adds the number of entries), every slot number is below it, so no
  slot is a fill slot and both lists pass through unchanged.
-/
import proofs.«135578_g23476291240112_cont_8to1_1555_6_alg».proof.Proof.Ref.Defs
import proofs.«135578_g23476291240112_cont_8to1_1555_6_alg».proof.Proof.LibWordDiv
import Idealize.ShloMosaic.PureOps.Reduce
import Idealize.ShloMosaic.Lib.StableHlo.Predicate
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo

/-- The fill mask of the edge enumeration: slot k is a fill slot when k is at least the number of set entries of
    the mask. -/
def fillMask (m : IVec S1024x1024 1) : IVec S1048576 1 :=
  cmpi .sge (iotaInDim S1048576 32 0)
    (broadcastInDim S1048576 ![] bcast_S_S1048576
      (Host.reduce IntOp.addi (extui 32 m natLt_1_32) (constantI S_ 32 0#32) reducesTo_S1024x1024_S_d0_1 h_S_))

/-- A list of words with the fill slots set to zero. -/
def whereZero (c : IVec S1048576 1) (x : IVec S1048576 32) : IVec S1048576 32 :=
  select c (broadcastInDim S1048576 ![] bcast_S_S1048576 (id (constantI S_ 32 0#32))) x

/-! ## The segment's three results as those functions of what it reads -/

attribute [local irreducible] Host.reduce in
set_option maxRecDepth 16384 in
set_option maxHeartbeats 2000000 in
/-- The rows after the segment: the rows before, zeroed at the fill slots. -/
theorem seg4_lit40 (V : Val) :
    after seg4 V (Proc.devRef .tc main_v40)
      = whereZero (fillMask (V (Proc.devRef .tc main_v18))) (V (Proc.devRef .tc main_v32)) := by
  unfold seg4
  after_results_simp
  simp only [TRef.toBuf, TRef.ofBuf, cast_eq]
  unfold whereZero fillMask
  rfl

attribute [local irreducible] Host.reduce in
set_option maxRecDepth 16384 in
set_option maxHeartbeats 2000000 in
/-- The columns after the segment: the columns before, zeroed at the fill slots. -/
theorem seg4_lit41 (V : Val) :
    after seg4 V (Proc.devRef .tc main_v41)
      = whereZero (fillMask (V (Proc.devRef .tc main_v18))) (V (Proc.devRef .tc main_v34)) := by
  unfold seg4
  after_results_simp
  simp only [TRef.toBuf, TRef.ofBuf, cast_eq]
  unfold whereZero fillMask
  rfl

attribute [local irreducible] Host.reduce in
set_option maxRecDepth 16384 in
set_option maxHeartbeats 2000000 in
/-- The rows as a 1 × 1048576 array. -/
theorem seg4_lit42 (V : Val) :
    after seg4 V (Proc.devRef .tc main_v42)
      = broadcastInDim S1x1048576 ![1] bcast_S1048576_S1x1048576_1
          (whereZero (fillMask (V (Proc.devRef .tc main_v18))) (V (Proc.devRef .tc main_v32))) := by
  unfold seg4
  after_results_simp
  simp only [TRef.toBuf, TRef.ofBuf, cast_eq]
  unfold whereZero fillMask
  rfl

/-! ## With the mask set everywhere nothing is a fill slot -/

/-- The rank-zero shape has one index. -/
theorem scalar_idx_eq (i j : S_.Idx) : i = j := funext fun a => a.elim0

/-- The mask has 1048576 entries. -/
theorem numel_mask : S1024x1024.numel = 1048576 := by
  rw [Shape.numel, Fin.prod_univ_two]
  rfl

/-- The count of a mask that is set everywhere is the number of its entries: every entry reduces to the one
    result, and the fold adds one per entry. -/
theorem count_all_ones (j : S_.Idx) :
    Host.reduce IntOp.addi (extui 32 (fun _ => 1#1 : IVec S1024x1024 1) natLt_1_32) (constantI S_ 32 0#32)
      reducesTo_S1024x1024_S_d0_1 h_S_ j = BitVec.ofNat 32 1048576 := by
  have h1 : ∀ i : S1024x1024.Idx, extui 32 (fun _ => 1#1 : IVec S1024x1024 1) natLt_1_32 i = 1#32 := fun i => by
    show (1#1 : BitVec 1).setWidth 32 = 1#32
    decide
  rw [Host.reduce_eq_foldl, List.filter_eq_self.mpr (fun i _ => decide_eq_true (scalar_idx_eq _ _)),
    Cert.Lib.foldl_addi_one _ _ _ (fun i _ => h1 i), List.length_map, List.length_finRange, numel_mask]
  show 0#32 + BitVec.ofNat 32 1048576 = BitVec.ofNat 32 1048576
  rw [BitVec.zero_add]

/-- With the mask set everywhere no slot is a fill slot: a slot's number is below 1048576. -/
theorem fillMask_ones (k : S1048576.Idx) : fillMask (fun _ => 1#1) k = 0#1 := by
  have hk : (k 0).val < 1048576 := (k 0).isLt
  show IntOp.cmpi .sge (BitVec.ofNat 32 (k 0).val)
    (Host.reduce IntOp.addi (extui 32 (fun _ => 1#1 : IVec S1024x1024 1) natLt_1_32) (constantI S_ 32 0#32)
      reducesTo_S1024x1024_S_d0_1 h_S_ _) = 0#1
  rw [count_all_ones]
  show BitVec.ofBool ((BitVec.ofNat 32 1048576).sle (BitVec.ofNat 32 (k 0).val)) = 0#1
  apply ValueIdx.eq_zero_of_ne_one
  rw [Predicate.sle_ofNat_iff _ _ (by omega) (by omega)]
  omega

/-- With the mask set everywhere a list passes through unchanged. -/
theorem whereZero_ones (x : IVec S1048576 32) : whereZero (fillMask fun _ => 1#1) x = x := by
  funext k
  show Scalar.select (fillMask (fun _ => 1#1) k) _ (x k) = x k
  rw [fillMask_ones, ValueIdx.select_zero]

/-- The rows laid out as a 1 × 1048576 array: entry (0, k) is the row of edge k. -/
theorem rowRow_eq : broadcastInDim S1x1048576 ![1] bcast_S1048576_S1x1048576_1 rowW = rowRowV := by
  funext idx
  rfl

/-- Segment 4, with the mask set everywhere: the rows and the columns pass through, and the rows are also laid out
    as a 1 × 1048576 array. -/
theorem seg4_out (V : Val) (h18 : V (Proc.devRef .tc main_v18) = fun _ => 1#1) (h32 : V (Proc.devRef .tc main_v32) = rowW)
    (h34 : V (Proc.devRef .tc main_v34) = colW) :
    after seg4 V (Proc.devRef .tc main_v40) = rowW ∧ after seg4 V (Proc.devRef .tc main_v41) = colW
      ∧ after seg4 V (Proc.devRef .tc main_v42) = rowRowV := by
  have e18 : V (Proc.devRef .tc main_v18) = (fun _ => 1#1 : IVec S1024x1024 1) := h18
  refine ⟨?_, ?_, ?_⟩
  · rw [seg4_lit40, e18, h32, whereZero_ones]
  · rw [seg4_lit41, e18, h34, whereZero_ones]
  · rw [seg4_lit42, e18, h32, whereZero_ones, rowRow_eq]

variable {F : FTy → Type} [FloatOps F]

set_option maxRecDepth 8192 in
/-- Segment 4 writes only the buffers listed. -/
theorem seg4_writes : (seg4 : List (HloOp τ sig (Elt F))).Forall fun op => op.writes ⊆ (seg4_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg4_w, List.mem_cons, List.mem_nil_iff, true_or, or_true], rfl⟩

end Cert.ReferenceIdeal.Hand

end
-- ==== Proof.Ref.EdgeLib.lean ====
/-
  The index arithmetic of the reference program's edge lists, read at one edge.

  The 1048576 edges are all entries (r, c) of the 1024 × 1024 adjacency in row-major order: edge k has row k / 1024 and
  column k mod 1024. The program keeps the two lists stacked in a [2, 1048576] array, reads each back as a slice with
  its unit axis dropped, wraps negative indices (none occur: every word is below 1024), lays a list out as an
  [n, 1] column or two lists as the [n, 2] pairs, and then gathers and scatters by them. Each lemma here reads one of
  these operations at an index: a line of the stack, the wrap, the columns and pairs, the gather of a matrix entry at
  a pair, the gather of a vector entry at an index, and the scatter-add by column, which sums, at node c, the updates
  of the edges 1024·r + c over the rows r.
-/
import proofs.«135578_g23476291240112_cont_8to1_1555_6_alg».proof.Proof.Ref.Defs
import proofs.«135578_g23476291240112_cont_8to1_1555_6_alg».proof.Proof.SpecLemmas
import Idealize.ShloMosaic.Lib.Pipeline.Value
import Idealize.ShloMosaic.Lib.StableHlo.Predicate
import Idealize.ShloMosaic.Lib.ValueIdxRank1

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## Indices of the edge lists -/

/-- Every edge index is the index at a position below 1048576. -/
theorem exists_ix1 (k : S1048576.Idx) : ∃ n : Fin 1048576, k = ix1 n := ⟨k 0, eq_ix1 k⟩

/-! ## The layout operations on the edge lists, read at an index -/

/-- Line 0 of a two-line array as a vector: the slice at offset (0, 0) with its unit axis dropped. -/
def line0 {α : Type} (s : S2x1048576.Idx → α) : S1048576.Idx → α :=
  shapeCast S1048576 (extractStridedSlice S1x1048576 ![0, 0] s slices_S2x1048576_S1x1048576_0_0) shapeCasts_S1x1048576_S1048576

/-- Line 1 of a two-line array as a vector: the slice at offset (1, 0) with its unit axis dropped. -/
def line1 {α : Type} (s : S2x1048576.Idx → α) : S1048576.Idx → α :=
  shapeCast S1048576 (extractStridedSlice S1x1048576 ![1, 0] s slices_S2x1048576_S1x1048576_1_0) shapeCasts_S1x1048576_S1048576

theorem line0_apply {α : Type} (s : S2x1048576.Idx → α) (n : Fin 1048576) :
    line0 s (ix1 n) = s (ix2 (0 : Fin 2) n) := by
  unfold line0
  refine (shapeCast_apply _ shapeCasts_S1x1048576_S1048576 (ix1 n) (ix2 (0 : Fin 1) n) ?_).trans ?_
  · rw [Shape.rowMajor_val_two, Shape.rowMajor_val_one]
    show 0 * 1048576 + n.val = n.val
    omega
  · exact extractStridedSlice_apply _ _ _ _ _ fun a => match a with
      | ⟨0, _⟩ => by show (0 : Nat) = 0 + 0; rfl
      | ⟨1, _⟩ => by show n.val = 0 + n.val; omega

theorem line1_apply {α : Type} (s : S2x1048576.Idx → α) (n : Fin 1048576) :
    line1 s (ix1 n) = s (ix2 (1 : Fin 2) n) := by
  unfold line1
  refine (shapeCast_apply _ shapeCasts_S1x1048576_S1048576 (ix1 n) (ix2 (0 : Fin 1) n) ?_).trans ?_
  · rw [Shape.rowMajor_val_two, Shape.rowMajor_val_one]
    show 0 * 1048576 + n.val = n.val
    omega
  · exact extractStridedSlice_apply _ _ _ _ _ fun a => match a with
      | ⟨0, _⟩ => by show (1 : Nat) = 1 + 0; rfl
      | ⟨1, _⟩ => by show n.val = 0 + n.val; omega

theorem line0_stackV : line0 stackV = rowW := by
  funext k
  obtain ⟨n, rfl⟩ := exists_ix1 k
  rw [line0_apply]
  exact if_pos rfl

theorem line1_stackV : line1 stackV = colW := by
  funext k
  obtain ⟨n, rfl⟩ := exists_ix1 k
  rw [line1_apply]
  exact if_neg (show ¬ (1 : Nat) = 0 from Nat.one_ne_zero)

/-! ## Words of the edge lists -/

theorem rowW_toNat (k : S1048576.Idx) : (rowW k).toNat = (k 0).val / 1024 := by
  have h : (k 0).val < 1048576 := (k 0).isLt
  unfold rowW
  rw [BitVec.toNat_ofNat]
  exact Nat.mod_eq_of_lt (by omega)

theorem colW_toNat (k : S1048576.Idx) : (colW k).toNat = (k 0).val % 1024 := by
  unfold colW
  rw [BitVec.toNat_ofNat]
  exact Nat.mod_eq_of_lt (by omega)

theorem rowW_lt (k : S1048576.Idx) : (rowW k).toNat < 1024 := by
  have h : (k 0).val < 1048576 := (k 0).isLt
  rw [rowW_toNat]; omega

theorem colW_lt (k : S1048576.Idx) : (colW k).toNat < 1024 := by
  rw [colW_toNat]; omega

/-- A word below 2³¹ read as a signed integer is its value. -/
theorem toInt_toNat_of_lt (w : BitVec 32) (h : w.toNat < 2 ^ 31) : w.toInt.toNat = w.toNat := by
  rw [BitVec.toInt_eq_toNat_of_lt (by omega)]
  exact Int.toNat_natCast _

theorem toInt_of_lt (w : BitVec 32) (h : w.toNat < 2 ^ 31) : w.toInt = (w.toNat : Int) :=
  BitVec.toInt_eq_toNat_of_lt (by omega)

/-! ## The negative-index wrap -/

/-- The wrap  select(x < 0, x + 1024, x)  that lets a negative index count from the end. -/
def wrap (x : IVec S1048576 32) : IVec S1048576 32 :=
  select (cmpi .slt x (broadcastInDim S1048576 ![] bcast_S_S1048576 (constantI S_ 32 0#32)))
    (addi x (broadcastInDim S1048576 ![] bcast_S_S1048576 (constantI S_ 32 1024#32))) x

/-- No word below 2³¹ is negative. -/
theorem slt_zero_of_lt (x : IVec S1048576 32) (hx : ∀ k, (x k).toNat < 2 ^ 31) :
    cmpi .slt x (broadcastInDim S1048576 ![] bcast_S_S1048576 (constantI S_ 32 0#32)) = fun _ => 0#1 := by
  funext k
  show IntOp.cmpi .slt (x k) 0#32 = 0#1
  refine eq_zero_of_ne_one fun h => ?_
  have h' := (Predicate.slt_iff_toNat (hx k) (by decide)).mp h
  exact Nat.not_lt_zero _ h'

/-- On words below 2³¹ the wrap changes nothing. -/
theorem wrap_of_lt (x : IVec S1048576 32) (hx : ∀ k, (x k).toNat < 2 ^ 31) : wrap x = x := by
  unfold wrap
  rw [slt_zero_of_lt x hx]
  funext k
  exact select_zero _ _

theorem wrap_rowW : wrap rowW = rowW := wrap_of_lt _ fun k => by have := rowW_lt k; omega
theorem wrap_colW : wrap colW = colW := wrap_of_lt _ fun k => by have := colW_lt k; omega

/-! ## Columns, pairs, stacks -/

/-- A vector as an [n, 1] column. -/
def col1 {α : Type} (x : S1048576.Idx → α) : S1048576x1.Idx → α :=
  broadcastInDim S1048576x1 ![0] bcast_S1048576_S1048576x1_0 x

theorem col1_apply {α : Type} (x : S1048576.Idx → α) (n : Fin 1048576) (z : Fin 1) : col1 x (ix2 n z) = x (ix1 n) := by
  unfold col1
  exact broadcastInDim_apply _ _ _ _ _ fun a => match a with
    | ⟨0, _⟩ => by show n.val = if (1048576 : Nat) = 1 then 0 else n.val; exact (if_neg (by decide)).symm

/-- Two vectors side by side as the two columns of an [n, 2] array. -/
def pair {α : Type} (a b : S1048576.Idx → α) : S1048576x2.Idx → α :=
  concatenate S1048576x2 1 [⟨S1048576x1, col1 a⟩, ⟨S1048576x1, col1 b⟩] concatenates_S1048576x1_S1048576x1_S1048576x2_d1

theorem pair_apply0 {α : Type} (a b : S1048576.Idx → α) (n : Fin 1048576) : pair a b (ix2 n (0 : Fin 2)) = a (ix1 n) := by
  unfold pair
  refine (concatenate_pair_apply_left (s₁ := S1048576x1) (s₂ := S1048576x1) (1 : Fin 2) _ _ _ (ix2 n (0 : Fin 2)) rfl (ix2 n (0 : Fin 1)) fun c => ?_).trans (col1_apply a n 0)
  match c with
  | ⟨0, _⟩ => rfl
  | ⟨1, _⟩ => rfl

theorem pair_apply1 {α : Type} (a b : S1048576.Idx → α) (n : Fin 1048576) : pair a b (ix2 n (1 : Fin 2)) = b (ix1 n) := by
  unfold pair
  refine (concatenate_pair_apply_right (s₁ := S1048576x1) (s₂ := S1048576x1) (1 : Fin 2) _ _ _ (ix2 n (1 : Fin 2)) rfl rfl (ix2 n (0 : Fin 1)) (fun c hc => ?_) ?_).trans (col1_apply b n 0)
  · match c with
    | ⟨0, _⟩ => rfl
    | ⟨1, _⟩ => exact absurd rfl hc
  · rfl

/-- A vector as a [1, n] row. -/
def row1 {α : Type} (x : S1048576.Idx → α) : S1x1048576.Idx → α :=
  broadcastInDim S1x1048576 ![1] bcast_S1048576_S1x1048576_1 x

theorem row1_apply {α : Type} (x : S1048576.Idx → α) (z : Fin 1) (n : Fin 1048576) : row1 x (ix2 z n) = x (ix1 n) := by
  unfold row1
  exact broadcastInDim_apply _ _ _ _ _ fun a => match a with
    | ⟨0, _⟩ => by show n.val = if (1048576 : Nat) = 1 then 0 else n.val; exact (if_neg (by decide)).symm

/-- Two [1, n] rows stacked into a [2, n] array. -/
def stack {α : Type} (a b : S1x1048576.Idx → α) : S2x1048576.Idx → α :=
  concatenate S2x1048576 0 [⟨S1x1048576, a⟩, ⟨S1x1048576, b⟩] concatenates_S1x1048576_S1x1048576_S2x1048576_d0

theorem stack_apply0 {α : Type} (a b : S1x1048576.Idx → α) (n : Fin 1048576) : stack a b (ix2 (0 : Fin 2) n) = a (ix2 (0 : Fin 1) n) := by
  unfold stack
  refine concatenate_pair_apply_left (s₁ := S1x1048576) (s₂ := S1x1048576) (0 : Fin 2) _ _ _ (ix2 (0 : Fin 2) n) rfl (ix2 (0 : Fin 1) n) fun c => ?_
  match c with
  | ⟨0, _⟩ => rfl
  | ⟨1, _⟩ => rfl

theorem stack_apply1 {α : Type} (a b : S1x1048576.Idx → α) (n : Fin 1048576) : stack a b (ix2 (1 : Fin 2) n) = b (ix2 (0 : Fin 1) n) := by
  unfold stack
  refine concatenate_pair_apply_right (s₁ := S1x1048576) (s₂ := S1x1048576) (0 : Fin 2) _ _ _ (ix2 (1 : Fin 2) n) rfl rfl (ix2 (0 : Fin 1) n) (fun c hc => ?_) ?_
  · match c with
    | ⟨0, _⟩ => exact absurd rfl hc
    | ⟨1, _⟩ => rfl
  · rfl

/-- The rows as a row over the columns as a row is the stacked edge index. -/
theorem stack_eq : stack rowRowV (row1 colW) = stackV := by
  funext idx
  rw [eq_ix2 idx]
  generalize (idx 1 : Fin 1048576) = n
  generalize (idx 0 : Fin 2) = r
  match r with
  | ⟨0, _⟩ => exact (stack_apply0 _ _ n).trans (if_pos rfl).symm
  | ⟨1, _⟩ =>
    refine ((stack_apply1 _ _ n).trans (row1_apply colW 0 n)).trans ?_
    exact (if_neg (show ¬ (1 : Nat) = 0 from Nat.one_ne_zero)).symm

/-! ## The gathers read at an edge -/

/-- The start-indices index a gather over [n, 2] pairs reads component `a` of position `p`'s start index at: (p, a). -/
theorem gather_siIdx2 {N M n : Nat} (d : GatherDims ⟨2, ![N, M]⟩ ⟨2, ![n, 2]⟩ ⟨1, ![n]⟩) (hivd : d.indexVectorDim = 1)
    (p : Fin n) (c : Fin d.startIndexMap.length) (a : Fin 2) (hca : c.val = a.val) :
    d.siIdx (ix1 p) c = ix2 p a := by
  funext b
  match b with
  | ⟨0, _⟩ =>
    unfold GatherDims.siIdx
    rw [dif_neg (by rw [hivd]; exact Nat.zero_ne_one)]
    unfold GatherDims.siCoord
    apply Fin.ext
    simp only [Fin.val_cast]
    exact congrArg (fun X : Fin 1 => (ix1 p X).val) (Subsingleton.elim _ (0 : Fin 1))
  | ⟨1, _⟩ =>
    unfold GatherDims.siIdx
    rw [dif_pos (by rw [hivd])]
    exact Fin.ext hca

/-- One coordinate of the operand index of a gather of single matrix entries at [n, 2] pairs of start indices, both axes
    collapsed: the pair's component for that axis, read signed and clamped into the axis. -/
theorem gather_pair_coord {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (idx : IVec ⟨2, ![n, 2]⟩ w) (p : Fin n) (a : Fin 2) :
    (d.operandIdx (ix1 p) idx a).val = min (idx (ix2 p a)).toInt.toNat ((⟨2, ![N, M]⟩ : Shape).size a - 1) := by
  have hb : a ∉ d.operandBatchingDims := by rw [hob]; exact List.not_mem_nil
  have hc : a ∈ d.collapsedSliceDims := by rw [hcoll]; fin_cases a <;> simp
  have hk : a ∉ d.sKept := fun h => ((d.mem_sKept a).1 h).1 hc
  have hm : a ∈ d.startIndexMap := by rw [hsim, ← hcoll]; exact hc
  have hsl : d.sliceSizes a = 1 := d.slice_collapsed a hc
  have hix : List.idxOf a d.startIndexMap = a.val := by rw [hsim]; fin_cases a <;> rfl
  have hst : d.start (ix1 p) idx a = min (idx (ix2 p a)).toInt.toNat ((⟨2, ![N, M]⟩ : Shape).size a - 1) := by
    unfold GatherDims.start
    rw [dif_pos hm, hsl, gather_siIdx2 d hivd p _ a hix]
  show d.start (ix1 p) idx a + d.batchCoord (ix1 p) a + d.offCoord (ix1 p) a = _
  rw [hst, d.batchCoord_eq_zero _ _ hb, d.offCoord_eq_zero _ _ hk]
  rfl

/-- Such a gather at position `p` reads the entry at the pair's two components, each read signed and clamped. -/
theorem gather_pair_apply {α : Type} {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (p : Fin n) (hN : 0 < N) (hM : 0 < M) :
    Host.gather d x idx (ix1 p)
      = x (ix2 (⟨min (idx (ix2 p (0 : Fin 2))).toInt.toNat (N - 1), by omega⟩ : Fin N)
               (⟨min (idx (ix2 p (1 : Fin 2))).toInt.toNat (M - 1), by omega⟩ : Fin M)) := by
  unfold Host.gather
  congr 1
  funext a
  apply Fin.ext
  match a with
  | ⟨0, _⟩ => exact gather_pair_coord d hcoll hob hsim hivd idx p 0
  | ⟨1, _⟩ => exact gather_pair_coord d hcoll hob hsim hivd idx p 1

/-- The adjacency gathered at in-range pairs (row, column): edge `k` reads the entry at its pair. -/
theorem gather2_apply {α : Type} (x : S1024x1024.Idx → α) (a b : IVec S1048576 32)
    (ha : ∀ k, (a k).toNat < 1024) (hb : ∀ k, (b k).toNat < 1024) (k : S1048576.Idx) :
    Host.gather gather_S1024x1024_S1048576x2_S1048576_n_01_n_n_01_1_11 x (pair a b) k
      = x (ix2 (⟨(a k).toNat, ha k⟩ : Fin 1024) (⟨(b k).toNat, hb k⟩ : Fin 1024)) := by
  obtain ⟨n, rfl⟩ := exists_ix1 k
  rw [gather_pair_apply _ rfl rfl rfl rfl x (pair a b) n (by decide) (by decide)]
  have ha' := ha (ix1 n)
  have hb' := hb (ix1 n)
  congr 1
  funext c
  match c with
  | ⟨0, _⟩ =>
    apply Fin.ext
    show min (pair a b (ix2 n (0 : Fin 2))).toInt.toNat (1024 - 1) = (a (ix1 n)).toNat
    rw [pair_apply0, toInt_toNat_of_lt _ (by omega)]
    omega
  | ⟨1, _⟩ =>
    apply Fin.ext
    show min (pair a b (ix2 n (1 : Fin 2))).toInt.toNat (1024 - 1) = (b (ix1 n)).toNat
    rw [pair_apply1, toInt_toNat_of_lt _ (by omega)]
    omega

/-- The row of an [n, 1] column, as the library's take lemma names it, is the index (p, 0). -/
theorem ixP_eq (n : Fin 1048576) : (Predicate.ixP n : S1048576x1.Idx) = ix2 n (0 : Fin 1) := by
  funext c
  match c with
  | ⟨0, _⟩ => rfl
  | ⟨1, _⟩ => rfl

/-- A vector gathered at an in-range index list kept as a column: edge `k` reads the entry its index names. -/
theorem gather1_apply {α : Type} (x : S1024.Idx → α) (a : IVec S1048576 32) (ha : ∀ k, (a k).toNat < 1024) (k : S1048576.Idx) :
    Host.gather gather_S1024_S1048576x1_S1048576_n_0_n_n_0_1_1 x (col1 a) k = x (ix1 (⟨(a k).toNat, ha k⟩ : Fin 1024)) := by
  obtain ⟨n, rfl⟩ := exists_ix1 k
  have hn : (ix1 n : S1048576.Idx) = Shape.Idx.ofFin n := Shape.Idx.eq_ofFin (ix1 n)
  have ha' := ha (ix1 n)
  refine (congrArg (Host.gather gather_S1024_S1048576x1_S1048576_n_0_n_n_0_1_1 x (col1 a)) hn).trans ?_
  rw [Predicate.gather_take _ rfl rfl rfl rfl x (col1 a) n (by decide)]
  congr 1
  funext c
  match c with
  | ⟨0, _⟩ =>
    apply Fin.ext
    show min (col1 a (Predicate.ixP n)).toInt.toNat (1024 - 1) = (a (ix1 n)).toNat
    rw [ixP_eq, col1_apply, toInt_toNat_of_lt _ (by omega)]
    omega

/-! ## The scatter-add by an index list kept as a column -/

/-- The scatter-indices index a scatter over an [n, 1] column reads position `p`'s one start index at: (p, 0). -/
theorem scatter_siIdx1 {N n : Nat} (d : ScatterDims ⟨1, ![N]⟩ ⟨2, ![n, 1]⟩ ⟨1, ![n]⟩) (hivd : d.indexVectorDim = 1)
    (p : Fin n) (c : Fin d.scatterDimsToOperandDims.length) (hc : c.val = 0) :
    d.siIdx (ix1 p) c = ix2 p (0 : Fin 1) := by
  funext b
  match b with
  | ⟨0, _⟩ =>
    unfold ScatterDims.siIdx
    rw [dif_neg (by rw [hivd]; exact Nat.zero_ne_one)]
    unfold ScatterDims.siCoord
    apply Fin.ext
    simp only [Fin.val_cast]
    exact congrArg (fun X : Fin 1 => (ix1 p X).val) (Subsingleton.elim _ (0 : Fin 1))
  | ⟨1, _⟩ =>
    unfold ScatterDims.siIdx
    rw [dif_pos (by rw [hivd])]
    exact Fin.ext hc

/-- A scatter of single elements into a vector by an [n, 1] column of indices: the update at position `p` lands on the
    element its index, read signed, names, when that is in range. -/
theorem scatter_resultIdx {N n w : Nat} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (p : Fin n) (c : Fin N) (h : (idx (ix2 p (0 : Fin 1))).toInt = (c.val : Int)) :
    d.resultIdx? (ix1 p) idx = some (ix1 c) := by
  have hst : ∀ a : Fin 1, d.start (ix1 p) idx a = (c.val : Int) := fun a => by
    have ha : a = 0 := Subsingleton.elim _ _
    subst ha
    unfold ScatterDims.start
    rw [dif_pos (by rw [hsd]; exact List.mem_cons_self),
      scatter_siIdx1 d hivd p _ (by show List.idxOf (0 : Fin 1) d.scatterDimsToOperandDims = 0; rw [hsd]; rfl)]
    exact h
  have hw : ∀ a : Fin 1, d.window (ix1 p) a = 0 := fun a => by
    have ha : a = 0 := Subsingleton.elim _ _
    subst ha
    unfold ScatterDims.window
    rw [dif_neg]
    show (0 : Fin 1) ∉ Shape.kept _ d.insertedWindowDims
    rw [hins]
    simp [Shape.kept]
  have hc := c.isLt
  unfold ScatterDims.resultIdx?
  rw [dif_pos (fun a => by
    have ha : a = 0 := Subsingleton.elim _ _
    subst ha
    rw [hst, hw]
    show 0 ≤ (c.val : Int) + ((0 : Nat) : Int) ∧ (c.val : Int) + ((0 : Nat) : Int) < ((N : Nat) : Int)
    omega)]
  congr 1
  funext a
  have ha : a = 0 := Subsingleton.elim _ _
  subst ha
  apply Fin.ext
  show (d.start (ix1 p) idx 0 + ((d.window (ix1 p) 0 : Nat) : Int)).toNat = c.val
  rw [hst, hw]
  omega

/-- The scatter-add of one update per edge by the edges' columns: node `i` receives the updates of the edges of column `i`,
    one per row. -/
theorem scatterAdd_cols (x : FVec Ideal S1024 .f32) (upd : FVec Ideal S1048576 .f32) (c : Fin 1024) :
    Host.scatterAdd (F := Ideal) scatter_S1024_S1048576x1_S1048576_n_0_0_1 x (col1 colW) upd (ix1 c)
      = x (ix1 c) + ∑ r : Fin 1024, upd (ix1 (⟨1024 * r.val + c.val, by have := r.isLt; have := c.isLt; omega⟩ : Fin 1048576)) := by
  show x (ix1 c) + ∑ j ∈ Finset.univ.filter (fun j => scatter_S1024_S1048576x1_S1048576_n_0_0_1.resultIdx? j (col1 colW) = some (ix1 c)), upd j = _
  refine congrArg (x (ix1 c) + ·) ?_
  have hres : ∀ n : Fin 1048576, scatter_S1024_S1048576x1_S1048576_n_0_0_1.resultIdx? (ix1 n) (col1 colW)
      = some (ix1 (⟨n.val % 1024, Nat.mod_lt _ (by decide)⟩ : Fin 1024)) := fun n =>
    scatter_resultIdx _ rfl rfl rfl _ n _ (by
      rw [col1_apply, toInt_of_lt _ (by have := colW_lt (ix1 n); omega), colW_toNat])
  have hfilter : (Finset.univ.filter (fun j : S1048576.Idx => scatter_S1024_S1048576x1_S1048576_n_0_0_1.resultIdx? j (col1 colW) = some (ix1 c)))
      = Finset.univ.filter (fun j : S1048576.Idx => (j 0).val % 1024 = c.val) :=
    Finset.filter_congr fun j _ => by
      obtain ⟨n, rfl⟩ := exists_ix1 j
      rw [hres n]
      constructor
      · intro h
        exact congrArg (fun t : S1024.Idx => (t 0).val) (Option.some.inj h)
      · intro h
        exact congrArg (fun t : Fin 1024 => some (ix1 t)) (Fin.ext h)
  rw [hfilter]
  refine (Finset.sum_equiv idxEquiv1 (t := Finset.univ.filter (fun n : Fin 1048576 => n.val % 1024 = c.val))
    (g := fun n => upd (ix1 n)) (fun j => ?_) (fun j _ => ?_)).trans (Cert.Spec.sum_filter_col (fun n => upd (ix1 n)) c)
  · simp only [Finset.mem_filter, Finset.mem_univ, true_and]
    rfl
  · exact congrArg upd (eq_ix1 j)

/-! ## The degree's power -1/2 -/

/-- The f32 pattern `0xBF000000` is the real -1/2. -/
theorem ofBits_neg_half_f32 : Ideal.ofBits .f32 0xBF000000#32 = (((-(1 / 2) : ℝ)) : EReal) := by
  simp [Ideal.ofBits, Ideal.ieee, -EReal.coe_mul, -EReal.coe_neg]; norm_num

/-- The f32 pattern `0x7F800000` is +∞. -/
theorem ofBits_inf_f32 : Ideal.ofBits .f32 0x7F800000#32 = ⊤ := by
  simp [Ideal.ofBits, Ideal.ieee]

/-- A real is not infinite in absolute value. -/
theorem isinf_coe (e : ℝ) : Ideal.cmp .oeq (max (e : EReal) (-(e : EReal))) ⊤ = 0#1 := by
  have h : max (e : EReal) (-(e : EReal)) ≠ ⊤ :=
    (max_lt (EReal.coe_lt_top e) (by rw [← EReal.coe_neg]; exact EReal.coe_lt_top _)).ne
  show BitVec.ofBool (decide (max (e : EReal) (-(e : EReal)) = ⊤)) = 0#1
  rw [decide_eq_false h]
  rfl

end Cert.ReferenceIdeal.Hand

end
-- ==== Proof.Ref.Seg5.lean ====
/-
  Segment 5 of the reference program: the column list laid under the row list as the stacked [2, 1048576] edge index, the
  two lists read back from it, wrapped (no index is negative) and paired, and the adjacency gathered at the pairs: the
  weight of edge k is A(k / 1024, k mod 1024).
-/
import proofs.«135578_g23476291240112_cont_8to1_1555_6_alg».proof.Proof.Ref.EdgeLib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## Segment 5: the stacked edge index and the edge weights -/

/-- The edge weights as the segment computes them: the adjacency gathered at the (wrapped) rows and columns read back
    from the stacked index. -/
def stage5 (c41 : IVec S1048576 32) (r42 : IVec S1x1048576 32) (a16 : FVec Ideal S1024x1024 .f32) : FVec Ideal S1048576 .f32 :=
  Host.gather gather_S1024x1024_S1048576x2_S1048576_n_01_n_n_01_1_11 a16
    (pair (wrap (line0 (stack r42 (row1 c41)))) (wrap (line1 (stack r42 (row1 c41)))))

attribute [local irreducible] Host.gather concatenate broadcastInDim extractStridedSlice shapeCast Idealize.ShloMosaic.select cmpi addi constantI in
set_option maxRecDepth 8192 in
set_option maxHeartbeats 800000 in
/-- What the segment leaves at the stacked index, as the operations compose. -/
theorem seg5_lit_stack (V : Val) :
    after seg5 V (Proc.devRef .tc main_v44) = stack (V (Proc.devRef .tc main_v42)) (row1 (V (Proc.devRef .tc main_v41))) := by
  simp only [seg5, after_cons, after_nil]
  unfold stack row1
  rfl

attribute [local irreducible] Host.gather concatenate broadcastInDim extractStridedSlice shapeCast Idealize.ShloMosaic.select cmpi addi constantI in
set_option maxRecDepth 8192 in
set_option maxHeartbeats 800000 in
/-- What the segment leaves at the edge weights, as the operations compose. -/
theorem seg5_lit_ew (V : Val) :
    after seg5 V (Proc.devRef .tc main_v62)
      = stage5 (V (Proc.devRef .tc main_v41)) (V (Proc.devRef .tc main_v42)) (V (Proc.devRef .tc main_v16)) := by
  simp only [seg5, after_cons, after_nil]
  unfold stage5 pair wrap line0 line1 stack row1 col1
  rfl

theorem seg5_out (V : Val) (P : S1024x1024.Idx → EReal) (h41 : V (Proc.devRef .tc main_v41) = colW)
    (h42 : V (Proc.devRef .tc main_v42) = rowRowV) (h16 : V (Proc.devRef .tc main_v16) = adjV P) :
    after seg5 V (Proc.devRef .tc main_v44) = stackV ∧ after seg5 V (Proc.devRef .tc main_v62) = ewV P := by
  have h1 := seg5_lit_stack V
  have h2 := seg5_lit_ew V
  rw [h41, h42] at h1
  rw [h41, h42, h16] at h2
  refine ⟨h1.trans stack_eq, h2.trans ?_⟩
  unfold stage5
  rw [stack_eq, line0_stackV, line1_stackV, wrap_rowW, wrap_colW]
  funext k
  rw [gather2_apply _ _ _ rowW_lt colW_lt k]
  show Cert.Spec.adj P _ _ = Cert.Spec.adj P (rowOf k) (colOf k)
  congr 1
  · exact Fin.ext (rowW_toNat k)
  · exact Fin.ext (colW_toNat k)

variable {F : FTy → Type} [FloatOps F]

set_option maxRecDepth 8192 in
/-- Segment 5 writes only the buffers listed. -/
theorem seg5_writes : (seg5 : List (HloOp τ sig (Elt F))).Forall fun op => op.writes ⊆ (seg5_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg5_w, List.mem_cons, List.mem_nil_iff, true_or, or_true], rfl⟩

end Cert.ReferenceIdeal.Hand

end
-- ==== Proof.Ref.DegLib.lean ====
/-
  The degree normalisation of the reference program, which both layers compute: the degrees d_c = Σ_r A(r, c) as the
  scatter-add of the edge weights by column into zeros, then d ↦ d^(-1/2) with infinite values sent to zero. For a
  finite P every d_c is a positive real, so d_c^(-1/2) is the real (√d_c)⁻¹ and the guard keeps it.
-/
import proofs.«135578_g23476291240112_cont_8to1_1555_6_alg».proof.Proof.Ref.EdgeLib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The degree normalisation  d ↦ d^(-1/2), infinities sent to zero -/

/-- Every node index is the index at a position below 1024. -/
theorem exists_ix1_node (i : S1024.Idx) : ∃ c : Fin 1024, i = ix1 c := ⟨i 0, eq_ix1 i⟩

/-- A scalar constant broadcast over the nodes reads, at every node, the real its bit pattern denotes. -/
theorem bcastConst_apply (b : BitVec 32) (i : S1024.Idx) :
    broadcastInDim S1024 ![] bcast_S_S1024 (constant (F := Ideal) S_ .f32 b) i = Ideal.ofBits .f32 b := by
  unfold broadcastInDim
  rfl

/-- The f32 pattern of zero is the extended real zero. -/
theorem ofBits_zero_f32' : Ideal.ofBits .f32 0x00000000#32 = 0 := by simp [Ideal.ofBits, Ideal.ieee]

/-- The degrees: the edge weights scatter-added by (wrapped) column into zeros. -/
def deg (s44 : IVec S2x1048576 32) (e62 : FVec Ideal S1048576 .f32) : FVec Ideal S1024 .f32 :=
  Host.scatterAdd scatter_S1024_S1048576x1_S1048576_n_0_0_1
    (broadcastInDim S1024 ![] bcast_S_S1024 (constant (F := Ideal) S_ .f32 0x00000000#32)) (col1 (wrap (line1 s44))) e62

/-- The power -1/2, entry by entry. -/
def degPow (g : FVec Ideal S1024 .f32) : FVec Ideal S1024 .f32 :=
  Host.powf g (broadcastInDim S1024 ![] bcast_S_S1024 (constant (F := Ideal) S_ .f32 0xBF000000#32))

/-- Zero where the entry is infinite in absolute value, the entry elsewhere. -/
def guardInf (p : FVec Ideal S1024 .f32) : FVec Ideal S1024 .f32 :=
  select (cmpf .oeq (Host.absf p) (broadcastInDim S1024 ![] bcast_S_S1024 (constant (F := Ideal) S_ .f32 0x7F800000#32)))
    (broadcastInDim S1024 ![] bcast_S_S1024 (id (constant (F := Ideal) S_ .f32 0x00000000#32))) p

/-- The normalisation as the program computes it from the stacked index and the edge weights. -/
def stage6 (s44 : IVec S2x1048576 32) (e62 : FVec Ideal S1048576 .f32) : FVec Ideal S1024 .f32 :=
  guardInf (degPow (deg s44 e62))

theorem degPow_apply (g : FVec Ideal S1024 .f32) (i : S1024.Idx) :
    degPow g i = Ideal.pow (g i) (Ideal.ofBits .f32 0xBF000000#32) := by
  show Ideal.pow (g i) (broadcastInDim S1024 ![] bcast_S_S1024 (constant (F := Ideal) S_ .f32 0xBF000000#32) i) = _
  rw [bcastConst_apply]

theorem guardInf_apply (p : FVec Ideal S1024 .f32) (i : S1024.Idx) :
    guardInf p i = Scalar.select (Ideal.cmp .oeq (max (p i) (-(p i))) (Ideal.ofBits .f32 0x7F800000#32))
      (Ideal.ofBits .f32 0x00000000#32) (p i) := by
  show Scalar.select (Ideal.cmp .oeq (max (p i) (-(p i)))
      (broadcastInDim S1024 ![] bcast_S_S1024 (constant (F := Ideal) S_ .f32 0x7F800000#32) i))
      (broadcastInDim S1024 ![] bcast_S_S1024 (constant (F := Ideal) S_ .f32 0x00000000#32) i) (p i) = _
  rw [bcastConst_apply, bcastConst_apply]

/-- The scatter-add by column of the edge weights is the adjacency's column sums. -/
theorem deg_eq (P : S1024x1024.Idx → EReal) (c : Fin 1024) : deg stackV (ewV P) (ix1 c) = Cert.Spec.colsum P c := by
  unfold deg
  rw [line1_stackV, wrap_colW, scatterAdd_cols, bcastConst_apply, ofBits_zero_f32', zero_add]
  unfold Cert.Spec.colsum
  refine Finset.sum_congr rfl fun r _ => ?_
  have hr := r.isLt
  have hc := c.isLt
  show Cert.Spec.adj P _ _ = Cert.Spec.adj P r c
  congr 1
  · apply Fin.ext
    show (1024 * r.val + c.val) / 1024 = r.val
    omega
  · apply Fin.ext
    show (1024 * r.val + c.val) % 1024 = c.val
    omega

/-- For a finite P the normalisation is the inverse square root of each column sum: the sum is a positive real, its power
    -1/2 the reciprocal of its square root, a real, which the guard keeps. -/
theorem stage6_eq (P : S1024x1024.Idx → EReal) (hP : Finite P) : stage6 stackV (ewV P) = disV P := by
  funext i
  obtain ⟨c, rfl⟩ := exists_ix1_node i
  obtain ⟨dd, hdpos, hd⟩ := Cert.Spec.colsum_real P hP c
  obtain ⟨e, _, he⟩ := Cert.Spec.rsqrt_real dd hdpos
  have hpow : degPow (deg stackV (ewV P)) (ix1 c) = ((e : ℝ) : EReal) := by
    rw [degPow_apply, deg_eq, ofBits_neg_half_f32, hd, Cert.Spec.pow_neg_half dd hdpos, he]
  unfold stage6
  rw [guardInf_apply, hpow, ofBits_inf_f32, isinf_coe, select_zero]
  show ((e : ℝ) : EReal) = Ideal.rsqrt (Cert.Spec.colsum P c)
  rw [hd, he]

/-! ## Lines of operations run one after the other -/

/-- The buffers after two lines of operations run in turn: the second line's fold from the first line's. -/
theorem after_append {F : FTy → Type} (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.Hand

end
-- ==== Proof.Ref.Seg6.lean ====
/-
  Segment 6 of the reference program: the row list and the column list read back from the stacked edge index, the
  degrees d_c = Σ_r A(r, c) as the scatter-add of the edge weights by column into zeros, and d^(-1/2) with infinite
  values sent to zero. The segment is cut after the power: its first eighteen operations end at d^(-1/2), its last
  eight test for an infinite value and select.
-/
import proofs.«135578_g23476291240112_cont_8to1_1555_6_alg».proof.Proof.Ref.DegLib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## Segment 6 in two lines -/

section Lines

variable {F : FTy → Type} [FloatOps F]

set_option maxRecDepth 8192 in
/-- The first eighteen operations: the two lists read back, the scatter-add, the power. -/
abbrev seg6a : List (HloOp τ sig (Elt F)) :=
  [ StableHlo.unary main_v44 main_v63 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v63 main_v64 rfl shapeCasts_S1x1048576_S1048576,
    StableHlo.unary main_v44 main_v65 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v65 main_v66 rfl shapeCasts_S1x1048576_S1048576,
    StableHlo.nullary main_cst_19 (constant S_ .f32 0x00000000#32),
    StableHlo.unary main_cst_19 main_v67 (broadcastInDim S1024 ![] bcast_S_S1024 : (⟨S_, .f32⟩ : BufTy).Contents (Elt F) → (⟨S1024, .f32⟩ : BufTy).Contents (Elt F)),
    StableHlo.nullary main_c_20 (constantI S_ 32 0#32),
    StableHlo.unary main_c_20 main_v68 (broadcastInDim S1048576 ![] bcast_S_S1048576 : (⟨S_, .i32⟩ : BufTy).Contents (Elt F) → (⟨S1048576, .i32⟩ : BufTy).Contents (Elt F)),
    StableHlo.binary main_v66 main_v68 main_v69 (cmpi .slt : (⟨S1048576, .i32⟩ : BufTy).Contents (Elt F) → (⟨S1048576, .i32⟩ : BufTy).Contents (Elt F) → (⟨S1048576, .i1⟩ : BufTy).Contents (Elt F)),
    StableHlo.nullary main_c_21 (constantI S_ 32 1024#32),
    StableHlo.unary main_c_21 main_v70 (broadcastInDim S1048576 ![] bcast_S_S1048576 : (⟨S_, .i32⟩ : BufTy).Contents (Elt F) → (⟨S1048576, .i32⟩ : BufTy).Contents (Elt F)),
    StableHlo.binary main_v66 main_v70 main_v71 (addi : (⟨S1048576, .i32⟩ : BufTy).Contents (Elt F) → (⟨S1048576, .i32⟩ : BufTy).Contents (Elt F) → (⟨S1048576, .i32⟩ : BufTy).Contents (Elt F)),
    StableHlo.ternary main_v69 main_v71 main_v66 main_v72 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v72 main_v73 (broadcastInDim S1048576x1 ![0] bcast_S1048576_S1048576x1_0 : (⟨S1048576, .i32⟩ : BufTy).Contents (Elt F) → (⟨S1048576x1, .i32⟩ : BufTy).Contents (Elt F)),
    StableHlo.ternary main_v67 main_v73 main_v62 main_v74 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.nullary main_cst_22 (constant S_ .f32 0xBF000000#32),
    StableHlo.unary main_cst_22 main_v75 (broadcastInDim S1024 ![] bcast_S_S1024 : (⟨S_, .f32⟩ : BufTy).Contents (Elt F) → (⟨S1024, .f32⟩ : BufTy).Contents (Elt F)),
    StableHlo.binary main_v74 main_v75 main_v76 (Host.powf : (⟨S1024, .f32⟩ : BufTy).Contents (Elt F) → (⟨S1024, .f32⟩ : BufTy).Contents (Elt F) → (⟨S1024, .f32⟩ : BufTy).Contents (Elt F)) ]

set_option maxRecDepth 8192 in
/-- The last eight operations: the test for an infinite value and the select on it. -/
abbrev seg6b : List (HloOp τ sig (Elt F)) :=
  [ StableHlo.TRef.unary (StableHlo.TRef.of (T := ⟨S1024, .f32⟩) main_v76) main_call9.v0 Host.absf,
    StableHlo.TRef.nullary main_call9.cst (constant S_ .f32 0x7F800000#32),
    StableHlo.TRef.unary main_call9.cst main_call9.v1 (broadcastInDim S1024 ![] bcast_S_S1024),
    StableHlo.TRef.binary main_call9.v0 main_call9.v1 main_call9.v2 (cmpf .oeq),
    StableHlo.nullary main_cst_23 (constant S_ .f32 0x00000000#32),
    StableHlo.TRef.unary (StableHlo.TRef.of (T := ⟨S_, .f32⟩) main_cst_23) main_call10.v0 id,
    StableHlo.TRef.unary main_call10.v0 main_call10.v1 (broadcastInDim S1024 ![] bcast_S_S1024),
    StableHlo.TRef.ternary (StableHlo.TRef.of (T := ⟨S1024, .i1⟩) main_v77) main_call10.v1 (StableHlo.TRef.of (T := ⟨S1024, .f32⟩) main_v76) main_call10.v2 select ]

set_option maxRecDepth 8192 in
theorem seg6_split : (seg6 : List (HloOp τ sig (Elt F))) = seg6a ++ seg6b := rfl

end Lines

/-! ## The first line -/

attribute [local irreducible] Host.scatterAdd Host.powf constant broadcastInDim extractStridedSlice shapeCast Idealize.ShloMosaic.select cmpi addi constantI in
set_option maxRecDepth 8192 in
set_option maxHeartbeats 800000 in
/-- What the first line leaves at the row list, as the operations compose. -/
theorem seg6a_rows (V : Val) : after seg6a V (Proc.devRef .tc main_v64) = line0 (V (Proc.devRef .tc main_v44)) := by
  simp only [seg6a, after_cons, after_nil]
  unfold line0
  rfl

attribute [local irreducible] Host.scatterAdd Host.powf constant broadcastInDim extractStridedSlice shapeCast Idealize.ShloMosaic.select cmpi addi constantI in
set_option maxRecDepth 8192 in
set_option maxHeartbeats 800000 in
/-- What the first line leaves at the column list, as the operations compose. -/
theorem seg6a_cols (V : Val) : after seg6a V (Proc.devRef .tc main_v66) = line1 (V (Proc.devRef .tc main_v44)) := by
  simp only [seg6a, after_cons, after_nil]
  unfold line1
  rfl

attribute [local irreducible] Host.scatterAdd in
set_option maxRecDepth 16384 in
set_option maxHeartbeats 2000000 in
/-- What the first line leaves at the power, as the operations compose. -/
theorem seg6a_pow (V : Val) :
    after seg6a V (Proc.devRef .tc main_v76) = degPow (deg (V (Proc.devRef .tc main_v44)) (V (Proc.devRef .tc main_v62))) := by
  unfold seg6a
  after_results_simp
  unfold degPow deg col1 wrap line1
  rfl

/-! ## The second line -/

set_option maxRecDepth 16384 in
set_option maxHeartbeats 2000000 in
/-- What the second line leaves at the guarded power, from any contents. -/
theorem seg6b_dis (W : Val) : after seg6b W (Proc.devRef .tc main_v78) = guardInf (W (Proc.devRef .tc main_v76)) := by
  unfold seg6b
  after_results_simp
  simp only [TRef.toBuf, TRef.ofBuf, cast_eq]
  rfl

set_option maxRecDepth 16384 in
/-- The second line leaves the row list as it found it. -/
theorem seg6b_rows (W : Val) : after seg6b W (Proc.devRef .tc main_v64) = W (Proc.devRef .tc main_v64) := by
  unfold seg6b
  after_results_simp

set_option maxRecDepth 16384 in
/-- The second line leaves the column list as it found it. -/
theorem seg6b_cols (W : Val) : after seg6b W (Proc.devRef .tc main_v66) = W (Proc.devRef .tc main_v66) := by
  unfold seg6b
  after_results_simp

/-! ## Segment 6 -/

theorem seg6_out (V : Val) (P : S1024x1024.Idx → EReal) (hP : Finite P) (h44 : V (Proc.devRef .tc main_v44) = stackV)
    (h62 : V (Proc.devRef .tc main_v62) = ewV P) :
    after seg6 V (Proc.devRef .tc main_v64) = rowW ∧ after seg6 V (Proc.devRef .tc main_v66) = colW
      ∧ after seg6 V (Proc.devRef .tc main_v78) = disV P := by
  rw [seg6_split, after_append, seg6b_rows, seg6b_cols, seg6b_dis, seg6a_rows, seg6a_cols, seg6a_pow, h44, h62]
  exact ⟨line0_stackV, line1_stackV, stage6_eq P hP⟩

variable {F : FTy → Type} [FloatOps F]

set_option maxRecDepth 8192 in
/-- Segment 6 writes only the buffers listed. -/
theorem seg6_writes : (seg6 : List (HloOp τ sig (Elt F))).Forall fun op => op.writes ⊆ (seg6_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg6_w, List.mem_cons, List.mem_nil_iff, true_or, or_true], rfl⟩

end Cert.ReferenceIdeal.Hand

end
-- ==== Proof.Ref.Seg7.lean ====
/-
  Segments 7 and 8 of the reference program: every edge's weight scaled by the inverse square roots of the degrees of
  its two end points.

  The degrees' inverse square roots are a vector over the 1024 nodes; it is read at every edge's row, and then at every
  edge's column, by a take: the index list (after the wrap-around of negative entries by 1024, which never happens
  since rows and columns are numbers 0 … 1023 held as 32-bit words) is laid out as a column of start positions, and the
  take reads the vector at each start position, clamped into 0 … 1023 (no clamp happens either). The two products are
  d_row^(-1/2) · A(row, col)  and then that times  d_col^(-1/2).
-/
import proofs.«135578_g23476291240112_cont_8to1_1555_6_alg».proof.Proof.Ref.Defs
import Idealize.ShloMosaic.Lib.IdealHost
import Idealize.ShloMosaic.Lib.StableHlo.Predicate

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The operations as functions of the buffers read -/

/-- The test "the entry is negative" on an index list. -/
def s7_neg (r : IVec S1048576 32) : IVec S1048576 1 :=
  cmpi .slt r (broadcastInDim S1048576 ![] bcast_S_S1048576 (constantI S_ 32 0#32))

/-- The constant 1024 at every edge. -/
def s7_off : IVec S1048576 32 := broadcastInDim S1048576 ![] bcast_S_S1048576 (constantI S_ 32 1024#32)

/-- An index list with the entries a mask marks moved up by an offset. -/
def s7_wrap (msk : IVec S1048576 1) (r off : IVec S1048576 32) : IVec S1048576 32 := select msk (addi r off) r

/-- The vector over the nodes read at an index list: the list as a column of start positions, then the take. -/
def s7_pick (d : FVec Ideal S1024 .f32) (idx : IVec S1048576 32) : FVec Ideal S1048576 .f32 :=
  Host.gather gather_S1024_S1048576x1_S1048576_n_0_n_n_0_1_1 d (broadcastInDim S1048576x1 ![0] bcast_S1048576_S1048576x1_0 idx)

/-- Segment 7's product: the vector at the wrapped rows, times the edge weights. -/
def s7_stage (d : FVec Ideal S1024 .f32) (r : IVec S1048576 32) (ew : FVec Ideal S1048576 .f32) : FVec Ideal S1048576 .f32 :=
  mulf (s7_pick d (s7_wrap (s7_neg r) r s7_off)) ew

/-- Segment 8's product: what segment 7 left, times the vector at the wrapped columns. -/
def s8_stage (d : FVec Ideal S1024 .f32) (msk : IVec S1048576 1) (c off : IVec S1048576 32) (w : FVec Ideal S1048576 .f32) :
    FVec Ideal S1048576 .f32 :=
  mulf w (s7_pick d (s7_wrap msk c off))

attribute [local irreducible] Host.gather in
set_option maxRecDepth 8192 in
/-- The segment's fold at the product's buffer is the composed operations. -/
theorem s7_v86_lit (V : Val) :
    after seg7 V (Proc.devRef .tc main_v86)
      = s7_stage (V (Proc.devRef .tc main_v78)) (V (Proc.devRef .tc main_v64)) (V (Proc.devRef .tc main_v62)) := by
  after_results_simp
  rfl

set_option maxRecDepth 8192 in
/-- The segment's fold at the columns' sign test. -/
theorem s7_v88_lit (V : Val) : after seg7 V (Proc.devRef .tc main_v88) = s7_neg (V (Proc.devRef .tc main_v66)) := by
  after_results_simp
  rfl

set_option maxRecDepth 8192 in
/-- The segment's fold at the broadcast constant. -/
theorem s7_v89_lit (V : Val) : after seg7 V (Proc.devRef .tc main_v89) = s7_off := by
  after_results_simp
  rfl

attribute [local irreducible] Host.gather in
set_option maxRecDepth 8192 in
/-- Segment 8's fold at the normalised weights' buffer is the composed operations. -/
theorem s8_v94_lit (V : Val) :
    after seg8 V (Proc.devRef .tc main_v94)
      = s8_stage (V (Proc.devRef .tc main_v78)) (V (Proc.devRef .tc main_v88)) (V (Proc.devRef .tc main_v66))
          (V (Proc.devRef .tc main_v89)) (V (Proc.devRef .tc main_v86)) := by
  after_results_simp
  rfl

/-! ## Words of numbers below 1024 -/

/-- The word of a number below 1024 has that number as its value. -/
theorem s7_toNat (n : ℕ) (hn : n < 1024) : (BitVec.ofNat 32 n).toNat = n := by
  rw [BitVec.toNat_ofNat]; exact Nat.mod_eq_of_lt (by omega)

/-- The word of a number below 1024 is not negative as a signed word. -/
theorem s7_not_neg (n : ℕ) (hn : n < 1024) : IntOp.cmpi .slt (BitVec.ofNat 32 n) 0#32 = 0#1 := by
  apply eq_zero_of_ne_one
  intro hc
  have h0 : (0#32 : BitVec 32).toNat = 0 := rfl
  have h := (Predicate.slt_iff_toNat (by rw [s7_toNat n hn]; omega) (by rw [h0]; omega)).mp hc
  rw [h0] at h
  exact Nat.not_lt_zero _ h

/-- Read signed, then as a natural number, and clamped to 0 … 1023, the word of a number below 1024 is that number. -/
theorem s7_clamp (n : ℕ) (hn : n < 1024) : min (BitVec.ofNat 32 n).toInt.toNat (1024 - 1) = n := by
  rw [Predicate.toInt_ofNat_small n (by omega), Int.toNat_natCast]
  omega

/-! ## The operations read at an edge -/

/-- The sign test at an edge whose entry is a number below 1024: false. -/
theorem s7_neg_apply (r : IVec S1048576 32) (k : S1048576.Idx) (n : ℕ) (hn : n < 1024) (hr : r k = BitVec.ofNat 32 n) :
    s7_neg r k = 0#1 := by
  have h0 : s7_neg r k = IntOp.cmpi .slt (r k) 0#32 := rfl
  rw [h0, hr]
  exact s7_not_neg n hn

/-- Where the mask is clear the wrapped list is the list. -/
theorem s7_wrap_apply (msk : IVec S1048576 1) (r off : IVec S1048576 32) (k : S1048576.Idx) (hm : msk k = 0#1) :
    s7_wrap msk r off k = r k := by
  unfold s7_wrap
  rw [select_apply, hm, select_zero]

/-- The take at an edge whose index is the word of node m reads the vector at m. -/
theorem s7_pick_apply (d : FVec Ideal S1024 .f32) (idx : IVec S1048576 32) (k : S1048576.Idx) (m : Fin 1024)
    (hk : idx k = BitVec.ofNat 32 m.val) : s7_pick d idx k = d (ix1 m) := by
  obtain ⟨p, rfl⟩ : ∃ p : Fin 1048576, k = Shape.Idx.ofFin p := ⟨k 0, Shape.Idx.eq_ofFin k⟩
  unfold s7_pick
  refine (Predicate.gather_take gather_S1024_S1048576x1_S1048576_n_0_n_n_0_1_1 rfl rfl rfl rfl d _ p (by norm_num)).trans ?_
  congr 1
  funext a
  have ha : a = 0 := Subsingleton.elim _ _
  subst ha
  apply Fin.ext
  show min (broadcastInDim S1048576x1 ![0] bcast_S1048576_S1048576x1_0 idx (Predicate.ixP p)).toInt.toNat (1024 - 1) = m.val
  rw [Predicate.bcast_col1, hk]
  exact s7_clamp m.val m.isLt

/-! ## The closed forms -/

/-- The vector of inverse square roots of degrees at every edge's row, times the edge weights. -/
theorem s7_stage_eq (P : S1024x1024.Idx → EReal) : s7_stage (disV P) rowW (ewV P) = disEwV P := by
  funext k
  have hrow : rowW k = BitVec.ofNat 32 (rowOf k).val := rfl
  unfold s7_stage
  rw [mulf_apply, s7_pick_apply (disV P) _ k (rowOf k)
    ((s7_wrap_apply _ _ _ k (s7_neg_apply rowW k _ (rowOf k).isLt hrow)).trans hrow)]
  rfl

/-- No column is negative. -/
theorem s7_neg_colW : s7_neg colW = fun _ => 0#1 := by
  funext k
  exact s7_neg_apply colW k _ (colOf k).isLt rfl

/-- That product times the vector at every edge's column, whatever the offset: the normalised weight. -/
theorem s8_stage_eq (P : S1024x1024.Idx → EReal) (off : IVec S1048576 32) :
    s8_stage (disV P) (fun _ => 0#1) colW off (disEwV P) = normV P := by
  funext k
  have hcol : colW k = BitVec.ofNat 32 (colOf k).val := rfl
  unfold s8_stage
  rw [mulf_apply, s7_pick_apply (disV P) _ k (colOf k) ((s7_wrap_apply _ _ _ k rfl).trans hcol)]
  rfl

/-- Segment 7: the rows' factor times the edge weights, the columns' sign test (all false), the constant 1024. -/
theorem seg7_out (V : Val) (P : S1024x1024.Idx → EReal) (h64 : V (Proc.devRef .tc main_v64) = rowW)
    (h66 : V (Proc.devRef .tc main_v66) = colW) (h78 : V (Proc.devRef .tc main_v78) = disV P)
    (h62 : V (Proc.devRef .tc main_v62) = ewV P) :
    after seg7 V (Proc.devRef .tc main_v86) = disEwV P ∧ after seg7 V (Proc.devRef .tc main_v88) = (fun _ => 0#1)
      ∧ after seg7 V (Proc.devRef .tc main_v89) = (fun _ => 1024#32) := by
  refine ⟨?_, ?_, ?_⟩
  · rw [s7_v86_lit, h64, h78, h62]
    exact s7_stage_eq P
  · rw [s7_v88_lit, h66]
    exact s7_neg_colW
  · rw [s7_v89_lit]
    funext k
    rfl

/-- Segment 8: the normalised weight of every edge. -/
theorem seg8_out (V : Val) (P : S1024x1024.Idx → EReal) (h66 : V (Proc.devRef .tc main_v66) = colW)
    (h78 : V (Proc.devRef .tc main_v78) = disV P) (h86 : V (Proc.devRef .tc main_v86) = disEwV P)
    (h88 : V (Proc.devRef .tc main_v88) = fun _ => 0#1) (h89 : V (Proc.devRef .tc main_v89) = fun _ => 1024#32) :
    after seg8 V (Proc.devRef .tc main_v94) = normV P := by
  rw [s8_v94_lit, h66, h78, h86, h88]
  exact s8_stage_eq P _

/-! ## What the two segments write -/

variable {F : FTy → Type} [FloatOps F]

set_option maxRecDepth 8192 in
/-- Segment 7 writes only the buffers listed. -/
theorem seg7_writes : (seg7 : List (HloOp τ sig (Elt F))).Forall fun op => op.writes ⊆ (seg7_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg7_w, List.mem_cons, List.mem_nil_iff, true_or, or_true], rfl⟩

set_option maxRecDepth 8192 in
/-- Segment 8 writes only the buffers listed. -/
theorem seg8_writes : (seg8 : List (HloOp τ sig (Elt F))).Forall fun op => op.writes ⊆ (seg8_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg8_w, List.mem_cons, List.mem_nil_iff, true_or, or_true], rfl⟩

end Cert.ReferenceIdeal.Hand

end
-- ==== Proof.Ref.Layer.lean ====
/-
  One propagation step of the graph convolution as the reference program spells it, read as mathematics.

  The program lists all 1024 × 1024 entries of the adjacency as edges k = 1024·r + c. A propagation takes, for every
  edge, row r of a 1024 × d matrix z (a gather of rows, guarded by a range test that every index passes), scales it by
  the edge's normalised weight, and adds it into row c of a zero matrix (a scatter that accumulates). At (c, f) the
  result is the sum over the edges of column c, which re-indexed by the row is  Σ_r Â c r · z r f.  Only 0 + a = a and
  the re-indexing of a finite sum are used: nothing here needs the entries to be finite.
-/
import proofs.«135578_g23476291240112_cont_8to1_1555_6_alg».proof.Proof.Ref.Defs
import proofs.«135578_g23476291240112_cont_8to1_1555_6_alg».proof.Proof.SpecLemmas
import Idealize.ShloMosaic.Lib.StableHlo.Predicate
import Idealize.ShloMosaic.Lib.StackMember

noncomputable section

namespace Cert.ReferenceIdeal.Hand.Layer

open Cert.ReferenceIdeal Cert.ReferenceIdeal.Gen Cert.ReferenceIdeal.Hand Idealize.ShloMosaic Idealize.ShloMosaic.TcCoe Idealize.SL.Sem
  Idealize.ShloMosaic.StableHlo
open Idealize.ShloMosaic.ValueIdx

/-! ## Typed references -/

/-- Contents moved to a typed reference's own buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-! ## The edge's row and column as words -/

theorem edge_lt (k : Fin 1048576) : k.val < 1048576 := k.isLt

theorem rowW_toNat (k : Fin 1048576) : (rowW (ix1 k)).toNat = k.val / 1024 := by
  have h := edge_lt k
  show (BitVec.ofNat 32 (k.val / 1024)).toNat = k.val / 1024
  rw [BitVec.toNat_ofNat]
  omega

theorem colW_toNat (k : Fin 1048576) : (colW (ix1 k)).toNat = k.val % 1024 := by
  show (BitVec.ofNat 32 (k.val % 1024)).toNat = k.val % 1024
  rw [BitVec.toNat_ofNat]
  omega

theorem rowOf_edge (r c : Fin 1024) (h : 1024 * r.val + c.val < 1048576) : rowOf (ix1 ⟨1024 * r.val + c.val, h⟩) = r := by
  have := c.isLt
  exact Fin.ext (by show (1024 * r.val + c.val) / 1024 = r.val; omega)

theorem colOf_edge (r c : Fin 1024) (h : 1024 * r.val + c.val < 1048576) : colOf (ix1 ⟨1024 * r.val + c.val, h⟩) = c := by
  have := c.isLt
  exact Fin.ext (by show (1024 * r.val + c.val) % 1024 = c.val; omega)

/-- The normalised weight of the edge from row r into column c is the normalised adjacency at (c, r). -/
theorem normV_edge (P : S1024x1024.Idx → EReal) (r c : Fin 1024) (h : 1024 * r.val + c.val < 1048576) :
    normV P (ix1 ⟨1024 * r.val + c.val, h⟩) = Cert.Spec.ahat P c r := by
  unfold normV
  rw [rowOf_edge r c h, colOf_edge r c h, Cert.Spec.ahat_eq]

/-! ## The index lists as the program prepares them -/

/-- An index list with its negative entries wrapped around by 1024. -/
def wrapIdx (r : IVec S1048576 32) : IVec S1048576 32 :=
  select (cmpi .slt r (broadcastInDim S1048576 ![] bcast_S_S1048576 (constantI S_ 32 0#32)))
    (addi r (broadcastInDim S1048576 ![] bcast_S_S1048576 (constantI S_ 32 1024#32))) r

/-- An index list as a column of start indices. -/
def colIdx (r : IVec S1048576 32) : IVec S1048576x1 32 :=
  broadcastInDim S1048576x1 ![0] bcast_S1048576_S1048576x1_0 (wrapIdx r)

/-- Which entries of a column of start indices lie in 0 … 1023. -/
def inRange (v : IVec S1048576x1 32) : IVec S1048576 1 :=
  Host.reduce IntOp.andi
    (andi (cmpi .sge v (broadcastInDim S1048576x1 ![] bcast_S_S1048576x1 (constantI S_ 32 0#32)))
      (cmpi .sle v (broadcastInDim S1048576x1 ![0, 1] bcast_S1x1_S1048576x1_0_1
        (broadcastInDim S1x1 ![1] bcast_S1_S1x1_1 (constantI S1 32 1023#32)))))
    (constantI S_ 1 1#1) reducesTo_S1048576x1_S1048576_d1 h_S_

/-- No entry below 1024 is negative, so the wrap leaves the list as it is. -/
theorem wrapIdx_eq (r : IVec S1048576 32) (h : ∀ k, (r k).toNat < 1024) : wrapIdx r = r := by
  funext k
  show Scalar.select (IntOp.cmpi .slt (r k) 0#32) (IntOp.addi (r k) 1024#32) (r k) = r k
  have hn : ¬ IntOp.cmpi .slt (r k) 0#32 = 1#1 := by
    rw [Predicate.slt_iff_toNat (by have := h k; omega) (by decide)]
    exact Nat.not_lt_zero _
  rw [eq_zero_of_ne_one hn, select_zero]

theorem colIdx_apply (r : IVec S1048576 32) (k : Fin 1048576) : colIdx r (ix2 k (0 : Fin 1)) = wrapIdx r (ix1 k) := by
  unfold colIdx
  exact broadcastInDim_apply _ _ _ _ _ fun a => match a with
    | ⟨0, _⟩ => by show k.val = if (1048576 : Nat) = 1 then 0 else k.val; exact (if_neg (by decide)).symm

theorem colIdx_of_lt (r : IVec S1048576 32) (h : ∀ k, (r k).toNat < 1024) (k : Fin 1048576) :
    colIdx r (ix2 k (0 : Fin 1)) = r (ix1 k) := by
  rw [colIdx_apply, wrapIdx_eq r h]

/-- A left fold of "and" from 1 over entries that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    have e : IntOp.andi 1#1 1#1 = 1#1 := by decide
    rw [List.foldl_cons, hx a, e]
    exact foldl_andi_one x hx l

/-- Every start index below 1024 passes the range test. -/
theorem inRange_of_lt (v : IVec S1048576x1 32) (h : ∀ i, (v i).toNat < 1024) (k : S1048576.Idx) : inRange v k = 1#1 := by
  unfold inRange
  rw [Host.reduce_eq_foldl]
  refine foldl_andi_one _ (fun i => ?_) _
  show IntOp.andi (IntOp.cmpi .sge (v i) 0#32) (IntOp.cmpi .sle (v i) 1023#32) = 1#1
  have h1 : IntOp.cmpi .sge (v i) 0#32 = 1#1 :=
    (Predicate.sge_iff_toNat (by have := h i; omega) (by decide)).mpr (Nat.zero_le _)
  have h2 : IntOp.cmpi .sle (v i) 1023#32 = 1#1 :=
    (Predicate.sle_iff_toNat (by have := h i; omega) (by decide)).mpr (by have := h i; show (v i).toNat ≤ 1023; omega)
  rw [h1, h2]
  decide
/-! ## Rows of a matrix taken at a column of start indices -/

section Rows
variable {α : Type} {d w : Nat}

/-- The dimension numbers of "take rows": the operand's axis 0 is indexed and collapsed, a whole row of d entries is
    the slice. -/
abbrev rowsDims (d : Nat)
    (wf : GatherDims.WF (⟨2, ![1024, d]⟩ : Shape) S1048576x1 ⟨2, ![1048576, d]⟩ [1] [0] [] [0] [] 1 ![1, d]) :
    GatherDims (⟨2, ![1024, d]⟩ : Shape) S1048576x1 ⟨2, ![1048576, d]⟩ where
  offsetDims := [1]
  collapsedSliceDims := [0]
  operandBatchingDims := []
  startIndicesBatchingDims := []
  startIndexMap := [0]
  indexVectorDim := 1
  sliceSizes := ![1, d]
  wf := wf

/-- Entry (k, f) of the rows taken: the operand at (start index k read signed and clamped to 0 … 1023, f). -/
theorem gather_rows_apply (wf : GatherDims.WF (⟨2, ![1024, d]⟩ : Shape) S1048576x1 ⟨2, ![1048576, d]⟩ [1] [0] [] [0] [] 1 ![1, d])
    (z : (⟨2, ![1024, d]⟩ : Shape).Idx → α) (idx : IVec S1048576x1 w) (k : Fin 1048576) (f : Fin d) :
    Host.gather (rowsDims d wf) z idx (ix2 k f)
      = z (ix2 (⟨min (idx (ix2 k (0 : Fin 1))).toInt.toNat 1023, by omega⟩ : Fin 1024) f) := by
  unfold Host.gather
  refine congrArg z (funext fun a => Fin.ext ?_)
  match a with
  | ⟨0, _⟩ =>
    show (rowsDims d wf).start (ix2 k f) idx (0 : Fin 2) + (rowsDims d wf).batchCoord (ix2 k f) (0 : Fin 2)
      + (rowsDims d wf).offCoord (ix2 k f) (0 : Fin 2) = min (idx (ix2 k (0 : Fin 1))).toInt.toNat 1023
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims d wf).startIndexMap from List.mem_singleton.mpr rfl)]
    have hsi : (rowsDims d wf).siIdx (ix2 k f) ⟨List.idxOf (0 : Fin 2) (rowsDims d wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowsDims d wf).start (ix2 k f) idx (1 : Fin 2) + (rowsDims d wf).batchCoord (ix2 k f) (1 : Fin 2)
      + (rowsDims d wf).offCoord (ix2 k f) (1 : Fin 2) = f.val
    have h1 : (1 : Fin 2) ∉ (rowsDims d wf).startIndexMap := by
      show ¬ (1 : Fin 2) ∈ ([0] : List (Fin 2))
      decide
    have hk : (1 : Fin 2) ∈ (rowsDims d wf).sKept :=
      (GatherDims.mem_sKept _ _).mpr ⟨by show ¬ (1 : Fin 2) ∈ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Rows

/-! ## Rows added into a matrix at a column of indices -/

section Add
variable {d w : Nat}

/-- The dimension numbers of "add rows": the operand's axis 0 is indexed, each update is a row of d entries. -/
abbrev addDims (d : Nat) (wf : ScatterDims.WF (⟨2, ![1024, d]⟩ : Shape) S1048576x1 ⟨2, ![1048576, d]⟩ [1] [0] [0] 1) :
    ScatterDims (⟨2, ![1024, d]⟩ : Shape) S1048576x1 ⟨2, ![1048576, d]⟩ where
  updateWindowDims := [1]
  insertedWindowDims := [0]
  scatterDimsToOperandDims := [0]
  indexVectorDim := 1
  wf := wf

variable (wf : ScatterDims.WF (⟨2, ![1024, d]⟩ : Shape) S1048576x1 ⟨2, ![1048576, d]⟩ [1] [0] [0] 1)

theorem add_start0 (idx : IVec S1048576x1 w) (k : Fin 1048576) (f : Fin d) :
    (addDims d wf).start (ix2 k f) idx (0 : Fin 2) = (idx (ix2 k (0 : Fin 1))).toInt := by
  unfold ScatterDims.start
  rw [dif_pos (show (0 : Fin 2) ∈ (addDims d wf).scatterDimsToOperandDims from List.mem_singleton.mpr rfl)]
  have hsi : (addDims d wf).siIdx (ix2 k f) ⟨List.idxOf (0 : Fin 2) (addDims d wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

theorem add_start1 (idx : IVec S1048576x1 w) (k : Fin 1048576) (f : Fin d) :
    (addDims d wf).start (ix2 k f) idx (1 : Fin 2) = 0 := by
  unfold ScatterDims.start
  rw [dif_neg (by show ¬ (1 : Fin 2) ∈ ([0] : List (Fin 2)); decide)]

theorem add_window0 (k : Fin 1048576) (f : Fin d) : (addDims d wf).window (ix2 k f) (0 : Fin 2) = 0 := by
  unfold ScatterDims.window
  rw [dif_neg (by show ¬ (0 : Fin 2) ∈ ([1] : List (Fin 2)); decide)]

theorem add_window1 (k : Fin 1048576) (f : Fin d) : (addDims d wf).window (ix2 k f) (1 : Fin 2) = f.val := by
  unfold ScatterDims.window
  rw [dif_pos (by show (1 : Fin 2) ∈ ([1] : List (Fin 2)); decide)]
  rfl

/-- The update at (k, f) lands on (start index k, f) when that index is in 0 … 1023. -/
theorem add_resultIdx (idx : IVec S1048576x1 32) (k : Fin 1048576) (f : Fin d) (h : (idx (ix2 k (0 : Fin 1))).toNat < 1024) :
    (addDims d wf).resultIdx? (ix2 k f) idx = some (ix2 (⟨(idx (ix2 k (0 : Fin 1))).toNat, h⟩ : Fin 1024) f) := by
  have hI : (idx (ix2 k (0 : Fin 1))).toInt = ((idx (ix2 k (0 : Fin 1))).toNat : ℤ) :=
    Predicate.toInt_eq_toNat_of_lt (by omega)
  have hf := f.isLt
  have hall : ∀ a : Fin 2, 0 ≤ (addDims d wf).start (ix2 k f) idx a + ((addDims d wf).window (ix2 k f) a : ℤ)
      ∧ (addDims d wf).start (ix2 k f) idx a + ((addDims d wf).window (ix2 k f) a : ℤ) < (((⟨2, ![1024, d]⟩ : Shape).size a : ℕ) : ℤ) := by
    refine Fin.forall_fin_two.mpr ⟨?_, ?_⟩
    · rw [add_start0, add_window0, hI]
      show 0 ≤ ((idx (ix2 k (0 : Fin 1))).toNat : ℤ) + ((0 : ℕ) : ℤ) ∧ ((idx (ix2 k (0 : Fin 1))).toNat : ℤ) + ((0 : ℕ) : ℤ) < ((1024 : ℕ) : ℤ)
      omega
    · rw [add_start1, add_window1]
      show 0 ≤ (0 : ℤ) + ((f.val : ℕ) : ℤ) ∧ (0 : ℤ) + ((f.val : ℕ) : ℤ) < ((d : ℕ) : ℤ)
      omega
  unfold ScatterDims.resultIdx?
  rw [dif_pos hall]
  refine congrArg some (funext fun a => Fin.ext ?_)
  match a with
  | ⟨0, _⟩ =>
    show ((addDims d wf).start (ix2 k f) idx (0 : Fin 2) + ((addDims d wf).window (ix2 k f) (0 : Fin 2) : ℤ)).toNat
      = (idx (ix2 k (0 : Fin 1))).toNat
    rw [add_start0, add_window0, hI]
    omega
  | ⟨1, _⟩ =>
    show ((addDims d wf).start (ix2 k f) idx (1 : Fin 2) + ((addDims d wf).window (ix2 k f) (1 : Fin 2) : ℤ)).toNat = f.val
    rw [add_start1, add_window1]
    omega

/-- Rows added at in-range indices: entry (c, f) receives entry f of every update row whose index is c. -/
theorem scatterAdd_rows (x : FVec Ideal (⟨2, ![1024, d]⟩ : Shape) .f32) (idx : IVec S1048576x1 32)
    (upd : FVec Ideal (⟨2, ![1048576, d]⟩ : Shape) .f32) (hidx : ∀ k : Fin 1048576, (idx (ix2 k (0 : Fin 1))).toNat < 1024)
    (c : Fin 1024) (f : Fin d) :
    Host.scatterAdd (F := Ideal) (addDims d wf) x idx upd (ix2 c f)
      = x (ix2 c f) + ∑ k ∈ Finset.univ.filter (fun k : Fin 1048576 => (idx (ix2 k (0 : Fin 1))).toNat = c.val), upd (ix2 k f) := by
  unfold Host.scatterAdd
  rw [Ideal.hostScatterAdd_def]
  unfold Ideal.hostScatterAdd
  refine congrArg (x (ix2 c f) + ·) ?_
  have hres : ∀ (k : Fin 1048576) (b : Fin d), ((addDims d wf).resultIdx? (ix2 k b) idx = some (ix2 c f))
      ↔ ((idx (ix2 k (0 : Fin 1))).toNat = c.val ∧ b = f) := fun k b => by
    rw [add_resultIdx wf idx k b (hidx k)]
    constructor
    · intro h
      have h' := Option.some.inj h
      exact ⟨congrArg (fun t : (⟨2, ![1024, d]⟩ : Shape).Idx => (t 0).val) h', congrFun h' 1⟩
    · rintro ⟨h1, h2⟩
      subst h2
      exact congrArg (fun t : Fin 1024 => some (ix2 t b)) (Fin.ext h1)
  refine Finset.sum_nbij' (fun j => (j 0 : Fin 1048576)) (fun k => ix2 k f) ?_ ?_ ?_ ?_ ?_
  · intro j hj
    obtain ⟨k, b, rfl⟩ : ∃ (k : Fin 1048576) (b : Fin d), j = ix2 k b := ⟨j 0, j 1, eq_ix2 j⟩
    have h := (hres k b).mp (Finset.mem_filter.mp hj).2
    exact Finset.mem_filter.mpr ⟨Finset.mem_univ _, h.1⟩
  · intro k hk
    exact Finset.mem_filter.mpr ⟨Finset.mem_univ _, (hres k f).mpr ⟨(Finset.mem_filter.mp hk).2, rfl⟩⟩
  · intro j hj
    obtain ⟨k, b, rfl⟩ : ∃ (k : Fin 1048576) (b : Fin d), j = ix2 k b := ⟨j 0, j 1, eq_ix2 j⟩
    have h := (hres k b).mp (Finset.mem_filter.mp hj).2
    rw [h.2]
    rfl
  · intro k _
    rfl
  · intro j hj
    obtain ⟨k, b, rfl⟩ : ∃ (k : Fin 1048576) (b : Fin d), j = ix2 k b := ⟨j 0, j 1, eq_ix2 j⟩
    have h := (hres k b).mp (Finset.mem_filter.mp hj).2
    rw [h.2]
    rfl

end Add

/-! ## Broadcasts read at an index -/

section Broadcasts
variable {α : Type} {d : Nat}

/-- A per-edge value laid along the d features of its edge. -/
theorem edge_bcast_apply (hc : S1048576x1.BroadcastsInDim (⟨2, ![1048576, d]⟩ : Shape) ![0, 1]) (v : S1048576.Idx → α)
    (k : Fin 1048576) (f : Fin d) :
    broadcastInDim (⟨2, ![1048576, d]⟩ : Shape) ![0, 1] hc (broadcastInDim S1048576x1 ![0] bcast_S1048576_S1048576x1_0 v) (ix2 k f)
      = v (ix1 k) := by
  refine (broadcastInDim_apply _ _ _ (ix2 k f) (ix2 k (0 : Fin 1)) fun a => ?_).trans
    (broadcastInDim_apply _ _ _ (ix2 k (0 : Fin 1)) (ix1 k) fun a => ?_)
  · match a with
    | ⟨0, _⟩ => show k.val = if (1048576 : Nat) = 1 then 0 else k.val; exact (if_neg (by decide)).symm
    | ⟨1, _⟩ => show (0 : Nat) = if (1 : Nat) = 1 then 0 else f.val; exact (if_pos rfl).symm
  · match a with
    | ⟨0, _⟩ => show k.val = if (1048576 : Nat) = 1 then 0 else k.val; exact (if_neg (by decide)).symm

/-- A per-edge flag laid along the d features of its edge. -/
theorem edge_flag_apply (hm : S1048576.BroadcastsInDim (⟨2, ![1048576, d]⟩ : Shape) ![0]) (m : S1048576.Idx → α)
    (k : Fin 1048576) (f : Fin d) :
    broadcastInDim (⟨2, ![1048576, d]⟩ : Shape) ![0] hm m (ix2 k f) = m (ix1 k) :=
  broadcastInDim_apply _ _ _ (ix2 k f) (ix1 k) fun a => match a with
    | ⟨0, _⟩ => by show k.val = if (1048576 : Nat) = 1 then 0 else k.val; exact (if_neg (by decide)).symm

/-- A bias vector laid along every row. -/
theorem bias_apply (h1 : (⟨1, ![d]⟩ : Shape).BroadcastsInDim (⟨2, ![1, d]⟩ : Shape) ![1])
    (h2 : (⟨2, ![1, d]⟩ : Shape).BroadcastsInDim (⟨2, ![1024, d]⟩ : Shape) ![0, 1]) (b : (⟨1, ![d]⟩ : Shape).Idx → α)
    (c : Fin 1024) (f : Fin d) :
    broadcastInDim (⟨2, ![1024, d]⟩ : Shape) ![0, 1] h2 (broadcastInDim (⟨2, ![1, d]⟩ : Shape) ![1] h1 b) (ix2 c f) = b (ix1 f) := by
  have hf := f.isLt
  refine (broadcastInDim_apply _ _ _ (ix2 c f) (ix2 (0 : Fin 1) f) fun a => ?_).trans
    (broadcastInDim_apply _ _ _ (ix2 (0 : Fin 1) f) (ix1 f) fun a => ?_)
  · match a with
    | ⟨0, _⟩ => show (0 : Nat) = if (1 : Nat) = 1 then 0 else c.val; exact (if_pos rfl).symm
    | ⟨1, _⟩ => show f.val = if d = 1 then 0 else f.val; split <;> omega
  · match a with
    | ⟨0, _⟩ => show f.val = if d = 1 then 0 else f.val; split <;> omega

end Broadcasts

/-! ## The propagation -/

section Propagate
variable {d : Nat}

/-- The rows of a 1024 × d matrix taken at an index list, a row whose index is out of range replaced by a filler. -/
def takeRows (wfG : GatherDims.WF (⟨2, ![1024, d]⟩ : Shape) S1048576x1 ⟨2, ![1048576, d]⟩ [1] [0] [] [0] [] 1 ![1, d])
    (hm : S1048576.BroadcastsInDim (⟨2, ![1048576, d]⟩ : Shape) ![0]) (hn : S_.BroadcastsInDim (⟨2, ![1048576, d]⟩ : Shape) ![])
    (z : FVec Ideal (⟨2, ![1024, d]⟩ : Shape) .f32) (r : IVec S1048576 32) : FVec Ideal (⟨2, ![1048576, d]⟩ : Shape) .f32 :=
  select (broadcastInDim (⟨2, ![1048576, d]⟩ : Shape) ![0] hm (inRange (colIdx r)))
    (Host.gather (rowsDims d wfG) z (colIdx r))
    (broadcastInDim (⟨2, ![1048576, d]⟩ : Shape) ![] hn (constant (F := Ideal) S_ .f32 0x7FC00000#32))

/-- At in-range indices the rows taken are the rows named: no filler, no clamp. -/
theorem takeRows_apply (wfG : GatherDims.WF (⟨2, ![1024, d]⟩ : Shape) S1048576x1 ⟨2, ![1048576, d]⟩ [1] [0] [] [0] [] 1 ![1, d])
    (hm : S1048576.BroadcastsInDim (⟨2, ![1048576, d]⟩ : Shape) ![0]) (hn : S_.BroadcastsInDim (⟨2, ![1048576, d]⟩ : Shape) ![])
    (z : FVec Ideal (⟨2, ![1024, d]⟩ : Shape) .f32) (r : IVec S1048576 32) (hr : ∀ k, (r k).toNat < 1024)
    (k : Fin 1048576) (f : Fin d) :
    takeRows wfG hm hn z r (ix2 k f) = z (ix2 (⟨(r (ix1 k)).toNat, hr (ix1 k)⟩ : Fin 1024) f) := by
  have hcol : ∀ i : S1048576x1.Idx, (colIdx r i).toNat < 1024 := fun i => by
    obtain ⟨n, b, rfl⟩ : ∃ (n : Fin 1048576) (b : Fin 1), i = ix2 n b := ⟨i 0, i 1, eq_ix2 i⟩
    obtain rfl : b = 0 := Subsingleton.elim _ _
    rw [colIdx_of_lt r hr]
    exact hr _
  unfold takeRows
  rw [select_apply, edge_flag_apply, inRange_of_lt _ hcol, select_one, gather_rows_apply]
  refine congrArg z (congrArg (fun t : Fin 1024 => ix2 t f) (Fin.ext ?_))
  have h := hr (ix1 k)
  show min (colIdx r (ix2 k (0 : Fin 1))).toInt.toNat 1023 = (r (ix1 k)).toNat
  rw [colIdx_of_lt r hr, Predicate.toInt_eq_toNat_of_lt (by omega), Int.toNat_natCast]
  omega

/-- ONE PROPAGATION. The rows of z taken at every edge's row, scaled by the edge's normalised weight and added into
    the edge's column of a zero matrix: at (c, f) the sum over the rows r of  Â c r · z r f. -/
theorem propagate_apply (wfG : GatherDims.WF (⟨2, ![1024, d]⟩ : Shape) S1048576x1 ⟨2, ![1048576, d]⟩ [1] [0] [] [0] [] 1 ![1, d])
    (wfS : ScatterDims.WF (⟨2, ![1024, d]⟩ : Shape) S1048576x1 ⟨2, ![1048576, d]⟩ [1] [0] [0] 1)
    (hm : S1048576.BroadcastsInDim (⟨2, ![1048576, d]⟩ : Shape) ![0]) (hn : S_.BroadcastsInDim (⟨2, ![1048576, d]⟩ : Shape) ![])
    (hc : S1048576x1.BroadcastsInDim (⟨2, ![1048576, d]⟩ : Shape) ![0, 1]) (hz : S_.BroadcastsInDim (⟨2, ![1024, d]⟩ : Shape) ![])
    (P : S1024x1024.Idx → EReal) (z : FVec Ideal (⟨2, ![1024, d]⟩ : Shape) .f32) (c : Fin 1024) (f : Fin d) :
    Host.scatterAdd (F := Ideal) (addDims d wfS)
        (broadcastInDim (⟨2, ![1024, d]⟩ : Shape) ![] hz (constant (F := Ideal) S_ .f32 0x00000000#32))
        (colIdx colW)
        (mulf (broadcastInDim (⟨2, ![1048576, d]⟩ : Shape) ![0, 1] hc
            (broadcastInDim S1048576x1 ![0] bcast_S1048576_S1048576x1_0 (normV P)))
          (takeRows wfG hm hn z rowW)) (ix2 c f)
      = ∑ r : Fin 1024, Cert.Spec.ahat P c r * z (ix2 r f) := by
  have hrow : ∀ k : S1048576.Idx, (rowW k).toNat < 1024 := fun k => by
    obtain ⟨n, rfl⟩ : ∃ n : Fin 1048576, k = ix1 n := ⟨k 0, eq_ix1 k⟩
    have := edge_lt n
    rw [rowW_toNat]; omega
  have hcolw : ∀ k : S1048576.Idx, (colW k).toNat < 1024 := fun k => by
    obtain ⟨n, rfl⟩ : ∃ n : Fin 1048576, k = ix1 n := ⟨k 0, eq_ix1 k⟩
    rw [colW_toNat]; omega
  rw [scatterAdd_rows wfS _ _ _ (fun k => by rw [colIdx_of_lt colW hcolw]; exact hcolw _)]
  have h0 : broadcastInDim (⟨2, ![1024, d]⟩ : Shape) ![] hz (constant (F := Ideal) S_ .f32 0x00000000#32) (ix2 c f) = (0 : EReal) :=
    Ideal.ofBits_zero_f32
  rw [h0, zero_add]
  have hfil : (Finset.univ.filter fun k : Fin 1048576 => (colIdx colW (ix2 k (0 : Fin 1))).toNat = c.val)
      = Finset.univ.filter fun k : Fin 1048576 => k.val % 1024 = c.val :=
    Finset.filter_congr fun k _ => by rw [colIdx_of_lt colW hcolw, colW_toNat]
  rw [hfil, Cert.Spec.sum_filter_col]
  refine Finset.sum_congr rfl fun r _ => ?_
  have hlt : 1024 * r.val + c.val < 1048576 := by have := r.isLt; have := c.isLt; omega
  rw [mulf_apply, edge_bcast_apply, takeRows_apply wfG hm hn z rowW hrow, normV_edge P r c hlt]
  refine congrArg (Cert.Spec.ahat P c r * ·) (congrArg z (congrArg (fun t : Fin 1024 => ix2 t f) (Fin.ext ?_)))
  show (rowW (ix1 ⟨1024 * r.val + c.val, hlt⟩)).toNat = r.val
  have := c.isLt
  rw [rowW_toNat]
  show (1024 * r.val + c.val) / 1024 = r.val
  omega

end Propagate

end Cert.ReferenceIdeal.Hand.Layer

end
-- ==== Proof.Ref.Seg9.lean ====
/-
  The first graph-convolution layer of the reference program, read as mathematics: the dense product x · W₁, its
  rows taken at every edge's row, scaled by the edge's normalised weight and summed into the edge's column, the bias
  added and the negative part cut off: the hidden layer  max(Â (x W₁) + b₁, 0).
-/
import proofs.«135578_g23476291240112_cont_8to1_1555_6_alg».proof.Proof.Ref.Layer

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

namespace Layer

/-- The first layer as the program spells it, as one function of the contents of the six buffers it reads. -/
def stage9 (x : FVec Ideal S1024x128 .f32) (W1 : FVec Ideal S128x128 .f32) (nrm : FVec Ideal S1048576 .f32)
    (row col : IVec S1048576 32) (b1 : FVec Ideal S128 .f32) : FVec Ideal S1024x128 .f32 :=
  maximumf
    (addf
      (Host.scatterAdd (F := Ideal) (addDims 128 scatter_S1024x128_S1048576x1_S1048576x128_1_0_0_1_wf)
        (broadcastInDim S1024x128 ![] bcast_S_S1024x128 (constant (F := Ideal) S_ .f32 0x00000000#32))
        (colIdx col)
        (mulf
          (broadcastInDim S1048576x128 ![0, 1] bcast_S1048576x1_S1048576x128_0_1
            (broadcastInDim S1048576x1 ![0] bcast_S1048576_S1048576x1_0 nrm))
          (takeRows gather_S1024x128_S1048576x1_S1048576x128_1_0_n_n_0_1_1128_wf bcast_S1048576_S1048576x128_0
            bcast_S_S1048576x128
            (Host.dotGeneral (F := Ideal) dot_S1024x128_S128x128_S1024x128_1_0_0_1_n_n none x W1) row)))
      (broadcastInDim S1024x128 ![0, 1] bcast_S1x128_S1024x128_0_1 (broadcastInDim S1x128 ![1] bcast_S128_S1x128_1 b1)))
    (broadcastInDim S1024x128 ![] bcast_S_S1024x128 (constant (F := Ideal) S_ .f32 0x00000000#32))

/-- The dense product read at an index: the sum over the contracted coordinate. -/
theorem dot128_apply (x : FVec Ideal S1024x128 .f32) (W : FVec Ideal S128x128 .f32) (r : Fin 1024) (f : Fin 128) :
    Host.dotGeneral (F := Ideal) dot_S1024x128_S128x128_S1024x128_1_0_0_1_n_n none x W (ix2 r f) = Cert.Spec.mm x W r f :=
  StackMember.dotGeneral_plain_apply none x W r f

/-- With the edges' normalised weights, rows and columns in its three index buffers the first layer is the hidden
    layer of the specification. -/
theorem stage9_eq (x : FVec Ideal S1024x128 .f32) (W1 : FVec Ideal S128x128 .f32) (P : S1024x1024.Idx → EReal)
    (b1 : FVec Ideal S128 .f32) : stage9 x W1 (normV P) rowW colW b1 = Cert.Spec.hidM x P W1 b1 := by
  funext i
  obtain ⟨c, f, rfl⟩ : ∃ (c : Fin 1024) (f : Fin 128), i = ix2 c f := ⟨i 0, i 1, eq_ix2 i⟩
  unfold stage9
  have h0 : broadcastInDim S1024x128 ![] bcast_S_S1024x128 (constant (F := Ideal) S_ .f32 0x00000000#32) (ix2 c f) = (0 : EReal) :=
    Ideal.ofBits_zero_f32
  rw [maximumf_apply, addf_apply, h0,
    propagate_apply gather_S1024x128_S1048576x1_S1048576x128_1_0_n_n_0_1_1128_wf
      scatter_S1024x128_S1048576x1_S1048576x128_1_0_0_1_wf bcast_S1048576_S1048576x128_0 bcast_S_S1048576x128
      bcast_S1048576x1_S1048576x128_0_1 bcast_S_S1024x128 P _ c f,
    bias_apply bcast_S128_S1x128_1 bcast_S1x128_S1024x128_0_1 b1 c f]
  show max ((∑ r : Fin 1024, Cert.Spec.ahat P c r
      * Host.dotGeneral (F := Ideal) dot_S1024x128_S128x128_S1024x128_1_0_0_1_n_n none x W1 (ix2 r f)) + b1 (ix1 f)) 0
    = max ((∑ j : Fin 1024, Cert.Spec.ahat P c j * Cert.Spec.mm x W1 j f) + b1 (ix1 f)) 0
  simp only [dot128_apply]

end Layer

open Layer

attribute [local irreducible] Host.reduce Host.reduceWindow Host.gather Host.scatter in
set_option maxRecDepth 16384 in
set_option maxHeartbeats 2000000 in
/-- The fold of the segment's operations, read at the buffer of the hidden layer, is that function of what the
    valuation holds at the six buffers the segment reads. -/
theorem seg9_lit (V : Val) :
    after seg9 V (Proc.devRef .tc main_v111)
      = stage9 (V (Proc.devRef .tc main_arg0)) (V (Proc.devRef .tc main_arg2)) (V (Proc.devRef .tc main_v94))
          (V (Proc.devRef .tc main_v64)) (V (Proc.devRef .tc main_v66)) (V (Proc.devRef .tc main_arg3)) := by
  have e64 : ∀ (p1 : main_v64.ty = ⟨S1048576, .i32⟩) (p2 : main_v64.space ≠ .host) (p3 : main_v64.isScoped = false)
      (v : main_v64.ty.Contents (Elt Ideal)), (TRef.of (T := ⟨S1048576, .i32⟩) main_v64 p1 p2 p3).ofBuf v = v := fun _ _ _ _ => rfl
  have e95 : ∀ (p1 : main_v95.ty = ⟨S1024x128, .f32⟩) (p2 : main_v95.space ≠ .host) (p3 : main_v95.isScoped = false)
      (v : main_v95.ty.Contents (Elt Ideal)), (TRef.of (T := ⟨S1024x128, .f32⟩) main_v95 p1 p2 p3).ofBuf v = v := fun _ _ _ _ => rfl
  have e110 : ∀ (p1 : main_v110.ty = ⟨S1024x128, .f32⟩) (p2 : main_v110.space ≠ .host) (p3 : main_v110.isScoped = false)
      (v : main_v110.ty.Contents (Elt Ideal)), (TRef.of (T := ⟨S1024x128, .f32⟩) main_v110 p1 p2 p3).ofBuf v = v := fun _ _ _ _ => rfl
  have e97 : ∀ (p1 : main_v97.ty = ⟨S1048576x128, .f32⟩) (p2 : main_v97.space ≠ .host) (p3 : main_v97.isScoped = false)
      (v : (⟨S1048576x128, .f32⟩ : BufTy).Contents (Elt Ideal)), (TRef.of (T := ⟨S1048576x128, .f32⟩) main_v97 p1 p2 p3).toBuf v = v :=
    fun _ _ _ _ => rfl
  have e111 : ∀ (p1 : main_v111.ty = ⟨S1024x128, .f32⟩) (p2 : main_v111.space ≠ .host) (p3 : main_v111.isScoped = false)
      (v : (⟨S1024x128, .f32⟩ : BufTy).Contents (Elt Ideal)), (TRef.of (T := ⟨S1024x128, .f32⟩) main_v111 p1 p2 p3).toBuf v = v :=
    fun _ _ _ _ => rfl
  after_results_simp
  simp only [ofBuf_toBuf, e64, e95, e110, e97, e111]
  unfold stage9 takeRows inRange colIdx wrapIdx
  rfl

/-- Segment 9 leaves the hidden layer  max(Â (x W₁) + b₁, 0)  in %111. -/
theorem seg9_out (V : Val) (P : S1024x1024.Idx → EReal) (h94 : V (Proc.devRef .tc main_v94) = normV P)
    (h64 : V (Proc.devRef .tc main_v64) = rowW) (h66 : V (Proc.devRef .tc main_v66) = colW) :
    after seg9 V (Proc.devRef .tc main_v111)
      = Cert.Spec.hidM (V (Proc.devRef .tc main_arg0)) P (V (Proc.devRef .tc main_arg2)) (V (Proc.devRef .tc main_arg3)) := by
  rw [seg9_lit, h94, h64, h66, stage9_eq]

variable {F : FTy → Type} [FloatOps F]

set_option maxRecDepth 8192 in
/-- Segment 9 writes only the buffers listed. -/
theorem seg9_writes : (seg9 : List (HloOp τ sig (Elt F))).Forall fun op => op.writes ⊆ (seg9_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg9_w, List.mem_cons, List.mem_nil_iff, true_or, or_true], rfl⟩

end Cert.ReferenceIdeal.Hand

end
-- ==== Proof.Ref.Seg10.lean ====
/-
  Segment 10 of the reference program: the second layer reads the row list and the column list back from the stacked
  edge index and computes the degree normalisation again, operation for operation as the first layer did: the degrees
  d_c = Σ_r A(r, c) as the scatter-add of the edge weights by column into zeros, and d^(-1/2) with infinite values sent
  to zero. The segment is cut after the power: its first eighteen operations end at d^(-1/2), its last eight test for an
  infinite value and select.
-/
import proofs.«135578_g23476291240112_cont_8to1_1555_6_alg».proof.Proof.Ref.DegLib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## Segment 10 in two lines -/

section Lines

variable {F : FTy → Type} [FloatOps F]

set_option maxRecDepth 8192 in
/-- The first eighteen operations: the two lists read back, the scatter-add, the power. -/
abbrev seg10a : List (HloOp τ sig (Elt F)) :=
  [ StableHlo.unary main_v44 main_v112 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v112 main_v113 rfl shapeCasts_S1x1048576_S1048576,
    StableHlo.unary main_v44 main_v114 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v114 main_v115 rfl shapeCasts_S1x1048576_S1048576,
    StableHlo.nullary main_cst_31 (constant S_ .f32 0x00000000#32),
    StableHlo.unary main_cst_31 main_v116 (broadcastInDim S1024 ![] bcast_S_S1024 : (⟨S_, .f32⟩ : BufTy).Contents (Elt F) → (⟨S1024, .f32⟩ : BufTy).Contents (Elt F)),
    StableHlo.nullary main_c_32 (constantI S_ 32 0#32),
    StableHlo.unary main_c_32 main_v117 (broadcastInDim S1048576 ![] bcast_S_S1048576 : (⟨S_, .i32⟩ : BufTy).Contents (Elt F) → (⟨S1048576, .i32⟩ : BufTy).Contents (Elt F)),
    StableHlo.binary main_v115 main_v117 main_v118 (cmpi .slt : (⟨S1048576, .i32⟩ : BufTy).Contents (Elt F) → (⟨S1048576, .i32⟩ : BufTy).Contents (Elt F) → (⟨S1048576, .i1⟩ : BufTy).Contents (Elt F)),
    StableHlo.nullary main_c_33 (constantI S_ 32 1024#32),
    StableHlo.unary main_c_33 main_v119 (broadcastInDim S1048576 ![] bcast_S_S1048576 : (⟨S_, .i32⟩ : BufTy).Contents (Elt F) → (⟨S1048576, .i32⟩ : BufTy).Contents (Elt F)),
    StableHlo.binary main_v115 main_v119 main_v120 (addi : (⟨S1048576, .i32⟩ : BufTy).Contents (Elt F) → (⟨S1048576, .i32⟩ : BufTy).Contents (Elt F) → (⟨S1048576, .i32⟩ : BufTy).Contents (Elt F)),
    StableHlo.ternary main_v118 main_v120 main_v115 main_v121 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v121 main_v122 (broadcastInDim S1048576x1 ![0] bcast_S1048576_S1048576x1_0 : (⟨S1048576, .i32⟩ : BufTy).Contents (Elt F) → (⟨S1048576x1, .i32⟩ : BufTy).Contents (Elt F)),
    StableHlo.ternary main_v116 main_v122 main_v62 main_v123 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    StableHlo.nullary main_cst_34 (constant S_ .f32 0xBF000000#32),
    StableHlo.unary main_cst_34 main_v124 (broadcastInDim S1024 ![] bcast_S_S1024 : (⟨S_, .f32⟩ : BufTy).Contents (Elt F) → (⟨S1024, .f32⟩ : BufTy).Contents (Elt F)),
    StableHlo.binary main_v123 main_v124 main_v125 (Host.powf : (⟨S1024, .f32⟩ : BufTy).Contents (Elt F) → (⟨S1024, .f32⟩ : BufTy).Contents (Elt F) → (⟨S1024, .f32⟩ : BufTy).Contents (Elt F)) ]

set_option maxRecDepth 8192 in
/-- The last eight operations: the test for an infinite value and the select on it. -/
abbrev seg10b : List (HloOp τ sig (Elt F)) :=
  [ StableHlo.TRef.unary (StableHlo.TRef.of (T := ⟨S1024, .f32⟩) main_v125) main_call13.v0 Host.absf,
    StableHlo.TRef.nullary main_call13.cst (constant S_ .f32 0x7F800000#32),
    StableHlo.TRef.unary main_call13.cst main_call13.v1 (broadcastInDim S1024 ![] bcast_S_S1024),
    StableHlo.TRef.binary main_call13.v0 main_call13.v1 main_call13.v2 (cmpf .oeq),
    StableHlo.nullary main_cst_35 (constant S_ .f32 0x00000000#32),
    StableHlo.TRef.unary (StableHlo.TRef.of (T := ⟨S_, .f32⟩) main_cst_35) main_call14.v0 id,
    StableHlo.TRef.unary main_call14.v0 main_call14.v1 (broadcastInDim S1024 ![] bcast_S_S1024),
    StableHlo.TRef.ternary (StableHlo.TRef.of (T := ⟨S1024, .i1⟩) main_v126) main_call14.v1 (StableHlo.TRef.of (T := ⟨S1024, .f32⟩) main_v125) main_call14.v2 select ]

set_option maxRecDepth 8192 in
theorem seg10_split : (seg10 : List (HloOp τ sig (Elt F))) = seg10a ++ seg10b := rfl

end Lines

/-! ## The first line -/

attribute [local irreducible] Host.scatterAdd Host.powf constant broadcastInDim extractStridedSlice shapeCast Idealize.ShloMosaic.select cmpi addi constantI in
set_option maxRecDepth 8192 in
set_option maxHeartbeats 800000 in
/-- What the first line leaves at the row list, as the operations compose. -/
theorem seg10a_rows (V : Val) : after seg10a V (Proc.devRef .tc main_v113) = line0 (V (Proc.devRef .tc main_v44)) := by
  simp only [seg10a, after_cons, after_nil]
  unfold line0
  rfl

attribute [local irreducible] Host.scatterAdd Host.powf constant broadcastInDim extractStridedSlice shapeCast Idealize.ShloMosaic.select cmpi addi constantI in
set_option maxRecDepth 8192 in
set_option maxHeartbeats 800000 in
/-- What the first line leaves at the column list, as the operations compose. -/
theorem seg10a_cols (V : Val) : after seg10a V (Proc.devRef .tc main_v115) = line1 (V (Proc.devRef .tc main_v44)) := by
  simp only [seg10a, after_cons, after_nil]
  unfold line1
  rfl

attribute [local irreducible] Host.scatterAdd in
set_option maxRecDepth 16384 in
set_option maxHeartbeats 2000000 in
/-- What the first line leaves at the power, as the operations compose. -/
theorem seg10a_pow (V : Val) :
    after seg10a V (Proc.devRef .tc main_v125) = degPow (deg (V (Proc.devRef .tc main_v44)) (V (Proc.devRef .tc main_v62))) := by
  unfold seg10a
  after_results_simp
  unfold degPow deg col1 wrap line1
  rfl

/-! ## The second line -/

set_option maxRecDepth 16384 in
set_option maxHeartbeats 2000000 in
/-- What the second line leaves at the guarded power, from any contents. -/
theorem seg10b_dis (W : Val) : after seg10b W (Proc.devRef .tc main_v127) = guardInf (W (Proc.devRef .tc main_v125)) := by
  unfold seg10b
  after_results_simp
  simp only [TRef.toBuf, TRef.ofBuf, cast_eq]
  rfl

set_option maxRecDepth 16384 in
/-- The second line leaves the row list as it found it. -/
theorem seg10b_rows (W : Val) : after seg10b W (Proc.devRef .tc main_v113) = W (Proc.devRef .tc main_v113) := by
  unfold seg10b
  after_results_simp

set_option maxRecDepth 16384 in
/-- The second line leaves the column list as it found it. -/
theorem seg10b_cols (W : Val) : after seg10b W (Proc.devRef .tc main_v115) = W (Proc.devRef .tc main_v115) := by
  unfold seg10b
  after_results_simp

/-! ## Segment 10 -/

theorem seg10_out (V : Val) (P : S1024x1024.Idx → EReal) (hP : Finite P) (h44 : V (Proc.devRef .tc main_v44) = stackV)
    (h62 : V (Proc.devRef .tc main_v62) = ewV P) :
    after seg10 V (Proc.devRef .tc main_v113) = rowW ∧ after seg10 V (Proc.devRef .tc main_v115) = colW
      ∧ after seg10 V (Proc.devRef .tc main_v127) = disV P := by
  rw [seg10_split, after_append, seg10b_rows, seg10b_cols, seg10b_dis, seg10a_rows, seg10a_cols, seg10a_pow, h44, h62]
  exact ⟨line0_stackV, line1_stackV, stage6_eq P hP⟩

variable {F : FTy → Type} [FloatOps F]

set_option maxRecDepth 8192 in
/-- Segment 10 writes only the buffers listed. -/
theorem seg10_writes : (seg10 : List (HloOp τ sig (Elt F))).Forall fun op => op.writes ⊆ (seg10_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg10_w, List.mem_cons, List.mem_nil_iff, true_or, or_true], rfl⟩

end Cert.ReferenceIdeal.Hand

end
-- ==== Proof.Ref.Seg11.lean ====
/-
  Segments 11 and 12 of the reference program: the second layer's copy of the edge normalisation. The same operations
  as segments 7 and 8 over the second layer's buffers: every edge's weight times the inverse square roots of the degrees
  of its row and of its column, each read off the vector over the nodes by a take at the edge's (never negative, so
  never wrapped) index.
-/
import proofs.«135578_g23476291240112_cont_8to1_1555_6_alg».proof.Proof.Ref.Seg7

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The operations as functions of the buffers read -/

attribute [local irreducible] Host.gather in
set_option maxRecDepth 8192 in
/-- Segment 11's fold at the product's buffer is the composed operations. -/
theorem s11_v135_lit (V : Val) :
    after seg11 V (Proc.devRef .tc main_v135)
      = s7_stage (V (Proc.devRef .tc main_v127)) (V (Proc.devRef .tc main_v113)) (V (Proc.devRef .tc main_v62)) := by
  after_results_simp
  rfl

set_option maxRecDepth 8192 in
/-- Segment 11's fold at the columns' sign test. -/
theorem s11_v137_lit (V : Val) : after seg11 V (Proc.devRef .tc main_v137) = s7_neg (V (Proc.devRef .tc main_v115)) := by
  after_results_simp
  rfl

set_option maxRecDepth 8192 in
/-- Segment 11's fold at the constant. -/
theorem s11_c39_lit (V : Val) : after seg11 V (Proc.devRef .tc main_c_39) = constantI S_ 32 1024#32 := by
  after_results_simp

attribute [local irreducible] Host.gather in
set_option maxRecDepth 8192 in
/-- Segment 12's fold at the normalised weights' buffer is the composed operations. -/
theorem s12_v143_lit (V : Val) :
    after seg12 V (Proc.devRef .tc main_v143)
      = s8_stage (V (Proc.devRef .tc main_v127)) (V (Proc.devRef .tc main_v137)) (V (Proc.devRef .tc main_v115))
          (broadcastInDim S1048576 ![] bcast_S_S1048576 (V (Proc.devRef .tc main_c_39))) (V (Proc.devRef .tc main_v135)) := by
  after_results_simp
  rfl

/-! ## The closed forms -/

/-- Segment 11: the rows' factor times the edge weights, the columns' sign test (all false), the constant 1024. -/
theorem seg11_out (V : Val) (P : S1024x1024.Idx → EReal) (h113 : V (Proc.devRef .tc main_v113) = rowW)
    (h115 : V (Proc.devRef .tc main_v115) = colW) (h127 : V (Proc.devRef .tc main_v127) = disV P)
    (h62 : V (Proc.devRef .tc main_v62) = ewV P) :
    after seg11 V (Proc.devRef .tc main_v135) = disEwV P ∧ after seg11 V (Proc.devRef .tc main_v137) = (fun _ => 0#1)
      ∧ after seg11 V (Proc.devRef .tc main_c_39) = (fun _ => 1024#32) := by
  refine ⟨?_, ?_, ?_⟩
  · rw [s11_v135_lit, h113, h127, h62]
    exact s7_stage_eq P
  · rw [s11_v137_lit, h115]
    exact s7_neg_colW
  · rw [s11_c39_lit]
    rfl

/-- Segment 12: the normalised weight of every edge. -/
theorem seg12_out (V : Val) (P : S1024x1024.Idx → EReal) (h115 : V (Proc.devRef .tc main_v115) = colW)
    (h127 : V (Proc.devRef .tc main_v127) = disV P) (h135 : V (Proc.devRef .tc main_v135) = disEwV P)
    (h137 : V (Proc.devRef .tc main_v137) = fun _ => 0#1) (hc39 : V (Proc.devRef .tc main_c_39) = fun _ => 1024#32) :
    after seg12 V (Proc.devRef .tc main_v143) = normV P := by
  rw [s12_v143_lit, h115, h127, h135, h137]
  exact s8_stage_eq P _

/-! ## What the two segments write -/

variable {F : FTy → Type} [FloatOps F]

set_option maxRecDepth 8192 in
/-- Segment 11 writes only the buffers listed. -/
theorem seg11_writes : (seg11 : List (HloOp τ sig (Elt F))).Forall fun op => op.writes ⊆ (seg11_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg11_w, List.mem_cons, List.mem_nil_iff, true_or, or_true], rfl⟩

set_option maxRecDepth 8192 in
/-- Segment 12 writes only the buffers listed. -/
theorem seg12_writes : (seg12 : List (HloOp τ sig (Elt F))).Forall fun op => op.writes ⊆ (seg12_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg12_w, List.mem_cons, List.mem_nil_iff, true_or, or_true], rfl⟩

end Cert.ReferenceIdeal.Hand

end
-- ==== Proof.Ref.Seg13.lean ====
/-
  The second graph-convolution layer of the reference program, read as mathematics: the dense product h · W₂ of the
  hidden layer, its rows taken at every edge's row, scaled by the edge's normalised weight and summed into the edge's
  column, and the bias added: the result  Â (h W₂) + b₂.
-/
import proofs.«135578_g23476291240112_cont_8to1_1555_6_alg».proof.Proof.Ref.Layer

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

namespace Layer

/-- The second layer as the program spells it, as one function of the contents of the six buffers it reads. -/
def stage13 (h : FVec Ideal S1024x128 .f32) (W2 : FVec Ideal S128x64 .f32) (nrm : FVec Ideal S1048576 .f32)
    (row col : IVec S1048576 32) (b2 : FVec Ideal S64 .f32) : FVec Ideal S1024x64 .f32 :=
  addf
    (Host.scatterAdd (F := Ideal) (addDims 64 scatter_S1024x64_S1048576x1_S1048576x64_1_0_0_1_wf)
      (broadcastInDim S1024x64 ![] bcast_S_S1024x64 (constant (F := Ideal) S_ .f32 0x00000000#32))
      (colIdx col)
      (mulf
        (broadcastInDim S1048576x64 ![0, 1] bcast_S1048576x1_S1048576x64_0_1
          (broadcastInDim S1048576x1 ![0] bcast_S1048576_S1048576x1_0 nrm))
        (takeRows gather_S1024x64_S1048576x1_S1048576x64_1_0_n_n_0_1_164_wf bcast_S1048576_S1048576x64_0
          bcast_S_S1048576x64
          (Host.dotGeneral (F := Ideal) dot_S1024x128_S128x64_S1024x64_1_0_0_1_n_n none h W2) row)))
    (broadcastInDim S1024x64 ![0, 1] bcast_S1x64_S1024x64_0_1 (broadcastInDim S1x64 ![1] bcast_S64_S1x64_1 b2))

/-- The dense product read at an index: the sum over the contracted coordinate. -/
theorem dot64_apply (h : FVec Ideal S1024x128 .f32) (W : FVec Ideal S128x64 .f32) (r : Fin 1024) (f : Fin 64) :
    Host.dotGeneral (F := Ideal) dot_S1024x128_S128x64_S1024x64_1_0_0_1_n_n none h W (ix2 r f) = Cert.Spec.mm h W r f :=
  StackMember.dotGeneral_plain_apply none h W r f

/-- With the hidden layer in its first buffer and the edges' normalised weights, rows and columns in its three index
    buffers the second layer is the result of the specification. -/
theorem stage13_eq (x : FVec Ideal S1024x128 .f32) (P : S1024x1024.Idx → EReal) (W1 : FVec Ideal S128x128 .f32)
    (b1 : FVec Ideal S128 .f32) (W2 : FVec Ideal S128x64 .f32) (b2 : FVec Ideal S64 .f32) :
    stage13 (Cert.Spec.hidM x P W1 b1) W2 (normV P) rowW colW b2 = Cert.Spec.out x P W1 b1 W2 b2 := by
  funext i
  obtain ⟨c, f, rfl⟩ : ∃ (c : Fin 1024) (f : Fin 64), i = ix2 c f := ⟨i 0, i 1, eq_ix2 i⟩
  unfold stage13
  rw [addf_apply,
    propagate_apply gather_S1024x64_S1048576x1_S1048576x64_1_0_n_n_0_1_164_wf
      scatter_S1024x64_S1048576x1_S1048576x64_1_0_0_1_wf bcast_S1048576_S1048576x64_0 bcast_S_S1048576x64
      bcast_S1048576x1_S1048576x64_0_1 bcast_S_S1024x64 P _ c f,
    bias_apply bcast_S64_S1x64_1 bcast_S1x64_S1024x64_0_1 b2 c f]
  show (∑ r : Fin 1024, Cert.Spec.ahat P c r
      * Host.dotGeneral (F := Ideal) dot_S1024x128_S128x64_S1024x64_1_0_0_1_n_n none (Cert.Spec.hidM x P W1 b1) W2 (ix2 r f))
        + b2 (ix1 f)
    = (∑ j : Fin 1024, Cert.Spec.ahat P c j * Cert.Spec.mm (Cert.Spec.hidM x P W1 b1) W2 j f) + b2 (ix1 f)
  simp only [dot64_apply]

end Layer

open Layer

attribute [local irreducible] Host.reduce Host.reduceWindow Host.gather Host.scatter in
set_option maxRecDepth 16384 in
set_option maxHeartbeats 2000000 in
/-- The fold of the segment's operations, read at the result's buffer, is that function of what the valuation holds
    at the six buffers the segment reads. -/
theorem seg13_lit (V : Val) :
    after seg13 V (Proc.devRef .tc main_v159)
      = stage13 (V (Proc.devRef .tc main_v111)) (V (Proc.devRef .tc main_arg4)) (V (Proc.devRef .tc main_v143))
          (V (Proc.devRef .tc main_v113)) (V (Proc.devRef .tc main_v115)) (V (Proc.devRef .tc main_arg5)) := by
  have e113 : ∀ (p1 : main_v113.ty = ⟨S1048576, .i32⟩) (p2 : main_v113.space ≠ .host) (p3 : main_v113.isScoped = false)
      (v : main_v113.ty.Contents (Elt Ideal)), (TRef.of (T := ⟨S1048576, .i32⟩) main_v113 p1 p2 p3).ofBuf v = v := fun _ _ _ _ => rfl
  have e144 : ∀ (p1 : main_v144.ty = ⟨S1024x64, .f32⟩) (p2 : main_v144.space ≠ .host) (p3 : main_v144.isScoped = false)
      (v : main_v144.ty.Contents (Elt Ideal)), (TRef.of (T := ⟨S1024x64, .f32⟩) main_v144 p1 p2 p3).ofBuf v = v := fun _ _ _ _ => rfl
  have e146 : ∀ (p1 : main_v146.ty = ⟨S1048576x64, .f32⟩) (p2 : main_v146.space ≠ .host) (p3 : main_v146.isScoped = false)
      (v : (⟨S1048576x64, .f32⟩ : BufTy).Contents (Elt Ideal)), (TRef.of (T := ⟨S1048576x64, .f32⟩) main_v146 p1 p2 p3).toBuf v = v :=
    fun _ _ _ _ => rfl
  after_results_simp
  simp only [ofBuf_toBuf, e113, e144, e146]
  unfold stage13 takeRows inRange colIdx wrapIdx
  rfl

/-- Segment 13 leaves the result  Â (h W₂) + b₂  in %159. -/
theorem seg13_out (V : Val) (P : S1024x1024.Idx → EReal) (x : S1024x128.Idx → EReal) (W1 : S128x128.Idx → EReal)
    (b1 : S128.Idx → EReal) (h143 : V (Proc.devRef .tc main_v143) = normV P) (h113 : V (Proc.devRef .tc main_v113) = rowW)
    (h115 : V (Proc.devRef .tc main_v115) = colW) (h111 : V (Proc.devRef .tc main_v111) = Cert.Spec.hidM x P W1 b1) :
    after seg13 V (Proc.devRef .tc main_v159)
      = Cert.Spec.out x P W1 b1 (V (Proc.devRef .tc main_arg4)) (V (Proc.devRef .tc main_arg5)) := by
  rw [seg13_lit, h143, h113, h115, h111, stage13_eq]

variable {F : FTy → Type} [FloatOps F]

set_option maxRecDepth 8192 in
/-- Segment 13 writes only the buffers listed. -/
theorem seg13_writes : (seg13 : List (HloOp τ sig (Elt F))).Forall fun op => op.writes ⊆ (seg13_w.map (Proc.devRef (τ := τ) .tc)).toFinset := by
  simp only [List.Forall, nullary_writes, unary_writes, binary_writes, ternary_writes, reshape_writes, Finset.singleton_subset_iff,
    List.mem_toFinset, List.mem_map]
  repeat' apply And.intro
  all_goals exact ⟨_, by simp only [seg13_w, List.mem_cons, List.mem_nil_iff, true_or, or_true], rfl⟩

end Cert.ReferenceIdeal.Hand

end
-- ==== Proof.Ref.Chain.lean ====
/-
  The reference program's value. Its operations run segment by segment: the adjacency A = σ(I + (P + Pᵀ)/2) and the mask of its
  nonzero entries (all of them, A's entries being positive for real P); the positions of the mask's ones in row-major order, so
  that edge k is (k / 1024, k mod 1024); the degree of node c as the sum of the weights of the edges into c, which is A's column
  sum; each edge's weight normalised by the inverse square roots of its endpoints' degrees; and two layers, each the sum over
  the edges into node c of the normalised weight times the source node's features — the dense product with the symmetrically
  normalised adjacency, A being symmetric. Each segment leaves the buffers it does not write as it found them, so what an
  earlier segment established still holds where a later one reads it.
-/
import proofs.«135578_g23476291240112_cont_8to1_1555_6_alg».proof.Proof.Ref.Run
import proofs.«135578_g23476291240112_cont_8to1_1555_6_alg».proof.Proof.Ref.Defs
import proofs.«135578_g23476291240112_cont_8to1_1555_6_alg».proof.Proof.Ref.Seg0
import proofs.«135578_g23476291240112_cont_8to1_1555_6_alg».proof.Proof.Ref.Seg1
import proofs.«135578_g23476291240112_cont_8to1_1555_6_alg».proof.Proof.Ref.Seg2
import proofs.«135578_g23476291240112_cont_8to1_1555_6_alg».proof.Proof.Ref.Seg3
import proofs.«135578_g23476291240112_cont_8to1_1555_6_alg».proof.Proof.Ref.Seg4
import proofs.«135578_g23476291240112_cont_8to1_1555_6_alg».proof.Proof.Ref.Seg5
import proofs.«135578_g23476291240112_cont_8to1_1555_6_alg».proof.Proof.Ref.Seg6
import proofs.«135578_g23476291240112_cont_8to1_1555_6_alg».proof.Proof.Ref.Seg7
import proofs.«135578_g23476291240112_cont_8to1_1555_6_alg».proof.Proof.Ref.Seg9
import proofs.«135578_g23476291240112_cont_8to1_1555_6_alg».proof.Proof.Ref.Seg10
import proofs.«135578_g23476291240112_cont_8to1_1555_6_alg».proof.Proof.Ref.Seg11
import proofs.«135578_g23476291240112_cont_8to1_1555_6_alg».proof.Proof.Ref.Seg13

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The valuations after each segment -/

section Chain

variable (W0 : Val)

abbrev w1 : Val := after seg0 W0
abbrev w2 : Val := after seg1 (w1 W0)
abbrev w3 : Val := after seg2 (w2 W0)
abbrev w4 : Val := after seg3 (w3 W0)
abbrev w5 : Val := after seg4 (w4 W0)
abbrev w6 : Val := after seg5 (w5 W0)
abbrev w7 : Val := after seg6 (w6 W0)
abbrev w8 : Val := after seg7 (w7 W0)
abbrev w9 : Val := after seg8 (w8 W0)
abbrev w10 : Val := after seg9 (w9 W0)
abbrev w11 : Val := after seg10 (w10 W0)
abbrev w12 : Val := after seg11 (w11 W0)
abbrev w13 : Val := after seg12 (w12 W0)
abbrev w14 : Val := after seg13 (w13 W0)

/-- Running every operation is running the segments in turn. -/
theorem ops_eq : after ops W0 = w14 W0 := by
  simp only [ops, part0, part1, part2, part3, StableHlo.after_append]

/-- A buffer none of the first 9 segments writes is still at its launch contents after them. -/
theorem kept9 (r : Ref sig .tc) (h0 : r ∉ seg0_w) (h1 : r ∉ seg1_w) (h2 : r ∉ seg2_w) (h3 : r ∉ seg3_w) (h4 : r ∉ seg4_w) (h5 : r ∉ seg5_w) (h6 : r ∉ seg6_w) (h7 : r ∉ seg7_w) (h8 : r ∉ seg8_w) :
    w9 W0 (Proc.devRef .tc r) = W0 (Proc.devRef .tc r) :=
  (keep_of seg8 _ seg8_writes h8).trans ((keep_of seg7 _ seg7_writes h7).trans ((keep_of seg6 _ seg6_writes h6).trans ((keep_of seg5 _ seg5_writes h5).trans ((keep_of seg4 _ seg4_writes h4).trans ((keep_of seg3 _ seg3_writes h3).trans ((keep_of seg2 _ seg2_writes h2).trans ((keep_of seg1 _ seg1_writes h1).trans (keep_of seg0 W0 seg0_writes h0))))))))

/-- A buffer none of the first 13 segments writes is still at its launch contents after them. -/
theorem kept13 (r : Ref sig .tc) (h0 : r ∉ seg0_w) (h1 : r ∉ seg1_w) (h2 : r ∉ seg2_w) (h3 : r ∉ seg3_w) (h4 : r ∉ seg4_w) (h5 : r ∉ seg5_w) (h6 : r ∉ seg6_w) (h7 : r ∉ seg7_w) (h8 : r ∉ seg8_w) (h9 : r ∉ seg9_w) (h10 : r ∉ seg10_w) (h11 : r ∉ seg11_w) (h12 : r ∉ seg12_w) :
    w13 W0 (Proc.devRef .tc r) = W0 (Proc.devRef .tc r) :=
  (keep_of seg12 _ seg12_writes h12).trans ((keep_of seg11 _ seg11_writes h11).trans ((keep_of seg10 _ seg10_writes h10).trans ((keep_of seg9 _ seg9_writes h9).trans ((keep_of seg8 _ seg8_writes h8).trans ((keep_of seg7 _ seg7_writes h7).trans ((keep_of seg6 _ seg6_writes h6).trans ((keep_of seg5 _ seg5_writes h5).trans ((keep_of seg4 _ seg4_writes h4).trans ((keep_of seg3 _ seg3_writes h3).trans ((keep_of seg2 _ seg2_writes h2).trans ((keep_of seg1 _ seg1_writes h1).trans (keep_of seg0 W0 seg0_writes h0))))))))))))

/-- A buffer none of the first 14 segments writes is still at its launch contents after them. -/
theorem kept14 (r : Ref sig .tc) (h0 : r ∉ seg0_w) (h1 : r ∉ seg1_w) (h2 : r ∉ seg2_w) (h3 : r ∉ seg3_w) (h4 : r ∉ seg4_w) (h5 : r ∉ seg5_w) (h6 : r ∉ seg6_w) (h7 : r ∉ seg7_w) (h8 : r ∉ seg8_w) (h9 : r ∉ seg9_w) (h10 : r ∉ seg10_w) (h11 : r ∉ seg11_w) (h12 : r ∉ seg12_w) (h13 : r ∉ seg13_w) :
    w14 W0 (Proc.devRef .tc r) = W0 (Proc.devRef .tc r) :=
  (keep_of seg13 _ seg13_writes h13).trans ((keep_of seg12 _ seg12_writes h12).trans ((keep_of seg11 _ seg11_writes h11).trans ((keep_of seg10 _ seg10_writes h10).trans ((keep_of seg9 _ seg9_writes h9).trans ((keep_of seg8 _ seg8_writes h8).trans ((keep_of seg7 _ seg7_writes h7).trans ((keep_of seg6 _ seg6_writes h6).trans ((keep_of seg5 _ seg5_writes h5).trans ((keep_of seg4 _ seg4_writes h4).trans ((keep_of seg3 _ seg3_writes h3).trans ((keep_of seg2 _ seg2_writes h2).trans ((keep_of seg1 _ seg1_writes h1).trans (keep_of seg0 W0 seg0_writes h0)))))))))))))

/-- THE REFERENCE'S VALUE. With every entry of P real, the result buffer ends at the specification of the launch
    contents: the mask of nonzero entries is all ones, so the edge list is every (row, column) pair in row-major order;
    the degrees are the adjacency's column sums; each layer's scatter-add over the edges is the dense product with the
    symmetrically normalised adjacency. -/
theorem ref_value (hP : Finite (W0 (Proc.devRef .tc main_arg1))) :
    after ops W0 (Proc.devRef .tc main_v159)
      = Cert.Spec.out (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) := by
  rw [ops_eq]
  -- segment 0: the adjacency and the mask
  have v16_1 : w1 W0 (Proc.devRef .tc main_v16) = adjV (W0 (Proc.devRef .tc main_arg1)) := seg0_v16 W0 hP
  have v18_1 : w1 W0 (Proc.devRef .tc main_v18) = fun _ => 1#1 := seg0_v18 W0 hP
  -- segment 1: the flat index of edge k is k
  have v30_2 : w2 W0 (Proc.devRef .tc main_v30) = idW := seg1_v30 (w1 W0) v18_1
  have v16_2 : w2 W0 (Proc.devRef .tc main_v16) = adjV (W0 (Proc.devRef .tc main_arg1)) := (keep_of seg1 (w1 W0) seg1_writes (r := main_v16) (by decide)).trans v16_1
  have v18_2 : w2 W0 (Proc.devRef .tc main_v18) = fun _ => 1#1 := (keep_of seg1 (w1 W0) seg1_writes (r := main_v18) (by decide)).trans v18_1
  -- segments 2 and 3: its row and its column
  have v32_3 : w3 W0 (Proc.devRef .tc main_v32) = rowW := seg2_v32 (w2 W0) v30_2
  have v30_3 : w3 W0 (Proc.devRef .tc main_v30) = idW := (keep_of seg2 (w2 W0) seg2_writes (r := main_v30) (by decide)).trans v30_2
  have v16_3 : w3 W0 (Proc.devRef .tc main_v16) = adjV (W0 (Proc.devRef .tc main_arg1)) := (keep_of seg2 (w2 W0) seg2_writes (r := main_v16) (by decide)).trans v16_2
  have v18_3 : w3 W0 (Proc.devRef .tc main_v18) = fun _ => 1#1 := (keep_of seg2 (w2 W0) seg2_writes (r := main_v18) (by decide)).trans v18_2
  have v34_4 : w4 W0 (Proc.devRef .tc main_v34) = colW := seg3_v34 (w3 W0) v30_3
  have v32_4 : w4 W0 (Proc.devRef .tc main_v32) = rowW := (keep_of seg3 (w3 W0) seg3_writes (r := main_v32) (by decide)).trans v32_3
  have v16_4 : w4 W0 (Proc.devRef .tc main_v16) = adjV (W0 (Proc.devRef .tc main_arg1)) := (keep_of seg3 (w3 W0) seg3_writes (r := main_v16) (by decide)).trans v16_3
  have v18_4 : w4 W0 (Proc.devRef .tc main_v18) = fun _ => 1#1 := (keep_of seg3 (w3 W0) seg3_writes (r := main_v18) (by decide)).trans v18_3
  -- segment 4: no edge is a fill entry
  obtain ⟨v40_5, v41_5, v42_5⟩ := seg4_out (w4 W0) v18_4 v32_4 v34_4
  have v16_5 : w5 W0 (Proc.devRef .tc main_v16) = adjV (W0 (Proc.devRef .tc main_arg1)) := (keep_of seg4 (w4 W0) seg4_writes (r := main_v16) (by decide)).trans v16_4
  -- segment 5: the edge index and the edge weights
  obtain ⟨v44_6, v62_6⟩ := seg5_out (w5 W0) (W0 (Proc.devRef .tc main_arg1)) v41_5 v42_5 v16_5
  -- segments 6 to 8: degrees and the normalised edge weights
  obtain ⟨v64_7, v66_7, v78_7⟩ := seg6_out (w6 W0) (W0 (Proc.devRef .tc main_arg1)) hP v44_6 v62_6
  have v44_7 : w7 W0 (Proc.devRef .tc main_v44) = stackV := (keep_of seg6 (w6 W0) seg6_writes (r := main_v44) (by decide)).trans v44_6
  have v62_7 : w7 W0 (Proc.devRef .tc main_v62) = ewV (W0 (Proc.devRef .tc main_arg1)) := (keep_of seg6 (w6 W0) seg6_writes (r := main_v62) (by decide)).trans v62_6
  obtain ⟨v86_8, v88_8, v89_8⟩ := seg7_out (w7 W0) (W0 (Proc.devRef .tc main_arg1)) v64_7 v66_7 v78_7 v62_7
  have v44_8 : w8 W0 (Proc.devRef .tc main_v44) = stackV := (keep_of seg7 (w7 W0) seg7_writes (r := main_v44) (by decide)).trans v44_7
  have v62_8 : w8 W0 (Proc.devRef .tc main_v62) = ewV (W0 (Proc.devRef .tc main_arg1)) := (keep_of seg7 (w7 W0) seg7_writes (r := main_v62) (by decide)).trans v62_7
  have v64_8 : w8 W0 (Proc.devRef .tc main_v64) = rowW := (keep_of seg7 (w7 W0) seg7_writes (r := main_v64) (by decide)).trans v64_7
  have v66_8 : w8 W0 (Proc.devRef .tc main_v66) = colW := (keep_of seg7 (w7 W0) seg7_writes (r := main_v66) (by decide)).trans v66_7
  have v78_8 : w8 W0 (Proc.devRef .tc main_v78) = disV (W0 (Proc.devRef .tc main_arg1)) := (keep_of seg7 (w7 W0) seg7_writes (r := main_v78) (by decide)).trans v78_7
  have v94_9 : w9 W0 (Proc.devRef .tc main_v94) = normV (W0 (Proc.devRef .tc main_arg1)) := seg8_out (w8 W0) (W0 (Proc.devRef .tc main_arg1)) v66_8 v78_8 v86_8 v88_8 v89_8
  have v44_9 : w9 W0 (Proc.devRef .tc main_v44) = stackV := (keep_of seg8 (w8 W0) seg8_writes (r := main_v44) (by decide)).trans v44_8
  have v62_9 : w9 W0 (Proc.devRef .tc main_v62) = ewV (W0 (Proc.devRef .tc main_arg1)) := (keep_of seg8 (w8 W0) seg8_writes (r := main_v62) (by decide)).trans v62_8
  have v64_9 : w9 W0 (Proc.devRef .tc main_v64) = rowW := (keep_of seg8 (w8 W0) seg8_writes (r := main_v64) (by decide)).trans v64_8
  have v66_9 : w9 W0 (Proc.devRef .tc main_v66) = colW := (keep_of seg8 (w8 W0) seg8_writes (r := main_v66) (by decide)).trans v66_8
  -- segment 9: the first layer
  have v111_10 : w10 W0 (Proc.devRef .tc main_v111) = Cert.Spec.hidM (W0 (Proc.devRef .tc main_arg0)) (W0 (Proc.devRef .tc main_arg1)) (W0 (Proc.devRef .tc main_arg2)) (W0 (Proc.devRef .tc main_arg3)) := by
    have h := seg9_out (w9 W0) (W0 (Proc.devRef .tc main_arg1)) v94_9 v64_9 v66_9
    rw [kept9 W0 main_arg0 (by decide) (by decide) (by decide) (by decide) (by decide) (by decide) (by decide) (by decide) (by decide),
      kept9 W0 main_arg2 (by decide) (by decide) (by decide) (by decide) (by decide) (by decide) (by decide) (by decide) (by decide),
      kept9 W0 main_arg3 (by decide) (by decide) (by decide) (by decide) (by decide) (by decide) (by decide) (by decide) (by decide)] at h
    exact h
  have v44_10 : w10 W0 (Proc.devRef .tc main_v44) = stackV := (keep_of seg9 (w9 W0) seg9_writes (r := main_v44) (by decide)).trans v44_9
  have v62_10 : w10 W0 (Proc.devRef .tc main_v62) = ewV (W0 (Proc.devRef .tc main_arg1)) := (keep_of seg9 (w9 W0) seg9_writes (r := main_v62) (by decide)).trans v62_9
  -- segments 10 to 12: the same normalisation, recomputed for the second layer
  obtain ⟨v113_11, v115_11, v127_11⟩ := seg10_out (w10 W0) (W0 (Proc.devRef .tc main_arg1)) hP v44_10 v62_10
  have v62_11 : w11 W0 (Proc.devRef .tc main_v62) = ewV (W0 (Proc.devRef .tc main_arg1)) := (keep_of seg10 (w10 W0) seg10_writes (r := main_v62) (by decide)).trans v62_10
  have v111_11 : w11 W0 (Proc.devRef .tc main_v111) = _ := (keep_of seg10 (w10 W0) seg10_writes (r := main_v111) (by decide)).trans v111_10
  obtain ⟨v135_12, v137_12, vc39_12⟩ := seg11_out (w11 W0) (W0 (Proc.devRef .tc main_arg1)) v113_11 v115_11 v127_11 v62_11
  have v111_12 : w12 W0 (Proc.devRef .tc main_v111) = _ := (keep_of seg11 (w11 W0) seg11_writes (r := main_v111) (by decide)).trans v111_11
  have v113_12 : w12 W0 (Proc.devRef .tc main_v113) = rowW := (keep_of seg11 (w11 W0) seg11_writes (r := main_v113) (by decide)).trans v113_11
  have v115_12 : w12 W0 (Proc.devRef .tc main_v115) = colW := (keep_of seg11 (w11 W0) seg11_writes (r := main_v115) (by decide)).trans v115_11
  have v127_12 : w12 W0 (Proc.devRef .tc main_v127) = disV (W0 (Proc.devRef .tc main_arg1)) := (keep_of seg11 (w11 W0) seg11_writes (r := main_v127) (by decide)).trans v127_11
  have v143_13 : w13 W0 (Proc.devRef .tc main_v143) = normV (W0 (Proc.devRef .tc main_arg1)) := seg12_out (w12 W0) (W0 (Proc.devRef .tc main_arg1)) v115_12 v127_12 v135_12 v137_12 vc39_12
  have v111_13 : w13 W0 (Proc.devRef .tc main_v111) = _ := (keep_of seg12 (w12 W0) seg12_writes (r := main_v111) (by decide)).trans v111_12
  have v113_13 : w13 W0 (Proc.devRef .tc main_v113) = rowW := (keep_of seg12 (w12 W0) seg12_writes (r := main_v113) (by decide)).trans v113_12
  have v115_13 : w13 W0 (Proc.devRef .tc main_v115) = colW := (keep_of seg12 (w12 W0) seg12_writes (r := main_v115) (by decide)).trans v115_12
  -- segment 13: the second layer
  have h := seg13_out (w13 W0) (W0 (Proc.devRef .tc main_arg1)) (W0 (Proc.devRef .tc main_arg0)) (W0 (Proc.devRef .tc main_arg2)) (W0 (Proc.devRef .tc main_arg3)) v143_13 v113_13 v115_13 v111_13
  rw [kept13 W0 main_arg4 (by decide) (by decide) (by decide) (by decide) (by decide) (by decide) (by decide) (by decide) (by decide) (by decide) (by decide) (by decide) (by decide),
    kept13 W0 main_arg5 (by decide) (by decide) (by decide) (by decide) (by decide) (by decide) (by decide) (by decide) (by decide) (by decide) (by decide) (by decide) (by decide)] at h
  exact h

/-- No operation writes an argument: each ends at its launch contents. -/
theorem ref_args (r : Ref sig .tc) (hr : r = main_arg0 ∨ r = main_arg1 ∨ r = main_arg2 ∨ r = main_arg3 ∨ r = main_arg4 ∨ r = main_arg5) :
    after ops W0 (Proc.devRef .tc r) = W0 (Proc.devRef .tc r) := by
  rw [ops_eq]
  rcases hr with rfl | rfl | rfl | rfl | rfl | rfl <;>
    exact kept14 W0 _ (by decide) (by decide) (by decide) (by decide) (by decide) (by decide) (by decide) (by decide) (by decide) (by decide) (by decide) (by decide) (by decide) (by decide)

end Chain

/-! ## The reference's run, read at its result and its arguments -/

/-- With every entry of the adjacency parameters real: every weakly fair execution of the reference terminates with its
    result at the specification of its arguments, and its arguments unchanged. -/
theorem run_value (m : (ℓ : Loc nD τ sig) → Buf (Elt Ideal) ℓ) (ρ : Dev nD → PrngReg)
    (hP : ∀ c : Dev nD, Finite (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v159)
          = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c main_v159).trans (ref_value (launchContents m c) (hP c)),
      (h c main_arg0).trans (ref_args (launchContents m c) main_arg0 (by simp)),
      (h c main_arg1).trans (ref_args (launchContents m c) main_arg1 (by simp)),
      (h c main_arg2).trans (ref_args (launchContents m c) main_arg2 (by simp)),
      (h c main_arg3).trans (ref_args (launchContents m c) main_arg3 (by simp)),
      (h c main_arg4).trans (ref_args (launchContents m c) main_arg4 (by simp)),
      (h c main_arg5).trans (ref_args (launchContents m c) main_arg5 (by simp))⟩) (run_all m ρ)

/-- The reference runs to the end, faults nowhere and leaves its arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c main_arg0).trans (ref_args (launchContents m c) main_arg0 (by simp)),
      (h c main_arg1).trans (ref_args (launchContents m c) main_arg1 (by simp)),
      (h c main_arg2).trans (ref_args (launchContents m c) main_arg2 (by simp)),
      (h c main_arg3).trans (ref_args (launchContents m c) main_arg3 (by simp)),
      (h c main_arg4).trans (ref_args (launchContents m c) main_arg4 (by simp)),
      (h c main_arg5).trans (ref_args (launchContents m c) main_arg5 (by simp))⟩) (run_all m ρ)

end Cert.ReferenceIdeal.Hand

end
-- ==== Proof.Finite.lean ====
/-
  The precondition bounds every entry of every float input in absolute value below +∞; read at the adjacency parameters
  it says every entry of P is a real number: an extended real whose absolute value is below +∞ is neither infinity.
-/
import proofs.«135578_g23476291240112_cont_8to1_1555_6_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Proof.Fin

open Idealize.ShloMosaic Cert.Pre_finite_inputs Cert.Pre_finite_inputs.Gen

/-- A shape of rank zero has one index. -/
instance : Subsingleton S_.Idx := ⟨fun a b => funext fun d => d.elim0⟩

/-- An extended real whose absolute value  max x (-x)  is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the second input is a real number. -/
theorem finite_arg1 (a0 : FVec Ideal S1024x128 .f32) (a1 : FVec Ideal S1024x1024 .f32) (a2 : FVec Ideal S128x128 .f32)
    (a3 : FVec Ideal S128 .f32) (a4 : FVec Ideal S128x64 .f32) (a5 : FVec Ideal S64 .f32)
    (h : Cert.Pre_finite_inputs.fn (F := Ideal) a0 a1 a2 a3 a4 a5 = fun _ => 1#1) (i : S1024x1024.Idx) : ∃ r : ℝ, a1 i = (r : EReal) := by
  have h0 := congrFun h ValueIdx.ix0
  dsimp only [Cert.Pre_finite_inputs.fn, Cert.Pre_finite_inputs.fn_part1] at h0
  have e1 := (IntOp.andi_eq_one.mp h0).1
  have e2 := (IntOp.andi_eq_one.mp e1).1
  have e3 := (IntOp.andi_eq_one.mp e2).1
  have e4 := (IntOp.andi_eq_one.mp e3).1
  have e5 := (IntOp.andi_eq_one.mp e4).2
  have e6 := Host.reduce_andi_all _ _ _ _ _ e5 i
  have htop : Ideal.ofBits .f32 0x7F800000#32 = (⊤ : EReal) := by simp [Ideal.ofBits, Ideal.ieee]
  have e7 : Ideal.cmp .olt (max (a1 i) (-(a1 i))) (Ideal.ofBits .f32 0x7F800000#32) = 1#1 := e6
  rw [htop] at e7
  apply real_of_abs_lt_top
  unfold Ideal.cmp at e7
  by_contra hn
  simp only [hn, decide_false, BitVec.ofBool_false] at e7
  exact absurd e7 (by decide)

end Cert.Proof.Fin

end
-- ==== Proof.lean ====
/-
  The certificate. Both programs compute two graph-convolution layers over the complete graph on 1024 nodes whose
  adjacency is A = σ(I + (P + Pᵀ)/2), normalised symmetrically by its degrees: out = Â (max(Â (x W₁) + b₁, 0) W₂) + b₂
  with Â i j = A i j · d_j^(-1/2) · d_i^(-1/2).

  The kernel builds A 128 rows at a grid point in a scratch matrix and, at the last point, forms Â from A's column and row
  sums and runs the four matrix products. The reference lists all 1024² entries of A as edges, gathers the weights,
  accumulates the degrees and the messages edge by edge. Over the extended reals the two agree index by index: the
  reference's edge list is every (row, column) pair in row-major order because every entry of A is nonzero (P is finite under
  the precondition); its sum over the edges into node c is a sum over all source nodes; A is symmetric, so the column sums it
  normalises by are the kernel's row sums; its degree^(-1/2) as a power is the kernel's reciprocal square root on a positive
  real; and sums and products may be reordered. The three frames: each program runs to the end, faults nowhere and leaves its
  arguments unchanged; the idealization rewrote nothing, so the preservation claim is trivial.
-/
import proofs.«135578_g23476291240112_cont_8to1_1555_6_alg».proof.Defs
import proofs.«135578_g23476291240112_cont_8to1_1555_6_alg».proof.Proof.Gen.Kernel
import proofs.«135578_g23476291240112_cont_8to1_1555_6_alg».proof.Proof.Gen.KernelIdeal
import proofs.«135578_g23476291240112_cont_8to1_1555_6_alg».proof.Proof.Gen.ReferenceIdeal
import proofs.«135578_g23476291240112_cont_8to1_1555_6_alg».proof.Proof.Gen.Pre_finite_inputs
import proofs.«135578_g23476291240112_cont_8to1_1555_6_alg».proof.Proof.KB.Body
import proofs.«135578_g23476291240112_cont_8to1_1555_6_alg».proof.Proof.KB.Launch
import proofs.«135578_g23476291240112_cont_8to1_1555_6_alg».proof.Proof.KI.Body
import proofs.«135578_g23476291240112_cont_8to1_1555_6_alg».proof.Proof.KI.Launch
import proofs.«135578_g23476291240112_cont_8to1_1555_6_alg».proof.Proof.KI.Value
import proofs.«135578_g23476291240112_cont_8to1_1555_6_alg».proof.Proof.Ref.Chain
import proofs.«135578_g23476291240112_cont_8to1_1555_6_alg».proof.Proof.Finite
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Hand.frame m ρ (fun c => Cert.Kernel.Hand.body_obligation m c)
/-- So does the idealized kernel. -/
theorem frame_ki : Cert.frame_KernelIdeal := fun m ρ _ => Cert.KernelIdeal.Hand.frame m ρ (fun c => Cert.KernelIdeal.Hand.body_obligation m c)
/-- And the reference: a straight line of host operations, none writing an argument. -/
theorem frame_ri : Cert.frame_ReferenceIdeal := fun m ρ _ => Cert.ReferenceIdeal.Hand.frame m ρ

/-- From memories agreeing on the arguments, with P finite, both programs end with the specification of the arguments in their
    result: the kernel's last grid point stores it, and the reference's edge-by-edge accumulation sums to it. -/
theorem algebraic : Cert.algebraic_KernelIdeal_ReferenceIdeal := by
  intro m ρ m' ρ' hpre hagree
  refine ⟨fun c => Cert.KernelIdeal.Hand.outVal m c, Cert.KernelIdeal.Hand.run_out m ρ (fun c => Cert.KernelIdeal.Hand.body_obligation m c), ?_⟩
  have hP : ∀ c : Dev Cert.ReferenceIdeal.nD, Cert.ReferenceIdeal.Hand.Finite (m' ((c.tc : Thread Cert.ReferenceIdeal.nD Cert.ReferenceIdeal.τ).loc Cert.ReferenceIdeal.main_arg1)) := by
    intro c
    rw [(hagree c).2.1]
    exact Cert.Proof.Fin.finite_arg1 _ _ _ _ _ _ (hpre c)
  refine (θ_run Cert.ReferenceIdeal.defs _ _).mono (fun r h c => ⟨(h c).1.trans ?_, (h c).2⟩) (Cert.ReferenceIdeal.Hand.run_value m' ρ' hP)
  rw [(hagree c).1, (hagree c).2.1, (hagree c).2.2.1, (hagree c).2.2.2.1, (hagree c).2.2.2.2.1, (hagree c).2.2.2.2.2]
  exact (Cert.KernelIdeal.HandValue.outVal_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
